-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![768, 512]⟩ ⟨2, ![768, 16384]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S768x512 : Shape := ⟨2, ![768, 512]⟩
abbrev S512 : Shape := ⟨1, ![512]⟩
abbrev S_ : Shape := ⟨0, ![]⟩

class Facts : Prop where
  bcast_S_S768x512 : S_.BroadcastsInDim S768x512 (![] : Fin 0 → Fin S768x512.rank)
  reducesTo_S768x512_S_d0_1 : S768x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S768x512 .f32) (main_arg1 : FVec F S512 .f32) (main_arg2 : FVec F S512 .f32) : IVec S_ 1 :=
  let main_v0 : FVec F S768x512 .f32 := Host.absf main_arg0
  let main_cst : FVec F S_ .f32 := constant S_ .f32 0x7F800000#32
  let main_v1 : FVec F S768x512 .f32 := broadcastInDim S768x512 ![] bcast_S_S768x512 main_cst
  let main_v2 : IVec S768x512 1 := cmpf .olt main_v0 main_v1
  let main_c : IVec S_ 1 := constantI S_ 1 1#1
  let main_v3 : IVec S_ 1 := (fun x v => Host.reduce IntOp.andi x v reducesTo_S768x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Pre_finite_inputs_ReferenceIdeal.lean ====
abbrev S768x16384 : Shape := ⟨2, ![768, 16384]⟩
abbrev S16384 : Shape := ⟨1, ![16384]⟩
abbrev S_ : Shape := ⟨0, ![]⟩

class Facts : Prop where
  bcast_S_S768x16384 : S_.BroadcastsInDim S768x16384 (![] : Fin 0 → Fin S768x16384.rank)
  reducesTo_S768x16384_S_d0_1 : S768x16384.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S768x16384 .f32) (main_arg1 : FVec F S16384 .f32) (main_arg2 : FVec F S16384 .f32) : IVec S_ 1 :=
  let main_v0 : FVec F S768x16384 .f32 := Host.absf main_arg0
  let main_cst : FVec F S_ .f32 := constant S_ .f32 0x7F800000#32
  let main_v1 : FVec F S768x16384 .f32 := broadcastInDim S768x16384 ![] bcast_S_S768x16384 main_cst
  let main_v2 : IVec S768x16384 1 := cmpf .olt main_v0 main_v1
  let main_c : IVec S_ 1 := constantI S_ 1 1#1
  let main_v3 : IVec S_ 1 := (fun x v => Host.reduce IntOp.andi x v reducesTo_S768x16384_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S768x512 : Shape := ⟨2, ![768, 512]⟩
abbrev S512 : Shape := ⟨1, ![512]⟩
abbrev S2x768 : Shape := ⟨2, ![2, 768]⟩
abbrev S32x2x768 : Shape := ⟨3, ![32, 2, 768]⟩
abbrev S3 : Shape := ⟨1, ![3]⟩
abbrev S32 : Shape := ⟨1, ![32]⟩
abbrev S1 : Shape := ⟨1, ![1]⟩
abbrev S_ : Shape := ⟨0, ![]⟩
abbrev S768 : Shape := ⟨1, ![768]⟩
abbrev S1x768 : Shape := ⟨2, ![1, 768]⟩
abbrev S1x1x768 : Shape := ⟨3, ![1, 1, 768]⟩
abbrev S1x2x768 : Shape := ⟨3, ![1, 2, 768]⟩
abbrev S1x512 : Shape := ⟨2, ![1, 512]⟩
abbrev S8x2x768 : Shape := ⟨3, ![8, 2, 768]⟩
abbrev S8x1x768 : Shape := ⟨3, ![8, 1, 768]⟩
abbrev S8x768 : Shape := ⟨2, ![8, 768]⟩
abbrev S768x1 : Shape := ⟨2, ![768, 1]⟩

abbrev nBuf : Space → Nat
  | .hbm => 4
  | .vmem => 6
  | .smem => 0
  | _ => 0

abbrev bufTy : (tb : Table) → Fin (tcTables nBuf tb) → BufTy
  | .hbm, ⟨0, _⟩ => ⟨S768x512, .f32⟩
  | .hbm, ⟨1, _⟩ => ⟨S512, .f32⟩
  | .hbm, ⟨2, _⟩ => ⟨S512, .f32⟩
  | .hbm, ⟨3, _⟩ => ⟨S768x512, .bf16⟩
  | .local _ .vmem, ⟨0, _⟩ => ⟨S768x512, .bf16⟩
  | .local _ .vmem, ⟨1, _⟩ => ⟨S768x512, .f32⟩
  | .local _ .vmem, ⟨2, _⟩ => ⟨S512, .f32⟩
  | .local _ .vmem, ⟨3, _⟩ => ⟨S512, .f32⟩
  | .local _ .vmem, ⟨4, _⟩ => ⟨S2x768, .bf16⟩
  | .local _ .vmem, ⟨5, _⟩ => ⟨S32x2x768, .bf16⟩
  | _, _ => ⟨S768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 : Nat :=
  let c0_i32_4 : BitVec 32 := 0#32
  let c0_i32_2 : BitVec 32 := 0#32
  let c1_i32_3 : BitVec 32 := 1#32
  let v10 : BitVec 32 := Scalar.muli c0_i32_2 c1_i32_3
  let v11 : BitVec 32 := Scalar.addi c0_i32_4 v10
  v11.toNat
def k0_dev2 : Nat :=
  let c0_i32_8 : BitVec 32 := 0#32
  let c1_i32_6 : BitVec 32 := 1#32
  let c1_i32_7 : BitVec 32 := 1#32
  let v12 : BitVec 32 := Scalar.muli c1_i32_6 c1_i32_7
  let v13 : BitVec 32 := Scalar.addi c0_i32_8 v12
  v13.toNat
def k0_dev3 : Nat :=
  let c0_i32_12 : BitVec 32 := 0#32
  let c2_i32_10 : BitVec 32 := 2#32
  let c1_i32_11 : BitVec 32 := 1#32
  let v14 : BitVec 32 := Scalar.muli c2_i32_10 c1_i32_11
  let v15 : BitVec 32 := Scalar.addi c0_i32_12 v14
  v15.toNat
def k0_dev4 : Nat :=
  let c0_i32_15 : BitVec 32 := 0#32
  let c3_i32 : BitVec 32 := 3#32
  let c1_i32_14 : BitVec 32 := 1#32
  let v16 : BitVec 32 := Scalar.muli c3_i32 c1_i32_14
  let v17 : BitVec 32 := Scalar.addi c0_i32_15 v16
  v17.toNat
def k0_dev5 : Nat :=
  let c0_i32_18 : BitVec 32 := 0#32
  let c4_i32 : BitVec 32 := 4#32
  let c1_i32_17 : BitVec 32 := 1#32
  let v18 : BitVec 32 := Scalar.muli c4_i32 c1_i32_17
  let v19 : BitVec 32 := Scalar.addi c0_i32_18 v18
  v19.toNat
def k0_dev6 : Nat :=
  let c0_i32_21 : BitVec 32 := 0#32
  let c5_i32 : BitVec 32 := 5#32
  let c1_i32_20 : BitVec 32 := 1#32
  let v20 : BitVec 32 := Scalar.muli c5_i32 c1_i32_20
  let v21 : BitVec 32 := Scalar.addi c0_i32_21 v20
  v21.toNat
def k0_dev7 : Nat :=
  let c0_i32_24 : BitVec 32 := 0#32
  let c6_i32 : BitVec 32 := 6#32
  let c1_i32_23 : BitVec 32 := 1#32
  let v22 : BitVec 32 := Scalar.muli c6_i32 c1_i32_23
  let v23 : BitVec 32 := Scalar.addi c0_i32_24 v22
  v23.toNat
def k0_dev8 : Nat :=
  let c0_i32_27 : BitVec 32 := 0#32
  let c7_i32 : BitVec 32 := 7#32
  let c1_i32_26 : BitVec 32 := 1#32
  let v24 : BitVec 32 := Scalar.muli c7_i32 c1_i32_26
  let v25 : BitVec 32 := Scalar.addi c0_i32_27 v24
  v25.toNat
def k0_dev9 : Nat :=
  let c0_i32_30 : BitVec 32 := 0#32
  let c8_i32 : BitVec 32 := 8#32
  let c1_i32_29 : BitVec 32 := 1#32
  let v26 : BitVec 32 := Scalar.muli c8_i32 c1_i32_29
  let v27 : BitVec 32 := Scalar.addi c0_i32_30 v26
  v27.toNat
def k0_dev10 : Nat :=
  let c0_i32_33 : BitVec 32 := 0#32
  let c9_i32 : BitVec 32 := 9#32
  let c1_i32_32 : BitVec 32 := 1#32
  let v28 : BitVec 32 := Scalar.muli c9_i32 c1_i32_32
  let v29 : BitVec 32 := Scalar.addi c0_i32_33 v28
  v29.toNat
def k0_dev11 : Nat :=
  let c0_i32_36 : BitVec 32 := 0#32
  let c10_i32 : BitVec 32 := 10#32
  let c1_i32_35 : BitVec 32 := 1#32
  let v30 : BitVec 32 := Scalar.muli c10_i32 c1_i32_35
  let v31 : BitVec 32 := Scalar.addi c0_i32_36 v30
  v31.toNat
def k0_dev12 : Nat :=
  let c0_i32_39 : BitVec 32 := 0#32
  let c11_i32 : BitVec 32 := 11#32
  let c1_i32_38 : BitVec 32 := 1#32
  let v32 : BitVec 32 := Scalar.muli c11_i32 c1_i32_38
  let v33 : BitVec 32 := Scalar.addi c0_i32_39 v32
  v33.toNat
def k0_dev13 : Nat :=
  let c0_i32_42 : BitVec 32 := 0#32
  let c12_i32 : BitVec 32 := 12#32
  let c1_i32_41 : BitVec 32 := 1#32
  let v34 : BitVec 32 := Scalar.muli c12_i32 c1_i32_41
  let v35 : BitVec 32 := Scalar.addi c0_i32_42 v34
  v35.toNat
def k0_dev14 : Nat :=
  let c0_i32_45 : BitVec 32 := 0#32
  let c13_i32 : BitVec 32 := 13#32
  let c1_i32_44 : BitVec 32 := 1#32
  let v36 : BitVec 32 := Scalar.muli c13_i32 c1_i32_44
  let v37 : BitVec 32 := Scalar.addi c0_i32_45 v36
  v37.toNat
def k0_dev15 : Nat :=
  let c0_i32_48 : BitVec 32 := 0#32
  let c14_i32 : BitVec 32 := 14#32
  let c1_i32_47 : BitVec 32 := 1#32
  let v38 : BitVec 32 := Scalar.muli c14_i32 c1_i32_47
  let v39 : BitVec 32 := Scalar.addi c0_i32_48 v38
  v39.toNat
def k0_dev16 : Nat :=
  let c0_i32_51 : BitVec 32 := 0#32
  let c15_i32 : BitVec 32 := 15#32
  let c1_i32_50 : BitVec 32 := 1#32
  let v40 : BitVec 32 := Scalar.muli c15_i32 c1_i32_50
  let v41 : BitVec 32 := Scalar.addi c0_i32_51 v40
  v41.toNat
def k0_dev17 : Nat :=
  let c0_i32_54 : BitVec 32 := 0#32
  let c16_i32 : BitVec 32 := 16#32
  let c1_i32_53 : BitVec 32 := 1#32
  let v42 : BitVec 32 := Scalar.muli c16_i32 c1_i32_53
  let v43 : BitVec 32 := Scalar.addi c0_i32_54 v42
  v43.toNat
def k0_dev18 : Nat :=
  let c0_i32_57 : BitVec 32 := 0#32
  let c17_i32 : BitVec 32 := 17#32
  let c1_i32_56 : BitVec 32 := 1#32
  let v44 : BitVec 32 := Scalar.muli c17_i32 c1_i32_56
  let v45 : BitVec 32 := Scalar.addi c0_i32_57 v44
  v45.toNat
def k0_dev19 : Nat :=
  let c0_i32_60 : BitVec 32 := 0#32
  let c18_i32 : BitVec 32 := 18#32
  let c1_i32_59 : BitVec 32 := 1#32
  let v46 : BitVec 32 := Scalar.muli c18_i32 c1_i32_59
  let v47 : BitVec 32 := Scalar.addi c0_i32_60 v46
  v47.toNat
def k0_dev20 : Nat :=
  let c0_i32_63 : BitVec 32 := 0#32
  let c19_i32 : BitVec 32 := 19#32
  let c1_i32_62 : BitVec 32 := 1#32
  let v48 : BitVec 32 := Scalar.muli c19_i32 c1_i32_62
  let v49 : BitVec 32 := Scalar.addi c0_i32_63 v48
  v49.toNat
def k0_dev21 : Nat :=
  let c0_i32_66 : BitVec 32 := 0#32
  let c20_i32 : BitVec 32 := 20#32
  let c1_i32_65 : BitVec 32 := 1#32
  let v50 : BitVec 32 := Scalar.muli c20_i32 c1_i32_65
  let v51 : BitVec 32 := Scalar.addi c0_i32_66 v50
  v51.toNat
def k0_dev22 : Nat :=
  let c0_i32_69 : BitVec 32 := 0#32
  let c21_i32 : BitVec 32 := 21#32
  let c1_i32_68 : BitVec 32 := 1#32
  let v52 : BitVec 32 := Scalar.muli c21_i32 c1_i32_68
  let v53 : BitVec 32 := Scalar.addi c0_i32_69 v52
  v53.toNat
def k0_dev23 : Nat :=
  let c0_i32_72 : BitVec 32 := 0#32
  let c22_i32 : BitVec 32 := 22#32
  let c1_i32_71 : BitVec 32 := 1#32
  let v54 : BitVec 32 := Scalar.muli c22_i32 c1_i32_71
  let v55 : BitVec 32 := Scalar.addi c0_i32_72 v54
  v55.toNat
def k0_dev24 : Nat :=
  let c0_i32_75 : BitVec 32 := 0#32
  let c23_i32 : BitVec 32 := 23#32
  let c1_i32_74 : BitVec 32 := 1#32
  let v56 : BitVec 32 := Scalar.muli c23_i32 c1_i32_74
  let v57 : BitVec 32 := Scalar.addi c0_i32_75 v56
  v57.toNat
def k0_dev25 : Nat :=
  let c0_i32_78 : BitVec 32 := 0#32
  let c24_i32 : BitVec 32 := 24#32
  let c1_i32_77 : BitVec 32 := 1#32
  let v58 : BitVec 32 := Scalar.muli c24_i32 c1_i32_77
  let v59 : BitVec 32 := Scalar.addi c0_i32_78 v58
  v59.toNat
def k0_dev26 : Nat :=
  let c0_i32_81 : BitVec 32 := 0#32
  let c25_i32 : BitVec 32 := 25#32
  let c1_i32_80 : BitVec 32 := 1#32
  let v60 : BitVec 32 := Scalar.muli c25_i32 c1_i32_80
  let v61 : BitVec 32 := Scalar.addi c0_i32_81 v60
  v61.toNat
def k0_dev27 : Nat :=
  let c0_i32_84 : BitVec 32 := 0#32
  let c26_i32 : BitVec 32 := 26#32
  let c1_i32_83 : BitVec 32 := 1#32
  let v62 : BitVec 32 := Scalar.muli c26_i32 c1_i32_83
  let v63 : BitVec 32 := Scalar.addi c0_i32_84 v62
  v63.toNat
def k0_dev28 : Nat :=
  let c0_i32_87 : BitVec 32 := 0#32
  let c27_i32 : BitVec 32 := 27#32
  let c1_i32_86 : BitVec 32 := 1#32
  let v64 : BitVec 32 := Scalar.muli c27_i32 c1_i32_86
  let v65 : BitVec 32 := Scalar.addi c0_i32_87 v64
  v65.toNat
def k0_dev29 : Nat :=
  let c0_i32_90 : BitVec 32 := 0#32
  let c28_i32 : BitVec 32 := 28#32
  let c1_i32_89 : BitVec 32 := 1#32
  let v66 : BitVec 32 := Scalar.muli c28_i32 c1_i32_89
  let v67 : BitVec 32 := Scalar.addi c0_i32_90 v66
  v67.toNat
def k0_dev30 : Nat :=
  let c0_i32_93 : BitVec 32 := 0#32
  let c29_i32 : BitVec 32 := 29#32
  let c1_i32_92 : BitVec 32 := 1#32
  let v68 : BitVec 32 := Scalar.muli c29_i32 c1_i32_92
  let v69 : BitVec 32 := Scalar.addi c0_i32_93 v68
  v69.toNat
def k0_dev31 : Nat :=
  let c0_i32_96 : BitVec 32 := 0#32
  let c30_i32 : BitVec 32 := 30#32
  let c1_i32_95 : BitVec 32 := 1#32
  let v70 : BitVec 32 := Scalar.muli c30_i32 c1_i32_95
  let v71 : BitVec 32 := Scalar.addi c0_i32_96 v70
  v71.toNat
def k0_dev32 : Nat :=
  let c0_i32_99 : BitVec 32 := 0#32
  let c31_i32 : BitVec 32 := 31#32
  let c1_i32_98 : BitVec 32 := 1#32
  let v72 : BitVec 32 := Scalar.muli c31_i32 c1_i32_98
  let v73 : BitVec 32 := Scalar.addi c0_i32_99 v72
  v73.toNat
def k0_dev33 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_115 : BitVec 32 := 1#32
  let v98 : BitVec 32 := Scalar.addi v2 c1_i32_115
  let c32_i32_116 : BitVec 32 := 32#32
  let v99 : BitVec 32 := Scalar.remsi v98 c32_i32_116
  let c1_i32_120 : BitVec 32 := 1#32
  let v100 : BitVec 32 := Scalar.muli v99 c1_i32_120
  let v101 : BitVec 32 := Scalar.addi c0_i32_121 v100
  v101.toNat
def k0_dev34 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_124 : BitVec 32 := 2#32
  let v108 : BitVec 32 := Scalar.addi v2 c2_i32_124
  let c32_i32_125 : BitVec 32 := 32#32
  let v109 : BitVec 32 := Scalar.remsi v108 c32_i32_125
  let c1_i32_129 : BitVec 32 := 1#32
  let v110 : BitVec 32 := Scalar.muli v109 c1_i32_129
  let v111 : BitVec 32 := Scalar.addi c0_i32_130 v110
  v111.toNat
def k0_dev35 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_133 : BitVec 32 := 3#32
  let v118 : BitVec 32 := Scalar.addi v2 c3_i32_133
  let c32_i32_134 : BitVec 32 := 32#32
  let v119 : BitVec 32 := Scalar.remsi v118 c32_i32_134
  let c1_i32_138 : BitVec 32 := 1#32
  let v120 : BitVec 32 := Scalar.muli v119 c1_i32_138
  let v121 : BitVec 32 := Scalar.addi c0_i32_139 v120
  v121.toNat
def k0_dev36 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_142 : BitVec 32 := 4#32
  let v128 : BitVec 32 := Scalar.addi v2 c4_i32_142
  let c32_i32_143 : BitVec 32 := 32#32
  let v129 : BitVec 32 := Scalar.remsi v128 c32_i32_143
  let c1_i32_147 : BitVec 32 := 1#32
  let v130 : BitVec 32 := Scalar.muli v129 c1_i32_147
  let v131 : BitVec 32 := Scalar.addi c0_i32_148 v130
  v131.toNat
def k0_dev37 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_151 : BitVec 32 := 5#32
  let v138 : BitVec 32 := Scalar.addi v2 c5_i32_151
  let c32_i32_152 : BitVec 32 := 32#32
  let v139 : BitVec 32 := Scalar.remsi v138 c32_i32_152
  let c1_i32_156 : BitVec 32 := 1#32
  let v140 : BitVec 32 := Scalar.muli v139 c1_i32_156
  let v141 : BitVec 32 := Scalar.addi c0_i32_157 v140
  v141.toNat
def k0_dev38 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_160 : BitVec 32 := 6#32
  let v148 : BitVec 32 := Scalar.addi v2 c6_i32_160
  let c32_i32_161 : BitVec 32 := 32#32
  let v149 : BitVec 32 := Scalar.remsi v148 c32_i32_161
  let c1_i32_165 : BitVec 32 := 1#32
  let v150 : BitVec 32 := Scalar.muli v149 c1_i32_165
  let v151 : BitVec 32 := Scalar.addi c0_i32_166 v150
  v151.toNat
def k0_dev39 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_169 : BitVec 32 := 7#32
  let v158 : BitVec 32 := Scalar.addi v2 c7_i32_169
  let c32_i32_170 : BitVec 32 := 32#32
  let v159 : BitVec 32 := Scalar.remsi v158 c32_i32_170
  let c1_i32_174 : BitVec 32 := 1#32
  let v160 : BitVec 32 := Scalar.muli v159 c1_i32_174
  let v161 : BitVec 32 := Scalar.addi c0_i32_175 v160
  v161.toNat
def k0_dev40 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_178 : BitVec 32 := 8#32
  let v168 : BitVec 32 := Scalar.addi v2 c8_i32_178
  let c32_i32_179 : BitVec 32 := 32#32
  let v169 : BitVec 32 := Scalar.remsi v168 c32_i32_179
  let c1_i32_183 : BitVec 32 := 1#32
  let v170 : BitVec 32 := Scalar.muli v169 c1_i32_183
  let v171 : BitVec 32 := Scalar.addi c0_i32_184 v170
  v171.toNat
def k0_dev41 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_187 : BitVec 32 := 9#32
  let v178 : BitVec 32 := Scalar.addi v2 c9_i32_187
  let c32_i32_188 : BitVec 32 := 32#32
  let v179 : BitVec 32 := Scalar.remsi v178 c32_i32_188
  let c1_i32_192 : BitVec 32 := 1#32
  let v180 : BitVec 32 := Scalar.muli v179 c1_i32_192
  let v181 : BitVec 32 := Scalar.addi c0_i32_193 v180
  v181.toNat
def k0_dev42 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_196 : BitVec 32 := 10#32
  let v188 : BitVec 32 := Scalar.addi v2 c10_i32_196
  let c32_i32_197 : BitVec 32 := 32#32
  let v189 : BitVec 32 := Scalar.remsi v188 c32_i32_197
  let c1_i32_201 : BitVec 32 := 1#32
  let v190 : BitVec 32 := Scalar.muli v189 c1_i32_201
  let v191 : BitVec 32 := Scalar.addi c0_i32_202 v190
  v191.toNat
def k0_dev43 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_205 : BitVec 32 := 11#32
  let v198 : BitVec 32 := Scalar.addi v2 c11_i32_205
  let c32_i32_206 : BitVec 32 := 32#32
  let v199 : BitVec 32 := Scalar.remsi v198 c32_i32_206
  let c1_i32_210 : BitVec 32 := 1#32
  let v200 : BitVec 32 := Scalar.muli v199 c1_i32_210
  let v201 : BitVec 32 := Scalar.addi c0_i32_211 v200
  v201.toNat
def k0_dev44 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_214 : BitVec 32 := 12#32
  let v208 : BitVec 32 := Scalar.addi v2 c12_i32_214
  let c32_i32_215 : BitVec 32 := 32#32
  let v209 : BitVec 32 := Scalar.remsi v208 c32_i32_215
  let c1_i32_219 : BitVec 32 := 1#32
  let v210 : BitVec 32 := Scalar.muli v209 c1_i32_219
  let v211 : BitVec 32 := Scalar.addi c0_i32_220 v210
  v211.toNat
def k0_dev45 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_223 : BitVec 32 := 13#32
  let v218 : BitVec 32 := Scalar.addi v2 c13_i32_223
  let c32_i32_224 : BitVec 32 := 32#32
  let v219 : BitVec 32 := Scalar.remsi v218 c32_i32_224
  let c1_i32_228 : BitVec 32 := 1#32
  let v220 : BitVec 32 := Scalar.muli v219 c1_i32_228
  let v221 : BitVec 32 := Scalar.addi c0_i32_229 v220
  v221.toNat
def k0_dev46 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_232 : BitVec 32 := 14#32
  let v228 : BitVec 32 := Scalar.addi v2 c14_i32_232
  let c32_i32_233 : BitVec 32 := 32#32
  let v229 : BitVec 32 := Scalar.remsi v228 c32_i32_233
  let c1_i32_237 : BitVec 32 := 1#32
  let v230 : BitVec 32 := Scalar.muli v229 c1_i32_237
  let v231 : BitVec 32 := Scalar.addi c0_i32_238 v230
  v231.toNat
def k0_dev47 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_241 : BitVec 32 := 15#32
  let v238 : BitVec 32 := Scalar.addi v2 c15_i32_241
  let c32_i32_242 : BitVec 32 := 32#32
  let v239 : BitVec 32 := Scalar.remsi v238 c32_i32_242
  let c1_i32_246 : BitVec 32 := 1#32
  let v240 : BitVec 32 := Scalar.muli v239 c1_i32_246
  let v241 : BitVec 32 := Scalar.addi c0_i32_247 v240
  v241.toNat
def k0_dev48 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_250 : BitVec 32 := 16#32
  let v248 : BitVec 32 := Scalar.addi v2 c16_i32_250
  let c32_i32_251 : BitVec 32 := 32#32
  let v249 : BitVec 32 := Scalar.remsi v248 c32_i32_251
  let c1_i32_255 : BitVec 32 := 1#32
  let v250 : BitVec 32 := Scalar.muli v249 c1_i32_255
  let v251 : BitVec 32 := Scalar.addi c0_i32_256 v250
  v251.toNat
def k0_dev49 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_259 : BitVec 32 := 17#32
  let v258 : BitVec 32 := Scalar.addi v2 c17_i32_259
  let c32_i32_260 : BitVec 32 := 32#32
  let v259 : BitVec 32 := Scalar.remsi v258 c32_i32_260
  let c1_i32_264 : BitVec 32 := 1#32
  let v260 : BitVec 32 := Scalar.muli v259 c1_i32_264
  let v261 : BitVec 32 := Scalar.addi c0_i32_265 v260
  v261.toNat
def k0_dev50 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_268 : BitVec 32 := 18#32
  let v268 : BitVec 32 := Scalar.addi v2 c18_i32_268
  let c32_i32_269 : BitVec 32 := 32#32
  let v269 : BitVec 32 := Scalar.remsi v268 c32_i32_269
  let c1_i32_273 : BitVec 32 := 1#32
  let v270 : BitVec 32 := Scalar.muli v269 c1_i32_273
  let v271 : BitVec 32 := Scalar.addi c0_i32_274 v270
  v271.toNat
def k0_dev51 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_277 : BitVec 32 := 19#32
  let v278 : BitVec 32 := Scalar.addi v2 c19_i32_277
  let c32_i32_278 : BitVec 32 := 32#32
  let v279 : BitVec 32 := Scalar.remsi v278 c32_i32_278
  let c1_i32_282 : BitVec 32 := 1#32
  let v280 : BitVec 32 := Scalar.muli v279 c1_i32_282
  let v281 : BitVec 32 := Scalar.addi c0_i32_283 v280
  v281.toNat
def k0_dev52 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_286 : BitVec 32 := 20#32
  let v288 : BitVec 32 := Scalar.addi v2 c20_i32_286
  let c32_i32_287 : BitVec 32 := 32#32
  let v289 : BitVec 32 := Scalar.remsi v288 c32_i32_287
  let c1_i32_291 : BitVec 32 := 1#32
  let v290 : BitVec 32 := Scalar.muli v289 c1_i32_291
  let v291 : BitVec 32 := Scalar.addi c0_i32_292 v290
  v291.toNat
def k0_dev53 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_295 : BitVec 32 := 21#32
  let v298 : BitVec 32 := Scalar.addi v2 c21_i32_295
  let c32_i32_296 : BitVec 32 := 32#32
  let v299 : BitVec 32 := Scalar.remsi v298 c32_i32_296
  let c1_i32_300 : BitVec 32 := 1#32
  let v300 : BitVec 32 := Scalar.muli v299 c1_i32_300
  let v301 : BitVec 32 := Scalar.addi c0_i32_301 v300
  v301.toNat
def k0_dev54 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_304 : BitVec 32 := 22#32
  let v308 : BitVec 32 := Scalar.addi v2 c22_i32_304
  let c32_i32_305 : BitVec 32 := 32#32
  let v309 : BitVec 32 := Scalar.remsi v308 c32_i32_305
  let c1_i32_309 : BitVec 32 := 1#32
  let v310 : BitVec 32 := Scalar.muli v309 c1_i32_309
  let v311 : BitVec 32 := Scalar.addi c0_i32_310 v310
  v311.toNat
def k0_dev55 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_313 : BitVec 32 := 23#32
  let v318 : BitVec 32 := Scalar.addi v2 c23_i32_313
  let c32_i32_314 : BitVec 32 := 32#32
  let v319 : BitVec 32 := Scalar.remsi v318 c32_i32_314
  let c1_i32_318 : BitVec 32 := 1#32
  let v320 : BitVec 32 := Scalar.muli v319 c1_i32_318
  let v321 : BitVec 32 := Scalar.addi c0_i32_319 v320
  v321.toNat
def k0_dev56 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_322 : BitVec 32 := 24#32
  let v328 : BitVec 32 := Scalar.addi v2 c24_i32_322
  let c32_i32_323 : BitVec 32 := 32#32
  let v329 : BitVec 32 := Scalar.remsi v328 c32_i32_323
  let c1_i32_327 : BitVec 32 := 1#32
  let v330 : BitVec 32 := Scalar.muli v329 c1_i32_327
  let v331 : BitVec 32 := Scalar.addi c0_i32_328 v330
  v331.toNat
def k0_dev57 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_331 : BitVec 32 := 25#32
  let v338 : BitVec 32 := Scalar.addi v2 c25_i32_331
  let c32_i32_332 : BitVec 32 := 32#32
  let v339 : BitVec 32 := Scalar.remsi v338 c32_i32_332
  let c1_i32_336 : BitVec 32 := 1#32
  let v340 : BitVec 32 := Scalar.muli v339 c1_i32_336
  let v341 : BitVec 32 := Scalar.addi c0_i32_337 v340
  v341.toNat
def k0_dev58 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_340 : BitVec 32 := 26#32
  let v348 : BitVec 32 := Scalar.addi v2 c26_i32_340
  let c32_i32_341 : BitVec 32 := 32#32
  let v349 : BitVec 32 := Scalar.remsi v348 c32_i32_341
  let c1_i32_345 : BitVec 32 := 1#32
  let v350 : BitVec 32 := Scalar.muli v349 c1_i32_345
  let v351 : BitVec 32 := Scalar.addi c0_i32_346 v350
  v351.toNat
def k0_dev59 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_349 : BitVec 32 := 27#32
  let v358 : BitVec 32 := Scalar.addi v2 c27_i32_349
  let c32_i32_350 : BitVec 32 := 32#32
  let v359 : BitVec 32 := Scalar.remsi v358 c32_i32_350
  let c1_i32_354 : BitVec 32 := 1#32
  let v360 : BitVec 32 := Scalar.muli v359 c1_i32_354
  let v361 : BitVec 32 := Scalar.addi c0_i32_355 v360
  v361.toNat
def k0_dev60 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_358 : BitVec 32 := 28#32
  let v368 : BitVec 32 := Scalar.addi v2 c28_i32_358
  let c32_i32_359 : BitVec 32 := 32#32
  let v369 : BitVec 32 := Scalar.remsi v368 c32_i32_359
  let c1_i32_363 : BitVec 32 := 1#32
  let v370 : BitVec 32 := Scalar.muli v369 c1_i32_363
  let v371 : BitVec 32 := Scalar.addi c0_i32_364 v370
  v371.toNat
def k0_dev61 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_367 : BitVec 32 := 29#32
  let v378 : BitVec 32 := Scalar.addi v2 c29_i32_367
  let c32_i32_368 : BitVec 32 := 32#32
  let v379 : BitVec 32 := Scalar.remsi v378 c32_i32_368
  let c1_i32_372 : BitVec 32 := 1#32
  let v380 : BitVec 32 := Scalar.muli v379 c1_i32_372
  let v381 : BitVec 32 := Scalar.addi c0_i32_373 v380
  v381.toNat
def k0_dev62 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_376 : BitVec 32 := 30#32
  let v388 : BitVec 32 := Scalar.addi v2 c30_i32_376
  let c32_i32_377 : BitVec 32 := 32#32
  let v389 : BitVec 32 := Scalar.remsi v388 c32_i32_377
  let c1_i32_381 : BitVec 32 := 1#32
  let v390 : BitVec 32 := Scalar.muli v389 c1_i32_381
  let v391 : BitVec 32 := Scalar.addi c0_i32_382 v390
  v391.toNat
def k0_dev63 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_385 : BitVec 32 := 31#32
  let v398 : BitVec 32 := Scalar.addi v2 c31_i32_385
  let c32_i32_386 : BitVec 32 := 32#32
  let v399 : BitVec 32 := Scalar.remsi v398 c32_i32_386
  let c1_i32_390 : BitVec 32 := 1#32
  let v400 : BitVec 32 := Scalar.muli v399 c1_i32_390
  let v401 : BitVec 32 := Scalar.addi c0_i32_391 v400
  v401.toNat
abbrev stage0_0 : Fin 1 → Memref sig .tc .vmem S768x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  hamt_1 : (1#32 : BitVec 32).msb = false
  inb_S768x512_S768x512_0_0 : ∀ a, (![0, 0] : Fin 2 → Nat) a + S768x512.size a ≤ S768x512.size a
  h_S768x512 : 0 < S768x512.numel
  reduces_S768x512_S768 : S768x512.Reduces [1] S768
  bitsLt_bf16_f32 : FTy.bits .bf16 < FTy.bits .f32
  inb_S2x768_S1x768_0_0 : ∀ a, (![0, 0] : Fin 2 → Nat) a + S1x768.size a ≤ S2x768.size a
  h_S1x768 : 0 < S1x768.numel
  shapeCasts_S1x768_S768 : S1x768.ShapeCasts S768
  shapeCasts_S768_S1x768 : S768.ShapeCasts S1x768
  inb_S2x768_S2x768_0_0 : ∀ a, (![0, 0] : Fin 2 → Nat) a + S2x768.size a ≤ S2x768.size a
  h_S2x768 : 0 < S2x768.numel
  slices_S2x768_S1x768_0_0 : S2x768.Slices ![0, 0] S1x768
  packedbf16_S2x768_S2x768_0_0 : (Rect.unit (s := S2x768) ![0, 0] S2x768.size inb_S2x768_S2x768_0_0).PackedRows (EltTy.packing .bf16)
  inb_S2x768_S1x768_1_0 : ∀ a, (![1, 0] : Fin 2 → Nat) a + S1x768.size a ≤ S2x768.size a
  slices_S2x768_S1x768_1_0 : S2x768.Slices ![1, 0] S1x768
  inb_S32x2x768_S1x1x768_0_0_0 : ∀ a, (![0, 0, 0] : Fin 3 → Nat) a + S1x1x768.size a ≤ S32x2x768.size a
  h_S1x1x768 : 0 < S1x1x768.numel
  shapeCasts_S1x1x768_S768 : S1x1x768.ShapeCasts S768
  shapeCasts_S768_S1x1x768 : S768.ShapeCasts S1x1x768
  inb_S32x2x768_S1x2x768_0_0_0 : ∀ a, (![0, 0, 0] : Fin 3 → Nat) a + S1x2x768.size a ≤ S32x2x768.size a
  h_S1x2x768 : 0 < S1x2x768.numel
  slices_S1x2x768_S1x1x768_0_0_0 : S1x2x768.Slices ![0, 0, 0] S1x1x768
  packedbf16_S32x2x768_S1x2x768_0_0_0 : (Rect.unit (s := S32x2x768) ![0, 0, 0] S1x2x768.size inb_S32x2x768_S1x2x768_0_0_0).PackedRows (EltTy.packing .bf16)
  inb_S32x2x768_S1x1x768_0_1_0 : ∀ a, (![0, 1, 0] : Fin 3 → Nat) a + S1x1x768.size a ≤ S32x2x768.size a
  slices_S1x2x768_S1x1x768_0_1_0 : S1x2x768.Slices ![0, 1, 0] S1x1x768
  hamt_32 : (32#32 : BitVec 32).msb = false
  inb_S32_S1_1 : ∀ a, (![1] : Fin 1 → Nat) a + S1.size a ≤ S32.size a
  inb_S32_S1_31 : ∀ a, (![31] : Fin 1 → Nat) a + S1.size a ≤ S32.size a
  inb_S32x2x768_S1x2x768_31_0_0 : ∀ a, (![31, 0, 0] : Fin 3 → Nat) a + S1x2x768.size a ≤ S32x2x768.size a
  squeezes_S1x2x768_S2x768 : S1x2x768.Squeezes S2x768
  wordsbf16_S32x2x768_S1x2x768_31_0_0 : (Rect.unit (s := S32x2x768) ![31, 0, 0] S1x2x768.size inb_S32x2x768_S1x2x768_31_0_0).WholeWords (EltTy.packing .bf16)
  inb_S32_S1_2 : ∀ a, (![2] : Fin 1 → Nat) a + S1.size a ≤ S32.size a
  inb_S32_S1_30 : ∀ a, (![30] : Fin 1 → Nat) a + S1.size a ≤ S32.size a
  inb_S32x2x768_S1x2x768_30_0_0 : ∀ a, (![30, 0, 0] : Fin 3 → Nat) a + S1x2x768.size a ≤ S32x2x768.size a
  wordsbf16_S32x2x768_S1x2x768_30_0_0 : (Rect.unit (s := S32x2x768) ![30, 0, 0] S1x2x768.size inb_S32x2x768_S1x2x768_30_0_0).WholeWords (EltTy.packing .bf16)
  inb_S32_S1_3 : ∀ a, (![3] : Fin 1 → Nat) a + S1.size a ≤ S32.size a
  inb_S32_S1_29 : ∀ a, (![29] : Fin 1 → Nat) a + S1.size a ≤ S32.size a
  inb_S32x2x768_S1x2x768_29_0_0 : ∀ a, (![29, 0, 0] : Fin 3 → Nat) a + S1x2x768.size a ≤ S32x2x768.size a
  wordsbf16_S32x2x768_S1x2x768_29_0_0 : (Rect.unit (s := S32x2x768) ![29, 0, 0] S1x2x768.size inb_S32x2x768_S1x2x768_29_0_0).WholeWords (EltTy.packing .bf16)
  inb_S32_S1_4 : ∀ a, (![4] : Fin 1 → Nat) a + S1.size a ≤ S32.size a
  inb_S32_S1_28 : ∀ a, (![28] : Fin 1 → Nat) a + S1.size a ≤ S32.size a
  inb_S32x2x768_S1x2x768_28_0_0 : ∀ a, (![28, 0, 0] : Fin 3 → Nat) a + S1x2x768.size a ≤ S32x2x768.size a
  wordsbf16_S32x2x768_S1x2x768_28_0_0 : (Rect.unit (s := S32x2x768) ![28, 0, 0] S1x2x768.size inb_S32x2x768_S1x2x768_28_0_0).WholeWords (EltTy.packing .bf16)
  inb_S32_S1_5 : ∀ a, (![5] : Fin 1 → Nat) a + S1.size a ≤ S32.size a
  inb_S32_S1_27 : ∀ a, (![27] : Fin 1 → Nat) a + S1.size a ≤ S32.size a
  inb_S32x2x768_S1x2x768_27_0_0 : ∀ a, (![27, 0, 0] : Fin 3 → Nat) a + S1x2x768.size a ≤ S32x2x768.size a
  wordsbf16_S32x2x768_S1x2x768_27_0_0 : (Rect.unit (s := S32x2x768) ![27, 0, 0] S1x2x768.size inb_S32x2x768_S1x2x768_27_0_0).WholeWords (EltTy.packing .bf16)
  inb_S32_S1_6 : ∀ a, (![6] : Fin 1 → Nat) a + S1.size a ≤ S32.size a
  inb_S32_S1_26 : ∀ a, (![26] : Fin 1 → Nat) a + S1.size a ≤ S32.size a
  inb_S32x2x768_S1x2x768_26_0_0 : ∀ a, (![26, 0, 0] : Fin 3 → Nat) a + S1x2x768.size a ≤ S32x2x768.size a
  wordsbf16_S32x2x768_S1x2x768_26_0_0 : (Rect.unit (s := S32x2x768) ![26, 0, 0] S1x2x768.size inb_S32x2x768_S1x2x768_26_0_0).WholeWords (EltTy.packing .bf16)
  inb_S32_S1_7 : ∀ a, (![7] : Fin 1 → Nat) a + S1.size a ≤ S32.size a
  inb_S32_S1_25 : ∀ a, (![25] : Fin 1 → Nat) a + S1.size a ≤ S32.size a
  inb_S32x2x768_S1x2x768_25_0_0 : ∀ a, (![25, 0, 0] : Fin 3 → Nat) a + S1x2x768.size a ≤ S32x2x768.size a
  wordsbf16_S32x2x768_S1x2x768_25_0_0 : (Rect.unit (s := S32x2x768) ![25, 0, 0] S1x2x768.size inb_S32x2x768_S1x2x768_25_0_0).WholeWords (EltTy.packing .bf16)
  inb_S32_S1_8 : ∀ a, (![8] : Fin 1 → Nat) a + S1.size a ≤ S32.size a
  inb_S32_S1_24 : ∀ a, (![24] : Fin 1 → Nat) a + S1.size a ≤ S32.size a
  inb_S32x2x768_S1x2x768_24_0_0 : ∀ a, (![24, 0, 0] : Fin 3 → Nat) a + S1x2x768.size a ≤ S32x2x768.size a
  wordsbf16_S32x2x768_S1x2x768_24_0_0 : (Rect.unit (s := S32x2x768) ![24, 0, 0] S1x2x768.size inb_S32x2x768_S1x2x768_24_0_0).WholeWords (EltTy.packing .bf16)
  inb_S32_S1_9 : ∀ a, (![9] : Fin 1 → Nat) a + S1.size a ≤ S32.size a
  inb_S32_S1_23 : ∀ a, (![23] : Fin 1 → Nat) a + S1.size a ≤ S32.size a
  inb_S32x2x768_S1x2x768_23_0_0 : ∀ a, (![23, 0, 0] : Fin 3 → Nat) a + S1x2x768.size a ≤ S32x2x768.size a
  wordsbf16_S32x2x768_S1x2x768_23_0_0 : (Rect.unit (s := S32x2x768) ![23, 0, 0] S1x2x768.size inb_S32x2x768_S1x2x768_23_0_0).WholeWords (EltTy.packing .bf16)
  inb_S32_S1_10 : ∀ a, (![10] : Fin 1 → Nat) a + S1.size a ≤ S32.size a
  inb_S32_S1_22 : ∀ a, (![22] : Fin 1 → Nat) a + S1.size a ≤ S32.size a
  inb_S32x2x768_S1x2x768_22_0_0 : ∀ a, (![22, 0, 0] : Fin 3 → Nat) a + S1x2x768.size a ≤ S32x2x768.size a
  wordsbf16_S32x2x768_S1x2x768_22_0_0 : (Rect.unit (s := S32x2x768) ![22, 0, 0] S1x2x768.size inb_S32x2x768_S1x2x768_22_0_0).WholeWords (EltTy.packing .bf16)
  inb_S32_S1_11 : ∀ a, (![11] : Fin 1 → Nat) a + S1.size a ≤ S32.size a
  inb_S32_S1_21 : ∀ a, (![21] : Fin 1 → Nat) a + S1.size a ≤ S32.size a
  inb_S32x2x768_S1x2x768_21_0_0 : ∀ a, (![21, 0, 0] : Fin 3 → Nat) a + S1x2x768.size a ≤ S32x2x768.size a
  wordsbf16_S32x2x768_S1x2x768_21_0_0 : (Rect.unit (s := S32x2x768) ![21, 0, 0] S1x2x768.size inb_S32x2x768_S1x2x768_21_0_0).WholeWords (EltTy.packing .bf16)
  inb_S32_S1_12 : ∀ a, (![12] : Fin 1 → Nat) a + S1.size a ≤ S32.size a
  inb_S32_S1_20 : ∀ a, (![20] : Fin 1 → Nat) a + S1.size a ≤ S32.size a
  inb_S32x2x768_S1x2x768_20_0_0 : ∀ a, (![20, 0, 0] : Fin 3 → Nat) a + S1x2x768.size a ≤ S32x2x768.size a
  wordsbf16_S32x2x768_S1x2x768_20_0_0 : (Rect.unit (s := S32x2x768) ![20, 0, 0] S1x2x768.size inb_S32x2x768_S1x2x768_20_0_0).WholeWords (EltTy.packing .bf16)
  inb_S32_S1_13 : ∀ a, (![13] : Fin 1 → Nat) a + S1.size a ≤ S32.size a
  inb_S32_S1_19 : ∀ a, (![19] : Fin 1 → Nat) a + S1.size a ≤ S32.size a
  inb_S32x2x768_S1x2x768_19_0_0 : ∀ a, (![19, 0, 0] : Fin 3 → Nat) a + S1x2x768.size a ≤ S32x2x768.size a
  wordsbf16_S32x2x768_S1x2x768_19_0_0 : (Rect.unit (s := S32x2x768) ![19, 0, 0] S1x2x768.size inb_S32x2x768_S1x2x768_19_0_0).WholeWords (EltTy.packing .bf16)
  inb_S32_S1_14 : ∀ a, (![14] : Fin 1 → Nat) a + S1.size a ≤ S32.size a
  inb_S32_S1_18 : ∀ a, (![18] : Fin 1 → Nat) a + S1.size a ≤ S32.size a
  inb_S32x2x768_S1x2x768_18_0_0 : ∀ a, (![18, 0, 0] : Fin 3 → Nat) a + S1x2x768.size a ≤ S32x2x768.size a
  wordsbf16_S32x2x768_S1x2x768_18_0_0 : (Rect.unit (s := S32x2x768) ![18, 0, 0] S1x2x768.size inb_S32x2x768_S1x2x768_18_0_0).WholeWords (EltTy.packing .bf16)
  inb_S32_S1_15 : ∀ a, (![15] : Fin 1 → Nat) a + S1.size a ≤ S32.size a
  inb_S32_S1_17 : ∀ a, (![17] : Fin 1 → Nat) a + S1.size a ≤ S32.size a
  inb_S32x2x768_S1x2x768_17_0_0 : ∀ a, (![17, 0, 0] : Fin 3 → Nat) a + S1x2x768.size a ≤ S32x2x768.size a
  wordsbf16_S32x2x768_S1x2x768_17_0_0 : (Rect.unit (s := S32x2x768) ![17, 0, 0] S1x2x768.size inb_S32x2x768_S1x2x768_17_0_0).WholeWords (EltTy.packing .bf16)
  inb_S32_S1_16 : ∀ a, (![16] : Fin 1 → Nat) a + S1.size a ≤ S32.size a
  inb_S32x2x768_S1x2x768_16_0_0 : ∀ a, (![16, 0, 0] : Fin 3 → Nat) a + S1x2x768.size a ≤ S32x2x768.size a
  wordsbf16_S32x2x768_S1x2x768_16_0_0 : (Rect.unit (s := S32x2x768) ![16, 0, 0] S1x2x768.size inb_S32x2x768_S1x2x768_16_0_0).WholeWords (EltTy.packing .bf16)
  inb_S32x2x768_S1x2x768_15_0_0 : ∀ a, (![15, 0, 0] : Fin 3 → Nat) a + S1x2x768.size a ≤ S32x2x768.size a
  wordsbf16_S32x2x768_S1x2x768_15_0_0 : (Rect.unit (s := S32x2x768) ![15, 0, 0] S1x2x768.size inb_S32x2x768_S1x2x768_15_0_0).WholeWords (EltTy.packing .bf16)
  inb_S32x2x768_S1x2x768_14_0_0 : ∀ a, (![14, 0, 0] : Fin 3 → Nat) a + S1x2x768.size a ≤ S32x2x768.size a
  wordsbf16_S32x2x768_S1x2x768_14_0_0 : (Rect.unit (s := S32x2x768) ![14, 0, 0] S1x2x768.size inb_S32x2x768_S1x2x768_14_0_0).WholeWords (EltTy.packing .bf16)
  inb_S32x2x768_S1x2x768_13_0_0 : ∀ a, (![13, 0, 0] : Fin 3 → Nat) a + S1x2x768.size a ≤ S32x2x768.size a
  wordsbf16_S32x2x768_S1x2x768_13_0_0 : (Rect.unit (s := S32x2x768) ![13, 0, 0] S1x2x768.size inb_S32x2x768_S1x2x768_13_0_0).WholeWords (EltTy.packing .bf16)
  inb_S32x2x768_S1x2x768_12_0_0 : ∀ a, (![12, 0, 0] : Fin 3 → Nat) a + S1x2x768.size a ≤ S32x2x768.size a
  wordsbf16_S32x2x768_S1x2x768_12_0_0 : (Rect.unit (s := S32x2x768) ![12, 0, 0] S1x2x768.size inb_S32x2x768_S1x2x768_12_0_0).WholeWords (EltTy.packing .bf16)
  inb_S32x2x768_S1x2x768_11_0_0 : ∀ a, (![11, 0, 0] : Fin 3 → Nat) a + S1x2x768.size a ≤ S32x2x768.size a
  wordsbf16_S32x2x768_S1x2x768_11_0_0 : (Rect.unit (s := S32x2x768) ![11, 0, 0] S1x2x768.size inb_S32x2x768_S1x2x768_11_0_0).WholeWords (EltTy.packing .bf16)
  inb_S32x2x768_S1x2x768_10_0_0 : ∀ a, (![10, 0, 0] : Fin 3 → Nat) a + S1x2x768.size a ≤ S32x2x768.size a
  wordsbf16_S32x2x768_S1x2x768_10_0_0 : (Rect.unit (s := S32x2x768) ![10, 0, 0] S1x2x768.size inb_S32x2x768_S1x2x768_10_0_0).WholeWords (EltTy.packing .bf16)
  inb_S32x2x768_S1x2x768_9_0_0 : ∀ a, (![9, 0, 0] : Fin 3 → Nat) a + S1x2x768.size a ≤ S32x2x768.size a
  wordsbf16_S32x2x768_S1x2x768_9_0_0 : (Rect.unit (s := S32x2x768) ![9, 0, 0] S1x2x768.size inb_S32x2x768_S1x2x768_9_0_0).WholeWords (EltTy.packing .bf16)
  inb_S32x2x768_S1x2x768_8_0_0 : ∀ a, (![8, 0, 0] : Fin 3 → Nat) a + S1x2x768.size a ≤ S32x2x768.size a
  wordsbf16_S32x2x768_S1x2x768_8_0_0 : (Rect.unit (s := S32x2x768) ![8, 0, 0] S1x2x768.size inb_S32x2x768_S1x2x768_8_0_0).WholeWords (EltTy.packing .bf16)
  inb_S32x2x768_S1x2x768_7_0_0 : ∀ a, (![7, 0, 0] : Fin 3 → Nat) a + S1x2x768.size a ≤ S32x2x768.size a
  wordsbf16_S32x2x768_S1x2x768_7_0_0 : (Rect.unit (s := S32x2x768) ![7, 0, 0] S1x2x768.size inb_S32x2x768_S1x2x768_7_0_0).WholeWords (EltTy.packing .bf16)
  inb_S32x2x768_S1x2x768_6_0_0 : ∀ a, (![6, 0, 0] : Fin 3 → Nat) a + S1x2x768.size a ≤ S32x2x768.size a
  wordsbf16_S32x2x768_S1x2x768_6_0_0 : (Rect.unit (s := S32x2x768) ![6, 0, 0] S1x2x768.size inb_S32x2x768_S1x2x768_6_0_0).WholeWords (EltTy.packing .bf16)
  inb_S32x2x768_S1x2x768_5_0_0 : ∀ a, (![5, 0, 0] : Fin 3 → Nat) a + S1x2x768.size a ≤ S32x2x768.size a
  wordsbf16_S32x2x768_S1x2x768_5_0_0 : (Rect.unit (s := S32x2x768) ![5, 0, 0] S1x2x768.size inb_S32x2x768_S1x2x768_5_0_0).WholeWords (EltTy.packing .bf16)
  inb_S32x2x768_S1x2x768_4_0_0 : ∀ a, (![4, 0, 0] : Fin 3 → Nat) a + S1x2x768.size a ≤ S32x2x768.size a
  wordsbf16_S32x2x768_S1x2x768_4_0_0 : (Rect.unit (s := S32x2x768) ![4, 0, 0] S1x2x768.size inb_S32x2x768_S1x2x768_4_0_0).WholeWords (EltTy.packing .bf16)
  inb_S32x2x768_S1x2x768_3_0_0 : ∀ a, (![3, 0, 0] : Fin 3 → Nat) a + S1x2x768.size a ≤ S32x2x768.size a
  wordsbf16_S32x2x768_S1x2x768_3_0_0 : (Rect.unit (s := S32x2x768) ![3, 0, 0] S1x2x768.size inb_S32x2x768_S1x2x768_3_0_0).WholeWords (EltTy.packing .bf16)
  inb_S32x2x768_S1x2x768_2_0_0 : ∀ a, (![2, 0, 0] : Fin 3 → Nat) a + S1x2x768.size a ≤ S32x2x768.size a
  wordsbf16_S32x2x768_S1x2x768_2_0_0 : (Rect.unit (s := S32x2x768) ![2, 0, 0] S1x2x768.size inb_S32x2x768_S1x2x768_2_0_0).WholeWords (EltTy.packing .bf16)
  inb_S32x2x768_S1x2x768_1_0_0 : ∀ a, (![1, 0, 0] : Fin 3 → Nat) a + S1x2x768.size a ≤ S32x2x768.size a
  wordsbf16_S32x2x768_S1x2x768_1_0_0 : (Rect.unit (s := S32x2x768) ![1, 0, 0] S1x2x768.size inb_S32x2x768_S1x2x768_1_0_0).WholeWords (EltTy.packing .bf16)
  inb_S512_S512_0 : ∀ a, (![0] : Fin 1 → Nat) a + S512.size a ≤ S512.size a
  h_S512 : 0 < S512.numel
  shapeCasts_S512_S1x512 : S512.ShapeCasts S1x512
  inb_S32x2x768_S8x2x768_0_0_0 : ∀ a, (![0, 0, 0] : Fin 3 → Nat) a + S8x2x768.size a ≤ S32x2x768.size a
  h_S8x2x768 : 0 < S8x2x768.numel
  slices_S8x2x768_o0_0_0_S8x1x768 : S8x2x768.Slices ![0, 0, 0] S8x1x768
  shapeCasts_S8x1x768_S8x768 : S8x1x768.ShapeCasts S8x768
  reduces_S8x768_S768 : S8x768.Reduces [0] S768
  slices_S8x2x768_o0_1_0_S8x1x768 : S8x2x768.Slices ![0, 1, 0] S8x1x768
  inb_S32x2x768_S8x2x768_24_0_0 : ∀ a, (![24, 0, 0] : Fin 3 → Nat) a + S8x2x768.size a ≤ S32x2x768.size a
  inb_S32x2x768_S8x2x768_8_0_0 : ∀ a, (![8, 0, 0] : Fin 3 → Nat) a + S8x2x768.size a ≤ S32x2x768.size a
  inb_S32x2x768_S8x2x768_16_0_0 : ∀ a, (![16, 0, 0] : Fin 3 → Nat) a + S8x2x768.size a ≤ S32x2x768.size a
  shapeCasts_S768_S768x1 : S768.ShapeCasts S768x1
  broadcasts_S768x1_S768x512 : S768x1.Broadcasts S768x512
  broadcasts_S1x512_S768x512 : S1x512.Broadcasts S768x512
  packedbf16_S768x512_S768x512_0_0 : (Rect.unit (s := S768x512) ![0, 0] S768x512.size inb_S768x512_S768x512_0_0).PackedRows (EltTy.packing .bf16)
  hcc0_scratch5 : 1 + S3.numel ≤ 68
  hcc0_scratch6 : 4 + S32.numel ≤ 68
  hcc0_scratch7 : 36 + S32.numel ≤ 68
  k0_dev1_lt : k0_dev1 < nD
  k0_dev2_lt : k0_dev2 < nD
  k0_dev3_lt : k0_dev3 < nD
  k0_dev4_lt : k0_dev4 < nD
  k0_dev5_lt : k0_dev5 < nD
  k0_dev6_lt : k0_dev6 < nD
  k0_dev7_lt : k0_dev7 < nD
  k0_dev8_lt : k0_dev8 < nD
  k0_dev9_lt : k0_dev9 < nD
  k0_dev10_lt : k0_dev10 < nD
  k0_dev11_lt : k0_dev11 < nD
  k0_dev12_lt : k0_dev12 < nD
  k0_dev13_lt : k0_dev13 < nD
  k0_dev14_lt : k0_dev14 < nD
  k0_dev15_lt : k0_dev15 < nD
  k0_dev16_lt : k0_dev16 < nD
  k0_dev17_lt : k0_dev17 < nD
  k0_dev18_lt : k0_dev18 < nD
  k0_dev19_lt : k0_dev19 < nD
  k0_dev20_lt : k0_dev20 < nD
  k0_dev21_lt : k0_dev21 < nD
  k0_dev22_lt : k0_dev22 < nD
  k0_dev23_lt : k0_dev23 < nD
  k0_dev24_lt : k0_dev24 < nD
  k0_dev25_lt : k0_dev25 < nD
  k0_dev26_lt : k0_dev26 < nD
  k0_dev27_lt : k0_dev27 < nD
  k0_dev28_lt : k0_dev28 < nD
  k0_dev29_lt : k0_dev29 < nD
  k0_dev30_lt : k0_dev30 < nD
  k0_dev31_lt : k0_dev31 < nD
  k0_dev32_lt : k0_dev32 < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  hstage0_0 : ∀ j, (stage0_0 j).IsWhole

variable [Facts₀]

abbrev cc0_scratch5 : DmaSems sig S3 := SemArray.consecutive 1 S3 hcc0_scratch5
abbrev cc0_scratch6 : DmaSems sig S32 := SemArray.consecutive 4 S32 hcc0_scratch6
abbrev cc0_scratch7 : DmaSems sig S32 := SemArray.consecutive 36 S32 hcc0_scratch7

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S768x16384 : Shape := ⟨2, ![768, 16384]⟩
abbrev S16384 : Shape := ⟨1, ![16384]⟩
abbrev S_ : Shape := ⟨0, ![]⟩
abbrev S768 : Shape := ⟨1, ![768]⟩
abbrev S768x1 : Shape := ⟨2, ![768, 1]⟩
abbrev S1x16384 : Shape := ⟨2, ![1, 16384]⟩

abbrev nBuf : Space → Nat
  | .hbm => 48
  | .vmem => 0
  | .smem => 0
  | _ => 0

abbrev bufTy : (tb : Table) → Fin (tcTables nBuf tb) → BufTy
  | .hbm, ⟨0, _⟩ => ⟨S768x16384, .f32⟩
  | .hbm, ⟨1, _⟩ => ⟨S16384, .f32⟩
  | .hbm, ⟨2, _⟩ => ⟨S16384, .f32⟩
  | .hbm, ⟨3, _⟩ => ⟨S_, .f32⟩
  | .hbm, ⟨4, _⟩ => ⟨S768, .f32⟩
  | .hbm, ⟨5, _⟩ => ⟨S768x1, .f32⟩
  | .hbm, ⟨6, _⟩ => ⟨S_, .f32⟩
  | .hbm, ⟨7, _⟩ => ⟨S768x1, .f32⟩
  | .hbm, ⟨8, _⟩ => ⟨S768x1, .f32⟩
  | .hbm, ⟨9, _⟩ => ⟨S_, .i32⟩
  | .hbm, ⟨10, _⟩ => ⟨S_, .f32⟩
  | .hbm, ⟨11, _⟩ => ⟨S768, .f32⟩
  | .hbm, ⟨12, _⟩ => ⟨S768x1, .f32⟩
  | .hbm, ⟨13, _⟩ => ⟨S_, .f32⟩
  | .hbm, ⟨14, _⟩ => ⟨S768x1, .f32⟩
  | .hbm, ⟨15, _⟩ => ⟨S768x1, .f32⟩
  | .hbm, ⟨16, _⟩ => ⟨S768x16384, .f32⟩
  | .hbm, ⟨17, _⟩ => ⟨S768x16384, .f32⟩
  | .hbm, ⟨18, _⟩ => ⟨S768x16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S768, .f32⟩
  | .hbm, ⟨24, _⟩ => ⟨S768x1, .f32⟩
  | .hbm, ⟨25, _⟩ => ⟨S768x1, .f32⟩
  | .hbm, ⟨26, _⟩ => ⟨S768x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S768x1, .f32⟩
  | .hbm, ⟨32, _⟩ => ⟨S768x1, .f32⟩
  | .hbm, ⟨33, _⟩ => ⟨S768x16384, .f32⟩
  | .hbm, ⟨34, _⟩ => ⟨S768x16384, .f32⟩
  | .hbm, ⟨35, _⟩ => ⟨S1x16384, .f32⟩
  | .hbm, ⟨36, _⟩ => ⟨S768x16384, .f32⟩
  | .hbm, ⟨37, _⟩ => ⟨S768x16384, .f32⟩
  | .hbm, ⟨38, _⟩ => ⟨S_, .f32⟩
  | .hbm, ⟨39, _⟩ => ⟨S768x1, .f32⟩
  | .hbm, ⟨40, _⟩ => ⟨S768x1, .f32⟩
  | .hbm, ⟨41, _⟩ => ⟨S768x1, .f32⟩
  | .hbm, ⟨42, _⟩ => ⟨S768x16384, .f32⟩
  | .hbm, ⟨43, _⟩ => ⟨S768x16384, .f32⟩
  | .hbm, ⟨44, _⟩ => ⟨S1x16384, .f32⟩
  | .hbm, ⟨45, _⟩ => ⟨S768x16384, .f32⟩
  | .hbm, ⟨46, _⟩ => ⟨S768x16384, .f32⟩
  | .hbm, ⟨47, _⟩ => ⟨S768x16384, .bf16⟩
  | _, _ => ⟨S768x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩

abbrev nD : Nat := 1
abbrev τ : Topo := Topo.v7x

variable {F : FTy → Type} [FloatOps F]

class Facts₀ : Prop where
  reducesTo_S768x16384_S768_d1 : S768x16384.ReducesTo [1] S768
  h_S_ : 0 < S_.numel
  bcast_S768_S768x1_0 : S768.BroadcastsInDim S768x1 (![0] : Fin 1 → Fin S768x1.rank)
  bcast_S_S768x1 : S_.BroadcastsInDim S768x1 (![] : Fin 0 → Fin S768x1.rank)
  bcast_S768x1_S768x16384_0_1 : S768x1.BroadcastsInDim S768x16384 (![0, 1] : Fin 2 → Fin S768x16384.rank)
  bcast_S16384_S1x16384_1 : S16384.BroadcastsInDim S1x16384 (![1] : Fin 1 → Fin S1x16384.rank)
  bcast_S1x16384_S768x16384_0_1 : S1x16384.BroadcastsInDim S768x16384 (![0, 1] : Fin 2 → Fin S768x16384.rank)
  bitsLt_bf16_f32 : FTy.bits .bf16 < FTy.bits .f32

variable [Facts₀]

class Facts : Prop extends Facts₀ where

variable [Facts]
-- ==== Proof.Spec.lean ====
import proofs.«900828_g7700000000000829_dist_layernorm_colshard_i_m768_n512_v7x_i32_bf16_1_alg».proof.Proof.Gen.KernelIdeal.Skeleton
import Idealize.ShloMosaic.Lib.ValueIdx

/-!
# What one device computes, as a pure term

Device `c` holds a 768 × 512 column block `x c` of the 768 × 16384 input and its 512-long pieces of
`gamma` and `beta`. Each device reduces its block to two rows of 768 numbers — a quarter of each row's
sum and a quarter of each row's sum of squares — and every device receives every other device's two rows:
slot `j` of the exchange buffer of device `c` holds the two rows of device `c + j` (mod 32), slot `0` its own.
The 32 slots are added in four groups of eight (slots 0–7, 24–31, 8–15, 16–23), the totals scaled by
2⁻¹² give each row's mean and mean square, and the block is normalised with them.
-/

noncomputable section

namespace Cert.KernelIdeal.KVal

open Idealize.ShloMosaic Idealize.ShloMosaic.ValueIdx Cert.KernelIdeal Cert.KernelIdeal.Gen

variable {F : FTy → Type} [FloatOps F]

/-- The device `j` places after `c` round the ring of 32. -/
def peer (c : Dev nD) (j : Fin 32) : Dev nD := ⟨(c.val + j.val) % 32, Nat.mod_lt _ (by decide)⟩

/-- The two rows a device sends: row 0 a quarter of its block's row sums, row 1 a quarter of its row sums of squares. -/
def mine (x : Vec F S768x512 .f32) : FVec F S2x768 .bf16 := fun i =>
  if (i 0).val = 0 then k0_pay1 x (ix1 (show Fin 768 from i 1)) else k0_pay2 x (ix1 (show Fin 768 from i 1))

/-- Eight consecutive slots `lo … lo + 7` of an exchange buffer whose slot `j` holds `rows j`. -/
def group (rows : Fin 32 → FVec F S2x768 .bf16) (lo : Nat) (h : lo + 8 ≤ 32) : Vec F S8x2x768 .bf16 := fun i =>
  rows ⟨lo + (i 0).val, by have : (i 0).val < 8 := (i 0).isLt; omega⟩ (ix2 (show Fin 2 from i 1) (show Fin 768 from i 2))

/-- The rows device `c` ends up holding: slot `j` from device `c + j`. -/
def rowsAt (x : Dev nD → Vec F S768x512 .f32) (c : Dev nD) : Fin 32 → FVec F S2x768 .bf16 := fun j => mine (x (peer c j))

/-- The row totals of the sums after the first three groups (slots 0–7, 24–31, 8–15). -/
def acc1 (x : Dev nD → Vec F S768x512 .f32) (c : Dev nD) : FVec F S768 .f32 :=
  k0_pay19 (k0_pay16 (k0_pay13 (k0_pay10 (F := F)) (group (rowsAt x c) 0 (by decide))) (group (rowsAt x c) 24 (by decide))) (group (rowsAt x c) 8 (by decide))

/-- The same for the sums of squares. -/
def acc2 (x : Dev nD → Vec F S768x512 .f32) (c : Dev nD) : FVec F S768 .f32 :=
  k0_pay20 (k0_pay17 (k0_pay14 (k0_pay11 (F := F)) (group (rowsAt x c) 0 (by decide))) (group (rowsAt x c) 24 (by decide))) (group (rowsAt x c) 8 (by decide))

/-- Device `c`'s result block: its block normalised by the rows' mean and inverse deviation over ALL devices' columns,
    scaled by its piece of `gamma` and shifted by its piece of `beta`. -/
def out (x : Dev nD → Vec F S768x512 .f32) (g b : Dev nD → Vec F S512 .f32) (c : Dev nD) : FVec F S768x512 .bf16 :=
  k0_pay25 (k0_pay7 (x c)) (k0_pay8 (g c)) (k0_pay9 (b c))
    (k0_pay23 (acc1 x c) (acc2 x c) (group (rowsAt x c) 16 (by decide)))
    (k0_pay24 (acc1 x c) (group (rowsAt x c) 16 (by decide)))

end Cert.KernelIdeal.KVal

end
-- ==== Proof.Sched.lean ====
import proofs.«900828_g7700000000000829_dist_layernorm_colshard_i_m768_n512_v7x_i32_bf16_1_alg».proof.Proof.Spec
import proofs.«900828_g7700000000000829_dist_layernorm_colshard_i_m768_n512_v7x_i32_bf16_1_alg».proof.Proof.Gen.KernelIdeal.Frame
import Idealize.ShloMosaic.Lib.Pipeline.Launch
import Idealize.ShloMosaic.Lib.Pipeline.Kit
import Idealize.ShloMosaic.Lib.Tactic
import Idealize.ShloMosaic.Lib.Transfers

/-!
# The exchange protocol: cells, contents, schedule

Every device `c` runs the same body. Its semaphores, seen as cells of the rounds discipline:

* the barrier cell: one round of 32 duties, duty `d` paid by device `d`'s entry signal of one unit. With its
  signal device `d` hands the owner `c` the slot of `d`'s exchange buffer that `c` will write — slot `(c − d) mod 32` —
  and the fact that `d`'s receive cell of that slot is at its first round (nothing when `d = c`);
* send cell `k` (1 ≤ k ≤ 31): one duty, paid when the copy to device `c + k` has been read out of the two-row
  buffer; it hands back the read share of that buffer the copy borrowed;
* receive cell `j` (1 ≤ j ≤ 31): one duty, paid by device `c + j`'s copy landing in slot `j`; it hands the owner
  slot `j` holding that device's two rows.

The three semaphores of the local input copies are not cells: the device fills and drains them itself.
All slots are stated at ONE contents function, the exchange buffer's final contents, so that slots join
back into the buffer without a case split.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's (duties named by `Fin 32`), and the local copies' counters -/

abbrev UB : Type := URounds (GSem nD τ sig) (Fin 32)
/-- Beside the two copies of the rounds algebra, the exclusive counters the local input copies' own invariants draw on. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch. -/
def s₀ : MemSt nD τ sig (Elt F) := ⟨m, fun _ => 0, ρ⟩

/-! ## The ring of 32 -/

/-- The device `k` places after `c`. -/
abbrev peer (c : Dev nD) (k : Fin 32) : Dev nD := Cert.KernelIdeal.KVal.peer c k
/-- The slot of the target's exchange buffer that copy `k` writes: `32 − k`. -/
def slotOf (k : Fin 32) : Fin 32 := ⟨(32 - k.val) % 32, Nat.mod_lt _ (by decide)⟩
/-- The slot of device `d`'s exchange buffer that device `c` writes: `(c − d) mod 32`. -/
def slotFor (d c : Dev nD) : Fin 32 := ⟨(c.val + 32 - d.val) % 32, Nat.mod_lt _ (by decide)⟩

theorem peer_slotOf (c : Dev nD) (k : Fin 32) : peer (peer c k) (slotOf k) = c := by revert c k; decide
theorem slotFor_peer (c : Dev nD) (k : Fin 32) : slotFor (peer c k) c = slotOf k := by revert c k; decide
theorem peer_slotFor (d c : Dev nD) : peer d (slotFor d c) = c := by revert d c; decide
theorem slotFor_self (c : Dev nD) : slotFor c c = 0 := by revert c; decide
theorem peer_zero (c : Dev nD) : peer c 0 = c := by revert c; decide

/-! ## Memrefs and cells -/

abbrev xM : Memref sig .tc .vmem S768x512 .f32 := Memref.whole cc0_scratch0
abbrev gM : Memref sig .tc .vmem S512 .f32 := Memref.whole cc0_scratch1
abbrev bM : Memref sig .tc .vmem S512 .f32 := Memref.whole cc0_scratch2
/-- The two rows a device sends. -/
abbrev rowsM : Memref sig .tc .vmem S2x768 .bf16 := Memref.whole cc0_scratch3
/-- The exchange buffer of 32 slots. -/
abbrev commM : Memref sig .tc .vmem S32x2x768 .bf16 := Memref.whole cc0_scratch4
abbrev outM : Memref sig .tc .vmem S768x512 .bf16 := Memref.whole cc0_stg0_0

theorem slot_inb (j : Fin 32) : ∀ a, (![j.val, 0, 0] : Fin 3 → Nat) a + S1x2x768.size a ≤ S32x2x768.size a := by
  revert j; decide
/-- Slot `j` of the exchange buffer, as the two rows a copy writes. -/
abbrev slotM (j : Fin 32) : Memref sig .tc .vmem S2x768 .bf16 :=
  ((commM).slice (Rect.unit (s := S32x2x768) ![j.val, 0, 0] S1x2x768.size (slot_inb j)) (fun _ => rfl)).squeeze S2x768 squeezes_S1x2x768_S2x768

abbrev barS : Sem sig := (SemArray.scalar (sig.barrier 0 rfl) : Sems sig S_).sem
/-- Send semaphore `k` and receive semaphore `j` among the kernel's DMA semaphores. -/
abbrev sendSem (k : Fin 32) : DmaSem sig := ⟨4 + k.val, by show 4 + k.val < 68; have := k.isLt; omega⟩
abbrev recvSem (j : Fin 32) : DmaSem sig := ⟨36 + j.val, by show 36 + j.val < 68; have := j.isLt; omega⟩
/-- The three semaphores of the local input copies. -/
abbrev inSem (i : Fin 3) : DmaSem sig := ⟨1 + i.val, by show 1 + i.val < 68; have := i.isLt; omega⟩

abbrev barCell (c : Dev nD) : GSem nD τ sig := ((c : Thread nD τ), .reg barS)
abbrev sendCell (c : Dev nD) (k : Fin 32) : GSem nD τ sig := ((c : Thread nD τ), .dma (sendSem k))
abbrev recvCell (c : Dev nD) (j : Fin 32) : GSem nD τ sig := ((c : Thread nD τ), .dma (recvSem j))

/-- The units one copy of two rows credits. -/
abbrev N : ℕ := (rowsM : Memref sig .tc .vmem S2x768 .bf16).view.dmaCredit
theorem N_pos : 0 < N := View.dmaCredit_pos _ (by decide)

/-! ## Contents -/

/-- Device `c`'s block of `x`, and its pieces of `gamma` and `beta`, as launched. -/
def xIn (c : Dev nD) : Vec F S768x512 .f32 := m ((c : Thread nD τ).loc main_arg0)
def gIn (c : Dev nD) : Vec F S512 .f32 := m ((c : Thread nD τ).loc main_arg1)
def bIn (c : Dev nD) : Vec F S512 .f32 := m ((c : Thread nD τ).loc main_arg2)

/-- The two rows device `c` sends. -/
def rowsC (c : Dev nD) : Buf (Elt F) ((c : Thread nD τ).loc cc0_scratch3) := Cert.KernelIdeal.KVal.mine (xIn m c)

/-- The exchange buffer of device `c` once every slot is filled: slot `j` holds the rows of device `c + j`. -/
def commC (c : Dev nD) : Buf (Elt F) ((c : Thread nD τ).loc cc0_scratch4) := fun i =>
  Cert.KernelIdeal.KVal.rowsAt (xIn m) c ⟨(i 0).val, (i 0).isLt⟩ (ValueIdx.ix2 (show Fin 2 from i 1) (show Fin 768 from i 2))

/-- Device `c`'s result block. -/
def outC (c : Dev nD) : Buf (Elt F) ((c : Thread nD τ).loc cc0_stg0_0) :=
  Cert.KernelIdeal.KVal.out (xIn m) (gIn m) (bIn m) c

/-- Slot `j` of device `c`'s exchange buffer at contents `f`. -/
def slotPts (c : Dev nD) (j : Fin 32) (f : Buf (Elt F) ((c : Thread nD τ).loc cc0_scratch4)) : sProp 𝕄 :=
  (slotM j).view.loc (c : Thread nD τ) ↦[(slotM j).view.set]{fullShare} f
/-- The read share of the two-row buffer that copy `k` borrows. -/
abbrev rowsShare (k : Fin 32) : PosShare TreeShare := Transfers.shareTok fullShare 32 k
def rowsPts (c : Dev nD) (k : Fin 32) : sProp 𝕄 :=
  (rowsM : Memref sig .tc .vmem S2x768 .bf16).view.loc (c : Thread nD τ) ↦[(rowsM : Memref sig .tc .vmem S2x768 .bf16).view.set]{rowsShare k} rowsC m c

/-! ## The schedule -/

/-- What device `d`'s entry signal hands device `c`: the slot of `d`'s exchange buffer that `c` writes and that `d`'s
    receive cell of that slot is at its first round; nothing when `d = c`. -/
def barPay (c d : Dev nD) : sProp 𝕄 :=
  if d = c then iprop(emp) else iprop((∃ f, slotPts d (slotFor d c) f) ∗ reached ER (recvCell d (slotFor d c)) 0)
/-- What the landing in slot `j` hands device `c`: the slot at the buffer's final contents. -/
def recvPay (c : Dev nD) (j : Fin 32) : sProp 𝕄 := slotPts c j (commC m c)
/-- What the departure of copy `k` hands back: the borrowed share. -/
def sendPay (c : Dev nD) (k : Fin 32) : sProp 𝕄 := rowsPts m c k

/-- The copy number of a send semaphore, the slot of a receive semaphore. -/
def sendIx (s : DmaSem sig) : Fin 32 := ⟨(s.val - 4) % 32, Nat.mod_lt _ (by decide)⟩
def recvIx (s : DmaSem sig) : Fin 32 := ⟨(s.val - 36) % 32, Nat.mod_lt _ (by decide)⟩

abbrev IsBar (g : GSem nD τ sig) : Prop := g.1.2 = .tc ∧ g.2 = .reg barS
/-- A send cell `5 … 35` or a receive cell `37 … 67` of a TensorCore thread. -/
abbrev IsXfer (g : GSem nD τ sig) : Prop := g.1.2 = .tc ∧ ∃ s : DmaSem sig, g.2 = .dma s ∧ 5 ≤ s.val ∧ s.val ≠ 36

/-- One round: a barrier cell has 32 duties of one unit; a send or receive cell one duty (named `0`) of a copy's credit. -/
def rd : Rounds.Schedule (GSem nD τ sig) (Fin 32) 𝕄 where
  duties g r := if r = 0 ∧ IsBar g then Finset.univ else if r = 0 ∧ IsXfer g then {0} else ∅
  unitless _ := False
  amount g _ _ := if g.2 = .reg barS then 1 else N
  payload g _ d :=
    match g.2 with
    | .reg _ => barPay g.1.1 d
    | .dma s => if 36 ≤ s.val then recvPay m g.1.1 (recvIx s) else sendPay m g.1.1 (sendIx s)
  amount_pos g _ _ _ := by
    by_cases h : g.2 = .reg barS
    · rw [if_pos h]; exact Nat.one_pos
    · rw [if_neg h]; exact N_pos

end Cert.KernelIdeal.Proto

end
-- ==== Proof.Ghost.lean ====
import proofs.«900828_g7700000000000829_dist_layernorm_colshard_i_m768_n512_v7x_i32_bf16_1_alg».proof.Proof.Sched

/-!
# What a device holds when its body starts, and what it hands back

At launch every device is dealt: every cell's invariant and the fact that every cell is at its first round (both
persistent, so every device may hold all of them); its position on each of its own cells; the one-shot token of
every duty IT pays — its unit on every device's barrier cell, the departure of each of its copies, the arrival of
each of its copies at the target's receive cell —; the credit of what others owe its cells — 32 units on its barrier
cell, one copy's credit on each receive cell —; and what it owes itself: a unit to every barrier cell and a copy's
credit to each target's receive cell, listed in the order the body pays them, last summand first.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes at launch, in the order it pays -/

/-- The arrivals still owed before copy `31 − n + 1 …`: copy `k` is the summand added at `n + 1 = 32 − k`. -/
def Osend (c : Dev nD) : ℕ → CellTallies nD τ sig Unit
  | 0 => 0
  | n + 1 => Osend c n + tallyAt (recvCell (peer c (Fin.ofNat 32 (31 - n))) (slotOf (Fin.ofNat 32 (31 - n)))) () N

/-- The entry signals still owed, on top of all 31 arrivals: the signal to device `d` is the summand added at `n + 1 = 32 − d`. -/
def Obar (c : Dev nD) : ℕ → CellTallies nD τ sig Unit
  | 0 => Osend c 31
  | n + 1 => Obar c n + tallyAt (barCell (Fin.ofNat 32 (31 - n))) () 1

/-- Everything device `c` owes at launch. -/
def O₀ (c : Dev nD) : CellTallies nD τ sig Unit := Obar c 32

/-! ## Levels: a barrier cell below the receive cells, everything else lowest -/

def L (g : GSem nD τ sig) : Finset Unit := if g.1.2 = .tc then {()} else ∅
def lv (g : GSem nD τ sig) (_ : Unit) : ℕ :=
  match g.2 with
  | .reg _ => 1
  | .dma s => if 36 ≤ s.val then 2 else 0

/-! ## The ghost state -/

/-- Every cell's invariant, under the names `K`, and that every cell is at its first round. -/
def records (K : GSem nD τ sig → ℕ) : sProp 𝕄 :=
  iprop((bigSep Finset.univ fun d : Dev nD => cellInv ER (rd m) (K (barCell d)) (barCell d))
    ∗ (bigSep Finset.univ fun dk : Dev nD × Fin 32 => cellInv ER (rd m) (K (sendCell dk.1 dk.2)) (sendCell dk.1 dk.2))
    ∗ (bigSep Finset.univ fun dk : Dev nD × Fin 32 => cellInv ER (rd m) (K (recvCell dk.1 dk.2)) (recvCell dk.1 dk.2))
    ∗ (bigSep Finset.univ fun d : Dev nD => reached ER (barCell d) 0)
    ∗ (bigSep Finset.univ fun dk : Dev nD × Fin 32 => reached ER (sendCell dk.1 dk.2) 0)
    ∗ (bigSep Finset.univ fun dk : Dev nD × Fin 32 => reached ER (recvCell dk.1 dk.2) 0))

instance records_persistent (K : GSem nD τ sig → ℕ) : BI.Persistent (records (F := F) m K) := by unfold records; infer_instance

/-- Device `c`'s positions on its own cells. -/
def positions (c : Dev nD) : sProp 𝕄 :=
  iprop(atPos ER (barCell c) 0 ∅ 0
    ∗ (bigSep Finset.univ fun k : Fin 32 => atPos ER (sendCell c k) 0 ∅ 0)
    ∗ (bigSep Finset.univ fun j : Fin 32 => atPos ER (recvCell c j) 0 ∅ 0))

/-- The tokens of the duties device `c` pays: its unit on every barrier cell, each copy's departure, each copy's arrival. -/
def payToks (c : Dev nD) : sProp 𝕄 :=
  iprop((bigSep Finset.univ fun d : Dev nD => dutyTok ER (barCell d) 0 (c : Fin 32))
    ∗ (bigSep Finset.univ fun k : Fin 32 => dutyTok ER (sendCell c k) 0 (0 : Fin 32))
    ∗ (bigSep Finset.univ fun k : Fin 32 => dutyTok ER (recvCell (peer c k) (slotOf k)) 0 (0 : Fin 32)))

def ghost (K : GSem nD τ sig → ℕ) (c : Dev nD) : sProp 𝕄 := iprop(records m K ∗ positions c ∗ payToks c)

/-- The credit of what others owe device `c`'s cells. -/
def credits (c : Dev nD) : sProp 𝕄 :=
  iprop(cred (tallyAt (barCell c) () 32) ∗ bigSep (Finset.univ.erase (0 : Fin 32)) fun j => cred (tallyAt (recvCell c j) () N))

/-- The three semaphores of the local input copies, at zero. -/
def inSems (c : Dev nD) : sProp 𝕄 := bigSep Finset.univ fun i : Fin 3 => semVal ((c : Thread nD τ), SemLoc.dma (inSem i)) 0

/-- Device `c`'s three argument arrays, as launched. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2)))

/-- The five scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- What the launch makes for device `c` before its scoped buffers exist. -/
def start (c : Dev nD) : sProp 𝕄 :=
  iprop((∃ K, ghost m K c) ∗ credits c ∗ levAts L lv ∗ inSems c ∗ args m c)

/-- Before the body. -/
def Φ₀ (c : Dev nD) : sProp 𝕄 := iprop(start m c ∗ scratch c)

/-- The kernel's 67 own DMA semaphores: three for the input copies, 32 send, 32 receive. -/
abbrev osem : Fin 67 → SemLoc sig := fun i => .dma ⟨1 + i.val, by show 1 + i.val < 68; have := i.isLt; omega⟩

/-- After the body: the arguments, the scratch buffers at some contents, every own semaphore at zero in the device's hand. -/
def Φ₁ (c : Dev nD) : sProp 𝕄 :=
  iprop(args m c ∗ scratch c ∗ bigSep Finset.univ fun i : Fin 67 => semVal ((c : Thread nD τ), osem i) 0)

/-- The pipeline's proof data: one point; the result window's staging buffer ends at the device's result block. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Proto

end
-- ==== Proof.SchedTables.lean ====
import proofs.«900828_g7700000000000829_dist_layernorm_colshard_i_m768_n512_v7x_i32_bf16_1_alg».proof.Proof.Sched

/-!
# The schedule's tables

The schedule of `Sched.lean` read cell by cell: which duties a barrier, send or receive cell has in its one round,
their amounts, what a whole round amounts to, and each duty's payload.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance rd_payload_storable (g : GSem nD τ sig) (r : ℕ) (d : Fin 32) :
    BI.Storable (upEmb : UEmb _ 𝕄) ((rd (F := F) m).payload g r d) := by
  obtain ⟨t, (s | s)⟩ := g
  · show BI.Storable upEmb (barPay t.1 d)
    unfold barPay slotPts
    (repeat' split) <;> infer_instance
  · show BI.Storable upEmb (if 36 ≤ s.val then recvPay m t.1 (recvIx s) else sendPay m t.1 (sendIx s))
    unfold recvPay sendPay slotPts rowsPts
    (repeat' split) <;> infer_instance

section Tables
variable (c : Dev nD)

theorem send_ne_bar (k : Fin 32) : (SemLoc.dma (sendSem k) : SemLoc sig) ≠ .reg barS := fun h => by cases h
theorem recv_ne_bar (j : Fin 32) : (SemLoc.dma (recvSem j) : SemLoc sig) ≠ .reg barS := fun h => by cases h

/-- Send semaphore `k` is copy number `k`'s; receive semaphore `j` is slot `j`'s. -/
private theorem sendIx_sendSem (k : Fin 32) : sendIx (sendSem k) = k := by
  apply Fin.ext
  have := k.isLt
  show (4 + k.val - 4) % 32 = k.val
  omega
private theorem recvIx_recvSem (j : Fin 32) : recvIx (recvSem j) = j := by
  apply Fin.ext
  have := j.isLt
  show (36 + j.val - 36) % 32 = j.val
  omega

private theorem not_bar_send (k : Fin 32) : ¬ IsBar (sendCell c k) := fun h => send_ne_bar k h.2
private theorem not_bar_recv (j : Fin 32) : ¬ IsBar (recvCell c j) := fun h => recv_ne_bar j h.2

/-- Send cell `k` is an exchange cell exactly from `k = 1` on (its semaphore is number `4 + k`). -/
private theorem xfer_send (k : Fin 32) (hk : k ≠ 0) : IsXfer (sendCell c k) := by
  have h0 : k.val ≠ 0 := fun h => hk (Fin.ext h)
  have := k.isLt
  exact ⟨rfl, sendSem k, rfl, by show 5 ≤ 4 + k.val; omega, by show 4 + k.val ≠ 36; omega⟩
/-- Receive cell `j` is an exchange cell exactly from `j = 1` on (its semaphore is number `36 + j`). -/
private theorem xfer_recv (j : Fin 32) (hj : j ≠ 0) : IsXfer (recvCell c j) := by
  have h0 : j.val ≠ 0 := fun h => hj (Fin.ext h)
  exact ⟨rfl, recvSem j, rfl, by show 5 ≤ 36 + j.val; omega, by show 36 + j.val ≠ 36; omega⟩
private theorem not_xfer_send0 : ¬ IsXfer (sendCell c 0) := by
  rintro ⟨_, s, hs, h5, _⟩
  have hs' : sendSem 0 = s := SemLoc.dma.inj hs
  subst hs'
  exact absurd h5 (by decide)
private theorem not_xfer_recv0 : ¬ IsXfer (recvCell c 0) := by
  rintro ⟨_, s, hs, _, h36⟩
  have hs' : recvSem 0 = s := SemLoc.dma.inj hs
  subst hs'
  exact h36 rfl

theorem duties_bar : (rd (F := F) m).duties (barCell c) 0 = Finset.univ := by
  dsimp only [rd]; exact if_pos ⟨rfl, rfl, rfl⟩
theorem duties_send (k : Fin 32) (hk : k ≠ 0) : (rd (F := F) m).duties (sendCell c k) 0 = {0} := by
  dsimp only [rd]; rw [if_neg (fun h => not_bar_send c k h.2)]; exact if_pos ⟨rfl, xfer_send c k hk⟩
theorem duties_recv (j : Fin 32) (hj : j ≠ 0) : (rd (F := F) m).duties (recvCell c j) 0 = {0} := by
  dsimp only [rd]; rw [if_neg (fun h => not_bar_recv c j h.2)]; exact if_pos ⟨rfl, xfer_recv c j hj⟩
theorem duties_send0 (r : ℕ) : (rd (F := F) m).duties (sendCell c 0) r = ∅ := by
  dsimp only [rd]; rw [if_neg (fun h => not_bar_send c 0 h.2), if_neg (fun h => not_xfer_send0 c h.2)]
theorem duties_recv0 (r : ℕ) : (rd (F := F) m).duties (recvCell c 0) r = ∅ := by
  dsimp only [rd]; rw [if_neg (fun h => not_bar_recv c 0 h.2), if_neg (fun h => not_xfer_recv0 c h.2)]
theorem duties_later (g : GSem nD τ sig) : ∀ r, 1 ≤ r → (rd (F := F) m).duties g r = ∅ := by
  intro r hr
  dsimp only [rd]
  rw [if_neg (fun h => by have := h.1; omega), if_neg (fun h => by have := h.1; omega)]

theorem amount_bar (d : Fin 32) : (rd (F := F) m).amount (barCell c) 0 d = 1 := by
  dsimp only [rd]; exact if_pos rfl
theorem amount_send (k : Fin 32) (d : Fin 32) : (rd (F := F) m).amount (sendCell c k) 0 d = N := by
  dsimp only [rd]; exact if_neg (send_ne_bar k)
theorem amount_recv (j : Fin 32) (d : Fin 32) : (rd (F := F) m).amount (recvCell c j) 0 d = N := by
  dsimp only [rd]; exact if_neg (recv_ne_bar j)

theorem expect_bar : (rd (F := F) m).expect (barCell c) 0 = 32 := by
  unfold Schedule.expect Schedule.amountOf
  rw [duties_bar, Finset.sum_congr rfl fun d _ => amount_bar m c d, Finset.sum_const, Finset.card_univ, Fintype.card_fin, smul_eq_mul]
theorem expect_send (k : Fin 32) (hk : k ≠ 0) : (rd (F := F) m).expect (sendCell c k) 0 = N := by
  unfold Schedule.expect Schedule.amountOf; rw [duties_send m c k hk, Finset.sum_singleton, amount_send]
theorem expect_recv (j : Fin 32) (hj : j ≠ 0) : (rd (F := F) m).expect (recvCell c j) 0 = N := by
  unfold Schedule.expect Schedule.amountOf; rw [duties_recv m c j hj, Finset.sum_singleton, amount_recv]

theorem payload_bar (d : Fin 32) : (rd (F := F) m).payload (barCell c) 0 d = barPay c d := rfl
theorem payload_send (k : Fin 32) (d : Fin 32) : (rd (F := F) m).payload (sendCell c k) 0 d = sendPay m c k := by
  have := k.isLt
  show (if 36 ≤ (sendSem k).val then recvPay m c (recvIx (sendSem k)) else sendPay m c (sendIx (sendSem k))) = sendPay m c k
  rw [if_neg (by show ¬ 36 ≤ 4 + k.val; omega), sendIx_sendSem]
theorem payload_recv (j : Fin 32) (d : Fin 32) : (rd (F := F) m).payload (recvCell c j) 0 d = recvPay m c j := by
  show (if 36 ≤ (recvSem j).val then recvPay m c (recvIx (recvSem j)) else sendPay m c (sendIx (recvSem j))) = recvPay m c j
  rw [if_pos (by show 36 ≤ 36 + j.val; omega), recvIx_recvSem]

/-- A whole round of the barrier cell, no duty taken yet: every device's hand-over. -/
theorem rest_bar : bigSep ((rd (F := F) m).duties (barCell c) 0 \ ∅) (fun d => (rd (F := F) m).payload (barCell c) 0 d)
    = bigSep Finset.univ (fun d : Fin 32 => barPay (F := F) c d) := by
  rw [Finset.sdiff_empty, duties_bar]
  exact congrArg (bigSep Finset.univ) (funext fun d => payload_bar m c d)
theorem rest_send (k : Fin 32) (hk : k ≠ 0) :
    bigSep ((rd (F := F) m).duties (sendCell c k) 0 \ ∅) (fun d => (rd (F := F) m).payload (sendCell c k) 0 d) = sendPay m c k := by
  rw [Finset.sdiff_empty, duties_send m c k hk, bigSep_singleton, payload_send]
theorem rest_recv (j : Fin 32) (hj : j ≠ 0) :
    bigSep ((rd (F := F) m).duties (recvCell c j) 0 \ ∅) (fun d => (rd (F := F) m).payload (recvCell c j) 0 d) = recvPay m c j := by
  rw [Finset.sdiff_empty, duties_recv m c j hj, bigSep_singleton, payload_recv]

end Tables

end Cert.KernelIdeal.Proto

end
-- ==== Proof.Regions.lean ====
import proofs.«900828_g7700000000000829_dist_layernorm_colshard_i_m768_n512_v7x_i32_bf16_1_alg».proof.Proof.Ghost
import Idealize.ShloMosaic.Lib.Ring
import Idealize.ShloMosaic.Lib.Transfers
import Idealize.ShloMosaic.Lib.Writes
import Idealize.ShloMosaic.Lib.ValueLayout

/-!
# The exchange buffer by slots, the two rows by read shares, and what they hold

The exchange buffer is its 32 slots side by side (slot `j` is rows `2j, 2j + 1` of 64 rows of 768), so holding the
buffer is holding the slots; the two-row buffer held whole is 32 read shares and a remainder. A copy of the two rows
of device `c + j` written into slot `j` of device `c` leaves that slot as the buffer's final contents have it; so do
the device's own two stores into slot 0, and its two stores into the two-row buffer leave the rows it sends.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The elements under slot `j`: the unit rectangle at row pair `j` of the exchange buffer. -/
theorem slot_set (j : Fin 32) : (slotM j : Memref sig .tc .vmem S2x768 .bf16).view.set
    = (Rect.unit (s := S32x2x768) ![j.val, 0, 0] S1x2x768.size (slot_inb j)).set :=
  (View.set_reshape _ _).trans (View.set_slice_whole cc0_scratch4 _)

/-- Two different slots share no element: they differ along the leading axis. -/
theorem slots_disjoint (b b' : Fin 32) (h : b ≠ b') :
    Disjoint (Rect.unit (s := S32x2x768) ![b.val, 0, 0] S1x2x768.size (slot_inb b)).set (Rect.unit (s := S32x2x768) ![b'.val, 0, 0] S1x2x768.size (slot_inb b')).set :=
  Ring.lead_disjoint (s := S32x2x768) (NB := 32) (0 : Fin 3) 1 (fun j : Fin 32 => ![j.val, 0, 0]) S1x2x768.size slot_inb
    (fun b => by simp) (by decide) b b' h

/-- The 32 slots cover the buffer. -/
theorem slots_cover :
    Finset.univ.biUnion (fun b : Fin 32 => (Rect.unit (s := S32x2x768) ![b.val, 0, 0] S1x2x768.size (slot_inb b)).set) = Finset.univ :=
  Ring.lead_cover (s := S32x2x768) (NB := 32) (0 : Fin 3) 1 (fun j : Fin 32 => ![j.val, 0, 0]) S1x2x768.size slot_inb
    (fun b => by simp) (by decide) (by decide) (by decide) (by decide)

/-- A slot's points-to, spelled over the unit rectangle's elements. -/
theorem slotPts_eq (c : Dev nD) (j : Fin 32) (f : Buf (Elt F) ((c : Thread nD τ).loc cc0_scratch4)) :
    slotPts c j f = ((((c : Thread nD τ).loc cc0_scratch4) ↦[(Rect.unit (s := S32x2x768) ![j.val, 0, 0] S1x2x768.size (slot_inb j)).set]{fullShare} f : sProp 𝕄)) := by
  unfold slotPts
  exact congrArg (fun I => ((((c : Thread nD τ).loc cc0_scratch4) ↦[I]{fullShare} f : sProp 𝕄))) (slot_set j)

/-- Two different slots' element sets are disjoint. -/
theorem slotsets_disjoint (b b' : Fin 32) (h : b ≠ b') :
    Disjoint (slotM b : Memref sig .tc .vmem S2x768 .bf16).view.set (slotM b' : Memref sig .tc .vmem S2x768 .bf16).view.set := by
  have := slots_disjoint b b' h
  rw [← slot_set b, ← slot_set b'] at this
  exact this

/-- Row `a`, column `b` of slot `j` is element `(j, a, b)` of the exchange buffer. -/
theorem slot_emb (j : Fin 32) (a : Fin 2) (b : Fin 768) :
    (slotM j : Memref sig .tc .vmem S2x768 .bf16).view.emb (ValueIdx.ix2 a b) = ValueIdx.ix3 j a b := by
  show (Rect.unit (s := S32x2x768) ![j.val, 0, 0] S1x2x768.size (slot_inb j)).emb (Shape.reshapeEquiv _ (ValueIdx.ix2 a b)) = _
  rw [ValueIdx.reshapeEquiv_ix2_1ab]
  funext d
  apply Fin.ext
  rw [Rect.emb_apply]
  match d with
  | ⟨0, _⟩ => simp
  | ⟨1, _⟩ => simp
  | ⟨2, _⟩ => simp

/-- Around the ring: device `d` is `slotFor c d` places after `c`, and the device `j` places after `c` is `peer c j`. -/
def slotEquiv (c : Dev nD) : Dev nD ≃ Fin 32 where
  toFun d := slotFor c d
  invFun j := peer c j
  left_inv d := peer_slotFor c d
  right_inv j := by revert c j; decide

/-- A device a nonzero number of places round the ring is another device. -/
theorem peer_ne (c : Dev nD) (k : Fin 32) (h : k ≠ 0) : peer c k ≠ c := by revert c k; decide

/-- The buffer held whole is its 32 slots, all at the same contents. -/
theorem comm_slots (c : Dev nD) (f : Buf (Elt F) ((c : Thread nD τ).loc cc0_scratch4)) :
    ((((c : Thread nD τ).loc cc0_scratch4) ↦{fullShare} f : sProp 𝕄)) = bigSep Finset.univ (fun j : Fin 32 => slotPts c j f) := by
  rw [show (fun j : Fin 32 => slotPts c j f) = fun j : Fin 32 =>
      ((((c : Thread nD τ).loc cc0_scratch4) ↦[(Rect.unit (s := S32x2x768) ![j.val, 0, 0] S1x2x768.size (slot_inb j)).set]{fullShare} f : sProp 𝕄))
    from funext fun j => slotPts_eq c j f]
  exact Ring.pointsTo_blocks (ℓ := (c : Thread nD τ).loc cc0_scratch4) (Val := Elt F) (B := Fin 32) (q := fullShare)
    (fun j : Fin 32 => ((Rect.unit (s := S32x2x768) ![j.val, 0, 0] S1x2x768.size (slot_inb j)).set : Finset (Idx ((c : Thread nD τ).loc cc0_scratch4))))
    slots_disjoint slots_cover f

/-- Eight consecutive slots `lo … lo + 7` at one contents are the elements a load of that group of slots reads. -/
theorem comm_group (c : Dev nD) (lo : ℕ) (h : lo + 8 ≤ 32) (f : Buf (Elt F) ((c : Thread nD τ).loc cc0_scratch4)) :
    (bigSep (Finset.univ.filter fun j : Fin 32 => lo ≤ j.val ∧ j.val < lo + 8) (fun j => slotPts c j f) : sProp 𝕄)
      = (((c : Thread nD τ).loc cc0_scratch4) ↦[(Finset.univ.filter fun j : Fin 32 => lo ≤ j.val ∧ j.val < lo + 8).biUnion (fun j => (slotM j).view.set)]{fullShare} f) := by
  unfold slotPts
  exact (pointsTo_biUnion (ℓ := (c : Thread nD τ).loc cc0_scratch4) (q := fullShare) (f := f)
    (Finset.univ.filter fun j : Fin 32 => lo ≤ j.val ∧ j.val < lo + 8)
    (fun j : Fin 32 => ((slotM j : Memref sig .tc .vmem S2x768 .bf16).view.set : Finset (Idx ((c : Thread nD τ).loc cc0_scratch4))))
    (fun t _ t' _ hne => slotsets_disjoint t t' hne)).symm

/-- The two rows held whole are a remainder and 32 read shares. -/
theorem rows_shares (c : Dev nD) :
    ((((c : Thread nD τ).loc cc0_scratch3) ↦{fullShare} rowsC m c : sProp 𝕄))
      ⊣⊢ iprop((((c : Thread nD τ).loc cc0_scratch3) ↦{Transfers.shareDrop fullShare 32} rowsC m c) ∗ bigSep Finset.univ (fun k : Fin 32 => rowsPts m c k)) := by
  have e : (fun k : Fin 32 => rowsPts m c k) = fun k : Fin 32 =>
      ((((c : Thread nD τ).loc cc0_scratch3) ↦[Finset.univ]{Transfers.shareTok fullShare 32 k} rowsC m c : sProp 𝕄)) := by
    funext k
    unfold rowsPts
    exact congrArg (fun I => ((((c : Thread nD τ).loc cc0_scratch3) ↦[I]{rowsShare k} rowsC m c : sProp 𝕄))) (View.set_whole cc0_scratch3)
  rw [e]
  exact Transfers.pointsTo_toks (ℓ := (c : Thread nD τ).loc cc0_scratch3) (S := Finset.univ) (f := rowsC m c) fullShare 32

/-- A slot and the two-row buffer credit a copy the same. -/
theorem slot_credit (j : Fin 32) : (slotM j : Memref sig .tc .vmem S2x768 .bf16).view.dmaCredit = N := by
  rfl
theorem slot_amount (j : Fin 32) : (slotM j : Memref sig .tc .vmem S2x768 .bf16).view.amount (SemLoc.dma (recvSem j)) = N := by
  rfl

/-- The two rows of device `c + j` landed in slot `j` of device `c`, over any earlier contents, are that slot as the buffer's
    final contents have it. -/
theorem slot_landed (c : Dev nD) (j : Fin 32) (fd : Buf (Elt F) ((slotM j : Memref sig .tc .vmem S2x768 .bf16).view.loc (c : Thread nD τ))) :
    ((slotM j : Memref sig .tc .vmem S2x768 .bf16).view.loc (c : Thread nD τ) ↦[(slotM j : Memref sig .tc .vmem S2x768 .bf16).view.set]{fullShare}
        (slotM j : Memref sig .tc .vmem S2x768 .bf16).view.write (Elt F) fd ((rowsM : Memref sig .tc .vmem S2x768 .bf16).view.read (Elt F) (rowsC m (peer c j))) Finset.univ : sProp 𝕄)
      = slotPts c j (commC m c) := by
  unfold slotPts
  refine pointsTo_congr fun i hi => ?_
  -- an element of the slot is row a, column b of it; the copy leaves there what the sender's two rows hold at (a, b),
  -- and the buffer's final contents at (j, a, b) are by definition the rows of device c + j at (a, b)
  obtain ⟨x, -, rfl⟩ := Finset.mem_map.mp hi
  rw [View.write_emb_of_mem _ _ (Finset.mem_univ _)]
  obtain ⟨a, b, rfl⟩ : ∃ a b, x = ValueIdx.ix2 a b := ⟨_, _, ValueIdx.eq_ix2 x⟩
  rw [slot_emb]
  rfl

/-- What the entry signals hand out: slot 0 stays, and slot `(d − c) mod 32` goes to each other device `d`. -/
theorem comm_deal (c : Dev nD) (K : GSem nD τ sig → ℕ) (f : Buf (Elt F) ((c : Thread nD τ).loc cc0_scratch4)) :
    iprop(records m K ∗ (((c : Thread nD τ).loc cc0_scratch4) ↦{fullShare} f))
      ⊢ iprop(slotPts c 0 f ∗ bigSep Finset.univ (fun d : Fin 32 => barPay (F := F) d c)) := by
  have hrest : ∀ d ∈ Finset.univ.erase c, iprop(records m K ∗ slotPts c (slotFor c d) f) ⊢ barPay (F := F) d c := by
    intro d hd
    have hne : c ≠ d := fun e => (Finset.ne_of_mem_erase hd) e.symm
    have hel : (bigSep Finset.univ fun dk : Dev nD × Fin 32 => (reached ER (recvCell dk.1 dk.2) 0 : sProp 𝕄))
        ⊢ reached ER (recvCell c (slotFor c d)) 0 :=
      bigSep_elim (Φ := fun dk : Dev nD × Fin 32 => (reached ER (recvCell dk.1 dk.2) 0 : sProp 𝕄))
        (Finset.mem_univ ((c, slotFor c d) : Dev nD × Fin 32))
    unfold barPay
    rw [if_neg hne]
    unfold records
    iintro ⟨⟨-, -, -, -, -, HR⟩, H⟩
    isplitl [H]
    · iexists f; iexact H
    · iapply hel; iexact HR
  rw [comm_slots c f, bigSep_univ_equiv (slotEquiv c) (fun j : Fin 32 => slotPts c j f),
    bigSep_univ_at (fun d : Dev nD => slotPts c (slotEquiv c d) f) c,
    bigSep_univ_at (fun d : Fin 32 => barPay (F := F) d c) c]
  have hb : barPay (F := F) c c = iprop(emp) := if_pos rfl
  rw [hb]
  show iprop(records m K ∗ (slotPts c (slotFor c c) f ∗ bigSep (Finset.univ.erase c) (fun d : Dev nD => slotPts c (slotFor c d) f)))
    ⊢ iprop(slotPts c 0 f ∗ (emp ∗ bigSep (Finset.univ.erase c) (fun d : Fin 32 => barPay (F := F) d c)))
  rw [slotFor_self]
  iintro ⟨#HR, H0, Hrest⟩
  isplitl [H0]; · iexact H0
  isplitr; · iempintro
  iapply ((sep_mono_left (BI.bigSep_of_persistent (Finset.univ.erase c) (records m K))).trans
    (by rw [← bigSep_sep']; exact bigSep_mono hrest))
  isplitr
  · iexact HR
  · iexact Hrest

/-- What the barrier wait brings in, by copy number: the target slot of each copy `k = 1 … 31`. -/
theorem barPays_slots (c : Dev nD) :
    (bigSep Finset.univ (fun d : Fin 32 => barPay (F := F) c d) : sProp 𝕄)
      ⊢ bigSep (Finset.univ.erase (0 : Fin 32)) (fun k => iprop(∃ f, slotPts (F := F) (peer c k) (slotOf k) f)) := by
  rw [bigSep_univ_equiv (slotEquiv c).symm (fun d : Fin 32 => barPay (F := F) c d)]
  refine (bigSep_subset (Finset.erase_subset (0 : Fin 32) Finset.univ)).trans (bigSep_mono fun k hk => ?_)
  have hne : peer c k ≠ c := peer_ne c k (Finset.ne_of_mem_erase hk)
  show barPay (F := F) c (peer c k) ⊢ _
  unfold barPay
  rw [if_neg hne, slotFor_peer]
  iintro ⟨H, -⟩
  iexact H

end Cert.KernelIdeal.Proto

end
-- ==== Proof.Levels.lean ====
import proofs.«900828_g7700000000000829_dist_layernorm_colshard_i_m768_n512_v7x_i32_bf16_1_alg».proof.Proof.Ghost
import proofs.«900828_g7700000000000829_dist_layernorm_colshard_i_m768_n512_v7x_i32_bf16_1_alg».proof.Proof.SchedTables

/-!
# Levels and the launch credit

A device waits on its barrier cell while it still owes the arrivals of its 31 copies: receive cells lie above barrier
cells. It waits on every other cell (staging, input copies, send, receive) either owing nothing or owing only barrier
and receive cells, which lie above those. Summed over all devices, what is owed to a device's barrier cell is 32 units
and to each of its receive cells `1 … 31` one copy's credit.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

/-! ## Cells apart -/

theorem bar_eq_iff {a b : Dev nD} : Iff (barCell a = barCell b) (a = b) :=
  ⟨fun h => congrArg (fun g : GSem nD τ sig => g.1.1) h, fun h => h ▸ rfl⟩

theorem recv_eq_iff {a b : Dev nD} {i j : Fin 32} : Iff (recvCell a i = recvCell b j) (a = b ∧ i = j) := by
  constructor
  · intro h
    refine ⟨congrArg (fun g : GSem nD τ sig => g.1.1) h, Fin.ext ?_⟩
    have h2 : (recvSem i).val = (recvSem j).val := congrArg Fin.val (SemLoc.dma.inj (congrArg Prod.snd h))
    have h3 : 36 + i.val = 36 + j.val := h2
    omega
  · rintro ⟨rfl, rfl⟩; rfl

theorem bar_ne_recv (a b : Dev nD) (j : Fin 32) : barCell a ≠ recvCell b j :=
  fun h => recv_ne_bar j (congrArg Prod.snd h).symm
theorem recv_ne_bar_cell (a b : Dev nD) (j : Fin 32) : recvCell b j ≠ barCell a :=
  fun h => recv_ne_bar j (congrArg Prod.snd h)

/-- A receive cell sits at level 2. -/
theorem lv_recv (d : Dev nD) (j : Fin 32) (u : Unit) : lv (recvCell d j) u = 2 := by
  dsimp only [lv]; exact if_pos (by show 36 ≤ 36 + j.val; omega)
/-- A barrier cell sits at level 1. -/
theorem lv_bar (d : Dev nD) (u : Unit) : lv (barCell d) u = 1 := rfl

/-! ## Where the debt lies -/

/-- Whatever tail of the arrivals is owed, it is owed to receive cells. -/
theorem Osend_pos (c : Dev nD) : ∀ (n : ℕ) {g : GSem nD τ sig} {u : Unit}, 0 < Osend c n g u → ∃ d j, g = recvCell d j
  | 0, g, u, h => by simp [Osend] at h
  | n + 1, g, u, h => by
    rw [Osend, Pi.add_apply, Finsupp.add_apply, tallyAt_apply] at h
    by_cases hg : g = recvCell (peer c (Fin.ofNat 32 (31 - n))) (slotOf (Fin.ofNat 32 (31 - n))) ∧ u = ()
    · exact ⟨_, _, hg.1⟩
    · rw [if_neg hg, Nat.add_zero] at h; exact Osend_pos c n h

/-- Whatever tail of the launch debt is owed, it is owed to receive cells and barrier cells. -/
theorem Obar_pos (c : Dev nD) : ∀ (n : ℕ) {g : GSem nD τ sig} {u : Unit}, 0 < Obar c n g u →
    (∃ d j, g = recvCell d j) ∨ ∃ d, g = barCell d
  | 0, g, u, h => by rw [Obar] at h; exact Or.inl (Osend_pos c 31 h)
  | n + 1, g, u, h => by
    rw [Obar, Pi.add_apply, Finsupp.add_apply, tallyAt_apply] at h
    by_cases hg : g = barCell (Fin.ofNat 32 (31 - n)) ∧ u = ()
    · exact Or.inr ⟨_, hg.1⟩
    · rw [if_neg hg, Nat.add_zero] at h; exact Obar_pos c n h

/-- Owing all 31 arrivals, a device may wait on its barrier cell. -/
theorem mayWait_bar (c : Dev nD) :
    (levAts L lv : sProp 𝕄) ⊢ MayWait (c : Thread nD τ) (.reg barS) () (Osend c 31) :=
  MayOwe.of_cut (L := L) (lev := lv) 1
    (fun p hp => by rw [Finset.mem_singleton.mp hp, L_tc]; exact Finset.mem_singleton_self _)
    (fun g u hg => by obtain ⟨d, j, rfl⟩ := Osend_pos c 31 hg; rw [L_tc]; exact Finset.mem_singleton_self _)
    (fun p hp => by rw [Finset.mem_singleton.mp hp]; exact le_refl _)
    (fun g u hg => by obtain ⟨d, j, rfl⟩ := Osend_pos c 31 hg; rw [lv_recv]; decide)

/-- Owing any tail of its launch debt, a device may wait on a semaphore that is neither a barrier nor a receive cell. -/
theorem mayWait_low (c : Dev nD) (q : DmaSem sig) (hq : q.val < 36) (n : ℕ) (hn : n ≤ 32) :
    (levAts L lv : sProp 𝕄) ⊢ MayWait (c : Thread nD τ) (.dma q) () (Obar c n) :=
  MayOwe.of_cut (L := L) (lev := lv) 0
    (fun p hp => by rw [Finset.mem_singleton.mp hp, L_tc]; exact Finset.mem_singleton_self _)
    (fun g u hg => by
      rcases Obar_pos c n hg with ⟨d, j, rfl⟩ | ⟨d, rfl⟩ <;> (rw [L_tc]; exact Finset.mem_singleton_self _))
    (fun p hp => by
      rw [Finset.mem_singleton.mp hp]; dsimp only [lv]; rw [if_neg (by omega)])
    (fun g u hg => by
      rcases Obar_pos c n hg with ⟨d, j, rfl⟩ | ⟨d, rfl⟩
      · rw [lv_recv]; decide
      · rw [lv_bar]; decide)
theorem mayWait_low_send (c : Dev nD) (q : DmaSem sig) (hq : q.val < 36) (n : ℕ) (hn : n ≤ 31) :
    (levAts L lv : sProp 𝕄) ⊢ MayWait (c : Thread nD τ) (.dma q) () (Osend c n) :=
  MayOwe.of_cut (L := L) (lev := lv) 0
    (fun p hp => by rw [Finset.mem_singleton.mp hp, L_tc]; exact Finset.mem_singleton_self _)
    (fun g u hg => by obtain ⟨d, j, rfl⟩ := Osend_pos c n hg; rw [L_tc]; exact Finset.mem_singleton_self _)
    (fun p hp => by
      rw [Finset.mem_singleton.mp hp]; dsimp only [lv]; rw [if_neg (by omega)])
    (fun g u hg => by obtain ⟨d, j, rfl⟩ := Osend_pos c n hg; rw [lv_recv]; decide)

/-! ## The launch credit -/

/-- The arrivals owe a barrier cell nothing. -/
theorem Osend_bar (d c : Dev nD) : ∀ n : ℕ, Osend d n (barCell c) () = 0
  | 0 => by simp [Osend]
  | n + 1 => by
    rw [Osend, Pi.add_apply, Finsupp.add_apply, Osend_bar d c n, tallyAt_ne_cell (bar_ne_recv _ _ _), Finsupp.zero_apply,
      Nat.add_zero]

/-- After `n` of the entry signals are added, the barrier cells owed a unit are those of the devices `32 − n … 31`. -/
theorem Obar_bar (d c : Dev nD) : ∀ n : ℕ, n ≤ 32 → Obar d n (barCell c) () = if 32 - n ≤ c.val then 1 else 0
  | 0, _ => by
    have hc : c.val < 32 := c.isLt
    rw [Obar, Osend_bar, if_neg (by omega)]
  | n + 1, hn => by
    have hc : c.val < 32 := c.isLt
    have hk : (Fin.ofNat 32 (31 - n) : Fin 32).val = 31 - n := by show (31 - n) % 32 = 31 - n; omega
    have hcell : Iff (barCell c = barCell (Fin.ofNat 32 (31 - n)) ∧ () = ()) (c.val = 31 - n) :=
      ⟨fun h => by rw [bar_eq_iff.mp h.1, hk],
       fun h => ⟨by rw [show c = Fin.ofNat 32 (31 - n) from Fin.ext (by rw [hk]; exact h)], rfl⟩⟩
    rw [Obar, Pi.add_apply, Finsupp.add_apply, Obar_bar d c n (by omega), tallyAt_apply, if_congr hcell rfl rfl]
    split_ifs <;> omega

/-- What device `d` owes device `c`'s barrier cell: one unit. -/
theorem owed_bar (d c : Dev nD) : O₀ d (barCell c) () = 1 := by
  unfold O₀
  rw [Obar_bar d c 32 (le_refl _), if_pos (by omega)]

/-- The entry signals owe a receive cell nothing. -/
theorem Obar_recv (d c : Dev nD) (j : Fin 32) : ∀ n : ℕ, Obar d n (recvCell c j) () = Osend d 31 (recvCell c j) ()
  | 0 => by rw [Obar]
  | n + 1 => by
    rw [Obar, Pi.add_apply, Finsupp.add_apply, Obar_recv d c j n, tallyAt_ne_cell (recv_ne_bar_cell _ _ _), Finsupp.zero_apply,
      Nat.add_zero]

/-- After `n` of the arrivals are added, the receive cells owed a copy's credit are the slots `1 … n`: slot `j` of the
    device that has `d` `j` places after it. -/
theorem Osend_recv (d c : Dev nD) (j : Fin 32) : ∀ n : ℕ, n ≤ 31 →
    Osend d n (recvCell c j) () = if d = peer c j then (if 1 ≤ j.val ∧ j.val ≤ n then N else 0) else 0
  | 0, _ => by
    rw [if_neg (show ¬ (1 ≤ j.val ∧ j.val ≤ 0) from fun h => by omega), ite_self]; simp [Osend]
  | n + 1, hn => by
    have hj32 : j.val < 32 := j.isLt
    have hk : (Fin.ofNat 32 (31 - n) : Fin 32).val = 31 - n := by show (31 - n) % 32 = 31 - n; omega
    have hs : (slotOf (Fin.ofNat 32 (31 - n))).val = n + 1 := by
      show (32 - (Fin.ofNat 32 (31 - n) : Fin 32).val) % 32 = n + 1
      rw [hk]; omega
    rw [Osend, Pi.add_apply, Finsupp.add_apply, Osend_recv d c j n (by omega), tallyAt_apply]
    by_cases hd : d = peer c j
    · have hcell : Iff (recvCell c j = recvCell (peer d (Fin.ofNat 32 (31 - n))) (slotOf (Fin.ofNat 32 (31 - n))) ∧ () = ())
          (j.val = n + 1) := by
        constructor
        · rintro ⟨h, _⟩
          rw [(recv_eq_iff.mp h).2, hs]
        · intro hj
          have e1 : slotOf (Fin.ofNat 32 (31 - n)) = j := Fin.ext (by rw [hs, hj])
          have e2 : Fin.ofNat 32 (31 - n) = slotOf j := Fin.ext (by rw [hk]; show 31 - n = (32 - j.val) % 32; omega)
          have e3 : peer d (Fin.ofNat 32 (31 - n)) = c := by rw [hd, e2]; exact peer_slotOf c j
          exact ⟨by rw [e3, e1], rfl⟩
      rw [if_pos hd, if_pos hd, if_congr hcell rfl rfl]
      split_ifs <;> omega
    · have hne : ¬ (recvCell c j = recvCell (peer d (Fin.ofNat 32 (31 - n))) (slotOf (Fin.ofNat 32 (31 - n))) ∧ () = ()) := by
        rintro ⟨h, _⟩
        obtain ⟨h1, h2⟩ := recv_eq_iff.mp h
        apply hd
        rw [h1, h2]; exact (peer_slotOf d _).symm
      rw [if_neg hd, if_neg hd, if_neg hne]

/-- What device `d` owes receive cell `j` of device `c`: a copy's credit if `d` is the device `j` places after `c` and `j ≠ 0`. -/
theorem owed_recv (d c : Dev nD) (j : Fin 32) : O₀ d (recvCell c j) () = if j ≠ 0 ∧ d = peer c j then N else 0 := by
  have hj32 : j.val < 32 := j.isLt
  unfold O₀
  rw [Obar_recv, Osend_recv d c j 31 (le_refl _)]
  by_cases hd : d = peer c j
  · rw [if_pos hd]
    by_cases hj : j = 0
    · rw [if_neg (show ¬ (j ≠ 0 ∧ d = peer c j) from fun h => h.1 hj),
        if_neg (show ¬ (1 ≤ j.val ∧ j.val ≤ 31) from fun h => by rw [hj] at h; exact absurd h.1 (by decide))]
    · have hj0 : j.val ≠ 0 := fun e => hj (Fin.ext e)
      rw [if_pos (show j ≠ 0 ∧ d = peer c j from ⟨hj, hd⟩), if_pos (show 1 ≤ j.val ∧ j.val ≤ 31 from ⟨by omega, by omega⟩)]
  · rw [if_neg hd, if_neg (show ¬ (j ≠ 0 ∧ d = peer c j) from fun h => hd h.2)]

/-- Summed over all devices, a barrier cell is owed 32 units. -/
theorem launch_bar (c : Dev nD) :
    tallyOn (barCell c) (launchCredit (Pipeline.owing O₀) 0 (barCell c)) = (tallyAt (barCell c) () 32 : CellTallies nD τ sig Unit) := by
  unfold tallyAt; refine congrArg _ (Finsupp.ext fun u => ?_); cases u
  rw [Pipeline.launchCredit_owing, Finsupp.single_eq_same, Finset.sum_congr rfl fun d _ => owed_bar d c, Finset.sum_const,
    Finset.card_univ, Fintype.card_fin, smul_eq_mul]
  rfl

/-- Summed over all devices, receive cell `j ≠ 0` is owed one copy's credit. -/
theorem launch_recv (c : Dev nD) (j : Fin 32) (hj : j ≠ 0) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same,
    Finset.sum_congr rfl fun d _ => (owed_recv d c j).trans (if_congr (and_iff_right hj) rfl rfl),
    Finset.sum_ite_eq' Finset.univ (peer c j) fun _ => N, if_pos (Finset.mem_univ _)]

/-- The credit a device is dealt at launch. -/
theorem launch_credits (c : Dev nD) : (Pipeline.launchCred O₀ c : sProp 𝕄) ⊢ credits c := by
  unfold Pipeline.launchCred credits
  rw [bigSep_univ_at _ (SemLoc.reg barS), launch_bar]
  refine sep_mono_right ?_
  have hsub : (Finset.univ.erase (0 : Fin 32)).image (fun j => (SemLoc.dma (recvSem j) : SemLoc sig))
      ⊆ Finset.univ.erase (SemLoc.reg barS) := by
    intro sm hsm
    obtain ⟨j, _, rfl⟩ := Finset.mem_image.mp hsm
    exact Finset.mem_erase.mpr ⟨recv_ne_bar j, Finset.mem_univ _⟩
  refine (bigSep_subset hsub).trans ?_
  rw [bigSep_image_of_injOn (fun a _ b _ h => Fin.ext (by
    have h2 : (recvSem a).val = (recvSem b).val := congrArg Fin.val (SemLoc.dma.inj h)
    have h3 : 36 + a.val = 36 + b.val := h2
    omega))]
  exact bigSep_mono fun j hj => by rw [launch_recv c j (Finset.ne_of_mem_erase hj)]; exact .refl _

end Cert.KernelIdeal.Proto

end
-- ==== Proof.Steps.lean ====
import proofs.«900828_g7700000000000829_dist_layernorm_colshard_i_m768_n512_v7x_i32_bf16_1_alg».proof.Proof.Ghost
import proofs.«900828_g7700000000000829_dist_layernorm_colshard_i_m768_n512_v7x_i32_bf16_1_alg».proof.Proof.SchedTables
import proofs.«900828_g7700000000000829_dist_layernorm_colshard_i_m768_n512_v7x_i32_bf16_1_alg».proof.Proof.Regions
import proofs.«900828_g7700000000000829_dist_layernorm_colshard_i_m768_n512_v7x_i32_bf16_1_alg».proof.Proof.Levels

/-!
# One rule per kind of cross-device step, at a symbolic device

The body pays its duties in a fixed order, so what it still holds is always a tail of a list: the entry signals
to devices `lo, lo + 1, …, 31` still to send, the copies `lo, …, 31` still to start. Each rule takes the head
off such a tail.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

variable (K : GSem nD τ sig → ℕ)

/-- What device `c` still holds for the entry signal to device `d`: the token of its unit on `d`'s barrier cell and what
    the signal hands `d`. -/
def sigRes (c : Dev nD) (d : Fin 32) : sProp 𝕄 := iprop(dutyTok ER (barCell d) 0 (c : Fin 32) ∗ barPay (F := F) d c)

/-- What device `c` still holds for copy `k`: the tokens of its departure and its arrival, the read share of the two rows it
    lends, and the target's slot. -/
def sendRes (c : Dev nD) (k : Fin 32) : sProp 𝕄 :=
  iprop(dutyTok ER (sendCell c k) 0 (0 : Fin 32) ∗ dutyTok ER (recvCell (peer c k) (slotOf k)) 0 (0 : Fin 32)
    ∗ rowsPts m c k ∗ ∃ f, slotPts (F := F) (peer c k) (slotOf k) f)

/-! ## Out of the records: each cell's invariant, and that it is at its first round -/

/-- One summand out of a `bigSep`. -/
theorem bigSep_pick {I : Type} [DecidableEq I] {s : Finset I} {i : I} (hi : i ∈ s) (Φ : I → sProp 𝕄) : bigSep s Φ ⊢ Φ i :=
  bigSep_elim hi

theorem inv_bar (d : Dev nD) : records (F := F) m K ⊢ cellInv ER (rd m) (K (barCell d)) (barCell d) := by
  unfold records
  iintro ⟨H, -, -, -, -, -⟩
  iapply (bigSep_pick (Finset.mem_univ d) (fun d : Dev nD => cellInv ER (rd (F := F) m) (K (barCell d)) (barCell d)))
  iexact H
theorem inv_send (c : Dev nD) (k : Fin 32) : records (F := F) m K ⊢ cellInv ER (rd m) (K (sendCell c k)) (sendCell c k) := by
  unfold records
  iintro ⟨-, H, -, -, -, -⟩
  iapply (bigSep_pick (Finset.mem_univ (c, k)) (fun dk : Dev nD × Fin 32 => cellInv ER (rd (F := F) m) (K (sendCell dk.1 dk.2)) (sendCell dk.1 dk.2)))
  iexact H
theorem inv_recv (c : Dev nD) (j : Fin 32) : records (F := F) m K ⊢ cellInv ER (rd m) (K (recvCell c j)) (recvCell c j) := by
  unfold records
  iintro ⟨-, -, H, -, -, -⟩
  iapply (bigSep_pick (Finset.mem_univ (c, j)) (fun dk : Dev nD × Fin 32 => cellInv ER (rd (F := F) m) (K (recvCell dk.1 dk.2)) (recvCell dk.1 dk.2)))
  iexact H
theorem reached_bar (d : Dev nD) : records (F := F) m K ⊢ reached ER (barCell d) 0 := by
  unfold records
  iintro ⟨-, -, -, H, -, -⟩
  iapply (bigSep_pick (Finset.mem_univ d) (fun d : Dev nD => (reached ER (barCell d) 0 : sProp 𝕄)))
  iexact H
theorem reached_send (c : Dev nD) (k : Fin 32) : records (F := F) m K ⊢ reached ER (sendCell c k) 0 := by
  unfold records
  iintro ⟨-, -, -, -, H, -⟩
  iapply (bigSep_pick (Finset.mem_univ (c, k)) (fun dk : Dev nD × Fin 32 => (reached ER (sendCell dk.1 dk.2) 0 : sProp 𝕄)))
  iexact H
theorem reached_recv (c : Dev nD) (j : Fin 32) : records (F := F) m K ⊢ reached ER (recvCell c j) 0 := by
  unfold records
  iintro ⟨-, -, -, -, -, H⟩
  iapply (bigSep_pick (Finset.mem_univ (c, j)) (fun dk : Dev nD × Fin 32 => (reached ER (recvCell dk.1 dk.2) 0 : sProp 𝕄)))
  iexact H

/-- The debt before the signal to device `lo` is the debt after it and that signal's unit. -/
theorem Obar_head (c : Dev nD) (lo : ℕ) (hlo : lo < 32) :
    Obar c (32 - lo) = Obar c (31 - lo) + tallyAt (barCell (⟨lo, hlo⟩ : Dev nD)) () 1 := by
  have e : 32 - lo = (31 - lo) + 1 := by omega
  rw [e]
  show Obar c (31 - lo) + tallyAt (barCell (Fin.ofNat 32 (31 - (31 - lo)))) () 1 = _
  have e2 : (Fin.ofNat 32 (31 - (31 - lo)) : Fin 32) = ⟨lo, hlo⟩ := Fin.ext (by show (31 - (31 - lo)) % 32 = lo; omega)
  rw [e2]

/-- The entry signal to device `lo`: one unit off what the device owes, the head off the signals still to send. -/
theorem sig_step (c : Dev nD) (lo : ℕ) (hlo : lo < 32) (W : Waits sig Unit) {α : Type} {Q : α → sProp 𝕄}
    {k : PUnit → Prog (TpuEff nD τ sig (Elt F) Λ₀ .tc) α} :
    iprop(records m K ∗ owes (c : Thread nD τ) (Obar c (32 - lo)) W ∗ bigSep (rangeSet 32 lo 32) (sigRes (F := F) c))
      ⊢ iprop(((owes (c : Thread nD τ) (Obar c (31 - lo)) W ∗ bigSep (rangeSet 32 (lo + 1) 32) (sigRes (F := F) c))
          -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (((⟨lo, hlo⟩ : Dev nD)) : Thread nD τ) barS 1) k) Q) := by
  rw [Ring.bigSep_rangeSet_head (by omega : lo < 32) hlo]
  unfold sigRes
  iintro ⟨#HR, HO, ⟨Htok, Hpay⟩, Hrest⟩ Hk
  iapply (Rounds.wp_signal 𝒱₀ ER (rd m) (c : Thread nD τ) none (dst := ((⟨lo, hlo⟩ : Dev nD) : Thread nD τ)) (κ := K (barCell ⟨lo, hlo⟩))
      (d := (c : Fin 32)) (by rw [duties_bar]; exact Finset.mem_univ _) (amount_bar m ⟨lo, hlo⟩ (c : Fin 32)) () (Obar c (31 - lo)) (Obar_head c lo hlo))
    $$ [HO Htok Hpay]
  · isplitr; · iapply (inv_bar m K ⟨lo, hlo⟩); iexact HR
    isplitl [HO]; · iexact HO
    isplitl [Htok]; · iexact Htok
    isplitl [Hpay]; · rw [payload_bar m ⟨lo, hlo⟩ c]; iexact Hpay
    iapply (reached_bar m K ⟨lo, hlo⟩); iexact HR
  iintro HO
  iapply Hk
  isplitl [HO]; · iexact HO
  iexact Hrest

/-- The wait for all 32 entry signals, still owing every arrival: every device's hand-over comes with it. -/
theorem bar_wait (c : Dev nD) (W : Waits sig Unit) {α : Type} {Q : α → sProp 𝕄}
    {k : PUnit → Prog (TpuEff nD τ sig (Elt F) Λ₀ .tc) α} :
    iprop(records m K ∗ cred (tallyAt (barCell c) () 32) ∗ owes (c : Thread nD τ) (Osend c 31) W ∗ levAts L lv
        ∗ atPos ER (barCell c) 0 ∅ 0)
      ⊢ iprop(((owes (c : Thread nD τ) (Osend c 31) (insert (SemLoc.reg barS, ()) W) ∗ atPos ER (barCell c) 1 ∅ 0
            ∗ bigSep Finset.univ (fun d : Fin 32 => barPay (F := F) c d))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 32) k) Q) := by
  iintro ⟨#HR, Hc, HO, Hlev, Hat⟩ Hk
  iapply (Rounds.wp_wait_rest_token 𝒱₀ ER (rd m) (c : Thread nD τ) none (κ := K (barCell c))
      (wpE_semWait_eq 𝒱₀ (c : Thread nD τ) none Set.univ) (Set.mem_univ _) () (O := Osend c 31) (W := W) (R := 0) (m := 0) (T := ∅)
      (by rw [expect_bar])) $$ [Hc HO Hat Hlev]
  · isplitr; · iapply (inv_bar m K c); iexact HR
    isplitl [Hc]; · iexact Hc
    isplitl [HO]; · iexact HO
    isplitl [Hlev]; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- Copy `lo` from 1 on is not copy 0, and its target slot `32 − lo` is not slot 0. -/
theorem copy_ne (lo : ℕ) (hlo : lo < 32) (h1 : 1 ≤ lo) : (⟨lo, hlo⟩ : Fin 32) ≠ 0 := fun h => by
  have := congrArg Fin.val h
  change lo = 0 at this
  omega
theorem slotOf_ne (lo : ℕ) (hlo : lo < 32) (h1 : 1 ≤ lo) : slotOf ⟨lo, hlo⟩ ≠ 0 := fun h => by
  have := congrArg Fin.val h
  change (32 - lo) % 32 = 0 at this
  omega

/-- The debt before copy `lo` is the debt after it and that copy's arrival. -/
theorem Osend_head (c : Dev nD) (lo : ℕ) (hlo : lo < 32) (h1 : 1 ≤ lo) :
    Osend c (32 - lo) = Osend c (31 - lo) + tallyAt (recvCell (peer c ⟨lo, hlo⟩) (slotOf ⟨lo, hlo⟩)) () N := by
  have e : 32 - lo = (31 - lo) + 1 := by omega
  rw [e]
  show Osend c (31 - lo) + tallyAt (recvCell (peer c (Fin.ofNat 32 (31 - (31 - lo)))) (slotOf (Fin.ofNat 32 (31 - (31 - lo))))) () N = _
  have e2 : (Fin.ofNat 32 (31 - (31 - lo)) : Fin 32) = ⟨lo, hlo⟩ := Fin.ext (by show (31 - (31 - lo)) % 32 = lo; omega)
  rw [e2]
/-- Copy `lo` (1 ≤ lo ≤ 31) to device `c + lo`, into its slot `32 − lo`: the arrival's credit off what the device owes, the
    head off the copies still to start, the departure's credit in hand. -/
theorem send_step (c : Dev nD) (lo : ℕ) (hlo : lo < 32) (h1 : 1 ≤ lo) (dst : Dev nD) (hdst : dst = peer c ⟨lo, hlo⟩)
    (j : Fin 32) (hj : j = slotOf ⟨lo, hlo⟩) (W : Waits sig Unit)
    {hsc : (slotM j : Memref sig (Dev.tc dst : Thread nD τ).2.kind .vmem S2x768 .bf16).view.ref.isScScratch = false}
    {hsrc : (rowsM : Memref sig .tc .vmem S2x768 .bf16).view.WordExact} {hdw : (slotM j : Memref sig .tc .vmem S2x768 .bf16).view.WordExact}
    {hsem : DmaTarget.Typed .vmem (.dma (recvSem j)) (.remote (Dev.tc dst : Thread nD τ) (slotM j : Memref sig .tc .vmem S2x768 .bf16) (.dma (sendSem ⟨lo, hlo⟩)) hsc)}
    {α : Type} {Q : α → sProp 𝕄} {k : PUnit → Prog (TpuEff nD τ sig (Elt F) Λ₀ .tc) α} :
    iprop(records m K ∗ owes (c : Thread nD τ) (Osend c (32 - lo)) W ∗ bigSep (rangeSet 32 lo 32) (sendRes m c))
      ⊢ iprop(((cred (tallyAt (sendCell c ⟨lo, hlo⟩) () N) ∗ owes (c : Thread nD τ) (Osend c (31 - lo)) W
            ∗ bigSep (rangeSet 32 (lo + 1) 32) (sendRes m c))
          -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma rowsM (.remote (Dev.tc dst : Thread nD τ) (slotM j) (.dma (sendSem ⟨lo, hlo⟩)) hsc) (.dma (recvSem j)) hsrc hdw hsem) k) Q) := by
  subst hdst
  subst hj
  rw [Ring.bigSep_rangeSet_head (by omega : lo < 32) hlo]
  unfold sendRes
  iintro ⟨#HR, HO, ⟨Hts, Htr, Hrows, ⟨%f, Hslot⟩⟩, Hrest⟩ Hk
  unfold rowsPts slotPts
  iapply (Rounds.wp_send_pointsTo 𝒱₀ ER (rd m) (c : Thread nD τ) none (κ₁ := K (sendCell c ⟨lo, hlo⟩))
      (κ₂ := K (recvCell (peer c ⟨lo, hlo⟩) (slotOf ⟨lo, hlo⟩))) (r₁ := 0) (r₂ := 0) (d₁ := (0 : Fin 32)) (d₂ := (0 : Fin 32)) (fd := f)
      (by rw [duties_send m c _ (copy_ne lo hlo h1)]; exact Finset.mem_singleton_self _)
      (by rw [duties_recv m (peer c ⟨lo, hlo⟩) _ (slotOf_ne lo hlo h1)]; exact Finset.mem_singleton_self _)
      () () N (slot_amount _) (amount_send m c _ 0) (amount_recv m (peer c ⟨lo, hlo⟩) _ 0) (Osend c (31 - lo)) (Osend_head c lo hlo h1) (W := W)
      (by rw [payload_send]; exact BI.Entails.refl _)
      (by
        rw [payload_recv]; unfold recvPay
        have e := slot_landed m (peer c ⟨lo, hlo⟩) (slotOf ⟨lo, hlo⟩) f
        rw [peer_slotOf] at e
        exact Entails.of_eq e))
    $$ [HO Hts Htr Hrows Hslot]
  · isplitr; · iapply (inv_send m K c ⟨lo, hlo⟩); iexact HR
    isplitr; · iapply (inv_recv m K (peer c ⟨lo, hlo⟩) (slotOf ⟨lo, hlo⟩)); iexact HR
    isplitl [Hrows]; · iexact Hrows
    isplitl [Hslot]; · iexact Hslot
    isplitl [HO]; · iexact HO
    isplitl [Hts]; · iexact Hts
    isplitr; · iapply (reached_send m K c ⟨lo, hlo⟩); iexact HR
    isplitl [Htr]; · iexact Htr
    iapply (reached_recv m K (peer c ⟨lo, hlo⟩) (slotOf ⟨lo, hlo⟩)); iexact HR
  iintro ⟨Hc, HO⟩
  iapply Hk
  isplitl [Hc]; · iexact Hc
  isplitl [HO]; · iexact HO
  iexact Hrest

/-- The wait for the landing in slot `j` (1 ≤ j ≤ 31), owing nothing: the slot comes back at the buffer's final contents. -/
theorem recv_wait (c : Dev nD) (j : Fin 32) (hj : j ≠ 0) (W : Waits sig Unit)
    {hsrc : (rowsM : Memref sig .tc .vmem S2x768 .bf16).view.WordExact} {hdw : (slotM j : Memref sig .tc .vmem S2x768 .bf16).view.WordExact}
    {α : Type} {Q : α → sProp 𝕄} {k : PUnit → Prog (TpuEff nD τ sig (Elt F) Λ₀ .tc) α} :
    iprop(records m K ∗ cred (tallyAt (recvCell c j) () N) ∗ owes (c : Thread nD τ) 0 W ∗ atPos ER (recvCell c j) 0 ∅ 0)
      ⊢ iprop(((owes (c : Thread nD τ) 0 (insert (SemLoc.dma (recvSem j), ()) W) ∗ atPos ER (recvCell c j) 1 ∅ 0 ∗ slotPts c j (commC m c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (recvSem j) rowsM (slotM j) hsrc hdw) k) Q) := by
  iintro ⟨#HR, Hc, HO, Hat⟩ Hk
  ihave Hc' := (Entails.of_eq (show (cred (tallyAt (recvCell c j) () N) : sProp 𝕄)
      = cred (tallyAt (recvCell c j) () (slotM j : Memref sig .tc .vmem S2x768 .bf16).view.dmaCredit) from by rw [slot_credit j])) $$ Hc
  iapply (Rounds.wp_wait_rest_token 𝒱₀ ER (rd m) (c : Thread nD τ) none (κ := K (recvCell c j))
      (k' := (slotM j : Memref sig .tc .vmem S2x768 .bf16).view.dmaCredit)
      (wpE_waitDma2_eq 𝒱₀ (c : Thread nD τ) none Set.univ) (Set.mem_univ _) () (O := 0) (W := W) (R := 0) (m := 0) (T := ∅)
      (by rw [Nat.zero_add, expect_recv m c j hj, slot_credit j])) $$ [Hc' HO Hat]
  · isplitr; · iapply (inv_recv m K c j); iexact HR
    isplitl [Hc']; · iexact Hc'
    isplitl [HO]; · iexact HO
    isplitr; · rw [MayWait_zero]; iempintro
    iexact Hat
  iintro ⟨HO, Hat, -, Hpay⟩
  ihave Hp := (Entails.of_eq (rest_recv m c j hj)) $$ Hpay
  unfold recvPay
  iapply Hk
  isplitl [HO]; · iexact HO
  isplitl [Hat]; · iexact Hat
  iexact Hp

/-- The wait for the departure of copy `k` (1 ≤ k ≤ 31), owing nothing: the lent share of the two rows comes back. -/
theorem send_wait (c : Dev nD) (k' : Fin 32) (hk : k' ≠ 0) (j : Fin 32) (W : Waits sig Unit)
    {hsrc : (slotM j : Memref sig .tc .vmem S2x768 .bf16).view.WordExact} {hdw : (rowsM : Memref sig .tc .vmem S2x768 .bf16).view.WordExact}
    {α : Type} {Q : α → sProp 𝕄} {k : PUnit → Prog (TpuEff nD τ sig (Elt F) Λ₀ .tc) α} :
    iprop(records m K ∗ cred (tallyAt (sendCell c k') () N) ∗ owes (c : Thread nD τ) 0 W ∗ atPos ER (sendCell c k') 0 ∅ 0)
      ⊢ iprop(((owes (c : Thread nD τ) 0 (insert (SemLoc.dma (sendSem k'), ()) W) ∗ atPos ER (sendCell c k') 1 ∅ 0 ∗ rowsPts m c k')
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sendSem k') (slotM j) rowsM hsrc hdw) k) Q) := by
  iintro ⟨#HR, Hc, HO, Hat⟩ Hk
  iapply (Rounds.wp_wait_rest_token 𝒱₀ ER (rd m) (c : Thread nD τ) none (κ := K (sendCell c k'))
      (k' := N)
      (wpE_waitDma2_eq 𝒱₀ (c : Thread nD τ) none Set.univ) (Set.mem_univ _) () (O := 0) (W := W) (R := 0) (m := 0) (T := ∅)
      (by rw [Nat.zero_add, expect_send m c k' hk])) $$ [Hc HO Hat]
  · isplitr; · iapply (inv_send m K c k'); iexact HR
    isplitl [Hc]; · iexact Hc
    isplitl [HO]; · iexact HO
    isplitr; · rw [MayWait_zero]; iempintro
    iexact Hat
  iintro ⟨HO, Hat, -, Hpay⟩
  ihave Hp := (Entails.of_eq (rest_send m c k' hk)) $$ Hpay
  unfold sendPay
  iapply Hk
  isplitl [HO]; · iexact HO
  isplitl [Hat]; · iexact Hat
  iexact Hp

/-- `bigSep` is monotone, summand by summand. -/
theorem bigSep_each {I : Type} {s : Finset I} {Φ Ψ : I → sProp 𝕄} (h : ∀ i ∈ s, Φ i ⊢ Ψ i) : bigSep s Φ ⊢ bigSep s Ψ :=
  bigSep_mono h

/-- A send cell one round on closes: its counter is back at zero. -/
theorem close_send (c : Dev nD) (k : Fin 32) :
    iprop(records m K ∗ atPos ER (sendCell c k) 1 ∅ 0) ⊢ (|={Set.univ}=> semVal (sendCell c k) 0 : sProp 𝕄) := by
  iintro ⟨#HR, Hat⟩
  iapply (Rounds.cell_close ER (rd m) (Set.mem_univ (K (sendCell c k))) (fun h => h) (R := 1) (duties_later m (sendCell c k)))
  isplitr; · iapply (inv_send m K c k); iexact HR
  iexact Hat
/-- A receive cell one round on closes likewise. -/
theorem close_recv (c : Dev nD) (j : Fin 32) :
    iprop(records m K ∗ atPos ER (recvCell c j) 1 ∅ 0) ⊢ (|={Set.univ}=> semVal (recvCell c j) 0 : sProp 𝕄) := by
  iintro ⟨#HR, Hat⟩
  iapply (Rounds.cell_close ER (rd m) (Set.mem_univ (K (recvCell c j))) (fun h => h) (R := 1) (duties_later m (recvCell c j)))
  isplitr; · iapply (inv_recv m K c j); iexact HR
  iexact Hat

/-- Cells `1 … 31` of either kind close together. -/
theorem close_sends (c : Dev nD) :
    iprop(records m K ∗ bigSep (Finset.univ.erase (0 : Fin 32)) fun k => atPos ER (sendCell c k) 1 ∅ 0)
      ⊢ (|={Set.univ}=> bigSep (Finset.univ.erase (0 : Fin 32)) fun k => semVal (sendCell c k) 0 : sProp 𝕄) := by
  iintro ⟨#HR, Hs⟩
  iapply (bigSep_fupd (Finset.univ.erase (0 : Fin 32)) (fun k : Fin 32 => (semVal (sendCell c k) 0 : sProp 𝕄)))
  iapply (bigSep_each (s := Finset.univ.erase (0 : Fin 32)) (Φ := fun k : Fin 32 => iprop(records (F := F) m K ∗ atPos ER (sendCell c k) 1 ∅ 0))
    (fun k _ => close_send m K c k))
  rw [bigSep_sep']
  isplitr; · iapply (bigSep_of_persistent (Finset.univ.erase (0 : Fin 32)) (records (F := F) m K)); iexact HR
  iexact Hs
theorem close_recvs (c : Dev nD) :
    iprop(records m K ∗ bigSep (Finset.univ.erase (0 : Fin 32)) fun j => atPos ER (recvCell c j) 1 ∅ 0)
      ⊢ (|={Set.univ}=> bigSep (Finset.univ.erase (0 : Fin 32)) fun j => semVal (recvCell c j) 0 : sProp 𝕄) := by
  iintro ⟨#HR, Hs⟩
  iapply (bigSep_fupd (Finset.univ.erase (0 : Fin 32)) (fun j : Fin 32 => (semVal (recvCell c j) 0 : sProp 𝕄)))
  iapply (bigSep_each (s := Finset.univ.erase (0 : Fin 32)) (Φ := fun j : Fin 32 => iprop(records (F := F) m K ∗ atPos ER (recvCell c j) 1 ∅ 0))
    (fun j _ => close_recv m K c j))
  rw [bigSep_sep']
  isplitr; · iapply (bigSep_of_persistent (Finset.univ.erase (0 : Fin 32)) (records (F := F) m K)); iexact HR
  iexact Hs
/-- Every send and receive cell closed at the end of the body: the 64 counters back in the device's hand at zero
    (cells 0 never opened a round; cells 1–31 are one round on). -/
theorem close_cells (c : Dev nD) :
    iprop(records m K
        ∗ atPos ER (sendCell c 0) 0 ∅ 0 ∗ atPos ER (recvCell c 0) 0 ∅ 0
        ∗ (bigSep (Finset.univ.erase (0 : Fin 32)) fun k => atPos ER (sendCell c k) 1 ∅ 0)
        ∗ (bigSep (Finset.univ.erase (0 : Fin 32)) fun j => atPos ER (recvCell c j) 1 ∅ 0))
      ⊢ (|={Set.univ}=> iprop((bigSep Finset.univ fun k : Fin 32 => semVal (sendCell c k) 0)
          ∗ (bigSep Finset.univ fun j : Fin 32 => semVal (recvCell c j) 0)) : sProp 𝕄) := by
  rw [bigSep_univ_at (fun k : Fin 32 => (semVal (sendCell c k) 0 : sProp 𝕄)) 0, bigSep_univ_at (fun j : Fin 32 => (semVal (recvCell c j) 0 : sProp 𝕄)) 0]
  iintro ⟨#HR, Hs0, Hr0, Hs, Hr⟩
  imod (Rounds.cell_close ER (rd m) (Set.mem_univ (K (sendCell c 0))) (fun h => h) (R := 0) (fun r _ => duties_send0 m c r)) $$ [Hs0] with Hzs
  · isplitr; · iapply (inv_send m K c 0); iexact HR
    iexact Hs0
  imod (Rounds.cell_close ER (rd m) (Set.mem_univ (K (recvCell c 0))) (fun h => h) (R := 0) (fun r _ => duties_recv0 m c r)) $$ [Hr0] with Hzr
  · isplitr; · iapply (inv_recv m K c 0); iexact HR
    iexact Hr0
  imod (close_sends m K c) $$ [Hs] with Hs
  · isplitr; · iexact HR
    iexact Hs
  imod (close_recvs m K c) $$ [Hr] with Hr
  · isplitr; · iexact HR
    iexact Hr
  imodintro
  isplitl [Hzs Hs]
  · isplitl [Hzs]; · iexact Hzs
    iexact Hs
  · isplitl [Hzr]; · iexact Hzr
    iexact Hr

end Cert.KernelIdeal.Proto

end
-- ==== Proof.DevEq.lean ====
import proofs.«900828_g7700000000000829_dist_layernorm_colshard_i_m768_n512_v7x_i32_bf16_1_alg».proof.Proof.Sched

namespace Cert.KernelIdeal.Proto

open Cert.KernelIdeal Cert.KernelIdeal.Gen Idealize.ShloMosaic Idealize.ShloMosaic.Tactic

@[sl_canon] theorem dev1_eq : (⟨k0_dev1, k0_dev1_lt⟩ : Dev nD) = ⟨0, by decide⟩ := Fin.ext k0_dev1_eq
@[sl_canon] theorem dev2_eq : (⟨k0_dev2, k0_dev2_lt⟩ : Dev nD) = ⟨1, by decide⟩ := Fin.ext k0_dev2_eq
@[sl_canon] theorem dev3_eq : (⟨k0_dev3, k0_dev3_lt⟩ : Dev nD) = ⟨2, by decide⟩ := Fin.ext k0_dev3_eq
@[sl_canon] theorem dev4_eq : (⟨k0_dev4, k0_dev4_lt⟩ : Dev nD) = ⟨3, by decide⟩ := Fin.ext k0_dev4_eq
@[sl_canon] theorem dev5_eq : (⟨k0_dev5, k0_dev5_lt⟩ : Dev nD) = ⟨4, by decide⟩ := Fin.ext k0_dev5_eq
@[sl_canon] theorem dev6_eq : (⟨k0_dev6, k0_dev6_lt⟩ : Dev nD) = ⟨5, by decide⟩ := Fin.ext k0_dev6_eq
@[sl_canon] theorem dev7_eq : (⟨k0_dev7, k0_dev7_lt⟩ : Dev nD) = ⟨6, by decide⟩ := Fin.ext k0_dev7_eq
@[sl_canon] theorem dev8_eq : (⟨k0_dev8, k0_dev8_lt⟩ : Dev nD) = ⟨7, by decide⟩ := Fin.ext k0_dev8_eq
@[sl_canon] theorem dev9_eq : (⟨k0_dev9, k0_dev9_lt⟩ : Dev nD) = ⟨8, by decide⟩ := Fin.ext k0_dev9_eq
@[sl_canon] theorem dev10_eq : (⟨k0_dev10, k0_dev10_lt⟩ : Dev nD) = ⟨9, by decide⟩ := Fin.ext k0_dev10_eq
@[sl_canon] theorem dev11_eq : (⟨k0_dev11, k0_dev11_lt⟩ : Dev nD) = ⟨10, by decide⟩ := Fin.ext k0_dev11_eq
@[sl_canon] theorem dev12_eq : (⟨k0_dev12, k0_dev12_lt⟩ : Dev nD) = ⟨11, by decide⟩ := Fin.ext k0_dev12_eq
@[sl_canon] theorem dev13_eq : (⟨k0_dev13, k0_dev13_lt⟩ : Dev nD) = ⟨12, by decide⟩ := Fin.ext k0_dev13_eq
@[sl_canon] theorem dev14_eq : (⟨k0_dev14, k0_dev14_lt⟩ : Dev nD) = ⟨13, by decide⟩ := Fin.ext k0_dev14_eq
@[sl_canon] theorem dev15_eq : (⟨k0_dev15, k0_dev15_lt⟩ : Dev nD) = ⟨14, by decide⟩ := Fin.ext k0_dev15_eq
@[sl_canon] theorem dev16_eq : (⟨k0_dev16, k0_dev16_lt⟩ : Dev nD) = ⟨15, by decide⟩ := Fin.ext k0_dev16_eq
@[sl_canon] theorem dev17_eq : (⟨k0_dev17, k0_dev17_lt⟩ : Dev nD) = ⟨16, by decide⟩ := Fin.ext k0_dev17_eq
@[sl_canon] theorem dev18_eq : (⟨k0_dev18, k0_dev18_lt⟩ : Dev nD) = ⟨17, by decide⟩ := Fin.ext k0_dev18_eq
@[sl_canon] theorem dev19_eq : (⟨k0_dev19, k0_dev19_lt⟩ : Dev nD) = ⟨18, by decide⟩ := Fin.ext k0_dev19_eq
@[sl_canon] theorem dev20_eq : (⟨k0_dev20, k0_dev20_lt⟩ : Dev nD) = ⟨19, by decide⟩ := Fin.ext k0_dev20_eq
@[sl_canon] theorem dev21_eq : (⟨k0_dev21, k0_dev21_lt⟩ : Dev nD) = ⟨20, by decide⟩ := Fin.ext k0_dev21_eq
@[sl_canon] theorem dev22_eq : (⟨k0_dev22, k0_dev22_lt⟩ : Dev nD) = ⟨21, by decide⟩ := Fin.ext k0_dev22_eq
@[sl_canon] theorem dev23_eq : (⟨k0_dev23, k0_dev23_lt⟩ : Dev nD) = ⟨22, by decide⟩ := Fin.ext k0_dev23_eq
@[sl_canon] theorem dev24_eq : (⟨k0_dev24, k0_dev24_lt⟩ : Dev nD) = ⟨23, by decide⟩ := Fin.ext k0_dev24_eq
@[sl_canon] theorem dev25_eq : (⟨k0_dev25, k0_dev25_lt⟩ : Dev nD) = ⟨24, by decide⟩ := Fin.ext k0_dev25_eq
@[sl_canon] theorem dev26_eq : (⟨k0_dev26, k0_dev26_lt⟩ : Dev nD) = ⟨25, by decide⟩ := Fin.ext k0_dev26_eq
@[sl_canon] theorem dev27_eq : (⟨k0_dev27, k0_dev27_lt⟩ : Dev nD) = ⟨26, by decide⟩ := Fin.ext k0_dev27_eq
@[sl_canon] theorem dev28_eq : (⟨k0_dev28, k0_dev28_lt⟩ : Dev nD) = ⟨27, by decide⟩ := Fin.ext k0_dev28_eq
@[sl_canon] theorem dev29_eq : (⟨k0_dev29, k0_dev29_lt⟩ : Dev nD) = ⟨28, by decide⟩ := Fin.ext k0_dev29_eq
@[sl_canon] theorem dev30_eq : (⟨k0_dev30, k0_dev30_lt⟩ : Dev nD) = ⟨29, by decide⟩ := Fin.ext k0_dev30_eq
@[sl_canon] theorem dev31_eq : (⟨k0_dev31, k0_dev31_lt⟩ : Dev nD) = ⟨30, by decide⟩ := Fin.ext k0_dev31_eq
@[sl_canon] theorem dev32_eq : (⟨k0_dev32, k0_dev32_lt⟩ : Dev nD) = ⟨31, by decide⟩ := Fin.ext k0_dev32_eq
@[sl_canon] theorem dev33_eq (c : Dev nD) : (⟨k0_dev33 c, k0_dev33_lt c⟩ : Dev nD) = peer c 1 := Fin.ext (k0_dev33_eq c)
@[sl_canon] theorem dev34_eq (c : Dev nD) : (⟨k0_dev34 c, k0_dev34_lt c⟩ : Dev nD) = peer c 2 := Fin.ext (k0_dev34_eq c)
@[sl_canon] theorem dev35_eq (c : Dev nD) : (⟨k0_dev35 c, k0_dev35_lt c⟩ : Dev nD) = peer c 3 := Fin.ext (k0_dev35_eq c)
@[sl_canon] theorem dev36_eq (c : Dev nD) : (⟨k0_dev36 c, k0_dev36_lt c⟩ : Dev nD) = peer c 4 := Fin.ext (k0_dev36_eq c)
@[sl_canon] theorem dev37_eq (c : Dev nD) : (⟨k0_dev37 c, k0_dev37_lt c⟩ : Dev nD) = peer c 5 := Fin.ext (k0_dev37_eq c)
@[sl_canon] theorem dev38_eq (c : Dev nD) : (⟨k0_dev38 c, k0_dev38_lt c⟩ : Dev nD) = peer c 6 := Fin.ext (k0_dev38_eq c)
@[sl_canon] theorem dev39_eq (c : Dev nD) : (⟨k0_dev39 c, k0_dev39_lt c⟩ : Dev nD) = peer c 7 := Fin.ext (k0_dev39_eq c)
@[sl_canon] theorem dev40_eq (c : Dev nD) : (⟨k0_dev40 c, k0_dev40_lt c⟩ : Dev nD) = peer c 8 := Fin.ext (k0_dev40_eq c)
@[sl_canon] theorem dev41_eq (c : Dev nD) : (⟨k0_dev41 c, k0_dev41_lt c⟩ : Dev nD) = peer c 9 := Fin.ext (k0_dev41_eq c)
@[sl_canon] theorem dev42_eq (c : Dev nD) : (⟨k0_dev42 c, k0_dev42_lt c⟩ : Dev nD) = peer c 10 := Fin.ext (k0_dev42_eq c)
@[sl_canon] theorem dev43_eq (c : Dev nD) : (⟨k0_dev43 c, k0_dev43_lt c⟩ : Dev nD) = peer c 11 := Fin.ext (k0_dev43_eq c)
@[sl_canon] theorem dev44_eq (c : Dev nD) : (⟨k0_dev44 c, k0_dev44_lt c⟩ : Dev nD) = peer c 12 := Fin.ext (k0_dev44_eq c)
@[sl_canon] theorem dev45_eq (c : Dev nD) : (⟨k0_dev45 c, k0_dev45_lt c⟩ : Dev nD) = peer c 13 := Fin.ext (k0_dev45_eq c)
@[sl_canon] theorem dev46_eq (c : Dev nD) : (⟨k0_dev46 c, k0_dev46_lt c⟩ : Dev nD) = peer c 14 := Fin.ext (k0_dev46_eq c)
@[sl_canon] theorem dev47_eq (c : Dev nD) : (⟨k0_dev47 c, k0_dev47_lt c⟩ : Dev nD) = peer c 15 := Fin.ext (k0_dev47_eq c)
@[sl_canon] theorem dev48_eq (c : Dev nD) : (⟨k0_dev48 c, k0_dev48_lt c⟩ : Dev nD) = peer c 16 := Fin.ext (k0_dev48_eq c)
@[sl_canon] theorem dev49_eq (c : Dev nD) : (⟨k0_dev49 c, k0_dev49_lt c⟩ : Dev nD) = peer c 17 := Fin.ext (k0_dev49_eq c)
@[sl_canon] theorem dev50_eq (c : Dev nD) : (⟨k0_dev50 c, k0_dev50_lt c⟩ : Dev nD) = peer c 18 := Fin.ext (k0_dev50_eq c)
@[sl_canon] theorem dev51_eq (c : Dev nD) : (⟨k0_dev51 c, k0_dev51_lt c⟩ : Dev nD) = peer c 19 := Fin.ext (k0_dev51_eq c)
@[sl_canon] theorem dev52_eq (c : Dev nD) : (⟨k0_dev52 c, k0_dev52_lt c⟩ : Dev nD) = peer c 20 := Fin.ext (k0_dev52_eq c)
@[sl_canon] theorem dev53_eq (c : Dev nD) : (⟨k0_dev53 c, k0_dev53_lt c⟩ : Dev nD) = peer c 21 := Fin.ext (k0_dev53_eq c)
@[sl_canon] theorem dev54_eq (c : Dev nD) : (⟨k0_dev54 c, k0_dev54_lt c⟩ : Dev nD) = peer c 22 := Fin.ext (k0_dev54_eq c)
@[sl_canon] theorem dev55_eq (c : Dev nD) : (⟨k0_dev55 c, k0_dev55_lt c⟩ : Dev nD) = peer c 23 := Fin.ext (k0_dev55_eq c)
@[sl_canon] theorem dev56_eq (c : Dev nD) : (⟨k0_dev56 c, k0_dev56_lt c⟩ : Dev nD) = peer c 24 := Fin.ext (k0_dev56_eq c)
@[sl_canon] theorem dev57_eq (c : Dev nD) : (⟨k0_dev57 c, k0_dev57_lt c⟩ : Dev nD) = peer c 25 := Fin.ext (k0_dev57_eq c)
@[sl_canon] theorem dev58_eq (c : Dev nD) : (⟨k0_dev58 c, k0_dev58_lt c⟩ : Dev nD) = peer c 26 := Fin.ext (k0_dev58_eq c)
@[sl_canon] theorem dev59_eq (c : Dev nD) : (⟨k0_dev59 c, k0_dev59_lt c⟩ : Dev nD) = peer c 27 := Fin.ext (k0_dev59_eq c)
@[sl_canon] theorem dev60_eq (c : Dev nD) : (⟨k0_dev60 c, k0_dev60_lt c⟩ : Dev nD) = peer c 28 := Fin.ext (k0_dev60_eq c)
@[sl_canon] theorem dev61_eq (c : Dev nD) : (⟨k0_dev61 c, k0_dev61_lt c⟩ : Dev nD) = peer c 29 := Fin.ext (k0_dev61_eq c)
@[sl_canon] theorem dev62_eq (c : Dev nD) : (⟨k0_dev62 c, k0_dev62_lt c⟩ : Dev nD) = peer c 30 := Fin.ext (k0_dev62_eq c)
@[sl_canon] theorem dev63_eq (c : Dev nD) : (⟨k0_dev63 c, k0_dev63_lt c⟩ : Dev nD) = peer c 31 := Fin.ext (k0_dev63_eq c)

end Cert.KernelIdeal.Proto
-- ==== Proof.Glue.lean ====
import proofs.«900828_g7700000000000829_dist_layernorm_colshard_i_m768_n512_v7x_i32_bf16_1_alg».proof.Proof.Steps

/-!
# The body's bookkeeping between its cross-device steps

The body starts its 31 copies in order, waits for the 31 landings in the order its four groups of slots need them
(slots 1–7, 24–31, 8–15, 16–23) and for the 31 departures in order. What it holds is therefore always a tail of the
steps still to do and a head of those done; each rule here moves one step from the tail to the head.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

variable (K : GSem nD τ sig → ℕ)

/-- The order in which the body waits for the landings: by groups of slots, as it adds them. -/
def recvOrd : Fin 31 → Fin 32 :=
  ![1, 2, 3, 4, 5, 6, 7, 24, 25, 26, 27, 28, 29, 30, 31, 8, 9, 10, 11, 12, 13, 14, 15, 16, 17, 18, 19, 20, 21, 22, 23]

/-- Before the wait for the landing in slot `j`: its credit and the device's position on the cell. -/
def recvPre (c : Dev nD) (j : Fin 32) : sProp 𝕄 := iprop(cred (tallyAt (recvCell c j) () N) ∗ atPos ER (recvCell c j) 0 ∅ 0)
/-- After it: the cell one round on, and the slot at the buffer's final contents. -/
def recvPost (c : Dev nD) (j : Fin 32) : sProp 𝕄 := iprop(atPos ER (recvCell c j) 1 ∅ 0 ∗ slotPts c j (commC m c))
/-- Before the wait for the departure of copy `k`: the credit the copy returned and the position on the cell. -/
def sendWPre (c : Dev nD) (k : Fin 32) : sProp 𝕄 := iprop(cred (tallyAt (sendCell c k) () N) ∗ atPos ER (sendCell c k) 0 ∅ 0)
/-- After it: the cell one round on, and the lent share of the two rows back. -/
def sendWPost (c : Dev nD) (k : Fin 32) : sProp 𝕄 := iprop(atPos ER (sendCell c k) 1 ∅ 0 ∗ rowsPts m c k)

/-- A run's blocks are the earlier ones' and its last's: what a step adds to the steps done. -/
theorem bigSep_rangeSet_snoc {NB : ℕ} {Φ : Fin NB → sProp 𝕄} {lo hi : ℕ} (h : lo ≤ hi) (hhi : hi < NB) :
    bigSep (rangeSet NB lo (hi + 1)) Φ = iprop(Φ ⟨hi, hhi⟩ ∗ bigSep (rangeSet NB lo hi) Φ) := by
  have e : rangeSet NB lo (hi + 1) = insert ⟨hi, hhi⟩ (rangeSet NB lo hi) := by
    ext b; rw [Finset.mem_insert, Ring.mem_rangeSet, Ring.mem_rangeSet, Fin.ext_iff]; dsimp only; omega
  rw [e, bigSep_insert (by rw [Ring.mem_rangeSet]; dsimp only; omega)]; rfl

/-- No landing the body waits for is slot 0's. -/
theorem recvOrd_ne : ∀ t : Fin 31, recvOrd t ≠ 0 := by decide

theorem recvPre_eq (c : Dev nD) (j : Fin 32) :
    recvPre (F := F) c j = iprop(cred (tallyAt (recvCell c j) () N) ∗ atPos ER (recvCell c j) 0 ∅ 0) := rfl
theorem recvPost_eq (c : Dev nD) (j : Fin 32) :
    recvPost m c j = iprop(atPos ER (recvCell c j) 1 ∅ 0 ∗ slotPts c j (commC m c)) := rfl
theorem sendWPre_eq (c : Dev nD) (k : Fin 32) :
    sendWPre (F := F) c k = iprop(cred (tallyAt (sendCell c k) () N) ∗ atPos ER (sendCell c k) 0 ∅ 0) := rfl
theorem sendWPost_eq (c : Dev nD) (k : Fin 32) :
    sendWPost m c k = iprop(atPos ER (sendCell c k) 1 ∅ 0 ∗ rowsPts m c k) := rfl

/-- The body waits for each of the landings `1 … 31` once. -/
theorem recvOrd_inj : Function.Injective recvOrd := by decide
theorem recvOrd_image : Finset.univ.image recvOrd = Finset.univ.erase (0 : Fin 32) := by decide

/-- Copies `1 … 31` are all but copy 0. -/
theorem rangeSet_one : rangeSet 32 1 32 = Finset.univ.erase (0 : Fin 32) := by
  ext b
  rw [Ring.mem_rangeSet, Finset.mem_erase]
  have hb := b.isLt
  constructor
  · intro h; exact ⟨fun e => by rw [e] at h; exact absurd h.1 (by decide), Finset.mem_univ _⟩
  · intro h; refine ⟨?_, hb⟩; by_contra h0; exact h.1 (Fin.ext (by show b.val = 0; omega))

/-- The copies' resources from what the device holds: its departure and arrival tokens, the 32 read shares of the two
    rows, and the target slots the barrier wait brought in. What is left over belongs to index 0, which no copy uses. -/
theorem send_gather (c : Dev nD) :
    iprop((bigSep Finset.univ fun k : Fin 32 => dutyTok ER (sendCell c k) 0 (0 : Fin 32))
        ∗ (bigSep Finset.univ fun k : Fin 32 => dutyTok ER (recvCell (peer c k) (slotOf k)) 0 (0 : Fin 32))
        ∗ (bigSep Finset.univ fun k : Fin 32 => rowsPts m c k)
        ∗ bigSep (Finset.univ.erase (0 : Fin 32)) (fun k => iprop(∃ f, slotPts (F := F) (peer c k) (slotOf k) f)))
      ⊢ iprop(rowsPts m c 0 ∗ bigSep (rangeSet 32 1 32) (sendRes m c)) := by
  rw [bigSep_univ_at (fun k : Fin 32 => (dutyTok ER (sendCell c k) 0 (0 : Fin 32) : sProp 𝕄)) 0,
    bigSep_univ_at (fun k : Fin 32 => (dutyTok ER (recvCell (peer c k) (slotOf k)) 0 (0 : Fin 32) : sProp 𝕄)) 0,
    bigSep_univ_at (fun k : Fin 32 => rowsPts m c k) 0, rangeSet_one]
  have e : bigSep (Finset.univ.erase (0 : Fin 32)) (sendRes m c)
      = iprop((bigSep (Finset.univ.erase (0 : Fin 32)) fun k : Fin 32 => dutyTok ER (sendCell c k) 0 (0 : Fin 32))
          ∗ (bigSep (Finset.univ.erase (0 : Fin 32)) fun k : Fin 32 => dutyTok ER (recvCell (peer c k) (slotOf k)) 0 (0 : Fin 32))
          ∗ (bigSep (Finset.univ.erase (0 : Fin 32)) fun k : Fin 32 => rowsPts m c k)
          ∗ bigSep (Finset.univ.erase (0 : Fin 32)) (fun k => iprop(∃ f, slotPts (F := F) (peer c k) (slotOf k) f))) := by
    show bigSep (Finset.univ.erase (0 : Fin 32)) (fun k : Fin 32 =>
        iprop(dutyTok ER (sendCell c k) 0 (0 : Fin 32) ∗ dutyTok ER (recvCell (peer c k) (slotOf k)) 0 (0 : Fin 32)
          ∗ rowsPts m c k ∗ ∃ f, slotPts (F := F) (peer c k) (slotOf k) f)) = _
    rw [bigSep_sep', bigSep_sep', bigSep_sep']
  rw [e]
  iintro ⟨⟨-, HA⟩, ⟨-, HB⟩, ⟨H0, HC⟩, HD⟩
  isplitl [H0]; · iexact H0
  isplitl [HA]; · iexact HA
  isplitl [HB]; · iexact HB
  isplitl [HC]; · iexact HC
  iexact HD

/-- Copy `lo` started (`send_step`), its departure's credit put with those of the copies before it. -/
theorem send_go (c : Dev nD) (lo : ℕ) (hlo : lo < 32) (h1 : 1 ≤ lo) (dst : Dev nD) (hdst : dst = peer c ⟨lo, hlo⟩)
    (j : Fin 32) (hj : j = slotOf ⟨lo, hlo⟩) (W : Waits sig Unit)
    {hsc : (slotM j : Memref sig (Dev.tc dst : Thread nD τ).2.kind .vmem S2x768 .bf16).view.ref.isScScratch = false}
    {hsrc : (rowsM : Memref sig .tc .vmem S2x768 .bf16).view.WordExact} {hdw : (slotM j : Memref sig .tc .vmem S2x768 .bf16).view.WordExact}
    {hsem : DmaTarget.Typed .vmem (.dma (recvSem j)) (.remote (Dev.tc dst : Thread nD τ) (slotM j : Memref sig .tc .vmem S2x768 .bf16) (.dma (sendSem ⟨lo, hlo⟩)) hsc)}
    {α : Type} {Q : α → sProp 𝕄} {k : PUnit → Prog (TpuEff nD τ sig (Elt F) Λ₀ .tc) α} :
    iprop(records m K ∗ owes (c : Thread nD τ) (Osend c (32 - lo)) W ∗ bigSep (rangeSet 32 lo 32) (sendRes m c)
        ∗ bigSep (rangeSet 32 1 lo) (fun k' : Fin 32 => cred (tallyAt (sendCell c k') () N)))
      ⊢ iprop(((owes (c : Thread nD τ) (Osend c (31 - lo)) W ∗ bigSep (rangeSet 32 (lo + 1) 32) (sendRes m c)
            ∗ bigSep (rangeSet 32 1 (lo + 1)) (fun k' : Fin 32 => cred (tallyAt (sendCell c k') () N)))
          -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma rowsM (.remote (Dev.tc dst : Thread nD τ) (slotM j) (.dma (sendSem ⟨lo, hlo⟩)) hsc) (.dma (recvSem j)) hsrc hdw hsem) k) Q) := by
  iintro ⟨#HR, HO, Hres, Hcr⟩ Hk
  iapply (send_step m K c lo hlo h1 dst hdst j hj W) $$ [HO Hres]
  · isplitr; · iexact HR
    isplitl [HO]; · iexact HO
    iexact Hres
  iintro ⟨Hc, HO, Hres⟩
  iapply Hk
  isplitl [HO]; · iexact HO
  isplitl [Hres]; · iexact Hres
  rw [bigSep_rangeSet_snoc (Φ := fun k' : Fin 32 => (cred (tallyAt (sendCell c k') () N) : sProp 𝕄)) h1 hlo]
  isplitl [Hc]; · iexact Hc
  iexact Hcr

/-- The landings' credits and the positions on the receive cells, in the order the body waits. -/
theorem recv_init (c : Dev nD) :
    iprop((bigSep (Finset.univ.erase (0 : Fin 32)) fun j => cred (tallyAt (recvCell c j) () N))
        ∗ (bigSep Finset.univ fun j : Fin 32 => atPos ER (recvCell c j) 0 ∅ 0))
      ⊢ iprop(atPos ER (recvCell c 0) 0 ∅ 0 ∗ bigSep (rangeSet 31 0 31) (fun t : Fin 31 => recvPre (F := F) c (recvOrd t))) := by
  rw [bigSep_univ_at (fun j : Fin 32 => (atPos ER (recvCell c j) 0 ∅ 0 : sProp 𝕄)) 0, Ring.rangeSet_univ,
    ← bigSep_image_of_injOn (f := recvOrd) (s := Finset.univ) (fun a _ b _ h => recvOrd_inj h) (fun j : Fin 32 => recvPre (F := F) c j),
    recvOrd_image]
  have e : (bigSep (Finset.univ.erase (0 : Fin 32)) fun j : Fin 32 => recvPre (F := F) c j)
      = iprop((bigSep (Finset.univ.erase (0 : Fin 32)) fun j => cred (tallyAt (recvCell c j) () N))
          ∗ (bigSep (Finset.univ.erase (0 : Fin 32)) fun j => atPos ER (recvCell c j) 0 ∅ 0)) :=
    bigSep_sep' (Finset.univ.erase (0 : Fin 32)) (fun j : Fin 32 => (cred (tallyAt (recvCell c j) () N) : sProp 𝕄))
      (fun j : Fin 32 => (atPos ER (recvCell c j) 0 ∅ 0 : sProp 𝕄))
  rw [e]
  iintro ⟨Hc, Hat0, Hat⟩
  isplitl [Hat0]; · iexact Hat0
  isplitl [Hc]; · iexact Hc
  iexact Hat

/-- The `t`-th wait for a landing, owing nothing (`recv_wait`): from the tail of those still to come to the head of those done. -/
theorem recv_go (c : Dev nD) (t : ℕ) (ht : t < 31) (j : Fin 32) (hj : j = recvOrd ⟨t, ht⟩) (W : Waits sig Unit)
    {hsrc : (rowsM : Memref sig .tc .vmem S2x768 .bf16).view.WordExact} {hdw : (slotM j : Memref sig .tc .vmem S2x768 .bf16).view.WordExact}
    {α : Type} {Q : α → sProp 𝕄} {k : PUnit → Prog (TpuEff nD τ sig (Elt F) Λ₀ .tc) α} :
    iprop(records m K ∗ owes (c : Thread nD τ) 0 W
        ∗ bigSep (rangeSet 31 t 31) (fun i : Fin 31 => recvPre (F := F) c (recvOrd i))
        ∗ bigSep (rangeSet 31 0 t) (fun i : Fin 31 => recvPost m c (recvOrd i)))
      ⊢ iprop(((∃ W' : Waits sig Unit, owes (c : Thread nD τ) 0 W'
            ∗ bigSep (rangeSet 31 (t + 1) 31) (fun i : Fin 31 => recvPre (F := F) c (recvOrd i))
            ∗ bigSep (rangeSet 31 0 (t + 1)) (fun i : Fin 31 => recvPost m c (recvOrd i)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (recvSem j) rowsM (slotM j) hsrc hdw) k) Q) := by
  subst hj
  rw [Ring.bigSep_rangeSet_head (Φ := fun i : Fin 31 => recvPre (F := F) c (recvOrd i)) (by omega : t < 31) ht]
  iintro ⟨#HR, HO, ⟨Hpre, Htail⟩, Hhead⟩ Hk
  ihave Hp := (Entails.of_eq (recvPre_eq (F := F) c (recvOrd ⟨t, ht⟩))) $$ Hpre
  icases Hp with ⟨Hc, Hat⟩
  iapply (recv_wait m K c (recvOrd ⟨t, ht⟩) (recvOrd_ne ⟨t, ht⟩) W) $$ [Hc HO Hat]
  · isplitr; · iexact HR
    isplitl [Hc]; · iexact Hc
    isplitl [HO]; · iexact HO
    iexact Hat
  iintro ⟨HO, Hat, Hslot⟩
  iapply Hk
  iexists (insert (SemLoc.dma (recvSem (recvOrd ⟨t, ht⟩)), ()) W)
  isplitl [HO]; · iexact HO
  isplitl [Htail]; · iexact Htail
  rw [bigSep_rangeSet_snoc (Φ := fun i : Fin 31 => recvPost m c (recvOrd i)) (Nat.zero_le t) ht]
  isplitl [Hat Hslot]
  · iapply (Entails.of_eq (recvPost_eq m c (recvOrd ⟨t, ht⟩)).symm)
    isplitl [Hat]; · iexact Hat
    iexact Hslot
  iexact Hhead

/-- The departures' credits and the positions on the send cells, in order. -/
theorem sendw_init (c : Dev nD) :
    iprop((bigSep (rangeSet 32 1 32) fun k' : Fin 32 => cred (tallyAt (sendCell c k') () N))
        ∗ (bigSep Finset.univ fun k' : Fin 32 => atPos ER (sendCell c k') 0 ∅ 0))
      ⊢ iprop(atPos ER (sendCell c 0) 0 ∅ 0 ∗ bigSep (rangeSet 32 1 32) (sendWPre (F := F) c)) := by
  rw [← Ring.rangeSet_univ (NB := 32),
    Ring.bigSep_rangeSet_head (Φ := fun k' : Fin 32 => (atPos ER (sendCell c k') 0 ∅ 0 : sProp 𝕄)) (by decide : 0 < 32) (by decide : 0 < 32)]
  have e : bigSep (rangeSet 32 1 32) (sendWPre (F := F) c)
      = iprop((bigSep (rangeSet 32 1 32) fun k' : Fin 32 => cred (tallyAt (sendCell c k') () N))
          ∗ (bigSep (rangeSet 32 1 32) fun k' : Fin 32 => atPos ER (sendCell c k') 0 ∅ 0)) :=
    bigSep_sep' (rangeSet 32 1 32) (fun k' : Fin 32 => (cred (tallyAt (sendCell c k') () N) : sProp 𝕄))
      (fun k' : Fin 32 => (atPos ER (sendCell c k') 0 ∅ 0 : sProp 𝕄))
  rw [e]
  iintro ⟨Hc, Hat0, Hat⟩
  isplitl [Hat0]; · iexact Hat0
  isplitl [Hc]; · iexact Hc
  iexact Hat

/-- The wait for the departure of copy `lo`, owing nothing (`send_wait`). -/
theorem sendw_go (c : Dev nD) (lo : ℕ) (hlo : lo < 32) (h1 : 1 ≤ lo) (j : Fin 32) (W : Waits sig Unit)
    {hsrc : (slotM j : Memref sig .tc .vmem S2x768 .bf16).view.WordExact} {hdw : (rowsM : Memref sig .tc .vmem S2x768 .bf16).view.WordExact}
    {α : Type} {Q : α → sProp 𝕄} {k : PUnit → Prog (TpuEff nD τ sig (Elt F) Λ₀ .tc) α} :
    iprop(records m K ∗ owes (c : Thread nD τ) 0 W
        ∗ bigSep (rangeSet 32 lo 32) (sendWPre (F := F) c)
        ∗ bigSep (rangeSet 32 1 lo) (sendWPost m c))
      ⊢ iprop(((∃ W' : Waits sig Unit, owes (c : Thread nD τ) 0 W'
            ∗ bigSep (rangeSet 32 (lo + 1) 32) (sendWPre (F := F) c)
            ∗ bigSep (rangeSet 32 1 (lo + 1)) (sendWPost m c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sendSem ⟨lo, hlo⟩) (slotM j) rowsM hsrc hdw) k) Q) := by
  rw [Ring.bigSep_rangeSet_head (Φ := sendWPre (F := F) c) (by omega : lo < 32) hlo]
  iintro ⟨#HR, HO, ⟨Hpre, Htail⟩, Hhead⟩ Hk
  ihave Hp := (Entails.of_eq (sendWPre_eq (F := F) c ⟨lo, hlo⟩)) $$ Hpre
  icases Hp with ⟨Hc, Hat⟩
  iapply (send_wait m K c ⟨lo, hlo⟩ (copy_ne lo hlo h1) j W) $$ [Hc HO Hat]
  · isplitr; · iexact HR
    isplitl [Hc]; · iexact Hc
    isplitl [HO]; · iexact HO
    iexact Hat
  iintro ⟨HO, Hat, Hrows⟩
  iapply Hk
  iexists (insert (SemLoc.dma (sendSem ⟨lo, hlo⟩), ()) W)
  isplitl [HO]; · iexact HO
  isplitl [Htail]; · iexact Htail
  rw [bigSep_rangeSet_snoc (Φ := sendWPost m c) h1 hlo]
  isplitl [Hat Hrows]
  · iapply (Entails.of_eq (sendWPost_eq m c ⟨lo, hlo⟩).symm)
    isplitl [Hat]; · iexact Hat
    iexact Hrows
  iexact Hhead

end Cert.KernelIdeal.Proto

end
-- ==== Proof.Contents.lean ====
import proofs.«900828_g7700000000000829_dist_layernorm_colshard_i_m768_n512_v7x_i32_bf16_1_alg».proof.Proof.Glue

/-!
# The device's own slot, and the groups of slots it adds

Slot 0 of the exchange buffer is rows 0 and 1 of its 64 rows: the loads and stores the body makes of its own two rows
touch only that slot. A group of eight consecutive slots is read once all its slots are in: the rows read are the
senders' rows, in slot order.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

abbrev rA : Rect S32x2x768 := Rect.unit (s := S32x2x768) ![0, 0, 0] S1x1x768.size inb_S32x2x768_S1x1x768_0_0_0
abbrev rB : Rect S32x2x768 := Rect.unit (s := S32x2x768) ![0, 1, 0] S1x1x768.size inb_S32x2x768_S1x1x768_0_1_0
abbrev rR : Rect S32x2x768 := Rect.unit (s := S32x2x768) ![0, 0, 0] S1x2x768.size inb_S32x2x768_S1x2x768_0_0_0

/-- An element of the exchange buffer whose leading coordinate is `j` (and whose other two are in range) lies in slot `j`. -/
theorem mem_slot (j : Fin 32) (i : S32x2x768.Idx)
    (h : ∀ a, (![j.val, 0, 0] : Fin 3 → ℕ) a ≤ i a ∧ (i a : ℕ) < (![j.val, 0, 0] : Fin 3 → ℕ) a + S1x2x768.size a) :
    i ∈ (slotM j : Memref sig .tc .vmem S2x768 .bf16).view.set := by
  have e := slot_set j
  rw [e]
  exact Rect.mem_set_unit.mpr h

/-- The order of the landings names each slot once: as an embedding. -/
def recvEmb : Fin 31 ↪ Fin 32 := ⟨recvOrd, by decide⟩
/-- No landing is into slot 0. -/
theorem recvOrd_ne_zero (i : Fin 31) : recvOrd i ≠ 0 := by revert i; decide

/-- Reading the group of slots `lo … lo + 7` off the buffer's final contents gives the senders' rows in slot order. -/
theorem group_read (c : Dev nD) (lo : ℕ) (h : lo + 8 ≤ 32)
    (hinb : ∀ a, (![lo, 0, 0] : Fin 3 → Nat) a + S8x2x768.size a ≤ S32x2x768.size a) :
    (commM : Memref sig .tc .vmem S32x2x768 .bf16).view.readAt (Elt F) (Rect.unit (s := S32x2x768) ![lo, 0, 0] S8x2x768.size hinb).toLoadRect (commC m c)
      = Cert.KernelIdeal.KVal.group (Cert.KernelIdeal.KVal.rowsAt (xIn m) c) lo h := by
  funext x
  show commC m c ((Rect.unit (s := S32x2x768) ![lo, 0, 0] S8x2x768.size hinb).toLoadRect.idx x) = _
  unfold commC Cert.KernelIdeal.KVal.group
  congr 1
  · exact Fin.ext (by simp)
  · funext d
    match d with
    | ⟨0, _⟩ => exact Fin.ext (by simp)
    | ⟨1, _⟩ => exact Fin.ext (by simp)

/-- The elements a read of row 0 (row 1, both rows) of slot 0 touches, and those a store of both rows writes, lie in slot 0. -/
theorem slot0_sub_a : (commM : Memref sig .tc .vmem S32x2x768 .bf16).view.setOn rA.toLoadRect.set ⊆ (slotM 0 : Memref sig .tc .vmem S2x768 .bf16).view.set := by
  intro i hi
  obtain ⟨x, hx, rfl⟩ := Finset.mem_map.mp hi
  have h := Rect.mem_set_unit.mp hx
  refine mem_slot 0 x fun a => ?_
  have h0 := h 0; have h1 := h 1; have h2 := h 2
  fin_cases a <;> simp at h0 h1 h2 ⊢ <;> omega
theorem slot0_sub_b : (commM : Memref sig .tc .vmem S32x2x768 .bf16).view.setOn rB.toLoadRect.set ⊆ (slotM 0 : Memref sig .tc .vmem S2x768 .bf16).view.set := by
  intro i hi
  obtain ⟨x, hx, rfl⟩ := Finset.mem_map.mp hi
  have h := Rect.mem_set_unit.mp hx
  refine mem_slot 0 x fun a => ?_
  have h0 := h 0; have h1 := h 1; have h2 := h 2
  fin_cases a <;> simp at h0 h1 h2 ⊢ <;> omega
theorem slot0_sub_R : (commM : Memref sig .tc .vmem S32x2x768 .bf16).view.setOn rR.toLoadRect.set ⊆ (slotM 0 : Memref sig .tc .vmem S2x768 .bf16).view.set := by
  intro i hi
  obtain ⟨x, hx, rfl⟩ := Finset.mem_map.mp hi
  exact mem_slot 0 x (Rect.mem_set_unit.mp hx)
theorem slot0_sub_W : ((commM : Memref sig .tc .vmem S32x2x768 .bf16).access rR).setOn Finset.univ ⊆ (slotM 0 : Memref sig .tc .vmem S2x768 .bf16).view.set := by
  have e : ((commM : Memref sig .tc .vmem S32x2x768 .bf16).access rR).setOn Finset.univ = (slotM 0 : Memref sig .tc .vmem S2x768 .bf16).view.set :=
    (View.set_slice_whole cc0_scratch4 rR).trans (slot_set 0).symm
  exact e.le

theorem group_inb (lo : ℕ) (h : lo + 8 ≤ 32) : ∀ a, (![lo, 0, 0] : Fin 3 → Nat) a + S8x2x768.size a ≤ S32x2x768.size a := by
  intro a
  fin_cases a <;> simp <;> omega

/-- The load of the group of slots `lo … lo + 7`, once slot 0 and the first `t` landings (in the order the body waits) cover the
    group: nothing is used up, and what is read is the group of the senders' rows. -/
theorem group_load (c : Dev nD) (lo : ℕ) (h : lo + 8 ≤ 32) (t : ℕ) (ht : t ≤ 31)
    (hcov : ∀ j : Fin 32, lo ≤ j.val → j.val < lo + 8 → j = 0 ∨ ∃ i : Fin 31, i.val < t ∧ recvOrd i = j)
    {hinb : ∀ a, (![lo, 0, 0] : Fin 3 → Nat) a + S8x2x768.size a ≤ S32x2x768.size a}
    {hl : (commM : Memref sig .tc .vmem S32x2x768 .bf16).view.LoadsAt (Rect.unit (s := S32x2x768) ![lo, 0, 0] S8x2x768.size hinb).toLoadRect}
    {α : Type} {Q : α → sProp 𝕄} {k : ((Rect.unit (s := S32x2x768) ![lo, 0, 0] S8x2x768.size hinb).toLoadRect.shape.Idx → Elt F .bf16) → Prog (TpuEff nD τ sig (Elt F) Λ₀ .tc) α} :
    iprop(slotPts c 0 (commC m c) ∗ bigSep (rangeSet 31 0 t) (fun i : Fin 31 => recvPost m c (recvOrd i)))
      ⊢ iprop(((slotPts c 0 (commC m c) ∗ bigSep (rangeSet 31 0 t) (fun i : Fin 31 => recvPost m c (recvOrd i)))
          -∗ wp frame (wpE (defs₀ (F := F)) 𝒱₀ (c : Thread nD τ) none) Set.univ (k (Cert.KernelIdeal.KVal.group (Cert.KernelIdeal.KVal.rowsAt (xIn m) c) lo h)) Q)
        -∗ wp frame (wpE (defs₀ (F := F)) 𝒱₀ (c : Thread nD τ) none) Set.univ (.op (.load commM (Rect.unit (s := S32x2x768) ![lo, 0, 0] S8x2x768.size hinb).toLoadRect hl) k) Q) := by
  -- the slots held: slot 0 and the slots of the first t landings; the group's slots are among them
  have h0 : (0 : Fin 32) ∉ (rangeSet 31 0 t).map recvEmb := by
    intro hm
    obtain ⟨i, -, hi⟩ := Finset.mem_map.mp hm
    exact recvOrd_ne_zero i hi
  have hGH : (Finset.univ.filter fun j : Fin 32 => lo ≤ j.val ∧ j.val < lo + 8) ⊆ insert (0 : Fin 32) ((rangeSet 31 0 t).map recvEmb) := by
    intro j hj
    obtain ⟨h1, h2⟩ := (Finset.mem_filter.mp hj).2
    rcases hcov j h1 h2 with rfl | ⟨i, hi, rfl⟩
    · exact Finset.mem_insert_self _ _
    · exact Finset.mem_insert_of_mem (Finset.mem_map_of_mem recvEmb ((Ring.mem_rangeSet 0 t i).mpr ⟨Nat.zero_le _, hi⟩))
  -- the landed cells' positions apart from their slots
  have eq1 : bigSep (rangeSet 31 0 t) (fun i : Fin 31 => recvPost m c (recvOrd i))
      = iprop(bigSep (rangeSet 31 0 t) (fun i : Fin 31 => (atPos ER (recvCell c (recvOrd i)) 1 ∅ 0 : sProp 𝕄))
          ∗ bigSep (rangeSet 31 0 t) (fun i : Fin 31 => slotPts c (recvOrd i) (commC m c))) := by
    unfold recvPost
    exact bigSep_sep' _ _ _
  -- slot 0 and the landed slots are the group's slots, joined into one region, and the rest
  have eqX : iprop(slotPts c 0 (commC m c) ∗ bigSep (rangeSet 31 0 t) (fun i : Fin 31 => slotPts c (recvOrd i) (commC m c)))
      = iprop((((c : Thread nD τ).loc cc0_scratch4) ↦[(Finset.univ.filter fun j : Fin 32 => lo ≤ j.val ∧ j.val < lo + 8).biUnion (fun j => (slotM j).view.set)]{fullShare} commC m c)
          ∗ bigSep (insert (0 : Fin 32) ((rangeSet 31 0 t).map recvEmb) \ (Finset.univ.filter fun j : Fin 32 => lo ≤ j.val ∧ j.val < lo + 8)) (fun j : Fin 32 => slotPts c j (commC m c))) := by
    have eA : bigSep (insert (0 : Fin 32) ((rangeSet 31 0 t).map recvEmb)) (fun j : Fin 32 => slotPts c j (commC m c))
        = iprop(slotPts c 0 (commC m c) ∗ bigSep (rangeSet 31 0 t) (fun i : Fin 31 => slotPts c (recvOrd i) (commC m c))) := by
      rw [bigSep_insert h0, bigSep_map]; rfl
    have eB : bigSep (insert (0 : Fin 32) ((rangeSet 31 0 t).map recvEmb)) (fun j : Fin 32 => slotPts c j (commC m c))
        = iprop(bigSep (Finset.univ.filter fun j : Fin 32 => lo ≤ j.val ∧ j.val < lo + 8) (fun j : Fin 32 => slotPts c j (commC m c))
            ∗ bigSep (insert (0 : Fin 32) ((rangeSet 31 0 t).map recvEmb) \ (Finset.univ.filter fun j : Fin 32 => lo ≤ j.val ∧ j.val < lo + 8)) (fun j : Fin 32 => slotPts c j (commC m c))) :=
      bigSep_sdiff_split hGH
    exact eA.symm.trans (eB.trans (by rw [comm_group c lo h (commC m c)]))
  have hS : (commM : Memref sig .tc .vmem S32x2x768 .bf16).view.setOn (Rect.unit (s := S32x2x768) ![lo, 0, 0] S8x2x768.size hinb).toLoadRect.set
      ⊆ (Finset.univ.filter fun j : Fin 32 => lo ≤ j.val ∧ j.val < lo + 8).biUnion (fun j => (slotM j : Memref sig .tc .vmem S2x768 .bf16).view.set) := by
    intro i hi
    obtain ⟨x, hx, rfl⟩ := Finset.mem_map.mp hi
    have hx' := Rect.mem_set_unit.mp hx
    have hx0 := hx' 0
    have hlt : (x 0).val < 32 := by have := hx0.2; simp at this; omega
    refine Finset.mem_biUnion.mpr ⟨⟨(x 0).val, hlt⟩, Finset.mem_filter.mpr ⟨Finset.mem_univ _, by simp at hx0; omega⟩, ?_⟩
    refine mem_slot _ x fun a => ?_
    have h1 := hx' 1; have h2 := hx' 2
    fin_cases a <;> simp at hx0 h1 h2 ⊢ <;> omega
  rw [eq1]
  iintro ⟨H0, HA, HB⟩ Hk
  ihave HX := (Entails.of_eq eqX) $$ [H0 HB]
  · isplitl [H0]; · iexact H0
    iexact HB
  icases HX with ⟨Hp, HR⟩
  iapply (wp_load 𝒱₀ (c : Thread nD τ) none Set.univ hS) $$ [Hp]
  · iexact Hp
  iintro Hp
  rw [group_read m c lo h hinb]
  iapply Hk
  ihave HX' := (Entails.of_eq eqX.symm) $$ [Hp HR]
  · isplitl [Hp]; · iexact Hp
    iexact HR
  icases HX' with ⟨H0, HB⟩
  isplitl [H0]; · iexact H0
  isplitl [HA]; · iexact HA
  iexact HB

end Cert.KernelIdeal.Proto

end
-- ==== Proof.Finish.lean ====
import proofs.«900828_g7700000000000829_dist_layernorm_colshard_i_m768_n512_v7x_i32_bf16_1_alg».proof.Proof.Glue

/-!
# Handing everything back at the end of the body
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

variable (K : GSem nD τ sig → ℕ)

/-! ## The index sets -/

/-- The copies `1 … 31` are every copy but copy 0. -/
theorem rangeSet_one_32 : rangeSet 32 1 32 = Finset.univ.erase (0 : Fin 32) := by
  ext b
  rw [Ring.mem_rangeSet, Finset.mem_erase]
  constructor
  · intro h
    exact ⟨fun e => by rw [e] at h; exact absurd h.1 (by decide), Finset.mem_univ _⟩
  · intro h
    have h0 : b.val ≠ 0 := fun e => h.1 (Fin.ext e)
    exact ⟨by omega, b.isLt⟩

/-- The order of the waits visits every slot `1 … 31` once. -/
theorem ord_inj' : Function.Injective recvOrd := by decide
theorem ord_image' : Finset.univ.image recvOrd = Finset.univ.erase (0 : Fin 32) := by decide

/-- The departures done: the positions on the send cells, and the lent shares of the two rows. -/
theorem sendWPost_split (c : Dev nD) :
    (bigSep (rangeSet 32 1 32) (sendWPost m c) : sProp 𝕄)
      = iprop(bigSep (Finset.univ.erase (0 : Fin 32)) (fun k => atPos ER (sendCell c k) 1 ∅ 0)
          ∗ bigSep (Finset.univ.erase (0 : Fin 32)) (fun k => rowsPts m c k)) := by
  rw [rangeSet_one_32, ← bigSep_sep']; rfl

/-- The landings done, read by slot: the positions on the receive cells, and the slots. -/
theorem recvPost_split (c : Dev nD) :
    (bigSep (rangeSet 31 0 31) (fun i : Fin 31 => recvPost m c (recvOrd i)) : sProp 𝕄)
      = iprop(bigSep (Finset.univ.erase (0 : Fin 32)) (fun j => atPos ER (recvCell c j) 1 ∅ 0)
          ∗ bigSep (Finset.univ.erase (0 : Fin 32)) (fun j => slotPts c j (commC m c))) := by
  rw [Ring.rangeSet_univ, ← bigSep_sep', ← ord_image', bigSep_image_of_injOn (ord_inj'.injOn)]; rfl

/-! ## The buffers joined back -/

/-- The remainder and the 32 read shares make the two rows whole. -/
theorem rows_join (c : Dev nD) :
    iprop((((c : Thread nD τ).loc cc0_scratch3) ↦{Transfers.shareDrop fullShare 32} rowsC m c) ∗ rowsPts m c 0
        ∗ bigSep (Finset.univ.erase (0 : Fin 32)) (fun k => rowsPts m c k))
      ⊢ ((((c : Thread nD τ).loc cc0_scratch3) ↦{fullShare} rowsC m c) : sProp 𝕄) := by
  refine .trans ?_ (rows_shares m c).2
  rw [bigSep_univ_at (fun k : Fin 32 => rowsPts m c k) 0]

/-- The 32 slots at the final contents make the exchange buffer whole. -/
theorem comm_join (c : Dev nD) :
    iprop(slotPts c 0 (commC m c) ∗ bigSep (Finset.univ.erase (0 : Fin 32)) (fun j => slotPts c j (commC m c)))
      ⊢ ((((c : Thread nD τ).loc cc0_scratch4) ↦{fullShare} commC m c) : sProp 𝕄) := by
  rw [comm_slots c (commC m c), bigSep_univ_at (fun j : Fin 32 => slotPts c j (commC m c)) 0]

/-! ## The 67 own semaphores: three input copies, 32 send, 32 receive -/

theorem sems_in (c : Dev nD) :
    (bigSep (rangeSet 67 0 3) (fun i : Fin 67 => semVal ((c : Thread nD τ), osem i) 0) : sProp 𝕄)
      = iprop(semVal ((c : Thread nD τ), SemLoc.dma (inSem 0)) 0 ∗ semVal ((c : Thread nD τ), SemLoc.dma (inSem 1)) 0
          ∗ semVal ((c : Thread nD τ), SemLoc.dma (inSem 2)) 0 ∗ emp) := by
  rw [Ring.bigSep_rangeSet_head (lo := 0) (hi := 3) (by decide) (by decide),
    Ring.bigSep_rangeSet_head (lo := 0 + 1) (hi := 3) (by decide) (by decide),
    Ring.bigSep_rangeSet_head (lo := 0 + 1 + 1) (hi := 3) (by decide) (by decide),
    Ring.bigSep_rangeSet_empty (lo := 0 + 1 + 1 + 1) (hi := 3) (by decide)]
  rfl

theorem sems_send (c : Dev nD) :
    (bigSep (rangeSet 67 3 35) (fun i : Fin 67 => semVal ((c : Thread nD τ), osem i) 0) : sProp 𝕄)
      = bigSep Finset.univ fun k : Fin 32 => semVal (sendCell c k) 0 := by
  have e1 := Ring.bigSep_rangeSet_eq_range (NB := 67) (Φ := fun i : Fin 67 => (semVal ((c : Thread nD τ), osem i) 0 : sProp 𝕄))
    (lo := 3) (hi := 35) (by decide)
    (fun k => if h : 3 + k < 67 then (semVal ((c : Thread nD τ), osem ⟨3 + k, h⟩) 0 : sProp 𝕄) else BI.emp) (fun k h => dif_pos h)
  have e2 := Ring.bigSep_rangeSet_eq_range (NB := 32) (Φ := fun k : Fin 32 => (semVal (sendCell c k) 0 : sProp 𝕄))
    (lo := 0) (hi := 32) (le_refl _)
    (fun k => if h : 3 + k < 67 then (semVal ((c : Thread nD τ), osem ⟨3 + k, h⟩) 0 : sProp 𝕄) else BI.emp) (fun k h => by
      have h' : 3 + k < 67 := by omega
      rw [dif_pos h']
      exact congrArg (fun s : DmaSem sig => (semVal ((c : Thread nD τ), SemLoc.dma s) 0 : sProp 𝕄))
        (Fin.ext (by show 1 + (3 + k) = 4 + (0 + k); omega)))
  rw [Ring.rangeSet_univ] at e2
  exact e1.trans e2.symm

theorem sems_recv (c : Dev nD) :
    (bigSep (rangeSet 67 35 67) (fun i : Fin 67 => semVal ((c : Thread nD τ), osem i) 0) : sProp 𝕄)
      = bigSep Finset.univ fun j : Fin 32 => semVal (recvCell c j) 0 := by
  have e1 := Ring.bigSep_rangeSet_eq_range (NB := 67) (Φ := fun i : Fin 67 => (semVal ((c : Thread nD τ), osem i) 0 : sProp 𝕄))
    (lo := 35) (hi := 67) (le_refl _)
    (fun k => if h : 35 + k < 67 then (semVal ((c : Thread nD τ), osem ⟨35 + k, h⟩) 0 : sProp 𝕄) else BI.emp) (fun k h => dif_pos h)
  have e2 := Ring.bigSep_rangeSet_eq_range (NB := 32) (Φ := fun j : Fin 32 => (semVal (recvCell c j) 0 : sProp 𝕄))
    (lo := 0) (hi := 32) (le_refl _)
    (fun k => if h : 35 + k < 67 then (semVal ((c : Thread nD τ), osem ⟨35 + k, h⟩) 0 : sProp 𝕄) else BI.emp) (fun k h => by
      have h' : 35 + k < 67 := by omega
      rw [dif_pos h']
      exact congrArg (fun s : DmaSem sig => (semVal ((c : Thread nD τ), SemLoc.dma s) 0 : sProp 𝕄))
        (Fin.ext (by show 1 + (35 + k) = 36 + (0 + k); omega)))
  rw [Ring.rangeSet_univ] at e2
  exact e1.trans e2.symm

/-- The three input-copy counters, the 32 send and the 32 receive counters are the 67 own semaphores. -/
theorem sems_join (c : Dev nD) :
    iprop(semVal ((c : Thread nD τ), SemLoc.dma (inSem 0)) 0 ∗ semVal ((c : Thread nD τ), SemLoc.dma (inSem 1)) 0
        ∗ semVal ((c : Thread nD τ), SemLoc.dma (inSem 2)) 0
        ∗ (bigSep Finset.univ fun k : Fin 32 => semVal (sendCell c k) 0)
        ∗ (bigSep Finset.univ fun j : Fin 32 => semVal (recvCell c j) 0))
      ⊢ (bigSep Finset.univ (fun i : Fin 67 => semVal ((c : Thread nD τ), osem i) 0) : sProp 𝕄) := by
  rw [← Ring.rangeSet_univ (NB := 67),
    Ring.bigSep_rangeSet_split (a := 0) (b := 3) (d := 67) (by decide) (by decide),
    Ring.bigSep_rangeSet_split (a := 3) (b := 35) (d := 67) (by decide) (by decide), sems_in, sems_send, sems_recv]
  iintro ⟨H0, H1, H2, Hs, Hr⟩
  isplitl [H0 H1 H2]
  · isplitl [H0]; · iexact H0
    isplitl [H1]; · iexact H1
    isplitl [H2]; · iexact H2
    iempintro
  · isplitl [Hs]; · iexact Hs
    iexact Hr

/-- At the end of the body: every send and receive cell closed, the two rows' shares and the exchange buffer's slots joined
    back, and with the three input-copy counters every own semaphore at zero in the device's hand. -/
theorem finish (c : Dev nD) :
    iprop(records m K
        ∗ atPos ER (sendCell c 0) 0 ∅ 0 ∗ atPos ER (recvCell c 0) 0 ∅ 0
        ∗ bigSep (rangeSet 32 1 32) (sendWPost m c)
        ∗ bigSep (rangeSet 31 0 31) (fun i : Fin 31 => recvPost m c (recvOrd i))
        ∗ slotPts c 0 (commC m c)
        ∗ (((c : Thread nD τ).loc cc0_scratch3) ↦{Transfers.shareDrop fullShare 32} rowsC m c) ∗ rowsPts m c 0
        ∗ semVal ((c : Thread nD τ), SemLoc.dma (inSem 0)) 0 ∗ semVal ((c : Thread nD τ), SemLoc.dma (inSem 1)) 0 ∗ semVal ((c : Thread nD τ), SemLoc.dma (inSem 2)) 0)
      ⊢ (|={Set.univ}=> iprop((((c : Thread nD τ).loc cc0_scratch3) ↦{fullShare} rowsC m c)
          ∗ (((c : Thread nD τ).loc cc0_scratch4) ↦{fullShare} commC m c)
          ∗ bigSep Finset.univ fun i : Fin 67 => semVal ((c : Thread nD τ), osem i) 0) : sProp 𝕄) := by
  rw [sendWPost_split, recvPost_split]
  iintro ⟨#HR, Hs0, Hr0, ⟨Hs, Hrows⟩, ⟨Hr, Hslots⟩, Hslot0, Hdrop, Hrow0, Hi0, Hi1, Hi2⟩
  imod (close_cells m K c) $$ [Hs0 Hr0 Hs Hr] with ⟨Hss, Hsr⟩
  · isplitr; · iexact HR
    isplitl [Hs0]; · iexact Hs0
    isplitl [Hr0]; · iexact Hr0
    isplitl [Hs]; · iexact Hs
    iexact Hr
  imodintro
  isplitl [Hdrop Hrow0 Hrows]
  · iapply (rows_join m c)
    isplitl [Hdrop]; · iexact Hdrop
    isplitl [Hrow0]; · iexact Hrow0
    iexact Hrows
  isplitl [Hslot0 Hslots]
  · iapply (comm_join m c)
    isplitl [Hslot0]; · iexact Hslot0
    iexact Hslots
  iapply (sems_join c)
  isplitl [Hi0]; · iexact Hi0
  isplitl [Hi1]; · iexact Hi1
  isplitl [Hi2]; · iexact Hi2
  isplitl [Hss]; · iexact Hss
  iexact Hsr

end Cert.KernelIdeal.Proto

end
-- ==== Proof.Values.lean ====
import proofs.«900828_g7700000000000829_dist_layernorm_colshard_i_m768_n512_v7x_i32_bf16_1_alg».proof.Proof.Contents

/-!
# What the device's own loads and stores leave

The block of `x` read back from the buffer the input copy filled is the launched block; the two stores into the two-row
buffer, each rewriting both rows with one replaced, leave the two rows the device sends whatever the buffer held; the two
stores into slot 0 of the exchange buffer leave that slot as the buffer's final contents have it.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## A slice update read at an index -/

/-- Inside the updated rectangle the update is read, at the index shifted by the rectangle's offsets. -/
theorem updateSlice_in {α : Type} {s u : Shape} (x : s.Idx → α) (upd : u.Idx → α) (start : Fin s.rank → Nat) (h : s.Slices start u)
    (i : s.Idx) (j : u.Idx)
    (hin : ∀ a : Fin s.rank, start a ≤ (i a).val ∧ (i a).val < start a + u.size (a.cast h.1.symm))
    (hj : ∀ b : Fin u.rank, (j b).val = (i (b.cast h.1)).val - start (b.cast h.1)) :
    updateSlice x upd start h i = upd j := by
  unfold updateSlice
  rw [dif_pos hin]
  congr 1
  funext b
  exact Fin.ext (hj b).symm

/-- Outside it, on some axis, the old contents are read. -/
theorem updateSlice_out {α : Type} {s u : Shape} (x : s.Idx → α) (upd : u.Idx → α) (start : Fin s.rank → Nat) (h : s.Slices start u)
    (i : s.Idx) (a : Fin s.rank) (ha : ¬ (start a ≤ (i a).val ∧ (i a).val < start a + u.size (a.cast h.1.symm))) :
    updateSlice x upd start h i = x i := by
  unfold updateSlice
  rw [dif_neg fun hin => ha (hin a)]

/-- Both rows of a two-row array replaced, row 0 by the quarter row sums and row 1 by the quarter row sums of squares, whatever it held. -/
theorem rows_eq (v : Vec F S768x512 .f32) (X : FVec F S2x768 .bf16) :
    updateSlice (s := S2x768) (u := S1x768) (updateSlice (s := S2x768) (u := S1x768) X (k0_pay3 v) ![0, 0] slices_S2x768_S1x768_0_0)
        (k0_pay4 v) ![1, 0] slices_S2x768_S1x768_1_0
      = Cert.KernelIdeal.KVal.mine v := by
  funext i
  obtain ⟨a, b, rfl⟩ : ∃ (a : Fin 2) (b : Fin 768), i = ValueIdx.ix2 a b := ⟨i 0, i 1, ValueIdx.eq_ix2 i⟩
  have hb := b.isLt
  unfold Cert.KernelIdeal.KVal.mine
  rcases a with ⟨_ | _ | a, ha⟩
  · rw [updateSlice_out (s := S2x768) (u := S1x768) _ (k0_pay4 v) ![1, 0] slices_S2x768_S1x768_1_0 (ValueIdx.ix2 ⟨0, ha⟩ b) (0 : Fin 2) (by simp),
      updateSlice_in (s := S2x768) (u := S1x768) X (k0_pay3 v) ![0, 0] slices_S2x768_S1x768_0_0 (ValueIdx.ix2 ⟨0, ha⟩ b) (ValueIdx.ix2 (0 : Fin 1) b)
        (fun a' => by fin_cases a' <;> simp <;> omega) (fun b' => by fin_cases b' <;> simp)]
    rw [if_pos (by rfl)]
    show shapeCast S1x768 (k0_pay1 v) shapeCasts_S768_S1x768 (ValueIdx.ix2 (0 : Fin 1) b) = k0_pay1 v (ValueIdx.ix1 b)
    exact ValueIdx.shapeCast_a_1a_apply (k0_pay1 v) _ _ _
  · rw [updateSlice_in (s := S2x768) (u := S1x768) _ (k0_pay4 v) ![1, 0] slices_S2x768_S1x768_1_0 (ValueIdx.ix2 ⟨1, ha⟩ b) (ValueIdx.ix2 (0 : Fin 1) b)
        (fun a' => by fin_cases a' <;> simp <;> omega) (fun b' => by fin_cases b' <;> simp)]
    rw [if_neg (by simp)]
    show shapeCast S1x768 (k0_pay2 v) shapeCasts_S768_S1x768 (ValueIdx.ix2 (0 : Fin 1) b) = k0_pay2 v (ValueIdx.ix1 b)
    exact ValueIdx.shapeCast_a_1a_apply (k0_pay2 v) _ _ _
  · omega

/-- Both rows of a slot replaced the same way, read at an index: the row it names of the two rows sent. -/
theorem slot_rows_eq (v : Vec F S768x512 .f32) (X : FVec F S1x2x768 .bf16) (y : S1x2x768.Idx) :
    updateSlice (s := S1x2x768) (u := S1x1x768) (updateSlice (s := S1x2x768) (u := S1x1x768) X (k0_pay5 v) ![0, 0, 0] slices_S1x2x768_S1x1x768_0_0_0)
        (k0_pay6 v) ![0, 1, 0] slices_S1x2x768_S1x1x768_0_1_0 y
      = Cert.KernelIdeal.KVal.mine v (ValueIdx.ix2 (show Fin 2 from y 1) (show Fin 768 from y 2)) := by
  obtain ⟨u, a, b, rfl⟩ : ∃ (u : Fin 1) (a : Fin 2) (b : Fin 768), y = ValueIdx.ix3 u a b := ⟨y 0, y 1, y 2, ValueIdx.eq_ix3 y⟩
  have hb := b.isLt
  have hu : u.val = 0 := by omega
  unfold Cert.KernelIdeal.KVal.mine
  rcases a with ⟨_ | _ | a, ha⟩
  · rw [updateSlice_out (s := S1x2x768) (u := S1x1x768) _ (k0_pay6 v) ![0, 1, 0] slices_S1x2x768_S1x1x768_0_1_0 (ValueIdx.ix3 u ⟨0, ha⟩ b) (1 : Fin 3) (by simp),
      updateSlice_in (s := S1x2x768) (u := S1x1x768) X (k0_pay5 v) ![0, 0, 0] slices_S1x2x768_S1x1x768_0_0_0 (ValueIdx.ix3 u ⟨0, ha⟩ b) (ValueIdx.ix3 (0 : Fin 1) (0 : Fin 1) b)
        (fun a' => by fin_cases a' <;> simp <;> omega) (fun b' => by fin_cases b' <;> simp <;> omega)]
    rw [if_pos (by rfl)]
    show shapeCast S1x1x768 (k0_pay1 v) shapeCasts_S768_S1x1x768 (ValueIdx.ix3 (0 : Fin 1) (0 : Fin 1) b) = k0_pay1 v (ValueIdx.ix1 b)
    exact shapeCast_apply _ _ _ _ (by rw [Shape.rowMajor_val_one, Shape.rowMajor_val_three]; simp)
  · rw [updateSlice_in (s := S1x2x768) (u := S1x1x768) _ (k0_pay6 v) ![0, 1, 0] slices_S1x2x768_S1x1x768_0_1_0 (ValueIdx.ix3 u ⟨1, ha⟩ b) (ValueIdx.ix3 (0 : Fin 1) (0 : Fin 1) b)
        (fun a' => by fin_cases a' <;> simp <;> omega) (fun b' => by fin_cases b' <;> simp <;> omega)]
    rw [if_neg (by simp)]
    show shapeCast S1x1x768 (k0_pay2 v) shapeCasts_S768_S1x1x768 (ValueIdx.ix3 (0 : Fin 1) (0 : Fin 1) b) = k0_pay2 v (ValueIdx.ix1 b)
    exact shapeCast_apply _ _ _ _ (by rw [Shape.rowMajor_val_one, Shape.rowMajor_val_three]; simp)
  · omega

/-- The exchange buffer's final contents at an element of slot 0: the device's own two rows. -/
theorem commC_slot0 (c : Dev nD) (y : rR.shape.Idx) :
    commC m c (((commM : Memref sig .tc .vmem S32x2x768 .bf16).access rR).emb y)
      = Cert.KernelIdeal.KVal.mine (xIn m c) (ValueIdx.ix2 (show Fin 2 from y 1) (show Fin 768 from y 2)) := by
  have hy0 := (y 0).isLt
  have e0 : ((((commM : Memref sig .tc .vmem S32x2x768 .bf16).access rR).emb y) 0).val = 0 := by
    show ((rR.emb y) 0).val = 0
    simp at hy0 ⊢; omega
  have e1 : ((((commM : Memref sig .tc .vmem S32x2x768 .bf16).access rR).emb y) 1).val = (y 1).val := by
    show ((rR.emb y) 1).val = (y 1).val
    simp
  have e2 : ((((commM : Memref sig .tc .vmem S32x2x768 .bf16).access rR).emb y) 2).val = (y 2).val := by
    show ((rR.emb y) 2).val = (y 2).val
    simp
  unfold commC Cert.KernelIdeal.KVal.rowsAt
  have hp : Cert.KernelIdeal.KVal.peer c ⟨((((commM : Memref sig .tc .vmem S32x2x768 .bf16).access rR).emb y) 0).val, ((((commM : Memref sig .tc .vmem S32x2x768 .bf16).access rR).emb y) 0).isLt⟩ = c := by
    have h32 : (⟨((((commM : Memref sig .tc .vmem S32x2x768 .bf16).access rR).emb y) 0).val, ((((commM : Memref sig .tc .vmem S32x2x768 .bf16).access rR).emb y) 0).isLt⟩ : Fin 32) = 0 := Fin.ext e0
    rw [h32]; exact peer_zero c
  rw [hp]
  congr 1
  funext d
  match d with
  | ⟨0, _⟩ => exact Fin.ext e1
  | ⟨1, _⟩ => exact Fin.ext e2

abbrev r22 : Rect S2x768 := Rect.unit (s := S2x768) ![0, 0] S2x768.size inb_S2x768_S2x768_0_0

/-- The input copy's destination read back whole is what the copy carried: the launched array. -/
theorem x_value (c : Dev nD) (fx : Buf (Elt F) ((Memref.whole cc0_scratch0 : Memref sig .tc .vmem S768x512 .f32).view.loc (c : Thread nD τ))) :
    View.readAt (Elt F) (Memref.whole cc0_scratch0 : Memref sig .tc .vmem S768x512 .f32).view
        (Rect.unit (s := S768x512) ![0, 0] S768x512.size inb_S768x512_S768x512_0_0).toLoadRect
        (View.write (Elt F) (Memref.whole cc0_scratch0 : Memref sig .tc .vmem S768x512 .f32).view fx
          (ReadAs.same.apply (View.read (Elt F) (Memref.whole main_arg0 : Memref sig .tc .hbm S768x512 .f32).view (m ((c : Thread nD τ).loc main_arg0)))) Finset.univ)
      = xIn m c :=
  (Memref.readAt_unit_zero (Elt F) cc0_scratch0 hz2 _ _).trans (View.write_whole_univ cc0_scratch0 _ _)

theorem g_value (c : Dev nD) (fg : Buf (Elt F) ((Memref.whole cc0_scratch1 : Memref sig .tc .vmem S512 .f32).view.loc (c : Thread nD τ))) :
    View.readAt (Elt F) (Memref.whole cc0_scratch1 : Memref sig .tc .vmem S512 .f32).view
        (Rect.unit (s := S512) ![0] S512.size inb_S512_S512_0).toLoadRect
        (View.write (Elt F) (Memref.whole cc0_scratch1 : Memref sig .tc .vmem S512 .f32).view fg
          (ReadAs.same.apply (View.read (Elt F) (Memref.whole main_arg1 : Memref sig .tc .hbm S512 .f32).view (m ((c : Thread nD τ).loc main_arg1)))) Finset.univ)
      = gIn m c :=
  (Memref.readAt_unit_zero (Elt F) cc0_scratch1 hz1 _ _).trans (View.write_whole_univ cc0_scratch1 _ _)

theorem b_value (c : Dev nD) (fb : Buf (Elt F) ((Memref.whole cc0_scratch2 : Memref sig .tc .vmem S512 .f32).view.loc (c : Thread nD τ))) :
    View.readAt (Elt F) (Memref.whole cc0_scratch2 : Memref sig .tc .vmem S512 .f32).view
        (Rect.unit (s := S512) ![0] S512.size inb_S512_S512_0).toLoadRect
        (View.write (Elt F) (Memref.whole cc0_scratch2 : Memref sig .tc .vmem S512 .f32).view fb
          (ReadAs.same.apply (View.read (Elt F) (Memref.whole main_arg2 : Memref sig .tc .hbm S512 .f32).view (m ((c : Thread nD τ).loc main_arg2)))) Finset.univ)
      = bIn m c :=
  (Memref.readAt_unit_zero (Elt F) cc0_scratch2 hz1 _ _).trans (View.write_whole_univ cc0_scratch2 _ _)

/-- The two stores into the two-row buffer, the second over the first read back, leave the rows of `v`. -/
theorem rows_value (c : Dev nD) (v : Vec F S768x512 .f32) (fr : Buf (Elt F) ((Memref.whole cc0_scratch3 : Memref sig .tc .vmem S2x768 .bf16).view.loc (c : Thread nD τ))) :
    (Memref.whole cc0_scratch3 : Memref sig .tc .vmem S2x768 .bf16).view.writes (Elt F) fr
        [⟨r22, updateSlice
            ((Memref.whole cc0_scratch3 : Memref sig .tc .vmem S2x768 .bf16).view.readCov
              [⟨r22, updateSlice (View.readAt (Elt F) (Memref.whole cc0_scratch3 : Memref sig .tc .vmem S2x768 .bf16).view r22.toLoadRect fr) (k0_pay3 v) ![0, 0] slices_S2x768_S1x768_0_0⟩]
              r22.toLoadRect)
            (k0_pay4 v) ![1, 0] slices_S2x768_S1x768_1_0⟩,
         ⟨r22, updateSlice (View.readAt (Elt F) (Memref.whole cc0_scratch3 : Memref sig .tc .vmem S2x768 .bf16).view r22.toLoadRect fr) (k0_pay3 v) ![0, 0] slices_S2x768_S1x768_0_0⟩]
      = Cert.KernelIdeal.KVal.mine v := by
  have hW (g : (Memref.whole cc0_scratch3 : Memref sig .tc .vmem S2x768 .bf16).view.ty.Contents (Elt F)) (w : r22.shape.Idx → Elt F .bf16) :
      ((Memref.whole cc0_scratch3 : Memref sig .tc .vmem S2x768 .bf16).view.slice r22).write (Elt F) g w Finset.univ = w :=
    Memref.write_access_unit_zero_univ (Elt F) cc0_scratch3 hz2 _ g w
  rw [View.writes_cons]
  dsimp only
  rw [hW, View.readCov_unit_zero (S := S2x768) (Memref.whole cc0_scratch3 : Memref sig .tc .vmem S2x768 .bf16).view hz2]
  exact rows_eq v _

/-- The two stores into slot 0, the second over the first read back, leave slot 0 as the buffer's final contents have it. -/
theorem slot0_value (c : Dev nD) (fc : Buf (Elt F) ((c : Thread nD τ).loc cc0_scratch4)) :
    ((commM.access rR).loc (c : Thread nD τ) ↦[(slotM 0 : Memref sig .tc .vmem S2x768 .bf16).view.set]{fullShare}
        View.write (Elt F) (commM.access rR)
          (View.write (Elt F) (commM.access rR) fc
            (updateSlice (View.readAt (Elt F) commM.view rR.toLoadRect fc) (k0_pay5 (xIn m c)) ![0, 0, 0] slices_S1x2x768_S1x1x768_0_0_0) Finset.univ)
          (updateSlice
            (View.readAt (Elt F) commM.view rR.toLoadRect
              (View.write (Elt F) (commM.access rR) fc
                (updateSlice (View.readAt (Elt F) commM.view rR.toLoadRect fc) (k0_pay5 (xIn m c)) ![0, 0, 0] slices_S1x2x768_S1x1x768_0_0_0) Finset.univ))
            (k0_pay6 (xIn m c)) ![0, 1, 0] slices_S1x2x768_S1x1x768_0_1_0)
          Finset.univ : sProp 𝕄)
      = slotPts c 0 (commC m c) := by
  have hR (f : ((commM : Memref sig .tc .vmem S32x2x768 .bf16).access rR).ty.Contents (Elt F)) (w : rR.shape.Idx → Elt F .bf16) :
      View.readAt (Elt F) (commM : Memref sig .tc .vmem S32x2x768 .bf16).view rR.toLoadRect (View.write (Elt F) ((commM : Memref sig .tc .vmem S32x2x768 .bf16).access rR) f w Finset.univ) = w :=
    View.read_write_univ (v := (commM : Memref sig .tc .vmem S32x2x768 .bf16).access rR) f w
  have hset : ((commM : Memref sig .tc .vmem S32x2x768 .bf16).access rR).set = (slotM 0 : Memref sig .tc .vmem S2x768 .bf16).view.set :=
    (View.set_slice_whole cc0_scratch4 rR).trans (slot_set 0).symm
  rw [hR]
  refine pointsTo_congr fun i hi => ?_
  obtain ⟨y, rfl⟩ := View.exists_emb_of_mem_set ((commM : Memref sig .tc .vmem S32x2x768 .bf16).access rR) (hset ▸ hi)
  rw [View.write_emb_of_mem _ _ (Finset.mem_univ y), commC_slot0]
  exact slot_rows_eq (xIn m c) _ y

/-- One store of the whole result block leaves exactly that block. -/
theorem out_value (c : Dev nD) (g0 : Buf (Elt F) ((Memref.whole cc0_stg0_0 : Memref sig .tc .vmem S768x512 .bf16).view.loc (c : Thread nD τ))) (v : FVec F S768x512 .bf16) :
    (Memref.whole cc0_stg0_0 : Memref sig .tc .vmem S768x512 .bf16).view.writes (Elt F) g0
        [⟨Rect.unit (s := S768x512) ![0, 0] S768x512.size inb_S768x512_S768x512_0_0, v⟩]
      = v := by
  have hW (g : (Memref.whole cc0_stg0_0 : Memref sig .tc .vmem S768x512 .bf16).view.ty.Contents (Elt F))
      (w : (Rect.unit (s := S768x512) ![0, 0] S768x512.size inb_S768x512_S768x512_0_0).shape.Idx → Elt F .bf16) :
      ((Memref.whole cc0_stg0_0 : Memref sig .tc .vmem S768x512 .bf16).view.slice (Rect.unit (s := S768x512) ![0, 0] S768x512.size inb_S768x512_S768x512_0_0)).write (Elt F) g w Finset.univ = w :=
    Memref.write_access_unit_zero_univ (Elt F) cc0_stg0_0 hz2 _ g w
  rw [View.writes_cons]
  dsimp only
  rw [hW]

end Cert.KernelIdeal.Proto

end
-- ==== Proof.Body.lean ====
import proofs.«900828_g7700000000000829_dist_layernorm_colshard_i_m768_n512_v7x_i32_bf16_1_alg».proof.Proof.Steps
import proofs.«900828_g7700000000000829_dist_layernorm_colshard_i_m768_n512_v7x_i32_bf16_1_alg».proof.Proof.DevEq
import proofs.«900828_g7700000000000829_dist_layernorm_colshard_i_m768_n512_v7x_i32_bf16_1_alg».proof.Proof.Contents
import proofs.«900828_g7700000000000829_dist_layernorm_colshard_i_m768_n512_v7x_i32_bf16_1_alg».proof.Proof.Finish
import proofs.«900828_g7700000000000829_dist_layernorm_colshard_i_m768_n512_v7x_i32_bf16_1_alg».proof.Proof.Values

/-!
# The body of one device, stepped once at a symbolic device

The body runs in this order: it starts its three input copies; signals every device's barrier semaphore, handing each the
slot of its own exchange buffer that device will write; waits for its block of `x`, reduces it to two rows and stores them
in the two-row buffer and in slot 0; waits for all 32 entry signals, which bring in the 31 target slots; starts the 31
copies, each lending a read share of the two rows; waits for its pieces of `gamma` and `beta`; waits for the landings and
adds the slots group by group (0–7, 24–31, 8–15, 16–23); normalises its block and stores the result; waits for the 31
departures. Each cross-device step is one rule of `Steps.lean` / `Glue.lean`; the exchange buffer is held slot by slot
from the entry signals on, so its loads and stores are stepped on the slots they touch.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)
open Idealize.ShloMosaic.Tactic

/-- Memref `M`'s buffer on device `c`, held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A buffer held whole at contents known to be `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body leaves: `Φ₁`, nothing owed, the result window's staging buffer at the device's result block. -/
def bodyPost (c : Dev nD) : sProp 𝕄 :=
  iprop(Φ₁ m c ∗ (dats m ρ 0 c).owesAt () Gen.t0_0.succ ∗ stg c cc0_stg0_0 (outC m c))

omit [FloatOps F] in
/-- The entry signals' resources: the device's token on every barrier cell with what that signal hands over. -/
theorem sig_gather (c : Dev nD) :
    iprop((bigSep Finset.univ fun d : Dev nD => dutyTok ER (barCell d) 0 (c : Fin 32)) ∗ bigSep Finset.univ (fun d : Fin 32 => barPay (F := F) d c))
      ⊢ bigSep (rangeSet 32 0 32) (sigRes (F := F) c) := by
  rw [Ring.rangeSet_univ]; unfold sigRes; rw [bigSep_sep']

omit [FloatOps F] in
theorem pack {ℓ : Loc nD τ sig} (q : PosShare TreeShare) (S : Finset (Idx ℓ)) (f : Buf (Elt F) ℓ) :
    (ℓ ↦[S]{q} f : sProp 𝕄) ⊢ iprop(∃ f' : Buf (Elt F) ℓ, ⌜f' = f⌝ ∗ (ℓ ↦[S]{q} f')) := by
  iintro H; iexists f; isplitr; · (ipureintro; rfl)
  iexact H

omit [FloatOps F] in
/-- Nothing yet on the done side of a tail/head pair. -/
theorem with_nil {NB : ℕ} [NeZero NB] (lo : ℕ) (P : sProp 𝕄) (Φ : Fin NB → sProp 𝕄) : P ⊢ iprop(P ∗ bigSep (rangeSet NB lo lo) Φ) := by
  rw [Ring.bigSep_rangeSet_empty (le_refl lo)]; exact (sep_emp (PROP := sProp 𝕄)).2

omit [FloatOps F] in
/-- A returned value bound to its continuation is the continuation at the value. -/
theorem wp_ret_bind' {E : Type → Type} {α β : Type} (Fr) (wE) (Es : Set ℕ) (a : α) (k : α → Prog E β) (Q : β → sProp 𝕄) :
    wp Fr wE Es ((Prog.ret a).bind k) Q = wp Fr wE Es (k a) Q := rfl

open Lean in
set_option hygiene false in
/-- The entry signal to device `lo`, then on to the next cross-device step. -/
macro "sig_go " lo:num : tactic => `(tactic| (
  iapply (sig_step m K c $lo (by decide) _) $$ [HO Hsig]
  · isplitr; · iexact HR
    isplitl [HO]; · iexact HO
    iexact Hsig
  iintro ⟨HO, Hsig⟩
  first | (rw [wp_ret]; imodintro) | rw [wp_ret_bind'] | skip
  try sl_exec))

open Lean in
/-- All 32 entry signals, to devices 0 … 31 in order. -/
macro "sig_all" : tactic => do
  let mut ts : Array (TSyntax `tactic) := #[]
  for i in [0:32] do
    ts := ts.push (← `(tactic| sig_go $(Syntax.mkNumLit (toString i))))
  `(tactic| ($[$ts]*))

set_option hygiene false in
/-- Copy `lo` to device `c + lo`, into its slot `j = 32 − lo`. -/
macro "send_one " lo:num j:num e:ident : tactic => `(tactic| (
  iapply (send_go m K c $lo (by decide) (by decide) _ ($e c) $j (by decide) _) $$ [HO Hsend Hcs]
  · isplitr; · iexact HR
    isplitl [HO]; · iexact HO
    isplitl [Hsend]; · iexact Hsend
    iexact Hcs
  iintro ⟨HO, Hsend, Hcs⟩
  first | (rw [wp_ret]; imodintro) | rw [wp_ret_bind'] | skip
  try sl_exec))

open Lean in
/-- All 31 copies, `k = 1 … 31` in order. -/
macro "send_all" : tactic => do
  let mut ts : Array (TSyntax `tactic) := #[]
  for k in [1:32] do
    ts := ts.push (← `(tactic| send_one $(Syntax.mkNumLit (toString k)) $(Syntax.mkNumLit (toString (32 - k))) $(mkIdent (Name.mkSimple s!"dev{32 + k}_eq"))))
  `(tactic| ($[$ts]*))

set_option hygiene false in
/-- The `t`-th wait for a landing: slot `j`. -/
macro "recv_one " t:num j:num : tactic => `(tactic| (
  iapply (recv_go m K c $t (by decide) $j (by decide) _) $$ [HO Hrpre Hrpost]
  · isplitr; · iexact HR
    isplitl [HO]; · iexact HO
    isplitl [Hrpre]; · iexact Hrpre
    iexact Hrpost
  iintro ⟨%W', HO, Hrpre, Hrpost⟩
  first | (rw [wp_ret]; imodintro) | rw [wp_ret_bind'] | skip
  try sl_exec))

open Lean in
/-- Waits `t₀ … t₀ + n − 1` of the order the body waits in, for slots `j₀ … j₀ + n − 1`. -/
macro "recv_run " t0:num j0:num n:num : tactic => do
  let mut ts : Array (TSyntax `tactic) := #[]
  for i in [0:n.getNat] do
    ts := ts.push (← `(tactic| recv_one $(Syntax.mkNumLit (toString (t0.getNat + i))) $(Syntax.mkNumLit (toString (j0.getNat + i)))))
  `(tactic| ($[$ts]*))

set_option hygiene false in
/-- The load of the group of slots `lo … lo + 7` after `t` landings. -/
macro "group_one " lo:num t:num : tactic => `(tactic| (
  iapply (group_load m c $lo (by decide) $t (by decide) (by decide)) $$ [Hslot0 Hrpost]
  · isplitl [Hslot0]; · iexact Hslot0
    iexact Hrpost
  iintro ⟨Hslot0, Hrpost⟩
  first | rw [wp_ret_bind'] | skip
  try sl_exec))

set_option hygiene false in
/-- The wait for the departure of copy `lo` (its target slot `j = 32 − lo`). -/
macro "sendw_one " lo:num j:num : tactic => `(tactic| (
  iapply (sendw_go m K c $lo (by decide) (by decide) $j _) $$ [HO Hwpre Hwpost]
  · isplitr; · iexact HR
    isplitl [HO]; · iexact HO
    isplitl [Hwpre]; · iexact Hwpre
    iexact Hwpost
  iintro ⟨%W', HO, Hwpre, Hwpost⟩
  first | (rw [wp_ret]; imodintro) | rw [wp_ret_bind'] | skip
  try sl_exec))

open Lean in
/-- All 31 departures' waits, in order. -/
macro "sendw_all" : tactic => do
  let mut ts : Array (TSyntax `tactic) := #[]
  for k in [1:32] do
    ts := ts.push (← `(tactic| sendw_one $(Syntax.mkNumLit (toString k)) $(Syntax.mkNumLit (toString (32 - k)))))
  `(tactic| ($[$ts]*))

set_option maxHeartbeats 40000000 in
/-- The body, from what the launch hands device `c` to `bodyPost`. -/
theorem sound_body (K : GSem nD τ sig → ℕ) (c : Dev nD) (Kt : PUnit → sProp 𝕄) (W : Waits sig Unit)
    (fx : Bf (F := F) c (Memref.whole cc0_scratch0)) (fg : Bf (F := F) c (Memref.whole cc0_scratch1)) (fb : Bf (F := F) c (Memref.whole cc0_scratch2))
    (fr : Bf (F := F) c (Memref.whole cc0_scratch3)) (fc : Bf (F := F) c (Memref.whole cc0_scratch4)) (g0 : Bf (F := F) c (Memref.whole cc0_stg0_0)) :
    iprop(records m K ∗ positions c ∗ payToks c ∗ credits c ∗ levAts L lv
        ∗ semVal ((c : Thread nD τ), SemLoc.dma (inSem 0)) 0 ∗ semVal ((c : Thread nD τ), SemLoc.dma (inSem 1)) 0 ∗ semVal ((c : Thread nD τ), SemLoc.dma (inSem 2)) 0
        ∗ pt c (Memref.whole main_arg0) (m ((c : Thread nD τ).loc main_arg0)) ∗ pt c (Memref.whole main_arg1) (m ((c : Thread nD τ).loc main_arg1))
        ∗ pt c (Memref.whole main_arg2) (m ((c : Thread nD τ).loc main_arg2))
        ∗ pt c (Memref.whole cc0_scratch0) fx ∗ pt c (Memref.whole cc0_scratch1) fg ∗ pt c (Memref.whole cc0_scratch2) fb
        ∗ pt c (Memref.whole cc0_scratch3) fr ∗ pt c (Memref.whole cc0_scratch4) fc ∗ pt c (Memref.whole cc0_stg0_0) g0
        ∗ owes (c : Thread nD τ) (O₀ c) W
        ∗ (bodyPost m ρ c -∗ Kt ⟨⟩))
      ⊢ wp frame (wpE (defs₀ (F := F)) 𝒱₀ c none) Set.univ (Gen.bodyAt0 (F := F) Gen.t0_0) Kt := by
  unfold positions payToks credits
  iintro ⟨#HR, ⟨HatB, HatS, HatV⟩, ⟨HtB, HtS, HtV⟩, ⟨HcB, HcV⟩, #Hlev, Hs0, Hs1, Hs2, Ha0, Ha1, Ha2, Hx, Hg, Hb, Hrows, Hcomm, Hout, HO, Hk⟩
  have hmwB := fun (q : DmaSem sig) (hq : q.val < 36) (n : ℕ) (hn : n ≤ 32) => mayWait_low (F := F) c q hq n hn
  have hmwS := fun (q : DmaSem sig) (hq : q.val < 36) (n : ℕ) (hn : n ≤ 31) => mayWait_low_send (F := F) c q hq n hn
  -- the exchange buffer dealt: slot 0 stays, every other slot goes with the entry signal to the device that writes it
  ihave Hd := (comm_deal (F := F) m c K fc) $$ [Hcomm]
  · isplitr; · iexact HR
    iexact Hcomm
  icases Hd with ⟨Hslot0, Hpays⟩
  ihave Hsig := (sig_gather (F := F) c) $$ [HtB Hpays]
  · isplitl [HtB] <;> iassumption
  dsimp only [Gen.bodyAt0]
  sl_exec
  sig_all
  -- the device's own two rows into slot 0: each store rewrites the slot's two rows with one of them replaced
  unfold slotPts
  iapply (wp_load 𝒱₀ (c : Thread nD τ) none Set.univ (m := commM) (r := rA.toLoadRect) (S := (slotM 0 : Memref sig .tc .vmem S2x768 .bf16).view.set) slot0_sub_a) $$ Hslot0; iintro Hslot0
  try sl_exec
  iapply (wp_load 𝒱₀ (c : Thread nD τ) none Set.univ (m := commM) (r := rR.toLoadRect) (S := (slotM 0 : Memref sig .tc .vmem S2x768 .bf16).view.set) slot0_sub_R) $$ Hslot0; iintro Hslot0
  iapply (wp_store 𝒱₀ (c : Thread nD τ) none Set.univ (m := commM) (r := rR) (Mk := Finset.univ) (S := (slotM 0 : Memref sig .tc .vmem S2x768 .bf16).view.set) slot0_sub_W) $$ Hslot0; iintro Hslot0
  first | (rw [wp_ret]; imodintro) | rw [wp_ret_bind'] | skip
  try sl_exec
  iapply (wp_load 𝒱₀ (c : Thread nD τ) none Set.univ (m := commM) (r := rB.toLoadRect) (S := (slotM 0 : Memref sig .tc .vmem S2x768 .bf16).view.set) slot0_sub_b) $$ Hslot0; iintro Hslot0
  try sl_exec
  iapply (wp_load 𝒱₀ (c : Thread nD τ) none Set.univ (m := commM) (r := rR.toLoadRect) (S := (slotM 0 : Memref sig .tc .vmem S2x768 .bf16).view.set) slot0_sub_R) $$ Hslot0; iintro Hslot0
  iapply (wp_store 𝒱₀ (c : Thread nD τ) none Set.univ (m := commM) (r := rR) (Mk := Finset.univ) (S := (slotM 0 : Memref sig .tc .vmem S2x768 .bf16).view.set) slot0_sub_W) $$ Hslot0; iintro Hslot0
  first | (rw [wp_ret]; imodintro) | rw [wp_ret_bind'] | skip
  try sl_exec
  -- the wait for all 32 entry signals: every other device's target slot comes with it
  iapply (bar_wait m K c _) $$ [HcB HO HatB]
  · isplitr; · iexact HR
    isplitl [HcB]; · iexact HcB
    isplitl [HO]; · iexact HO
    isplitr; · iexact Hlev
    iexact HatB
  iintro ⟨HO, HatB, Hpays⟩
  first | (rw [wp_ret]; imodintro) | rw [wp_ret_bind'] | skip
  -- what the device's own loads and stores left: the launched block read back, the two rows it sends, slot 0
  have hv : sound_body.sl.v76 m c fx = xIn m c := by
    sl_unfold_run_names
    exact x_value m c fx
  ihave Hp := (pack (F := F) _ _ _) $$ Hrows
  icases Hp with ⟨%fr', %hfr', Hrows⟩
  have hr : fr' = rowsC m c := by
    rw [hfr']
    sl_unfold_run_names
    rw [x_value m c fx]
    exact rows_value c (xIn m c) fr
  subst hr
  ihave Hq := (pack (F := F) _ _ _) $$ Hslot0
  icases Hq with ⟨%fs', %hfs', Hslot0⟩
  rw [hv] at hfs'
  subst hfs'
  ihave Hslot0 := (Entails.of_eq (slot0_value m c fc)) $$ Hslot0
  -- the two rows by read shares, one for each copy; the copies' resources in order
  ihave Hsh := (rows_shares (F := F) m c).1 $$ Hrows
  icases Hsh with ⟨Hrrem, Hrsh⟩
  ihave Hsl := (barPays_slots (F := F) c) $$ Hpays
  ihave Hsg := (send_gather (F := F) m c) $$ [HtS HtV Hrsh Hsl]
  · isplitl [HtS]; · iexact HtS
    isplitl [HtV]; · iexact HtV
    isplitl [Hrsh]; · iexact Hrsh
    iexact Hsl
  icases Hsg with ⟨Hr0, Hsend⟩
  ihave HOc := (with_nil (F := F) (NB := 32) 1 _ (fun k' : Fin 32 => cred (tallyAt (sendCell c k') () N))) $$ HO
  icases HOc with ⟨HO, Hcs⟩
  try sl_exec
  -- the 31 copies
  send_all
  -- (the waits for the local copies of gamma and beta and their loads ran above; now the landings, group by group)
  ihave Hri := (recv_init (F := F) c) $$ [HcV HatV]
  · isplitl [HcV] <;> iassumption
  icases Hri with ⟨HatV0, Hrpre⟩
  ihave HOc := (with_nil (F := F) (NB := 31) 0 _ (fun i : Fin 31 => recvPost m c (recvOrd i))) $$ HO
  icases HOc with ⟨HO, Hrpost⟩
  recv_run 0 1 7
  group_one 0 7
  recv_run 7 24 8
  group_one 24 15
  recv_run 15 8 8
  group_one 8 23
  recv_run 23 16 8
  group_one 16 31
  -- the departures
  ihave Hwi := (sendw_init (F := F) c) $$ [Hcs HatS]
  · isplitl [Hcs] <;> iassumption
  icases Hwi with ⟨HatS0, Hwpre⟩
  ihave HOc := (with_nil (F := F) (NB := 32) 1 _ (sendWPost m c)) $$ HO
  icases HOc with ⟨HO, Hwpost⟩
  sendw_all
  -- the return: cells closed, shares and slots joined, everything handed back
  rw [wp_ret]
  imod (finish (F := F) m K c) $$ [HatS0 HatV0 Hwpost Hrpost Hslot0 Hrrem Hr0 Hs0 Hs1 Hs2] with ⟨Hrows, Hcomm, Hsems⟩
  · isplitr; · iexact HR
    isplitl [HatS0]; · iexact HatS0
    isplitl [HatV0]; · iexact HatV0
    isplitl [Hwpost]; · iexact Hwpost
    isplitl [Hrpost]; · iexact Hrpost
    isplitl [Hslot0]; · iexact Hslot0
    isplitl [Hrrem]; · iexact Hrrem
    isplitl [Hr0]; · iexact Hr0
    isplitl [Hs0]; · iexact Hs0
    isplitl [Hs1]; · iexact Hs1
    iexact Hs2
  imodintro
  -- the result block
  ihave Hpo := (pack (F := F) _ _ _) $$ Hout
  icases Hpo with ⟨%fo', %hfo', Hout⟩
  have ho : fo' = outC m c := by
    rw [hfo']
    sl_unfold_run_names
    rw [x_value m c fx, g_value m c fg, b_value m c fb]
    exact out_value c g0 _
  subst ho
  iapply Hk
  unfold bodyPost Φ₁ args scratch Dat.owesAt Pipeline.owesWithin
  rw [show (dats m ρ 0 c).owed Gen.t0_0.succ = 0 from rfl]
  isplitl [Ha0 Ha1 Ha2 Hx Hg Hb Hrows Hcomm Hsems]
  · isplitl [Ha0 Ha1 Ha2]
    · isplitl [Ha0]; · iexact Ha0
      isplitl [Ha1]; · iexact Ha1
      iexact Ha2
    isplitl [Hx Hg Hb Hrows Hcomm]
    · isplitl [Hx]; · iexists _; iexact Hx
      isplitl [Hg]; · iexists _; iexact Hg
      isplitl [Hb]; · iexists _; iexact Hb
      isplitl [Hrows]; · iexists _; iexact Hrows
      iexists _; iexact Hcomm
    iexact Hsems
  isplitl [HO]
  · iexists W'; isplitr; · ipureintro; exact fun _ _ => Or.inl trivial
    iexact HO
  iexists _; isplitr; · (ipureintro; rfl)
  iexact Hout

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem in3_eq (c : Dev nD) : (inSems (F := F) c) = iprop(semVal ((c : Thread nD τ), SemLoc.dma (inSem 0)) 0 ∗ semVal ((c : Thread nD τ), SemLoc.dma (inSem 1)) 0 ∗ semVal ((c : Thread nD τ), SemLoc.dma (inSem 2)) 0) := by
  unfold inSems
  rw [bigSep_univ_eq_bigSepL [(0 : Fin 3), 1, 2] (by decide) (by decide)]
  rfl

/-- What the library's body obligation hands the body. -/
def bodyPre' (c : Dev nD) : sProp 𝕄 :=
  iprop(Φ₀ m c ∗ (dats m ρ 0 c).owesAt () Gen.t0_0.castSucc ∗ (∃ d, stg c cc0_stg0_0 ((dats m ρ 0 c).before (0 : Fin 1) Gen.t0_0 d)))

set_option maxRecDepth 65536 in
/-- The library's body obligation on device `c`. -/
theorem body_obligation (c : Dev nD) : BodyObligation (dats (F := F) m ρ 0 c) (defs₀ (F := F)) 𝒱₀ () Set.univ := fun t => by
  rw [Gen.fin_N0 t]
  rw [Gen.bigSep_W0, Gen.bigSep_W0]
  simp only [owns_whole_eq]
  show bodyPre' m ρ c ⊢ wp frame (wpE (defs₀ (F := F)) 𝒱₀ c none) Set.univ (Gen.bodyAt0 (F := F) Gen.t0_0) (fun _ => bodyPost m ρ c)
  unfold bodyPre' Φ₀ start ghost args scratch
  iintro ⟨⟨⟨⟨%K, HR, Hpos, Htok⟩, Hcr, Hlev, Hsem, ⟨Ha0, Ha1, Ha2⟩⟩, ⟨⟨%fx, Hx⟩, ⟨%fg, Hg⟩, ⟨%fb, Hb⟩, ⟨%fr, Hrows⟩, ⟨%fc, Hcomm⟩⟩⟩, Ho, ⟨%d0, %g0, %hg0, Hout⟩⟩
  unfold Dat.owesAt Pipeline.owesWithin
  icases Ho with ⟨%W, %hW, HO⟩
  ihave Hin3 := (Entails.of_eq (in3_eq (F := F) c)) $$ Hsem
  icases Hin3 with ⟨Hs0, Hs1, Hs2⟩
  iapply (sound_body m ρ K c (fun _ => bodyPost m ρ c) W fx fg fb fr fc g0)
  isplitl [HR]; · iexact HR
  isplitl [Hpos]; · iexact Hpos
  isplitl [Htok]; · iexact Htok
  isplitl [Hcr]; · iexact Hcr
  isplitl [Hlev]; · iexact Hlev
  isplitl [Hs0]; · iexact Hs0
  isplitl [Hs1]; · iexact Hs1
  isplitl [Hs2]; · iexact Hs2
  isplitl [Ha0]; · iexact Ha0
  isplitl [Ha1]; · iexact Ha1
  isplitl [Ha2]; · iexact Ha2
  isplitl [Hx]; · iexact Hx
  isplitl [Hg]; · iexact Hg
  isplitl [Hb]; · iexact Hb
  isplitl [Hrows]; · iexact Hrows
  isplitl [Hcomm]; · iexact Hcomm
  isplitl [Hout]; · iexact Hout
  isplitl [HO]; · iexact HO
  iintro H; iexact H

end Cert.KernelIdeal.Proto

end
-- ==== Proof.Launch.lean ====
import proofs.«900828_g7700000000000829_dist_layernorm_colshard_i_m768_n512_v7x_i32_bf16_1_alg».proof.Proof.Body

/-!
# The launch: every device's body obligation becomes the run of the program
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts -/

theorem ownSemFacts : Pipeline.OwnSemFacts cfg0.spec osem := by decide

theorem share_eq (c : Dev nD) (w : Fin cfg0.W) : (dats m ρ 0 c).share w = fullShare := by unfold Dat.share; split <;> rfl

/-! ## The cells and the tokens to mint -/

/-- A device's cells of the exchange: its barrier cell, its 32 send cells, its 32 receive cells. -/
abbrev CJ : Type := Unit ⊕ Fin 32 ⊕ Fin 32

def dcell (c : Dev nD) : CJ → GSem nD τ sig
  | .inl _ => barCell c
  | .inr (.inl k) => sendCell c k
  | .inr (.inr j) => recvCell c j

def kcell (cx : Dev nD × CJ) : GSem nD τ sig := dcell cx.1 cx.2

theorem lc_send_inj {d d' : Dev nD} {k k' : Fin 32} (h : sendCell d k = sendCell d' k') : d = d' ∧ k = k' := by
  have h1 : d = d' := congrArg (fun g : GSem nD τ sig => g.1.1) h
  have h2 : (SemLoc.dma (sendSem k) : SemLoc sig) = SemLoc.dma (sendSem k') := congrArg Prod.snd h
  have h3 : 4 + k.val = 4 + k'.val := by injection h2 with h2; exact congrArg (fun s : DmaSem sig => s.val) h2
  exact ⟨h1, Fin.ext (by omega)⟩
theorem lc_recv_inj {d d' : Dev nD} {k k' : Fin 32} (h : recvCell d k = recvCell d' k') : d = d' ∧ k = k' := by
  have h1 : d = d' := congrArg (fun g : GSem nD τ sig => g.1.1) h
  have h2 : (SemLoc.dma (recvSem k) : SemLoc sig) = SemLoc.dma (recvSem k') := congrArg Prod.snd h
  have h3 : 36 + k.val = 36 + k'.val := by injection h2 with h2; exact congrArg (fun s : DmaSem sig => s.val) h2
  exact ⟨h1, Fin.ext (by omega)⟩
theorem lc_bar_inj {d d' : Dev nD} (h : barCell d = barCell d') : d = d' := congrArg (fun g : GSem nD τ sig => g.1.1) h
theorem lc_bar_ne_send {d d' : Dev nD} {k : Fin 32} : barCell d ≠ sendCell d' k := fun h => by
  have h2 : (SemLoc.reg barS : SemLoc sig) = SemLoc.dma (sendSem k) := congrArg Prod.snd h
  cases h2
theorem lc_bar_ne_recv {d d' : Dev nD} {k : Fin 32} : barCell d ≠ recvCell d' k := fun h => by
  have h2 : (SemLoc.reg barS : SemLoc sig) = SemLoc.dma (recvSem k) := congrArg Prod.snd h
  cases h2
theorem lc_send_ne_recv {d d' : Dev nD} {k j : Fin 32} : sendCell d k ≠ recvCell d' j := fun h => by
  have h2 : (SemLoc.dma (sendSem k) : SemLoc sig) = SemLoc.dma (recvSem j) := congrArg Prod.snd h
  have h3 : 4 + k.val = 36 + j.val := by injection h2 with h2; exact congrArg (fun s : DmaSem sig => s.val) h2
  have := k.isLt; omega

theorem kcell_injective : Function.Injective kcell := by
  rintro ⟨d, (_ | k | k)⟩ ⟨d', (_ | k' | k')⟩ h
  · have := lc_bar_inj h; subst this; rfl
  · exact absurd h lc_bar_ne_send
  · exact absurd h lc_bar_ne_recv
  · exact absurd h.symm lc_bar_ne_send
  · obtain ⟨rfl, rfl⟩ := lc_send_inj h; rfl
  · exact absurd h lc_send_ne_recv
  · exact absurd h.symm lc_bar_ne_recv
  · exact absurd h.symm lc_send_ne_recv
  · obtain ⟨rfl, rfl⟩ := lc_recv_inj h; rfl

def ringCells : Finset (GSem nD τ sig) := Finset.univ.map ⟨kcell, kcell_injective⟩

/-- The duty tokens minted on a device's own cells: on its barrier cell one per payer; one per send cell; one per receive cell. -/
abbrev TJ : Type := Dev nD ⊕ Fin 32 ⊕ Fin 32

def dtok (c : Dev nD) : TJ → GSem nD τ sig × ℕ × Fin 32
  | .inl p => (barCell c, 0, (p : Fin 32))
  | .inr (.inl k) => (sendCell c k, 0, 0)
  | .inr (.inr j) => (recvCell c j, 0, 0)

def tokOf (cx : Dev nD × TJ) : GSem nD τ sig × ℕ × Fin 32 := dtok cx.1 cx.2

theorem tokOf_injective : Function.Injective tokOf := by
  rintro ⟨d, (c | k | k)⟩ ⟨d', (c' | k' | k')⟩ h
  · have h1 : d = d' := lc_bar_inj (congrArg Prod.fst h)
    have h2 : c = c' := congrArg (fun x : GSem nD τ sig × ℕ × Fin 32 => x.2.2) h
    subst h1; subst h2; rfl
  · exact absurd (congrArg Prod.fst h) lc_bar_ne_send
  · exact absurd (congrArg Prod.fst h) lc_bar_ne_recv
  · exact absurd (congrArg Prod.fst h).symm lc_bar_ne_send
  · obtain ⟨rfl, rfl⟩ := lc_send_inj (congrArg Prod.fst h); rfl
  · exact absurd (congrArg Prod.fst h) lc_send_ne_recv
  · exact absurd (congrArg Prod.fst h).symm lc_bar_ne_recv
  · exact absurd (congrArg Prod.fst h).symm lc_send_ne_recv
  · obtain ⟨rfl, rfl⟩ := lc_recv_inj (congrArg Prod.fst h); rfl

def ringToks : Finset (GSem nD τ sig × ℕ × Fin 32) := Finset.univ.map ⟨tokOf, tokOf_injective⟩

def u₀ : UU :=
  (initOf (Pipeline.cells cfgs cellOf_inj) (Pipeline.launchToks cfgs cellOf_inj), (initOf ringCells ringToks, 1))

omit [FloatOps F] in
theorem bigSep_ringCells (Φ : GSem nD τ sig → sProp 𝕄) :
    bigSep ringCells Φ = bigSep Finset.univ fun c : Dev nD => bigSep Finset.univ fun x : CJ => Φ (dcell c x) := by
  unfold ringCells; rw [bigSep_map, bigSep_univ_prod]; rfl

omit [FloatOps F] in
/-- A family over one device's cells, cell kind by cell kind. -/
theorem bigSep_CJ (Φ : CJ → sProp 𝕄) :
    bigSep Finset.univ Φ = iprop(Φ (.inl ()) ∗ (bigSep Finset.univ fun k : Fin 32 => Φ (.inr (.inl k))) ∗ (bigSep Finset.univ fun j : Fin 32 => Φ (.inr (.inr j)))) := by
  rw [bigSep_univ_sum, bigSep_univ_sum, bigSep_univ_of_subsingleton ()]
  rfl

omit [FloatOps F] in
theorem bigSep_dcell (c : Dev nD) (Φ : GSem nD τ sig → sProp 𝕄) :
    (bigSep Finset.univ fun x : CJ => Φ (dcell c x))
      = iprop(Φ (barCell c) ∗ (bigSep Finset.univ fun k : Fin 32 => Φ (sendCell c k)) ∗ (bigSep Finset.univ fun j : Fin 32 => Φ (recvCell c j))) := by
  rw [bigSep_CJ]; rfl

omit [FloatOps F] in
theorem bigSep_TJ (Φ : TJ → sProp 𝕄) :
    bigSep Finset.univ Φ = iprop((bigSep Finset.univ fun p : Dev nD => Φ (.inl p)) ∗ (bigSep Finset.univ fun k : Fin 32 => Φ (.inr (.inl k))) ∗ (bigSep Finset.univ fun j : Fin 32 => Φ (.inr (.inr j)))) := by
  rw [bigSep_univ_sum, bigSep_univ_sum]; rfl

/-- The tokens minted on device `c`'s own cells. -/
def toks (c : Dev nD) : sProp 𝕄 := bigSep Finset.univ fun x : TJ => dutyTok ER (dtok c x).1 (dtok c x).2.1 (dtok c x).2.2

omit [FloatOps F] in
theorem toks_eq (c : Dev nD) : (toks c : sProp 𝕄)
    = iprop((bigSep Finset.univ fun p : Dev nD => dutyTok ER (barCell c) 0 (p : Fin 32))
      ∗ (bigSep Finset.univ fun k : Fin 32 => dutyTok ER (sendCell c k) 0 (0 : Fin 32))
      ∗ (bigSep Finset.univ fun j : Fin 32 => dutyTok ER (recvCell c j) 0 (0 : Fin 32))) := by
  unfold toks; rw [bigSep_TJ]; rfl

omit [FloatOps F] in
theorem bigSep_prod' (Φ : Dev nD → Fin 32 → sProp 𝕄) :
    (bigSep Finset.univ fun c => bigSep Finset.univ fun k => Φ c k) = bigSep Finset.univ fun ck : Dev nD × Fin 32 => Φ ck.1 ck.2 :=
  (bigSep_univ_prod (fun ck : Dev nD × Fin 32 => Φ ck.1 ck.2)).symm

omit [FloatOps F] in
theorem bigSep_ringToks : bigSep ringToks (fun x => (dutyTok ER x.1 x.2.1 x.2.2 : sProp 𝕄)) = bigSep Finset.univ fun c : Dev nD => toks c := by
  unfold ringToks toks; rw [bigSep_map, bigSep_univ_prod]; rfl

/-- What the launch element deals device `c` (the theorem's `G`). -/
def G (c : Dev nD) : sProp 𝕄 :=
  iprop((bigSep Finset.univ fun x : CJ => roundState ER (rd m) (dcell c x) 0)
    ∗ (bigSep Finset.univ fun x : CJ => atPos ER (dcell c x) 0 ∅ 0)
    ∗ (bigSep Finset.univ fun x : CJ => reached ER (dcell c x) 0) ∗ toks c)

theorem fund_ring : BI.own (ER (initOf ringCells ringToks)) ⊢ (|==> bigSep Finset.univ (G m) : sProp 𝕄) := by
  iintro HX
  imod (Rounds.fund ER (rd m) ringCells ringToks) $$ HX with ⟨Hst, Hr, Hat, Htok⟩
  imodintro
  ihave Hst' := (Entails.of_eq (bigSep_ringCells fun g => roundState ER (rd m) g 0)) $$ Hst
  ihave Hat' := (Entails.of_eq (bigSep_ringCells fun g => atPos ER g 0 ∅ 0)) $$ Hat
  ihave Hr' := (Entails.of_eq (bigSep_ringCells fun g => reached ER g 0)) $$ Hr
  ihave Htok' := (Entails.of_eq (bigSep_ringToks (F := F))) $$ Htok
  unfold G; simp only [bigSep_sep']
  isplitl [Hst']; · iexact Hst'
  isplitl [Hat']; · iexact Hat'
  isplitl [Hr']; · iexact Hr'
  iexact Htok'

/-! ## The counters at launch -/

/-- The kernel's 67 own semaphores, kind by kind: three of the input copies, 32 send, 32 receive. -/
def esem : Fin 3 ⊕ Fin 32 ⊕ Fin 32 ≃ Fin 67 :=
  (Equiv.sumCongr (Equiv.refl (Fin 3)) (finSumFinEquiv (m := 32) (n := 32))).trans (finSumFinEquiv (m := 3) (n := 64))

theorem osem_in (i : Fin 3) : osem (esem (.inl i)) = SemLoc.dma (inSem i) := congrArg SemLoc.dma (Fin.ext rfl)
theorem osem_send (k : Fin 32) : osem (esem (.inr (.inl k))) = SemLoc.dma (sendSem k) :=
  congrArg SemLoc.dma (Fin.ext (by show 1 + (3 + k.val) = 4 + k.val; omega))
theorem osem_recv (j : Fin 32) : osem (esem (.inr (.inr j))) = SemLoc.dma (recvSem j) :=
  congrArg SemLoc.dma (Fin.ext (by show 1 + (3 + (32 + j.val)) = 36 + j.val; omega))

omit [FloatOps F] in
theorem ownSems0_eq (c : Dev nD) : (Pipeline.ownSems0 (Ix := Unit) (Name := ℕ) (U := UU) (Lvl := ℕ) (Val := Elt F) (τ := τ) osem c : sProp 𝕄)
    = iprop(inSems c ∗ (bigSep Finset.univ fun k : Fin 32 => semVal (sendCell c k) 0) ∗ (bigSep Finset.univ fun j : Fin 32 => semVal (recvCell c j) 0)) := by
  unfold Pipeline.ownSems0 inSems
  rw [bigSep_univ_equiv esem, bigSep_univ_sum, bigSep_univ_sum]
  refine congrArg₂ (fun a b : sProp 𝕄 => iprop(a ∗ b)) (bigSep_congr fun i _ => ?_)
    (congrArg₂ (fun a b : sProp 𝕄 => iprop(a ∗ b)) (bigSep_congr fun k _ => ?_) (bigSep_congr fun j _ => ?_))
  · exact congrArg (fun s : SemLoc sig => (semVal ((c : Thread nD τ), s) 0 : sProp 𝕄)) (osem_in i)
  · exact congrArg (fun s : SemLoc sig => (semVal ((c : Thread nD τ), s) 0 : sProp 𝕄)) (osem_send k)
  · exact congrArg (fun s : SemLoc sig => (semVal ((c : Thread nD τ), s) 0 : sProp 𝕄)) (osem_recv j)

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop(inSems c ∗ bigSep Finset.univ fun x : CJ => semVal (dcell c x) 0 : sProp 𝕄) := by
  rw [ownSems0_eq, unscopedSems0_eq, bigSep_dcell c (fun g => semVal g 0)]
  iintro ⟨⟨Hi, HS, HV⟩, HB⟩
  isplitl [Hi]; · iexact Hi
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CJ => iprop(∃ κ : ℕ, cellInv ER (rd m) κ (dcell c x)))
          ∗ (bigSep Finset.univ fun x : CJ => atPos ER (dcell c x) 0 ∅ 0)
          ∗ (bigSep Finset.univ fun x : CJ => reached ER (dcell c x) 0) ∗ toks c ∗ inSems c) := by
  unfold G
  iintro ⟨Hos, Hus, Hst, Hat, Hr, Htok⟩
  ihave Hv := (sems0_eq (F := F) c) $$ [Hos Hus]
  · isplitl [Hos] <;> iassumption
  icases Hv with ⟨Hin, Hv⟩
  imod (show iprop((bigSep Finset.univ fun x : CJ => semVal (dcell c x) 0) ∗ bigSep Finset.univ fun x : CJ => roundState ER (rd m) (dcell c x) 0)
      ⊢ (|={Set.univ}=> bigSep Finset.univ fun x : CJ => iprop(∃ κ : ℕ, cellInv ER (rd m) κ (dcell c x)) : sProp 𝕄) from by
        rw [← bigSep_sep']
        exact (bigSep_mono fun x _ => (Rounds.body_intro ER (rd m) (dcell c x)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hin

/-- What the global step makes of it (`G'`): the ghost state and the three input-copy counters. -/
def G' (c : Dev nD) : sProp 𝕄 := iprop((∃ K, ghost m K c) ∗ inSems c)

omit [FloatOps F] in
/-- A family over all the cells, cell kind by cell kind. -/
theorem bigSep_cells3 (Φ : GSem nD τ sig → sProp 𝕄) :
    bigSep ringCells Φ = iprop((bigSep Finset.univ fun d : Dev nD => Φ (barCell d))
      ∗ (bigSep Finset.univ fun dk : Dev nD × Fin 32 => Φ (sendCell dk.1 dk.2))
      ∗ (bigSep Finset.univ fun dk : Dev nD × Fin 32 => Φ (recvCell dk.1 dk.2))) := by
  rw [bigSep_ringCells, bigSep_congr (s := Finset.univ) (fun (c : Dev nD) _ => bigSep_dcell c Φ), bigSep_sep', bigSep_sep',
    bigSep_univ_prod (fun dk : Dev nD × Fin 32 => Φ (sendCell dk.1 dk.2)), bigSep_univ_prod (fun dk : Dev nD × Fin 32 => Φ (recvCell dk.1 dk.2))]

theorem records_intro (K : GSem nD τ sig → ℕ) :
    iprop((bigSep ringCells fun g => cellInv ER (rd m) (K g) g) ∗ bigSep ringCells fun g => reached ER g 0) ⊢ records m K := by
  rw [bigSep_cells3, bigSep_cells3]
  unfold records
  iintro ⟨⟨I1, I2, I3⟩, R1, R2, R3⟩
  isplitl [I1]; · iexact I1
  isplitl [I2]; · iexact I2
  isplitl [I3]; · iexact I3
  isplitl [R1]; · iexact R1
  isplitl [R2]; · iexact R2
  iexact R3

/-! ## Dealing the tokens: each device gets the token of every duty it pays -/

theorem slotOf_slotOf (k : Fin 32) : slotOf (slotOf k) = k := by revert k; decide

/-- Copy `k` of device `c` lands in slot `slotOf k` of device `peer c k`; read from that device, it is copy `slotOf k`
    counted backwards: the pairing is its own inverse. -/
def landing : Equiv.Perm (Dev nD × Fin 32) :=
  Function.Involutive.toPerm (fun ck => (peer ck.1 ck.2, slotOf ck.2))
    (fun ck => Prod.ext (peer_slotOf ck.1 ck.2) (slotOf_slotOf ck.2))

omit [FloatOps F] in
theorem toks_around : (bigSep Finset.univ fun c : Dev nD => (toks c : sProp 𝕄)) ⊢ bigSep Finset.univ fun c : Dev nD => payToks c := by
  unfold payToks
  rw [bigSep_congr (s := Finset.univ) (fun (c : Dev nD) _ => toks_eq c),
    bigSep_sep', bigSep_sep', bigSep_sep', bigSep_sep',
    BI.bigSep_univ_comm (fun (c : Dev nD) (p : Dev nD) => (dutyTok ER (barCell c) 0 (p : Fin 32) : sProp 𝕄)),
    bigSep_prod' (fun c j => (dutyTok ER (recvCell c j) 0 (0 : Fin 32) : sProp 𝕄)),
    bigSep_prod' (fun c k => (dutyTok ER (recvCell (peer c k) (slotOf k)) 0 (0 : Fin 32) : sProp 𝕄)),
    bigSep_univ_equiv landing (fun ck : Dev nD × Fin 32 => (dutyTok ER (recvCell ck.1 ck.2) 0 (0 : Fin 32) : sProp 𝕄))]
  exact Entails.of_eq rfl

/-! ## The global step -/

theorem ghost_intro (K : GSem nD τ sig → ℕ) (c : Dev nD) :
    iprop(records m K ∗ ((bigSep Finset.univ fun x : CJ => atPos ER (dcell c x) 0 ∅ 0) ∗ payToks c ∗ inSems c)) ⊢ G' m c := by
  unfold G' ghost positions
  rw [bigSep_dcell c (fun g => atPos ER g 0 ∅ 0)]
  iintro ⟨#HR, ⟨HaB, HaS, HaV⟩, Htok, Hin⟩
  isplitr [Hin]
  · iexists K
    isplitr; · iexact HR
    isplitl [HaB HaS HaV]
    · isplitl [HaB]; · iexact HaB
      isplitl [HaS] <;> iassumption
    iexact Htok
  iexact Hin

theorem regroup :
    (bigSep Finset.univ fun c : Dev nD => iprop((bigSep Finset.univ fun x : CJ => iprop(∃ κ : ℕ, cellInv ER (rd m) κ (dcell c x)))
          ∗ (bigSep Finset.univ fun x : CJ => atPos ER (dcell c x) 0 ∅ 0)
          ∗ (bigSep Finset.univ fun x : CJ => reached ER (dcell c x) 0) ∗ toks c ∗ inSems c) : sProp 𝕄)
      ⊢ bigSep Finset.univ (G' m) := by
  rw [bigSep_sep', bigSep_sep', bigSep_sep', bigSep_sep',
    ← bigSep_ringCells (fun g => iprop(∃ κ : ℕ, cellInv ER (rd m) κ g)), ← bigSep_ringCells (fun g => reached ER g 0)]
  iintro ⟨HI, Hat, #HR, Htok, Hin⟩
  ihave HK := (BI.bigSep_exists_pi ringCells (fun (g : GSem nD τ sig) (κ : ℕ) => (cellInv ER (rd m) κ g : sProp 𝕄))) $$ HI
  icases HK with ⟨%K, #HI⟩
  ihave Htk := (toks_around (F := F)) $$ Htok
  iapply (bigSep_with_persistent (R := records m K) fun c _ => ghost_intro m K c)
  isplitr
  · iapply (records_intro m K); isplitl; · iexact HI
    iexact HR
  · rw [bigSep_sep', bigSep_sep']
    isplitl [Hat]; · iexact Hat
    isplitl [Htk]; · iexact Htk
    iexact Hin

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨Hargs, Hlev, Hcr, -, HG, Hin⟩
  ihave Hc := (launch_credits (F := F) c) $$ Hcr
  imodintro
  unfold start args
  isplitl
  · isplitl [HG]; · iexact HG
    isplitl [Hc]; · iexact Hc
    isplitl [Hlev]; · iexact Hlev
    isplitl [Hin]; · iexact Hin
    iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(args m c ∗ Pipeline.ownSems0 osem c ∗ Pipeline.scopedRest cfg0.spec c) := by
  rw [show (dats m ρ 0 c).Φ (Fin.last cfg0.N) = Φ₁ m c from rfl, scopedRest0_eq]
  unfold Φ₁ scratch Pipeline.ownSems0
  iintro ⟨Ha, Hs, Hz⟩
  isplitl [Ha]; · iexact Ha
  isplitl [Hz]; · iexact Hz
  iexact Hs

theorem waits (c : Dev nD) : (levAts L lv : sProp 𝕄) ⊢ Pipeline.cellsWaits cfgs (dats m ρ) () 0 c :=
  Pipeline.cellsWaits_intro cfgs (dats m ρ) () 0 c fun w s t => by
    rcases t with ⟨_ | t, ht⟩
    · exact mayWait_low c _ (by fin_cases w <;> fin_cases s <;> decide) 32 le_rfl
    · rw [show (dats m ρ 0 c).owed ⟨t + 1, ht⟩ = 0 from rfl, MayWait_zero]
      iintro -; iempintro

/-- The three argument arrays, held whole, are what the memory holds. -/
theorem args_read (c : Dev nD) (s' : Phys nD τ sig (Elt F)) :
    iprop(args m c ∗ emp ∗ SI s') ⊢ (|={Set.univ}=> iprop(⌜s'.mem.mem ((c : Thread nD τ).loc main_arg0) = m ((c : Thread nD τ).loc main_arg0)
        ∧ s'.mem.mem ((c : Thread nD τ).loc main_arg1) = m ((c : Thread nD τ).loc main_arg1)
        ∧ s'.mem.mem ((c : Thread nD τ).loc main_arg2) = m ((c : Thread nD τ).loc main_arg2)⌝ ∗ SI s') : sProp 𝕄) := by
  unfold args
  iintro ⟨⟨H0, H1, H2⟩, -, HSI⟩
  icombine HSI H0 gives %h0
  icombine HSI H1 gives %h1
  icombine HSI H2 gives %h2
  imodintro
  isplitr; · ipureintro; exact ⟨Buf.eq_of_forall_mem_univ h0, Buf.eq_of_forall_mem_univ h1, Buf.eq_of_forall_mem_univ h2⟩
  iexact HSI

/-! ## The result array -/

/-- The result array after the one write-back is what the body left in the staging buffer: the device's result block.
    The window's one block is the whole array, so reading the block reads the array. -/
theorem final_out (c : Dev nD) :
    (dats m ρ 0 c).arrAt (0 : Fin 1) cfg0.N = (Cert.KernelIdeal.KVal.out (xIn m) (gIn m) (bIn m) c : FVec F S768x512 .bf16) := by
  have h1 : ((cfg0.win (0 : Fin 1)).blk (0 : Fin 1)).view.read (Elt F) ((dats m ρ 0 c).arrAt (0 : Fin 1) cfg0.N) = (dats m ρ 0 c).flushed (0 : Fin 1) (0 : Fin 1) := by
    rw [show cfg0.N = ((0 : Fin 1) : Fin cfg0.N).val + 1 from rfl, (dats m ρ 0 c).arrAt_succ (0 : Fin 1) (0 : Fin 1)]
    rw [show (cfg0.win (0 : Fin 1)).flush (0 : Fin 1) = true from flush0_0 _, if_pos rfl]
    exact View.read_write_univ _ _
  have hz : (fun a => (win0_0.index (0 : Fin 1)) a * main_v1.ty.shape.size a) = fun _ => 0 := funext fun a => by fin_cases a <;> decide
  have hr := fun f => Memref.read_access_unit_zero (Elt F) main_v1 hz (fun a => by fin_cases a <;> decide) f
  rw [hr] at h1
  exact h1

/-! ## The run -/

set_option maxRecDepth 20000 in
/-- From any memory with every semaphore at zero, every weakly fair execution of the program on the 32 devices ends,
    nothing faults, every device's result array holds its result block and its three argument arrays are unchanged. -/
theorem run_main : θ_run defs (onTc (τ := τ) (main (F := F))) ⟨m, fun _ => 0, ρ⟩ (fun r => ∀ c : Dev nD,
    r.2.mem ((c.tc : Thread nD τ).loc main_v1) = (Cert.KernelIdeal.KVal.out (xIn m) (gIn m) (bIn m) c : FVec F S768x512 .bf16)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX' := (own_pair_emb _ _ _) $$ HX
      icases HX' with ⟨HR, -⟩
      imod (fund_ring m) $$ HR with HG
      imodintro
      isplitl [HP] <;> iassumption)
    (hglob := glob m)
    (hA := fun _ _ => rfl) (hpf := fun _ k => k.elim0)
    (X := start m) (Y := args m) (Z := fun _ => iprop(emp))
    (hX := start_intro m ρ) (hin := phi0_intro m ρ) (hout := phi1_exit m ρ)
    (QY := fun c s => s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2))
    (hY := args_read m)
    (hQ := fun s h c => ⟨((h c).1 (0 : Fin 1)).trans (final_out m ρ c), (h c).2.2⟩)

/-- info: 'Cert.KernelIdeal.Proto.run_main' depends on axioms: [propext, Classical.choice, Quot.sound] -/
#guard_msgs in #print axioms run_main

end Cert.KernelIdeal.Proto

end
-- ==== Proof.Bits.Spec.lean ====
import proofs.«900828_g7700000000000829_dist_layernorm_colshard_i_m768_n512_v7x_i32_bf16_1_alg».proof.Proof.Gen.Kernel.Skeleton
import Idealize.ShloMosaic.Lib.ValueIdx

/-!
# What one device computes, as a pure term

Device `c` holds a 768 × 512 column block `x c` of the 768 × 16384 input and its 512-long pieces of
`gamma` and `beta`. Each device reduces its block to two rows of 768 numbers — a quarter of each row's
sum and a quarter of each row's sum of squares — and every device receives every other device's two rows:
slot `j` of the exchange buffer of device `c` holds the two rows of device `c + j` (mod 32), slot `0` its own.
The 32 slots are added in four groups of eight (slots 0–7, 24–31, 8–15, 16–23), the totals scaled by
2⁻¹² give each row's mean and mean square, and the block is normalised with them.
-/

noncomputable section

namespace Cert.Kernel.KVal

open Idealize.ShloMosaic Idealize.ShloMosaic.ValueIdx Cert.Kernel Cert.Kernel.Gen

variable {F : FTy → Type} [FloatOps F]

/-- The device `j` places after `c` round the ring of 32. -/
def peer (c : Dev nD) (j : Fin 32) : Dev nD := ⟨(c.val + j.val) % 32, Nat.mod_lt _ (by decide)⟩

/-- The two rows a device sends: row 0 a quarter of its block's row sums, row 1 a quarter of its row sums of squares. -/
def mine (x : Vec F S768x512 .f32) : FVec F S2x768 .bf16 := fun i =>
  if (i 0).val = 0 then k0_pay1 x (ix1 (show Fin 768 from i 1)) else k0_pay2 x (ix1 (show Fin 768 from i 1))

/-- Eight consecutive slots `lo … lo + 7` of an exchange buffer whose slot `j` holds `rows j`. -/
def group (rows : Fin 32 → FVec F S2x768 .bf16) (lo : Nat) (h : lo + 8 ≤ 32) : Vec F S8x2x768 .bf16 := fun i =>
  rows ⟨lo + (i 0).val, by have : (i 0).val < 8 := (i 0).isLt; omega⟩ (ix2 (show Fin 2 from i 1) (show Fin 768 from i 2))

/-- The rows device `c` ends up holding: slot `j` from device `c + j`. -/
def rowsAt (x : Dev nD → Vec F S768x512 .f32) (c : Dev nD) : Fin 32 → FVec F S2x768 .bf16 := fun j => mine (x (peer c j))

/-- The row totals of the sums after the first three groups (slots 0–7, 24–31, 8–15). -/
def acc1 (x : Dev nD → Vec F S768x512 .f32) (c : Dev nD) : FVec F S768 .f32 :=
  k0_pay19 (k0_pay16 (k0_pay13 (k0_pay10 (F := F)) (group (rowsAt x c) 0 (by decide))) (group (rowsAt x c) 24 (by decide))) (group (rowsAt x c) 8 (by decide))

/-- The same for the sums of squares. -/
def acc2 (x : Dev nD → Vec F S768x512 .f32) (c : Dev nD) : FVec F S768 .f32 :=
  k0_pay20 (k0_pay17 (k0_pay14 (k0_pay11 (F := F)) (group (rowsAt x c) 0 (by decide))) (group (rowsAt x c) 24 (by decide))) (group (rowsAt x c) 8 (by decide))

/-- Device `c`'s result block: its block normalised by the rows' mean and inverse deviation over ALL devices' columns,
    scaled by its piece of `gamma` and shifted by its piece of `beta`. -/
def out (x : Dev nD → Vec F S768x512 .f32) (g b : Dev nD → Vec F S512 .f32) (c : Dev nD) : FVec F S768x512 .bf16 :=
  k0_pay25 (k0_pay7 (x c)) (k0_pay8 (g c)) (k0_pay9 (b c))
    (k0_pay23 (acc1 x c) (acc2 x c) (group (rowsAt x c) 16 (by decide)))
    (k0_pay24 (acc1 x c) (group (rowsAt x c) 16 (by decide)))

end Cert.Kernel.KVal

end
-- ==== Proof.Bits.Sched.lean ====
import proofs.«900828_g7700000000000829_dist_layernorm_colshard_i_m768_n512_v7x_i32_bf16_1_alg».proof.Proof.Bits.Spec
import proofs.«900828_g7700000000000829_dist_layernorm_colshard_i_m768_n512_v7x_i32_bf16_1_alg».proof.Proof.Gen.Kernel.Frame
import Idealize.ShloMosaic.Lib.Pipeline.Launch
import Idealize.ShloMosaic.Lib.Pipeline.Kit
import Idealize.ShloMosaic.Lib.Tactic
import Idealize.ShloMosaic.Lib.Transfers

/-!
# The exchange protocol: cells, contents, schedule

Every device `c` runs the same body. Its semaphores, seen as cells of the rounds discipline:

* the barrier cell: one round of 32 duties, duty `d` paid by device `d`'s entry signal of one unit. With its
  signal device `d` hands the owner `c` the slot of `d`'s exchange buffer that `c` will write — slot `(c − d) mod 32` —
  and the fact that `d`'s receive cell of that slot is at its first round (nothing when `d = c`);
* send cell `k` (1 ≤ k ≤ 31): one duty, paid when the copy to device `c + k` has been read out of the two-row
  buffer; it hands back the read share of that buffer the copy borrowed;
* receive cell `j` (1 ≤ j ≤ 31): one duty, paid by device `c + j`'s copy landing in slot `j`; it hands the owner
  slot `j` holding that device's two rows.

The three semaphores of the local input copies are not cells: the device fills and drains them itself.
All slots are stated at ONE contents function, the exchange buffer's final contents, so that slots join
back into the buffer without a case split.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's (duties named by `Fin 32`), and the local copies' counters -/

abbrev UB : Type := URounds (GSem nD τ sig) (Fin 32)
/-- Beside the two copies of the rounds algebra, the exclusive counters the local input copies' own invariants draw on. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch. -/
def s₀ : MemSt nD τ sig (Elt F) := ⟨m, fun _ => 0, ρ⟩

/-! ## The ring of 32 -/

/-- The device `k` places after `c`. -/
abbrev peer (c : Dev nD) (k : Fin 32) : Dev nD := Cert.Kernel.KVal.peer c k
/-- The slot of the target's exchange buffer that copy `k` writes: `32 − k`. -/
def slotOf (k : Fin 32) : Fin 32 := ⟨(32 - k.val) % 32, Nat.mod_lt _ (by decide)⟩
/-- The slot of device `d`'s exchange buffer that device `c` writes: `(c − d) mod 32`. -/
def slotFor (d c : Dev nD) : Fin 32 := ⟨(c.val + 32 - d.val) % 32, Nat.mod_lt _ (by decide)⟩

theorem peer_slotOf (c : Dev nD) (k : Fin 32) : peer (peer c k) (slotOf k) = c := by revert c k; decide
theorem slotFor_peer (c : Dev nD) (k : Fin 32) : slotFor (peer c k) c = slotOf k := by revert c k; decide
theorem peer_slotFor (d c : Dev nD) : peer d (slotFor d c) = c := by revert d c; decide
theorem slotFor_self (c : Dev nD) : slotFor c c = 0 := by revert c; decide
theorem peer_zero (c : Dev nD) : peer c 0 = c := by revert c; decide

/-! ## Memrefs and cells -/

abbrev xM : Memref sig .tc .vmem S768x512 .f32 := Memref.whole cc0_scratch0
abbrev gM : Memref sig .tc .vmem S512 .f32 := Memref.whole cc0_scratch1
abbrev bM : Memref sig .tc .vmem S512 .f32 := Memref.whole cc0_scratch2
/-- The two rows a device sends. -/
abbrev rowsM : Memref sig .tc .vmem S2x768 .bf16 := Memref.whole cc0_scratch3
/-- The exchange buffer of 32 slots. -/
abbrev commM : Memref sig .tc .vmem S32x2x768 .bf16 := Memref.whole cc0_scratch4
abbrev outM : Memref sig .tc .vmem S768x512 .bf16 := Memref.whole cc0_stg0_0

theorem slot_inb (j : Fin 32) : ∀ a, (![j.val, 0, 0] : Fin 3 → Nat) a + S1x2x768.size a ≤ S32x2x768.size a := by
  revert j; decide
/-- Slot `j` of the exchange buffer, as the two rows a copy writes. -/
abbrev slotM (j : Fin 32) : Memref sig .tc .vmem S2x768 .bf16 :=
  ((commM).slice (Rect.unit (s := S32x2x768) ![j.val, 0, 0] S1x2x768.size (slot_inb j)) (fun _ => rfl)).squeeze S2x768 squeezes_S1x2x768_S2x768

abbrev barS : Sem sig := (SemArray.scalar (sig.barrier 0 rfl) : Sems sig S_).sem
/-- Send semaphore `k` and receive semaphore `j` among the kernel's DMA semaphores. -/
abbrev sendSem (k : Fin 32) : DmaSem sig := ⟨4 + k.val, by show 4 + k.val < 68; have := k.isLt; omega⟩
abbrev recvSem (j : Fin 32) : DmaSem sig := ⟨36 + j.val, by show 36 + j.val < 68; have := j.isLt; omega⟩
/-- The three semaphores of the local input copies. -/
abbrev inSem (i : Fin 3) : DmaSem sig := ⟨1 + i.val, by show 1 + i.val < 68; have := i.isLt; omega⟩

abbrev barCell (c : Dev nD) : GSem nD τ sig := ((c : Thread nD τ), .reg barS)
abbrev sendCell (c : Dev nD) (k : Fin 32) : GSem nD τ sig := ((c : Thread nD τ), .dma (sendSem k))
abbrev recvCell (c : Dev nD) (j : Fin 32) : GSem nD τ sig := ((c : Thread nD τ), .dma (recvSem j))

/-- The units one copy of two rows credits. -/
abbrev N : ℕ := (rowsM : Memref sig .tc .vmem S2x768 .bf16).view.dmaCredit
theorem N_pos : 0 < N := View.dmaCredit_pos _ (by decide)

/-! ## Contents -/

/-- Device `c`'s block of `x`, and its pieces of `gamma` and `beta`, as launched. -/
def xIn (c : Dev nD) : Vec F S768x512 .f32 := m ((c : Thread nD τ).loc main_arg0)
def gIn (c : Dev nD) : Vec F S512 .f32 := m ((c : Thread nD τ).loc main_arg1)
def bIn (c : Dev nD) : Vec F S512 .f32 := m ((c : Thread nD τ).loc main_arg2)

/-- The two rows device `c` sends. -/
def rowsC (c : Dev nD) : Buf (Elt F) ((c : Thread nD τ).loc cc0_scratch3) := Cert.Kernel.KVal.mine (xIn m c)

/-- The exchange buffer of device `c` once every slot is filled: slot `j` holds the rows of device `c + j`. -/
def commC (c : Dev nD) : Buf (Elt F) ((c : Thread nD τ).loc cc0_scratch4) := fun i =>
  Cert.Kernel.KVal.rowsAt (xIn m) c ⟨(i 0).val, (i 0).isLt⟩ (ValueIdx.ix2 (show Fin 2 from i 1) (show Fin 768 from i 2))

/-- Device `c`'s result block. -/
def outC (c : Dev nD) : Buf (Elt F) ((c : Thread nD τ).loc cc0_stg0_0) :=
  Cert.Kernel.KVal.out (xIn m) (gIn m) (bIn m) c

/-- Slot `j` of device `c`'s exchange buffer at contents `f`. -/
def slotPts (c : Dev nD) (j : Fin 32) (f : Buf (Elt F) ((c : Thread nD τ).loc cc0_scratch4)) : sProp 𝕄 :=
  (slotM j).view.loc (c : Thread nD τ) ↦[(slotM j).view.set]{fullShare} f
/-- The read share of the two-row buffer that copy `k` borrows. -/
abbrev rowsShare (k : Fin 32) : PosShare TreeShare := Transfers.shareTok fullShare 32 k
def rowsPts (c : Dev nD) (k : Fin 32) : sProp 𝕄 :=
  (rowsM : Memref sig .tc .vmem S2x768 .bf16).view.loc (c : Thread nD τ) ↦[(rowsM : Memref sig .tc .vmem S2x768 .bf16).view.set]{rowsShare k} rowsC m c

/-! ## The schedule -/

/-- What device `d`'s entry signal hands device `c`: the slot of `d`'s exchange buffer that `c` writes and that `d`'s
    receive cell of that slot is at its first round; nothing when `d = c`. -/
def barPay (c d : Dev nD) : sProp 𝕄 :=
  if d = c then iprop(emp) else iprop((∃ f, slotPts d (slotFor d c) f) ∗ reached ER (recvCell d (slotFor d c)) 0)
/-- What the landing in slot `j` hands device `c`: the slot at the buffer's final contents. -/
def recvPay (c : Dev nD) (j : Fin 32) : sProp 𝕄 := slotPts c j (commC m c)
/-- What the departure of copy `k` hands back: the borrowed share. -/
def sendPay (c : Dev nD) (k : Fin 32) : sProp 𝕄 := rowsPts m c k

/-- The copy number of a send semaphore, the slot of a receive semaphore. -/
def sendIx (s : DmaSem sig) : Fin 32 := ⟨(s.val - 4) % 32, Nat.mod_lt _ (by decide)⟩
def recvIx (s : DmaSem sig) : Fin 32 := ⟨(s.val - 36) % 32, Nat.mod_lt _ (by decide)⟩

abbrev IsBar (g : GSem nD τ sig) : Prop := g.1.2 = .tc ∧ g.2 = .reg barS
/-- A send cell `5 … 35` or a receive cell `37 … 67` of a TensorCore thread. -/
abbrev IsXfer (g : GSem nD τ sig) : Prop := g.1.2 = .tc ∧ ∃ s : DmaSem sig, g.2 = .dma s ∧ 5 ≤ s.val ∧ s.val ≠ 36

/-- One round: a barrier cell has 32 duties of one unit; a send or receive cell one duty (named `0`) of a copy's credit. -/
def rd : Rounds.Schedule (GSem nD τ sig) (Fin 32) 𝕄 where
  duties g r := if r = 0 ∧ IsBar g then Finset.univ else if r = 0 ∧ IsXfer g then {0} else ∅
  unitless _ := False
  amount g _ _ := if g.2 = .reg barS then 1 else N
  payload g _ d :=
    match g.2 with
    | .reg _ => barPay g.1.1 d
    | .dma s => if 36 ≤ s.val then recvPay m g.1.1 (recvIx s) else sendPay m g.1.1 (sendIx s)
  amount_pos g _ _ _ := by
    by_cases h : g.2 = .reg barS
    · rw [if_pos h]; exact Nat.one_pos
    · rw [if_neg h]; exact N_pos

end Cert.Kernel.Proto

end
-- ==== Proof.Bits.Ghost.lean ====
import proofs.«900828_g7700000000000829_dist_layernorm_colshard_i_m768_n512_v7x_i32_bf16_1_alg».proof.Proof.Bits.Sched

/-!
# What a device holds when its body starts, and what it hands back

At launch every device is dealt: every cell's invariant and the fact that every cell is at its first round (both
persistent, so every device may hold all of them); its position on each of its own cells; the one-shot token of
every duty IT pays — its unit on every device's barrier cell, the departure of each of its copies, the arrival of
each of its copies at the target's receive cell —; the credit of what others owe its cells — 32 units on its barrier
cell, one copy's credit on each receive cell —; and what it owes itself: a unit to every barrier cell and a copy's
credit to each target's receive cell, listed in the order the body pays them, last summand first.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes at launch, in the order it pays -/

/-- The arrivals still owed before copy `31 − n + 1 …`: copy `k` is the summand added at `n + 1 = 32 − k`. -/
def Osend (c : Dev nD) : ℕ → CellTallies nD τ sig Unit
  | 0 => 0
  | n + 1 => Osend c n + tallyAt (recvCell (peer c (Fin.ofNat 32 (31 - n))) (slotOf (Fin.ofNat 32 (31 - n)))) () N

/-- The entry signals still owed, on top of all 31 arrivals: the signal to device `d` is the summand added at `n + 1 = 32 − d`. -/
def Obar (c : Dev nD) : ℕ → CellTallies nD τ sig Unit
  | 0 => Osend c 31
  | n + 1 => Obar c n + tallyAt (barCell (Fin.ofNat 32 (31 - n))) () 1

/-- Everything device `c` owes at launch. -/
def O₀ (c : Dev nD) : CellTallies nD τ sig Unit := Obar c 32

/-! ## Levels: a barrier cell below the receive cells, everything else lowest -/

def L (g : GSem nD τ sig) : Finset Unit := if g.1.2 = .tc then {()} else ∅
def lv (g : GSem nD τ sig) (_ : Unit) : ℕ :=
  match g.2 with
  | .reg _ => 1
  | .dma s => if 36 ≤ s.val then 2 else 0

/-! ## The ghost state -/

/-- Every cell's invariant, under the names `K`, and that every cell is at its first round. -/
def records (K : GSem nD τ sig → ℕ) : sProp 𝕄 :=
  iprop((bigSep Finset.univ fun d : Dev nD => cellInv ER (rd m) (K (barCell d)) (barCell d))
    ∗ (bigSep Finset.univ fun dk : Dev nD × Fin 32 => cellInv ER (rd m) (K (sendCell dk.1 dk.2)) (sendCell dk.1 dk.2))
    ∗ (bigSep Finset.univ fun dk : Dev nD × Fin 32 => cellInv ER (rd m) (K (recvCell dk.1 dk.2)) (recvCell dk.1 dk.2))
    ∗ (bigSep Finset.univ fun d : Dev nD => reached ER (barCell d) 0)
    ∗ (bigSep Finset.univ fun dk : Dev nD × Fin 32 => reached ER (sendCell dk.1 dk.2) 0)
    ∗ (bigSep Finset.univ fun dk : Dev nD × Fin 32 => reached ER (recvCell dk.1 dk.2) 0))

instance records_persistent (K : GSem nD τ sig → ℕ) : BI.Persistent (records (F := F) m K) := by unfold records; infer_instance

/-- Device `c`'s positions on its own cells. -/
def positions (c : Dev nD) : sProp 𝕄 :=
  iprop(atPos ER (barCell c) 0 ∅ 0
    ∗ (bigSep Finset.univ fun k : Fin 32 => atPos ER (sendCell c k) 0 ∅ 0)
    ∗ (bigSep Finset.univ fun j : Fin 32 => atPos ER (recvCell c j) 0 ∅ 0))

/-- The tokens of the duties device `c` pays: its unit on every barrier cell, each copy's departure, each copy's arrival. -/
def payToks (c : Dev nD) : sProp 𝕄 :=
  iprop((bigSep Finset.univ fun d : Dev nD => dutyTok ER (barCell d) 0 (c : Fin 32))
    ∗ (bigSep Finset.univ fun k : Fin 32 => dutyTok ER (sendCell c k) 0 (0 : Fin 32))
    ∗ (bigSep Finset.univ fun k : Fin 32 => dutyTok ER (recvCell (peer c k) (slotOf k)) 0 (0 : Fin 32)))

def ghost (K : GSem nD τ sig → ℕ) (c : Dev nD) : sProp 𝕄 := iprop(records m K ∗ positions c ∗ payToks c)

/-- The credit of what others owe device `c`'s cells. -/
def credits (c : Dev nD) : sProp 𝕄 :=
  iprop(cred (tallyAt (barCell c) () 32) ∗ bigSep (Finset.univ.erase (0 : Fin 32)) fun j => cred (tallyAt (recvCell c j) () N))

/-- The three semaphores of the local input copies, at zero. -/
def inSems (c : Dev nD) : sProp 𝕄 := bigSep Finset.univ fun i : Fin 3 => semVal ((c : Thread nD τ), SemLoc.dma (inSem i)) 0

/-- Device `c`'s three argument arrays, as launched. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2)))

/-- The five scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- What the launch makes for device `c` before its scoped buffers exist. -/
def start (c : Dev nD) : sProp 𝕄 :=
  iprop((∃ K, ghost m K c) ∗ credits c ∗ levAts L lv ∗ inSems c ∗ args m c)

/-- Before the body. -/
def Φ₀ (c : Dev nD) : sProp 𝕄 := iprop(start m c ∗ scratch c)

/-- The kernel's 67 own DMA semaphores: three for the input copies, 32 send, 32 receive. -/
abbrev osem : Fin 67 → SemLoc sig := fun i => .dma ⟨1 + i.val, by show 1 + i.val < 68; have := i.isLt; omega⟩

/-- After the body: the arguments, the scratch buffers at some contents, every own semaphore at zero in the device's hand. -/
def Φ₁ (c : Dev nD) : sProp 𝕄 :=
  iprop(args m c ∗ scratch c ∗ bigSep Finset.univ fun i : Fin 67 => semVal ((c : Thread nD τ), osem i) 0)

/-- The pipeline's proof data: one point; the result window's staging buffer ends at the device's result block. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Proto

end
-- ==== Proof.Bits.SchedTables.lean ====
import proofs.«900828_g7700000000000829_dist_layernorm_colshard_i_m768_n512_v7x_i32_bf16_1_alg».proof.Proof.Bits.Sched

/-!
# The schedule's tables

The schedule of `Sched.lean` read cell by cell: which duties a barrier, send or receive cell has in its one round,
their amounts, what a whole round amounts to, and each duty's payload.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance rd_payload_storable (g : GSem nD τ sig) (r : ℕ) (d : Fin 32) :
    BI.Storable (upEmb : UEmb _ 𝕄) ((rd (F := F) m).payload g r d) := by
  obtain ⟨t, (s | s)⟩ := g
  · show BI.Storable upEmb (barPay t.1 d)
    unfold barPay slotPts
    (repeat' split) <;> infer_instance
  · show BI.Storable upEmb (if 36 ≤ s.val then recvPay m t.1 (recvIx s) else sendPay m t.1 (sendIx s))
    unfold recvPay sendPay slotPts rowsPts
    (repeat' split) <;> infer_instance

section Tables
variable (c : Dev nD)

theorem send_ne_bar (k : Fin 32) : (SemLoc.dma (sendSem k) : SemLoc sig) ≠ .reg barS := fun h => by cases h
theorem recv_ne_bar (j : Fin 32) : (SemLoc.dma (recvSem j) : SemLoc sig) ≠ .reg barS := fun h => by cases h

/-- Send semaphore `k` is copy number `k`'s; receive semaphore `j` is slot `j`'s. -/
private theorem sendIx_sendSem (k : Fin 32) : sendIx (sendSem k) = k := by
  apply Fin.ext
  have := k.isLt
  show (4 + k.val - 4) % 32 = k.val
  omega
private theorem recvIx_recvSem (j : Fin 32) : recvIx (recvSem j) = j := by
  apply Fin.ext
  have := j.isLt
  show (36 + j.val - 36) % 32 = j.val
  omega

private theorem not_bar_send (k : Fin 32) : ¬ IsBar (sendCell c k) := fun h => send_ne_bar k h.2
private theorem not_bar_recv (j : Fin 32) : ¬ IsBar (recvCell c j) := fun h => recv_ne_bar j h.2

/-- Send cell `k` is an exchange cell exactly from `k = 1` on (its semaphore is number `4 + k`). -/
private theorem xfer_send (k : Fin 32) (hk : k ≠ 0) : IsXfer (sendCell c k) := by
  have h0 : k.val ≠ 0 := fun h => hk (Fin.ext h)
  have := k.isLt
  exact ⟨rfl, sendSem k, rfl, by show 5 ≤ 4 + k.val; omega, by show 4 + k.val ≠ 36; omega⟩
/-- Receive cell `j` is an exchange cell exactly from `j = 1` on (its semaphore is number `36 + j`). -/
private theorem xfer_recv (j : Fin 32) (hj : j ≠ 0) : IsXfer (recvCell c j) := by
  have h0 : j.val ≠ 0 := fun h => hj (Fin.ext h)
  exact ⟨rfl, recvSem j, rfl, by show 5 ≤ 36 + j.val; omega, by show 36 + j.val ≠ 36; omega⟩
private theorem not_xfer_send0 : ¬ IsXfer (sendCell c 0) := by
  rintro ⟨_, s, hs, h5, _⟩
  have hs' : sendSem 0 = s := SemLoc.dma.inj hs
  subst hs'
  exact absurd h5 (by decide)
private theorem not_xfer_recv0 : ¬ IsXfer (recvCell c 0) := by
  rintro ⟨_, s, hs, _, h36⟩
  have hs' : recvSem 0 = s := SemLoc.dma.inj hs
  subst hs'
  exact h36 rfl

theorem duties_bar : (rd (F := F) m).duties (barCell c) 0 = Finset.univ := by
  dsimp only [rd]; exact if_pos ⟨rfl, rfl, rfl⟩
theorem duties_send (k : Fin 32) (hk : k ≠ 0) : (rd (F := F) m).duties (sendCell c k) 0 = {0} := by
  dsimp only [rd]; rw [if_neg (fun h => not_bar_send c k h.2)]; exact if_pos ⟨rfl, xfer_send c k hk⟩
theorem duties_recv (j : Fin 32) (hj : j ≠ 0) : (rd (F := F) m).duties (recvCell c j) 0 = {0} := by
  dsimp only [rd]; rw [if_neg (fun h => not_bar_recv c j h.2)]; exact if_pos ⟨rfl, xfer_recv c j hj⟩
theorem duties_send0 (r : ℕ) : (rd (F := F) m).duties (sendCell c 0) r = ∅ := by
  dsimp only [rd]; rw [if_neg (fun h => not_bar_send c 0 h.2), if_neg (fun h => not_xfer_send0 c h.2)]
theorem duties_recv0 (r : ℕ) : (rd (F := F) m).duties (recvCell c 0) r = ∅ := by
  dsimp only [rd]; rw [if_neg (fun h => not_bar_recv c 0 h.2), if_neg (fun h => not_xfer_recv0 c h.2)]
theorem duties_later (g : GSem nD τ sig) : ∀ r, 1 ≤ r → (rd (F := F) m).duties g r = ∅ := by
  intro r hr
  dsimp only [rd]
  rw [if_neg (fun h => by have := h.1; omega), if_neg (fun h => by have := h.1; omega)]

theorem amount_bar (d : Fin 32) : (rd (F := F) m).amount (barCell c) 0 d = 1 := by
  dsimp only [rd]; exact if_pos rfl
theorem amount_send (k : Fin 32) (d : Fin 32) : (rd (F := F) m).amount (sendCell c k) 0 d = N := by
  dsimp only [rd]; exact if_neg (send_ne_bar k)
theorem amount_recv (j : Fin 32) (d : Fin 32) : (rd (F := F) m).amount (recvCell c j) 0 d = N := by
  dsimp only [rd]; exact if_neg (recv_ne_bar j)

theorem expect_bar : (rd (F := F) m).expect (barCell c) 0 = 32 := by
  unfold Schedule.expect Schedule.amountOf
  rw [duties_bar, Finset.sum_congr rfl fun d _ => amount_bar m c d, Finset.sum_const, Finset.card_univ, Fintype.card_fin, smul_eq_mul]
theorem expect_send (k : Fin 32) (hk : k ≠ 0) : (rd (F := F) m).expect (sendCell c k) 0 = N := by
  unfold Schedule.expect Schedule.amountOf; rw [duties_send m c k hk, Finset.sum_singleton, amount_send]
theorem expect_recv (j : Fin 32) (hj : j ≠ 0) : (rd (F := F) m).expect (recvCell c j) 0 = N := by
  unfold Schedule.expect Schedule.amountOf; rw [duties_recv m c j hj, Finset.sum_singleton, amount_recv]

theorem payload_bar (d : Fin 32) : (rd (F := F) m).payload (barCell c) 0 d = barPay c d := rfl
theorem payload_send (k : Fin 32) (d : Fin 32) : (rd (F := F) m).payload (sendCell c k) 0 d = sendPay m c k := by
  have := k.isLt
  show (if 36 ≤ (sendSem k).val then recvPay m c (recvIx (sendSem k)) else sendPay m c (sendIx (sendSem k))) = sendPay m c k
  rw [if_neg (by show ¬ 36 ≤ 4 + k.val; omega), sendIx_sendSem]
theorem payload_recv (j : Fin 32) (d : Fin 32) : (rd (F := F) m).payload (recvCell c j) 0 d = recvPay m c j := by
  show (if 36 ≤ (recvSem j).val then recvPay m c (recvIx (recvSem j)) else sendPay m c (sendIx (recvSem j))) = recvPay m c j
  rw [if_pos (by show 36 ≤ 36 + j.val; omega), recvIx_recvSem]

/-- A whole round of the barrier cell, no duty taken yet: every device's hand-over. -/
theorem rest_bar : bigSep ((rd (F := F) m).duties (barCell c) 0 \ ∅) (fun d => (rd (F := F) m).payload (barCell c) 0 d)
    = bigSep Finset.univ (fun d : Fin 32 => barPay (F := F) c d) := by
  rw [Finset.sdiff_empty, duties_bar]
  exact congrArg (bigSep Finset.univ) (funext fun d => payload_bar m c d)
theorem rest_send (k : Fin 32) (hk : k ≠ 0) :
    bigSep ((rd (F := F) m).duties (sendCell c k) 0 \ ∅) (fun d => (rd (F := F) m).payload (sendCell c k) 0 d) = sendPay m c k := by
  rw [Finset.sdiff_empty, duties_send m c k hk, bigSep_singleton, payload_send]
theorem rest_recv (j : Fin 32) (hj : j ≠ 0) :
    bigSep ((rd (F := F) m).duties (recvCell c j) 0 \ ∅) (fun d => (rd (F := F) m).payload (recvCell c j) 0 d) = recvPay m c j := by
  rw [Finset.sdiff_empty, duties_recv m c j hj, bigSep_singleton, payload_recv]

end Tables

end Cert.Kernel.Proto

end
-- ==== Proof.Bits.Regions.lean ====
import proofs.«900828_g7700000000000829_dist_layernorm_colshard_i_m768_n512_v7x_i32_bf16_1_alg».proof.Proof.Bits.Ghost
import Idealize.ShloMosaic.Lib.Ring
import Idealize.ShloMosaic.Lib.Transfers
import Idealize.ShloMosaic.Lib.Writes
import Idealize.ShloMosaic.Lib.ValueLayout

/-!
# The exchange buffer by slots, the two rows by read shares, and what they hold

The exchange buffer is its 32 slots side by side (slot `j` is rows `2j, 2j + 1` of 64 rows of 768), so holding the
buffer is holding the slots; the two-row buffer held whole is 32 read shares and a remainder. A copy of the two rows
of device `c + j` written into slot `j` of device `c` leaves that slot as the buffer's final contents have it; so do
the device's own two stores into slot 0, and its two stores into the two-row buffer leave the rows it sends.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The elements under slot `j`: the unit rectangle at row pair `j` of the exchange buffer. -/
theorem slot_set (j : Fin 32) : (slotM j : Memref sig .tc .vmem S2x768 .bf16).view.set
    = (Rect.unit (s := S32x2x768) ![j.val, 0, 0] S1x2x768.size (slot_inb j)).set :=
  (View.set_reshape _ _).trans (View.set_slice_whole cc0_scratch4 _)

/-- Two different slots share no element: they differ along the leading axis. -/
theorem slots_disjoint (b b' : Fin 32) (h : b ≠ b') :
    Disjoint (Rect.unit (s := S32x2x768) ![b.val, 0, 0] S1x2x768.size (slot_inb b)).set (Rect.unit (s := S32x2x768) ![b'.val, 0, 0] S1x2x768.size (slot_inb b')).set :=
  Ring.lead_disjoint (s := S32x2x768) (NB := 32) (0 : Fin 3) 1 (fun j : Fin 32 => ![j.val, 0, 0]) S1x2x768.size slot_inb
    (fun b => by simp) (by decide) b b' h

/-- The 32 slots cover the buffer. -/
theorem slots_cover :
    Finset.univ.biUnion (fun b : Fin 32 => (Rect.unit (s := S32x2x768) ![b.val, 0, 0] S1x2x768.size (slot_inb b)).set) = Finset.univ :=
  Ring.lead_cover (s := S32x2x768) (NB := 32) (0 : Fin 3) 1 (fun j : Fin 32 => ![j.val, 0, 0]) S1x2x768.size slot_inb
    (fun b => by simp) (by decide) (by decide) (by decide) (by decide)

/-- A slot's points-to, spelled over the unit rectangle's elements. -/
theorem slotPts_eq (c : Dev nD) (j : Fin 32) (f : Buf (Elt F) ((c : Thread nD τ).loc cc0_scratch4)) :
    slotPts c j f = ((((c : Thread nD τ).loc cc0_scratch4) ↦[(Rect.unit (s := S32x2x768) ![j.val, 0, 0] S1x2x768.size (slot_inb j)).set]{fullShare} f : sProp 𝕄)) := by
  unfold slotPts
  exact congrArg (fun I => ((((c : Thread nD τ).loc cc0_scratch4) ↦[I]{fullShare} f : sProp 𝕄))) (slot_set j)

/-- Two different slots' element sets are disjoint. -/
theorem slotsets_disjoint (b b' : Fin 32) (h : b ≠ b') :
    Disjoint (slotM b : Memref sig .tc .vmem S2x768 .bf16).view.set (slotM b' : Memref sig .tc .vmem S2x768 .bf16).view.set := by
  have := slots_disjoint b b' h
  rw [← slot_set b, ← slot_set b'] at this
  exact this

/-- Row `a`, column `b` of slot `j` is element `(j, a, b)` of the exchange buffer. -/
theorem slot_emb (j : Fin 32) (a : Fin 2) (b : Fin 768) :
    (slotM j : Memref sig .tc .vmem S2x768 .bf16).view.emb (ValueIdx.ix2 a b) = ValueIdx.ix3 j a b := by
  show (Rect.unit (s := S32x2x768) ![j.val, 0, 0] S1x2x768.size (slot_inb j)).emb (Shape.reshapeEquiv _ (ValueIdx.ix2 a b)) = _
  rw [ValueIdx.reshapeEquiv_ix2_1ab]
  funext d
  apply Fin.ext
  rw [Rect.emb_apply]
  match d with
  | ⟨0, _⟩ => simp
  | ⟨1, _⟩ => simp
  | ⟨2, _⟩ => simp

/-- Around the ring: device `d` is `slotFor c d` places after `c`, and the device `j` places after `c` is `peer c j`. -/
def slotEquiv (c : Dev nD) : Dev nD ≃ Fin 32 where
  toFun d := slotFor c d
  invFun j := peer c j
  left_inv d := peer_slotFor c d
  right_inv j := by revert c j; decide

/-- A device a nonzero number of places round the ring is another device. -/
theorem peer_ne (c : Dev nD) (k : Fin 32) (h : k ≠ 0) : peer c k ≠ c := by revert c k; decide

/-- The buffer held whole is its 32 slots, all at the same contents. -/
theorem comm_slots (c : Dev nD) (f : Buf (Elt F) ((c : Thread nD τ).loc cc0_scratch4)) :
    ((((c : Thread nD τ).loc cc0_scratch4) ↦{fullShare} f : sProp 𝕄)) = bigSep Finset.univ (fun j : Fin 32 => slotPts c j f) := by
  rw [show (fun j : Fin 32 => slotPts c j f) = fun j : Fin 32 =>
      ((((c : Thread nD τ).loc cc0_scratch4) ↦[(Rect.unit (s := S32x2x768) ![j.val, 0, 0] S1x2x768.size (slot_inb j)).set]{fullShare} f : sProp 𝕄))
    from funext fun j => slotPts_eq c j f]
  exact Ring.pointsTo_blocks (ℓ := (c : Thread nD τ).loc cc0_scratch4) (Val := Elt F) (B := Fin 32) (q := fullShare)
    (fun j : Fin 32 => ((Rect.unit (s := S32x2x768) ![j.val, 0, 0] S1x2x768.size (slot_inb j)).set : Finset (Idx ((c : Thread nD τ).loc cc0_scratch4))))
    slots_disjoint slots_cover f

/-- Eight consecutive slots `lo … lo + 7` at one contents are the elements a load of that group of slots reads. -/
theorem comm_group (c : Dev nD) (lo : ℕ) (h : lo + 8 ≤ 32) (f : Buf (Elt F) ((c : Thread nD τ).loc cc0_scratch4)) :
    (bigSep (Finset.univ.filter fun j : Fin 32 => lo ≤ j.val ∧ j.val < lo + 8) (fun j => slotPts c j f) : sProp 𝕄)
      = (((c : Thread nD τ).loc cc0_scratch4) ↦[(Finset.univ.filter fun j : Fin 32 => lo ≤ j.val ∧ j.val < lo + 8).biUnion (fun j => (slotM j).view.set)]{fullShare} f) := by
  unfold slotPts
  exact (pointsTo_biUnion (ℓ := (c : Thread nD τ).loc cc0_scratch4) (q := fullShare) (f := f)
    (Finset.univ.filter fun j : Fin 32 => lo ≤ j.val ∧ j.val < lo + 8)
    (fun j : Fin 32 => ((slotM j : Memref sig .tc .vmem S2x768 .bf16).view.set : Finset (Idx ((c : Thread nD τ).loc cc0_scratch4))))
    (fun t _ t' _ hne => slotsets_disjoint t t' hne)).symm

/-- The two rows held whole are a remainder and 32 read shares. -/
theorem rows_shares (c : Dev nD) :
    ((((c : Thread nD τ).loc cc0_scratch3) ↦{fullShare} rowsC m c : sProp 𝕄))
      ⊣⊢ iprop((((c : Thread nD τ).loc cc0_scratch3) ↦{Transfers.shareDrop fullShare 32} rowsC m c) ∗ bigSep Finset.univ (fun k : Fin 32 => rowsPts m c k)) := by
  have e : (fun k : Fin 32 => rowsPts m c k) = fun k : Fin 32 =>
      ((((c : Thread nD τ).loc cc0_scratch3) ↦[Finset.univ]{Transfers.shareTok fullShare 32 k} rowsC m c : sProp 𝕄)) := by
    funext k
    unfold rowsPts
    exact congrArg (fun I => ((((c : Thread nD τ).loc cc0_scratch3) ↦[I]{rowsShare k} rowsC m c : sProp 𝕄))) (View.set_whole cc0_scratch3)
  rw [e]
  exact Transfers.pointsTo_toks (ℓ := (c : Thread nD τ).loc cc0_scratch3) (S := Finset.univ) (f := rowsC m c) fullShare 32

/-- A slot and the two-row buffer credit a copy the same. -/
theorem slot_credit (j : Fin 32) : (slotM j : Memref sig .tc .vmem S2x768 .bf16).view.dmaCredit = N := by
  rfl
theorem slot_amount (j : Fin 32) : (slotM j : Memref sig .tc .vmem S2x768 .bf16).view.amount (SemLoc.dma (recvSem j)) = N := by
  rfl

/-- The two rows of device `c + j` landed in slot `j` of device `c`, over any earlier contents, are that slot as the buffer's
    final contents have it. -/
theorem slot_landed (c : Dev nD) (j : Fin 32) (fd : Buf (Elt F) ((slotM j : Memref sig .tc .vmem S2x768 .bf16).view.loc (c : Thread nD τ))) :
    ((slotM j : Memref sig .tc .vmem S2x768 .bf16).view.loc (c : Thread nD τ) ↦[(slotM j : Memref sig .tc .vmem S2x768 .bf16).view.set]{fullShare}
        (slotM j : Memref sig .tc .vmem S2x768 .bf16).view.write (Elt F) fd ((rowsM : Memref sig .tc .vmem S2x768 .bf16).view.read (Elt F) (rowsC m (peer c j))) Finset.univ : sProp 𝕄)
      = slotPts c j (commC m c) := by
  unfold slotPts
  refine pointsTo_congr fun i hi => ?_
  -- an element of the slot is row a, column b of it; the copy leaves there what the sender's two rows hold at (a, b),
  -- and the buffer's final contents at (j, a, b) are by definition the rows of device c + j at (a, b)
  obtain ⟨x, -, rfl⟩ := Finset.mem_map.mp hi
  rw [View.write_emb_of_mem _ _ (Finset.mem_univ _)]
  obtain ⟨a, b, rfl⟩ : ∃ a b, x = ValueIdx.ix2 a b := ⟨_, _, ValueIdx.eq_ix2 x⟩
  rw [slot_emb]
  rfl

/-- What the entry signals hand out: slot 0 stays, and slot `(d − c) mod 32` goes to each other device `d`. -/
theorem comm_deal (c : Dev nD) (K : GSem nD τ sig → ℕ) (f : Buf (Elt F) ((c : Thread nD τ).loc cc0_scratch4)) :
    iprop(records m K ∗ (((c : Thread nD τ).loc cc0_scratch4) ↦{fullShare} f))
      ⊢ iprop(slotPts c 0 f ∗ bigSep Finset.univ (fun d : Fin 32 => barPay (F := F) d c)) := by
  have hrest : ∀ d ∈ Finset.univ.erase c, iprop(records m K ∗ slotPts c (slotFor c d) f) ⊢ barPay (F := F) d c := by
    intro d hd
    have hne : c ≠ d := fun e => (Finset.ne_of_mem_erase hd) e.symm
    have hel : (bigSep Finset.univ fun dk : Dev nD × Fin 32 => (reached ER (recvCell dk.1 dk.2) 0 : sProp 𝕄))
        ⊢ reached ER (recvCell c (slotFor c d)) 0 :=
      bigSep_elim (Φ := fun dk : Dev nD × Fin 32 => (reached ER (recvCell dk.1 dk.2) 0 : sProp 𝕄))
        (Finset.mem_univ ((c, slotFor c d) : Dev nD × Fin 32))
    unfold barPay
    rw [if_neg hne]
    unfold records
    iintro ⟨⟨-, -, -, -, -, HR⟩, H⟩
    isplitl [H]
    · iexists f; iexact H
    · iapply hel; iexact HR
  rw [comm_slots c f, bigSep_univ_equiv (slotEquiv c) (fun j : Fin 32 => slotPts c j f),
    bigSep_univ_at (fun d : Dev nD => slotPts c (slotEquiv c d) f) c,
    bigSep_univ_at (fun d : Fin 32 => barPay (F := F) d c) c]
  have hb : barPay (F := F) c c = iprop(emp) := if_pos rfl
  rw [hb]
  show iprop(records m K ∗ (slotPts c (slotFor c c) f ∗ bigSep (Finset.univ.erase c) (fun d : Dev nD => slotPts c (slotFor c d) f)))
    ⊢ iprop(slotPts c 0 f ∗ (emp ∗ bigSep (Finset.univ.erase c) (fun d : Fin 32 => barPay (F := F) d c)))
  rw [slotFor_self]
  iintro ⟨#HR, H0, Hrest⟩
  isplitl [H0]; · iexact H0
  isplitr; · iempintro
  iapply ((sep_mono_left (BI.bigSep_of_persistent (Finset.univ.erase c) (records m K))).trans
    (by rw [← bigSep_sep']; exact bigSep_mono hrest))
  isplitr
  · iexact HR
  · iexact Hrest

/-- What the barrier wait brings in, by copy number: the target slot of each copy `k = 1 … 31`. -/
theorem barPays_slots (c : Dev nD) :
    (bigSep Finset.univ (fun d : Fin 32 => barPay (F := F) c d) : sProp 𝕄)
      ⊢ bigSep (Finset.univ.erase (0 : Fin 32)) (fun k => iprop(∃ f, slotPts (F := F) (peer c k) (slotOf k) f)) := by
  rw [bigSep_univ_equiv (slotEquiv c).symm (fun d : Fin 32 => barPay (F := F) c d)]
  refine (bigSep_subset (Finset.erase_subset (0 : Fin 32) Finset.univ)).trans (bigSep_mono fun k hk => ?_)
  have hne : peer c k ≠ c := peer_ne c k (Finset.ne_of_mem_erase hk)
  show barPay (F := F) c (peer c k) ⊢ _
  unfold barPay
  rw [if_neg hne, slotFor_peer]
  iintro ⟨H, -⟩
  iexact H

end Cert.Kernel.Proto

end
-- ==== Proof.Bits.Levels.lean ====
import proofs.«900828_g7700000000000829_dist_layernorm_colshard_i_m768_n512_v7x_i32_bf16_1_alg».proof.Proof.Bits.Ghost
import proofs.«900828_g7700000000000829_dist_layernorm_colshard_i_m768_n512_v7x_i32_bf16_1_alg».proof.Proof.Bits.SchedTables

/-!
# Levels and the launch credit

A device waits on its barrier cell while it still owes the arrivals of its 31 copies: receive cells lie above barrier
cells. It waits on every other cell (staging, input copies, send, receive) either owing nothing or owing only barrier
and receive cells, which lie above those. Summed over all devices, what is owed to a device's barrier cell is 32 units
and to each of its receive cells `1 … 31` one copy's credit.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

/-! ## Cells apart -/

theorem bar_eq_iff {a b : Dev nD} : Iff (barCell a = barCell b) (a = b) :=
  ⟨fun h => congrArg (fun g : GSem nD τ sig => g.1.1) h, fun h => h ▸ rfl⟩

theorem recv_eq_iff {a b : Dev nD} {i j : Fin 32} : Iff (recvCell a i = recvCell b j) (a = b ∧ i = j) := by
  constructor
  · intro h
    refine ⟨congrArg (fun g : GSem nD τ sig => g.1.1) h, Fin.ext ?_⟩
    have h2 : (recvSem i).val = (recvSem j).val := congrArg Fin.val (SemLoc.dma.inj (congrArg Prod.snd h))
    have h3 : 36 + i.val = 36 + j.val := h2
    omega
  · rintro ⟨rfl, rfl⟩; rfl

theorem bar_ne_recv (a b : Dev nD) (j : Fin 32) : barCell a ≠ recvCell b j :=
  fun h => recv_ne_bar j (congrArg Prod.snd h).symm
theorem recv_ne_bar_cell (a b : Dev nD) (j : Fin 32) : recvCell b j ≠ barCell a :=
  fun h => recv_ne_bar j (congrArg Prod.snd h)

/-- A receive cell sits at level 2. -/
theorem lv_recv (d : Dev nD) (j : Fin 32) (u : Unit) : lv (recvCell d j) u = 2 := by
  dsimp only [lv]; exact if_pos (by show 36 ≤ 36 + j.val; omega)
/-- A barrier cell sits at level 1. -/
theorem lv_bar (d : Dev nD) (u : Unit) : lv (barCell d) u = 1 := rfl

/-! ## Where the debt lies -/

/-- Whatever tail of the arrivals is owed, it is owed to receive cells. -/
theorem Osend_pos (c : Dev nD) : ∀ (n : ℕ) {g : GSem nD τ sig} {u : Unit}, 0 < Osend c n g u → ∃ d j, g = recvCell d j
  | 0, g, u, h => by simp [Osend] at h
  | n + 1, g, u, h => by
    rw [Osend, Pi.add_apply, Finsupp.add_apply, tallyAt_apply] at h
    by_cases hg : g = recvCell (peer c (Fin.ofNat 32 (31 - n))) (slotOf (Fin.ofNat 32 (31 - n))) ∧ u = ()
    · exact ⟨_, _, hg.1⟩
    · rw [if_neg hg, Nat.add_zero] at h; exact Osend_pos c n h

/-- Whatever tail of the launch debt is owed, it is owed to receive cells and barrier cells. -/
theorem Obar_pos (c : Dev nD) : ∀ (n : ℕ) {g : GSem nD τ sig} {u : Unit}, 0 < Obar c n g u →
    (∃ d j, g = recvCell d j) ∨ ∃ d, g = barCell d
  | 0, g, u, h => by rw [Obar] at h; exact Or.inl (Osend_pos c 31 h)
  | n + 1, g, u, h => by
    rw [Obar, Pi.add_apply, Finsupp.add_apply, tallyAt_apply] at h
    by_cases hg : g = barCell (Fin.ofNat 32 (31 - n)) ∧ u = ()
    · exact Or.inr ⟨_, hg.1⟩
    · rw [if_neg hg, Nat.add_zero] at h; exact Obar_pos c n h

/-- Owing all 31 arrivals, a device may wait on its barrier cell. -/
theorem mayWait_bar (c : Dev nD) :
    (levAts L lv : sProp 𝕄) ⊢ MayWait (c : Thread nD τ) (.reg barS) () (Osend c 31) :=
  MayOwe.of_cut (L := L) (lev := lv) 1
    (fun p hp => by rw [Finset.mem_singleton.mp hp, L_tc]; exact Finset.mem_singleton_self _)
    (fun g u hg => by obtain ⟨d, j, rfl⟩ := Osend_pos c 31 hg; rw [L_tc]; exact Finset.mem_singleton_self _)
    (fun p hp => by rw [Finset.mem_singleton.mp hp]; exact le_refl _)
    (fun g u hg => by obtain ⟨d, j, rfl⟩ := Osend_pos c 31 hg; rw [lv_recv]; decide)

/-- Owing any tail of its launch debt, a device may wait on a semaphore that is neither a barrier nor a receive cell. -/
theorem mayWait_low (c : Dev nD) (q : DmaSem sig) (hq : q.val < 36) (n : ℕ) (hn : n ≤ 32) :
    (levAts L lv : sProp 𝕄) ⊢ MayWait (c : Thread nD τ) (.dma q) () (Obar c n) :=
  MayOwe.of_cut (L := L) (lev := lv) 0
    (fun p hp => by rw [Finset.mem_singleton.mp hp, L_tc]; exact Finset.mem_singleton_self _)
    (fun g u hg => by
      rcases Obar_pos c n hg with ⟨d, j, rfl⟩ | ⟨d, rfl⟩ <;> (rw [L_tc]; exact Finset.mem_singleton_self _))
    (fun p hp => by
      rw [Finset.mem_singleton.mp hp]; dsimp only [lv]; rw [if_neg (by omega)])
    (fun g u hg => by
      rcases Obar_pos c n hg with ⟨d, j, rfl⟩ | ⟨d, rfl⟩
      · rw [lv_recv]; decide
      · rw [lv_bar]; decide)
theorem mayWait_low_send (c : Dev nD) (q : DmaSem sig) (hq : q.val < 36) (n : ℕ) (hn : n ≤ 31) :
    (levAts L lv : sProp 𝕄) ⊢ MayWait (c : Thread nD τ) (.dma q) () (Osend c n) :=
  MayOwe.of_cut (L := L) (lev := lv) 0
    (fun p hp => by rw [Finset.mem_singleton.mp hp, L_tc]; exact Finset.mem_singleton_self _)
    (fun g u hg => by obtain ⟨d, j, rfl⟩ := Osend_pos c n hg; rw [L_tc]; exact Finset.mem_singleton_self _)
    (fun p hp => by
      rw [Finset.mem_singleton.mp hp]; dsimp only [lv]; rw [if_neg (by omega)])
    (fun g u hg => by obtain ⟨d, j, rfl⟩ := Osend_pos c n hg; rw [lv_recv]; decide)

/-! ## The launch credit -/

/-- The arrivals owe a barrier cell nothing. -/
theorem Osend_bar (d c : Dev nD) : ∀ n : ℕ, Osend d n (barCell c) () = 0
  | 0 => by simp [Osend]
  | n + 1 => by
    rw [Osend, Pi.add_apply, Finsupp.add_apply, Osend_bar d c n, tallyAt_ne_cell (bar_ne_recv _ _ _), Finsupp.zero_apply,
      Nat.add_zero]

/-- After `n` of the entry signals are added, the barrier cells owed a unit are those of the devices `32 − n … 31`. -/
theorem Obar_bar (d c : Dev nD) : ∀ n : ℕ, n ≤ 32 → Obar d n (barCell c) () = if 32 - n ≤ c.val then 1 else 0
  | 0, _ => by
    have hc : c.val < 32 := c.isLt
    rw [Obar, Osend_bar, if_neg (by omega)]
  | n + 1, hn => by
    have hc : c.val < 32 := c.isLt
    have hk : (Fin.ofNat 32 (31 - n) : Fin 32).val = 31 - n := by show (31 - n) % 32 = 31 - n; omega
    have hcell : Iff (barCell c = barCell (Fin.ofNat 32 (31 - n)) ∧ () = ()) (c.val = 31 - n) :=
      ⟨fun h => by rw [bar_eq_iff.mp h.1, hk],
       fun h => ⟨by rw [show c = Fin.ofNat 32 (31 - n) from Fin.ext (by rw [hk]; exact h)], rfl⟩⟩
    rw [Obar, Pi.add_apply, Finsupp.add_apply, Obar_bar d c n (by omega), tallyAt_apply, if_congr hcell rfl rfl]
    split_ifs <;> omega

/-- What device `d` owes device `c`'s barrier cell: one unit. -/
theorem owed_bar (d c : Dev nD) : O₀ d (barCell c) () = 1 := by
  unfold O₀
  rw [Obar_bar d c 32 (le_refl _), if_pos (by omega)]

/-- The entry signals owe a receive cell nothing. -/
theorem Obar_recv (d c : Dev nD) (j : Fin 32) : ∀ n : ℕ, Obar d n (recvCell c j) () = Osend d 31 (recvCell c j) ()
  | 0 => by rw [Obar]
  | n + 1 => by
    rw [Obar, Pi.add_apply, Finsupp.add_apply, Obar_recv d c j n, tallyAt_ne_cell (recv_ne_bar_cell _ _ _), Finsupp.zero_apply,
      Nat.add_zero]

/-- After `n` of the arrivals are added, the receive cells owed a copy's credit are the slots `1 … n`: slot `j` of the
    device that has `d` `j` places after it. -/
theorem Osend_recv (d c : Dev nD) (j : Fin 32) : ∀ n : ℕ, n ≤ 31 →
    Osend d n (recvCell c j) () = if d = peer c j then (if 1 ≤ j.val ∧ j.val ≤ n then N else 0) else 0
  | 0, _ => by
    rw [if_neg (show ¬ (1 ≤ j.val ∧ j.val ≤ 0) from fun h => by omega), ite_self]; simp [Osend]
  | n + 1, hn => by
    have hj32 : j.val < 32 := j.isLt
    have hk : (Fin.ofNat 32 (31 - n) : Fin 32).val = 31 - n := by show (31 - n) % 32 = 31 - n; omega
    have hs : (slotOf (Fin.ofNat 32 (31 - n))).val = n + 1 := by
      show (32 - (Fin.ofNat 32 (31 - n) : Fin 32).val) % 32 = n + 1
      rw [hk]; omega
    rw [Osend, Pi.add_apply, Finsupp.add_apply, Osend_recv d c j n (by omega), tallyAt_apply]
    by_cases hd : d = peer c j
    · have hcell : Iff (recvCell c j = recvCell (peer d (Fin.ofNat 32 (31 - n))) (slotOf (Fin.ofNat 32 (31 - n))) ∧ () = ())
          (j.val = n + 1) := by
        constructor
        · rintro ⟨h, _⟩
          rw [(recv_eq_iff.mp h).2, hs]
        · intro hj
          have e1 : slotOf (Fin.ofNat 32 (31 - n)) = j := Fin.ext (by rw [hs, hj])
          have e2 : Fin.ofNat 32 (31 - n) = slotOf j := Fin.ext (by rw [hk]; show 31 - n = (32 - j.val) % 32; omega)
          have e3 : peer d (Fin.ofNat 32 (31 - n)) = c := by rw [hd, e2]; exact peer_slotOf c j
          exact ⟨by rw [e3, e1], rfl⟩
      rw [if_pos hd, if_pos hd, if_congr hcell rfl rfl]
      split_ifs <;> omega
    · have hne : ¬ (recvCell c j = recvCell (peer d (Fin.ofNat 32 (31 - n))) (slotOf (Fin.ofNat 32 (31 - n))) ∧ () = ()) := by
        rintro ⟨h, _⟩
        obtain ⟨h1, h2⟩ := recv_eq_iff.mp h
        apply hd
        rw [h1, h2]; exact (peer_slotOf d _).symm
      rw [if_neg hd, if_neg hd, if_neg hne]

/-- What device `d` owes receive cell `j` of device `c`: a copy's credit if `d` is the device `j` places after `c` and `j ≠ 0`. -/
theorem owed_recv (d c : Dev nD) (j : Fin 32) : O₀ d (recvCell c j) () = if j ≠ 0 ∧ d = peer c j then N else 0 := by
  have hj32 : j.val < 32 := j.isLt
  unfold O₀
  rw [Obar_recv, Osend_recv d c j 31 (le_refl _)]
  by_cases hd : d = peer c j
  · rw [if_pos hd]
    by_cases hj : j = 0
    · rw [if_neg (show ¬ (j ≠ 0 ∧ d = peer c j) from fun h => h.1 hj),
        if_neg (show ¬ (1 ≤ j.val ∧ j.val ≤ 31) from fun h => by rw [hj] at h; exact absurd h.1 (by decide))]
    · have hj0 : j.val ≠ 0 := fun e => hj (Fin.ext e)
      rw [if_pos (show j ≠ 0 ∧ d = peer c j from ⟨hj, hd⟩), if_pos (show 1 ≤ j.val ∧ j.val ≤ 31 from ⟨by omega, by omega⟩)]
  · rw [if_neg hd, if_neg (show ¬ (j ≠ 0 ∧ d = peer c j) from fun h => hd h.2)]

/-- Summed over all devices, a barrier cell is owed 32 units. -/
theorem launch_bar (c : Dev nD) :
    tallyOn (barCell c) (launchCredit (Pipeline.owing O₀) 0 (barCell c)) = (tallyAt (barCell c) () 32 : CellTallies nD τ sig Unit) := by
  unfold tallyAt; refine congrArg _ (Finsupp.ext fun u => ?_); cases u
  rw [Pipeline.launchCredit_owing, Finsupp.single_eq_same, Finset.sum_congr rfl fun d _ => owed_bar d c, Finset.sum_const,
    Finset.card_univ, Fintype.card_fin, smul_eq_mul]
  rfl

/-- Summed over all devices, receive cell `j ≠ 0` is owed one copy's credit. -/
theorem launch_recv (c : Dev nD) (j : Fin 32) (hj : j ≠ 0) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same,
    Finset.sum_congr rfl fun d _ => (owed_recv d c j).trans (if_congr (and_iff_right hj) rfl rfl),
    Finset.sum_ite_eq' Finset.univ (peer c j) fun _ => N, if_pos (Finset.mem_univ _)]

/-- The credit a device is dealt at launch. -/
theorem launch_credits (c : Dev nD) : (Pipeline.launchCred O₀ c : sProp 𝕄) ⊢ credits c := by
  unfold Pipeline.launchCred credits
  rw [bigSep_univ_at _ (SemLoc.reg barS), launch_bar]
  refine sep_mono_right ?_
  have hsub : (Finset.univ.erase (0 : Fin 32)).image (fun j => (SemLoc.dma (recvSem j) : SemLoc sig))
      ⊆ Finset.univ.erase (SemLoc.reg barS) := by
    intro sm hsm
    obtain ⟨j, _, rfl⟩ := Finset.mem_image.mp hsm
    exact Finset.mem_erase.mpr ⟨recv_ne_bar j, Finset.mem_univ _⟩
  refine (bigSep_subset hsub).trans ?_
  rw [bigSep_image_of_injOn (fun a _ b _ h => Fin.ext (by
    have h2 : (recvSem a).val = (recvSem b).val := congrArg Fin.val (SemLoc.dma.inj h)
    have h3 : 36 + a.val = 36 + b.val := h2
    omega))]
  exact bigSep_mono fun j hj => by rw [launch_recv c j (Finset.ne_of_mem_erase hj)]; exact .refl _

end Cert.Kernel.Proto

end
-- ==== Proof.Bits.Steps.lean ====
import proofs.«900828_g7700000000000829_dist_layernorm_colshard_i_m768_n512_v7x_i32_bf16_1_alg».proof.Proof.Bits.Ghost
import proofs.«900828_g7700000000000829_dist_layernorm_colshard_i_m768_n512_v7x_i32_bf16_1_alg».proof.Proof.Bits.SchedTables
import proofs.«900828_g7700000000000829_dist_layernorm_colshard_i_m768_n512_v7x_i32_bf16_1_alg».proof.Proof.Bits.Regions
import proofs.«900828_g7700000000000829_dist_layernorm_colshard_i_m768_n512_v7x_i32_bf16_1_alg».proof.Proof.Bits.Levels

/-!
# One rule per kind of cross-device step, at a symbolic device

The body pays its duties in a fixed order, so what it still holds is always a tail of a list: the entry signals
to devices `lo, lo + 1, …, 31` still to send, the copies `lo, …, 31` still to start. Each rule takes the head
off such a tail.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

variable (K : GSem nD τ sig → ℕ)

/-- What device `c` still holds for the entry signal to device `d`: the token of its unit on `d`'s barrier cell and what
    the signal hands `d`. -/
def sigRes (c : Dev nD) (d : Fin 32) : sProp 𝕄 := iprop(dutyTok ER (barCell d) 0 (c : Fin 32) ∗ barPay (F := F) d c)

/-- What device `c` still holds for copy `k`: the tokens of its departure and its arrival, the read share of the two rows it
    lends, and the target's slot. -/
def sendRes (c : Dev nD) (k : Fin 32) : sProp 𝕄 :=
  iprop(dutyTok ER (sendCell c k) 0 (0 : Fin 32) ∗ dutyTok ER (recvCell (peer c k) (slotOf k)) 0 (0 : Fin 32)
    ∗ rowsPts m c k ∗ ∃ f, slotPts (F := F) (peer c k) (slotOf k) f)

/-! ## Out of the records: each cell's invariant, and that it is at its first round -/

/-- One summand out of a `bigSep`. -/
theorem bigSep_pick {I : Type} [DecidableEq I] {s : Finset I} {i : I} (hi : i ∈ s) (Φ : I → sProp 𝕄) : bigSep s Φ ⊢ Φ i :=
  bigSep_elim hi

theorem inv_bar (d : Dev nD) : records (F := F) m K ⊢ cellInv ER (rd m) (K (barCell d)) (barCell d) := by
  unfold records
  iintro ⟨H, -, -, -, -, -⟩
  iapply (bigSep_pick (Finset.mem_univ d) (fun d : Dev nD => cellInv ER (rd (F := F) m) (K (barCell d)) (barCell d)))
  iexact H
theorem inv_send (c : Dev nD) (k : Fin 32) : records (F := F) m K ⊢ cellInv ER (rd m) (K (sendCell c k)) (sendCell c k) := by
  unfold records
  iintro ⟨-, H, -, -, -, -⟩
  iapply (bigSep_pick (Finset.mem_univ (c, k)) (fun dk : Dev nD × Fin 32 => cellInv ER (rd (F := F) m) (K (sendCell dk.1 dk.2)) (sendCell dk.1 dk.2)))
  iexact H
theorem inv_recv (c : Dev nD) (j : Fin 32) : records (F := F) m K ⊢ cellInv ER (rd m) (K (recvCell c j)) (recvCell c j) := by
  unfold records
  iintro ⟨-, -, H, -, -, -⟩
  iapply (bigSep_pick (Finset.mem_univ (c, j)) (fun dk : Dev nD × Fin 32 => cellInv ER (rd (F := F) m) (K (recvCell dk.1 dk.2)) (recvCell dk.1 dk.2)))
  iexact H
theorem reached_bar (d : Dev nD) : records (F := F) m K ⊢ reached ER (barCell d) 0 := by
  unfold records
  iintro ⟨-, -, -, H, -, -⟩
  iapply (bigSep_pick (Finset.mem_univ d) (fun d : Dev nD => (reached ER (barCell d) 0 : sProp 𝕄)))
  iexact H
theorem reached_send (c : Dev nD) (k : Fin 32) : records (F := F) m K ⊢ reached ER (sendCell c k) 0 := by
  unfold records
  iintro ⟨-, -, -, -, H, -⟩
  iapply (bigSep_pick (Finset.mem_univ (c, k)) (fun dk : Dev nD × Fin 32 => (reached ER (sendCell dk.1 dk.2) 0 : sProp 𝕄)))
  iexact H
theorem reached_recv (c : Dev nD) (j : Fin 32) : records (F := F) m K ⊢ reached ER (recvCell c j) 0 := by
  unfold records
  iintro ⟨-, -, -, -, -, H⟩
  iapply (bigSep_pick (Finset.mem_univ (c, j)) (fun dk : Dev nD × Fin 32 => (reached ER (recvCell dk.1 dk.2) 0 : sProp 𝕄)))
  iexact H

/-- The debt before the signal to device `lo` is the debt after it and that signal's unit. -/
theorem Obar_head (c : Dev nD) (lo : ℕ) (hlo : lo < 32) :
    Obar c (32 - lo) = Obar c (31 - lo) + tallyAt (barCell (⟨lo, hlo⟩ : Dev nD)) () 1 := by
  have e : 32 - lo = (31 - lo) + 1 := by omega
  rw [e]
  show Obar c (31 - lo) + tallyAt (barCell (Fin.ofNat 32 (31 - (31 - lo)))) () 1 = _
  have e2 : (Fin.ofNat 32 (31 - (31 - lo)) : Fin 32) = ⟨lo, hlo⟩ := Fin.ext (by show (31 - (31 - lo)) % 32 = lo; omega)
  rw [e2]

/-- The entry signal to device `lo`: one unit off what the device owes, the head off the signals still to send. -/
theorem sig_step (c : Dev nD) (lo : ℕ) (hlo : lo < 32) (W : Waits sig Unit) {α : Type} {Q : α → sProp 𝕄}
    {k : PUnit → Prog (TpuEff nD τ sig (Elt F) Λ₀ .tc) α} :
    iprop(records m K ∗ owes (c : Thread nD τ) (Obar c (32 - lo)) W ∗ bigSep (rangeSet 32 lo 32) (sigRes (F := F) c))
      ⊢ iprop(((owes (c : Thread nD τ) (Obar c (31 - lo)) W ∗ bigSep (rangeSet 32 (lo + 1) 32) (sigRes (F := F) c))
          -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (((⟨lo, hlo⟩ : Dev nD)) : Thread nD τ) barS 1) k) Q) := by
  rw [Ring.bigSep_rangeSet_head (by omega : lo < 32) hlo]
  unfold sigRes
  iintro ⟨#HR, HO, ⟨Htok, Hpay⟩, Hrest⟩ Hk
  iapply (Rounds.wp_signal 𝒱₀ ER (rd m) (c : Thread nD τ) none (dst := ((⟨lo, hlo⟩ : Dev nD) : Thread nD τ)) (κ := K (barCell ⟨lo, hlo⟩))
      (d := (c : Fin 32)) (by rw [duties_bar]; exact Finset.mem_univ _) (amount_bar m ⟨lo, hlo⟩ (c : Fin 32)) () (Obar c (31 - lo)) (Obar_head c lo hlo))
    $$ [HO Htok Hpay]
  · isplitr; · iapply (inv_bar m K ⟨lo, hlo⟩); iexact HR
    isplitl [HO]; · iexact HO
    isplitl [Htok]; · iexact Htok
    isplitl [Hpay]; · rw [payload_bar m ⟨lo, hlo⟩ c]; iexact Hpay
    iapply (reached_bar m K ⟨lo, hlo⟩); iexact HR
  iintro HO
  iapply Hk
  isplitl [HO]; · iexact HO
  iexact Hrest

/-- The wait for all 32 entry signals, still owing every arrival: every device's hand-over comes with it. -/
theorem bar_wait (c : Dev nD) (W : Waits sig Unit) {α : Type} {Q : α → sProp 𝕄}
    {k : PUnit → Prog (TpuEff nD τ sig (Elt F) Λ₀ .tc) α} :
    iprop(records m K ∗ cred (tallyAt (barCell c) () 32) ∗ owes (c : Thread nD τ) (Osend c 31) W ∗ levAts L lv
        ∗ atPos ER (barCell c) 0 ∅ 0)
      ⊢ iprop(((owes (c : Thread nD τ) (Osend c 31) (insert (SemLoc.reg barS, ()) W) ∗ atPos ER (barCell c) 1 ∅ 0
            ∗ bigSep Finset.univ (fun d : Fin 32 => barPay (F := F) c d))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 32) k) Q) := by
  iintro ⟨#HR, Hc, HO, Hlev, Hat⟩ Hk
  iapply (Rounds.wp_wait_rest_token 𝒱₀ ER (rd m) (c : Thread nD τ) none (κ := K (barCell c))
      (wpE_semWait_eq 𝒱₀ (c : Thread nD τ) none Set.univ) (Set.mem_univ _) () (O := Osend c 31) (W := W) (R := 0) (m := 0) (T := ∅)
      (by rw [expect_bar])) $$ [Hc HO Hat Hlev]
  · isplitr; · iapply (inv_bar m K c); iexact HR
    isplitl [Hc]; · iexact Hc
    isplitl [HO]; · iexact HO
    isplitl [Hlev]; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- Copy `lo` from 1 on is not copy 0, and its target slot `32 − lo` is not slot 0. -/
theorem copy_ne (lo : ℕ) (hlo : lo < 32) (h1 : 1 ≤ lo) : (⟨lo, hlo⟩ : Fin 32) ≠ 0 := fun h => by
  have := congrArg Fin.val h
  change lo = 0 at this
  omega
theorem slotOf_ne (lo : ℕ) (hlo : lo < 32) (h1 : 1 ≤ lo) : slotOf ⟨lo, hlo⟩ ≠ 0 := fun h => by
  have := congrArg Fin.val h
  change (32 - lo) % 32 = 0 at this
  omega

/-- The debt before copy `lo` is the debt after it and that copy's arrival. -/
theorem Osend_head (c : Dev nD) (lo : ℕ) (hlo : lo < 32) (h1 : 1 ≤ lo) :
    Osend c (32 - lo) = Osend c (31 - lo) + tallyAt (recvCell (peer c ⟨lo, hlo⟩) (slotOf ⟨lo, hlo⟩)) () N := by
  have e : 32 - lo = (31 - lo) + 1 := by omega
  rw [e]
  show Osend c (31 - lo) + tallyAt (recvCell (peer c (Fin.ofNat 32 (31 - (31 - lo)))) (slotOf (Fin.ofNat 32 (31 - (31 - lo))))) () N = _
  have e2 : (Fin.ofNat 32 (31 - (31 - lo)) : Fin 32) = ⟨lo, hlo⟩ := Fin.ext (by show (31 - (31 - lo)) % 32 = lo; omega)
  rw [e2]
/-- Copy `lo` (1 ≤ lo ≤ 31) to device `c + lo`, into its slot `32 − lo`: the arrival's credit off what the device owes, the
    head off the copies still to start, the departure's credit in hand. -/
theorem send_step (c : Dev nD) (lo : ℕ) (hlo : lo < 32) (h1 : 1 ≤ lo) (dst : Dev nD) (hdst : dst = peer c ⟨lo, hlo⟩)
    (j : Fin 32) (hj : j = slotOf ⟨lo, hlo⟩) (W : Waits sig Unit)
    {hsc : (slotM j : Memref sig (Dev.tc dst : Thread nD τ).2.kind .vmem S2x768 .bf16).view.ref.isScScratch = false}
    {hsrc : (rowsM : Memref sig .tc .vmem S2x768 .bf16).view.WordExact} {hdw : (slotM j : Memref sig .tc .vmem S2x768 .bf16).view.WordExact}
    {hsem : DmaTarget.Typed .vmem (.dma (recvSem j)) (.remote (Dev.tc dst : Thread nD τ) (slotM j : Memref sig .tc .vmem S2x768 .bf16) (.dma (sendSem ⟨lo, hlo⟩)) hsc)}
    {α : Type} {Q : α → sProp 𝕄} {k : PUnit → Prog (TpuEff nD τ sig (Elt F) Λ₀ .tc) α} :
    iprop(records m K ∗ owes (c : Thread nD τ) (Osend c (32 - lo)) W ∗ bigSep (rangeSet 32 lo 32) (sendRes m c))
      ⊢ iprop(((cred (tallyAt (sendCell c ⟨lo, hlo⟩) () N) ∗ owes (c : Thread nD τ) (Osend c (31 - lo)) W
            ∗ bigSep (rangeSet 32 (lo + 1) 32) (sendRes m c))
          -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma rowsM (.remote (Dev.tc dst : Thread nD τ) (slotM j) (.dma (sendSem ⟨lo, hlo⟩)) hsc) (.dma (recvSem j)) hsrc hdw hsem) k) Q) := by
  subst hdst
  subst hj
  rw [Ring.bigSep_rangeSet_head (by omega : lo < 32) hlo]
  unfold sendRes
  iintro ⟨#HR, HO, ⟨Hts, Htr, Hrows, ⟨%f, Hslot⟩⟩, Hrest⟩ Hk
  unfold rowsPts slotPts
  iapply (Rounds.wp_send_pointsTo 𝒱₀ ER (rd m) (c : Thread nD τ) none (κ₁ := K (sendCell c ⟨lo, hlo⟩))
      (κ₂ := K (recvCell (peer c ⟨lo, hlo⟩) (slotOf ⟨lo, hlo⟩))) (r₁ := 0) (r₂ := 0) (d₁ := (0 : Fin 32)) (d₂ := (0 : Fin 32)) (fd := f)
      (by rw [duties_send m c _ (copy_ne lo hlo h1)]; exact Finset.mem_singleton_self _)
      (by rw [duties_recv m (peer c ⟨lo, hlo⟩) _ (slotOf_ne lo hlo h1)]; exact Finset.mem_singleton_self _)
      () () N (slot_amount _) (amount_send m c _ 0) (amount_recv m (peer c ⟨lo, hlo⟩) _ 0) (Osend c (31 - lo)) (Osend_head c lo hlo h1) (W := W)
      (by rw [payload_send]; exact BI.Entails.refl _)
      (by
        rw [payload_recv]; unfold recvPay
        have e := slot_landed m (peer c ⟨lo, hlo⟩) (slotOf ⟨lo, hlo⟩) f
        rw [peer_slotOf] at e
        exact Entails.of_eq e))
    $$ [HO Hts Htr Hrows Hslot]
  · isplitr; · iapply (inv_send m K c ⟨lo, hlo⟩); iexact HR
    isplitr; · iapply (inv_recv m K (peer c ⟨lo, hlo⟩) (slotOf ⟨lo, hlo⟩)); iexact HR
    isplitl [Hrows]; · iexact Hrows
    isplitl [Hslot]; · iexact Hslot
    isplitl [HO]; · iexact HO
    isplitl [Hts]; · iexact Hts
    isplitr; · iapply (reached_send m K c ⟨lo, hlo⟩); iexact HR
    isplitl [Htr]; · iexact Htr
    iapply (reached_recv m K (peer c ⟨lo, hlo⟩) (slotOf ⟨lo, hlo⟩)); iexact HR
  iintro ⟨Hc, HO⟩
  iapply Hk
  isplitl [Hc]; · iexact Hc
  isplitl [HO]; · iexact HO
  iexact Hrest

/-- The wait for the landing in slot `j` (1 ≤ j ≤ 31), owing nothing: the slot comes back at the buffer's final contents. -/
theorem recv_wait (c : Dev nD) (j : Fin 32) (hj : j ≠ 0) (W : Waits sig Unit)
    {hsrc : (rowsM : Memref sig .tc .vmem S2x768 .bf16).view.WordExact} {hdw : (slotM j : Memref sig .tc .vmem S2x768 .bf16).view.WordExact}
    {α : Type} {Q : α → sProp 𝕄} {k : PUnit → Prog (TpuEff nD τ sig (Elt F) Λ₀ .tc) α} :
    iprop(records m K ∗ cred (tallyAt (recvCell c j) () N) ∗ owes (c : Thread nD τ) 0 W ∗ atPos ER (recvCell c j) 0 ∅ 0)
      ⊢ iprop(((owes (c : Thread nD τ) 0 (insert (SemLoc.dma (recvSem j), ()) W) ∗ atPos ER (recvCell c j) 1 ∅ 0 ∗ slotPts c j (commC m c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (recvSem j) rowsM (slotM j) hsrc hdw) k) Q) := by
  iintro ⟨#HR, Hc, HO, Hat⟩ Hk
  ihave Hc' := (Entails.of_eq (show (cred (tallyAt (recvCell c j) () N) : sProp 𝕄)
      = cred (tallyAt (recvCell c j) () (slotM j : Memref sig .tc .vmem S2x768 .bf16).view.dmaCredit) from by rw [slot_credit j])) $$ Hc
  iapply (Rounds.wp_wait_rest_token 𝒱₀ ER (rd m) (c : Thread nD τ) none (κ := K (recvCell c j))
      (k' := (slotM j : Memref sig .tc .vmem S2x768 .bf16).view.dmaCredit)
      (wpE_waitDma2_eq 𝒱₀ (c : Thread nD τ) none Set.univ) (Set.mem_univ _) () (O := 0) (W := W) (R := 0) (m := 0) (T := ∅)
      (by rw [Nat.zero_add, expect_recv m c j hj, slot_credit j])) $$ [Hc' HO Hat]
  · isplitr; · iapply (inv_recv m K c j); iexact HR
    isplitl [Hc']; · iexact Hc'
    isplitl [HO]; · iexact HO
    isplitr; · rw [MayWait_zero]; iempintro
    iexact Hat
  iintro ⟨HO, Hat, -, Hpay⟩
  ihave Hp := (Entails.of_eq (rest_recv m c j hj)) $$ Hpay
  unfold recvPay
  iapply Hk
  isplitl [HO]; · iexact HO
  isplitl [Hat]; · iexact Hat
  iexact Hp

/-- The wait for the departure of copy `k` (1 ≤ k ≤ 31), owing nothing: the lent share of the two rows comes back. -/
theorem send_wait (c : Dev nD) (k' : Fin 32) (hk : k' ≠ 0) (j : Fin 32) (W : Waits sig Unit)
    {hsrc : (slotM j : Memref sig .tc .vmem S2x768 .bf16).view.WordExact} {hdw : (rowsM : Memref sig .tc .vmem S2x768 .bf16).view.WordExact}
    {α : Type} {Q : α → sProp 𝕄} {k : PUnit → Prog (TpuEff nD τ sig (Elt F) Λ₀ .tc) α} :
    iprop(records m K ∗ cred (tallyAt (sendCell c k') () N) ∗ owes (c : Thread nD τ) 0 W ∗ atPos ER (sendCell c k') 0 ∅ 0)
      ⊢ iprop(((owes (c : Thread nD τ) 0 (insert (SemLoc.dma (sendSem k'), ()) W) ∗ atPos ER (sendCell c k') 1 ∅ 0 ∗ rowsPts m c k')
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sendSem k') (slotM j) rowsM hsrc hdw) k) Q) := by
  iintro ⟨#HR, Hc, HO, Hat⟩ Hk
  iapply (Rounds.wp_wait_rest_token 𝒱₀ ER (rd m) (c : Thread nD τ) none (κ := K (sendCell c k'))
      (k' := N)
      (wpE_waitDma2_eq 𝒱₀ (c : Thread nD τ) none Set.univ) (Set.mem_univ _) () (O := 0) (W := W) (R := 0) (m := 0) (T := ∅)
      (by rw [Nat.zero_add, expect_send m c k' hk])) $$ [Hc HO Hat]
  · isplitr; · iapply (inv_send m K c k'); iexact HR
    isplitl [Hc]; · iexact Hc
    isplitl [HO]; · iexact HO
    isplitr; · rw [MayWait_zero]; iempintro
    iexact Hat
  iintro ⟨HO, Hat, -, Hpay⟩
  ihave Hp := (Entails.of_eq (rest_send m c k' hk)) $$ Hpay
  unfold sendPay
  iapply Hk
  isplitl [HO]; · iexact HO
  isplitl [Hat]; · iexact Hat
  iexact Hp

/-- `bigSep` is monotone, summand by summand. -/
theorem bigSep_each {I : Type} {s : Finset I} {Φ Ψ : I → sProp 𝕄} (h : ∀ i ∈ s, Φ i ⊢ Ψ i) : bigSep s Φ ⊢ bigSep s Ψ :=
  bigSep_mono h

/-- A send cell one round on closes: its counter is back at zero. -/
theorem close_send (c : Dev nD) (k : Fin 32) :
    iprop(records m K ∗ atPos ER (sendCell c k) 1 ∅ 0) ⊢ (|={Set.univ}=> semVal (sendCell c k) 0 : sProp 𝕄) := by
  iintro ⟨#HR, Hat⟩
  iapply (Rounds.cell_close ER (rd m) (Set.mem_univ (K (sendCell c k))) (fun h => h) (R := 1) (duties_later m (sendCell c k)))
  isplitr; · iapply (inv_send m K c k); iexact HR
  iexact Hat
/-- A receive cell one round on closes likewise. -/
theorem close_recv (c : Dev nD) (j : Fin 32) :
    iprop(records m K ∗ atPos ER (recvCell c j) 1 ∅ 0) ⊢ (|={Set.univ}=> semVal (recvCell c j) 0 : sProp 𝕄) := by
  iintro ⟨#HR, Hat⟩
  iapply (Rounds.cell_close ER (rd m) (Set.mem_univ (K (recvCell c j))) (fun h => h) (R := 1) (duties_later m (recvCell c j)))
  isplitr; · iapply (inv_recv m K c j); iexact HR
  iexact Hat

/-- Cells `1 … 31` of either kind close together. -/
theorem close_sends (c : Dev nD) :
    iprop(records m K ∗ bigSep (Finset.univ.erase (0 : Fin 32)) fun k => atPos ER (sendCell c k) 1 ∅ 0)
      ⊢ (|={Set.univ}=> bigSep (Finset.univ.erase (0 : Fin 32)) fun k => semVal (sendCell c k) 0 : sProp 𝕄) := by
  iintro ⟨#HR, Hs⟩
  iapply (bigSep_fupd (Finset.univ.erase (0 : Fin 32)) (fun k : Fin 32 => (semVal (sendCell c k) 0 : sProp 𝕄)))
  iapply (bigSep_each (s := Finset.univ.erase (0 : Fin 32)) (Φ := fun k : Fin 32 => iprop(records (F := F) m K ∗ atPos ER (sendCell c k) 1 ∅ 0))
    (fun k _ => close_send m K c k))
  rw [bigSep_sep']
  isplitr; · iapply (bigSep_of_persistent (Finset.univ.erase (0 : Fin 32)) (records (F := F) m K)); iexact HR
  iexact Hs
theorem close_recvs (c : Dev nD) :
    iprop(records m K ∗ bigSep (Finset.univ.erase (0 : Fin 32)) fun j => atPos ER (recvCell c j) 1 ∅ 0)
      ⊢ (|={Set.univ}=> bigSep (Finset.univ.erase (0 : Fin 32)) fun j => semVal (recvCell c j) 0 : sProp 𝕄) := by
  iintro ⟨#HR, Hs⟩
  iapply (bigSep_fupd (Finset.univ.erase (0 : Fin 32)) (fun j : Fin 32 => (semVal (recvCell c j) 0 : sProp 𝕄)))
  iapply (bigSep_each (s := Finset.univ.erase (0 : Fin 32)) (Φ := fun j : Fin 32 => iprop(records (F := F) m K ∗ atPos ER (recvCell c j) 1 ∅ 0))
    (fun j _ => close_recv m K c j))
  rw [bigSep_sep']
  isplitr; · iapply (bigSep_of_persistent (Finset.univ.erase (0 : Fin 32)) (records (F := F) m K)); iexact HR
  iexact Hs
/-- Every send and receive cell closed at the end of the body: the 64 counters back in the device's hand at zero
    (cells 0 never opened a round; cells 1–31 are one round on). -/
theorem close_cells (c : Dev nD) :
    iprop(records m K
        ∗ atPos ER (sendCell c 0) 0 ∅ 0 ∗ atPos ER (recvCell c 0) 0 ∅ 0
        ∗ (bigSep (Finset.univ.erase (0 : Fin 32)) fun k => atPos ER (sendCell c k) 1 ∅ 0)
        ∗ (bigSep (Finset.univ.erase (0 : Fin 32)) fun j => atPos ER (recvCell c j) 1 ∅ 0))
      ⊢ (|={Set.univ}=> iprop((bigSep Finset.univ fun k : Fin 32 => semVal (sendCell c k) 0)
          ∗ (bigSep Finset.univ fun j : Fin 32 => semVal (recvCell c j) 0)) : sProp 𝕄) := by
  rw [bigSep_univ_at (fun k : Fin 32 => (semVal (sendCell c k) 0 : sProp 𝕄)) 0, bigSep_univ_at (fun j : Fin 32 => (semVal (recvCell c j) 0 : sProp 𝕄)) 0]
  iintro ⟨#HR, Hs0, Hr0, Hs, Hr⟩
  imod (Rounds.cell_close ER (rd m) (Set.mem_univ (K (sendCell c 0))) (fun h => h) (R := 0) (fun r _ => duties_send0 m c r)) $$ [Hs0] with Hzs
  · isplitr; · iapply (inv_send m K c 0); iexact HR
    iexact Hs0
  imod (Rounds.cell_close ER (rd m) (Set.mem_univ (K (recvCell c 0))) (fun h => h) (R := 0) (fun r _ => duties_recv0 m c r)) $$ [Hr0] with Hzr
  · isplitr; · iapply (inv_recv m K c 0); iexact HR
    iexact Hr0
  imod (close_sends m K c) $$ [Hs] with Hs
  · isplitr; · iexact HR
    iexact Hs
  imod (close_recvs m K c) $$ [Hr] with Hr
  · isplitr; · iexact HR
    iexact Hr
  imodintro
  isplitl [Hzs Hs]
  · isplitl [Hzs]; · iexact Hzs
    iexact Hs
  · isplitl [Hzr]; · iexact Hzr
    iexact Hr

end Cert.Kernel.Proto

end
-- ==== Proof.Bits.DevEq.lean ====
import proofs.«900828_g7700000000000829_dist_layernorm_colshard_i_m768_n512_v7x_i32_bf16_1_alg».proof.Proof.Bits.Sched

namespace Cert.Kernel.Proto

open Cert.Kernel Cert.Kernel.Gen Idealize.ShloMosaic Idealize.ShloMosaic.Tactic

@[sl_canon] theorem dev1_eq : (⟨k0_dev1, k0_dev1_lt⟩ : Dev nD) = ⟨0, by decide⟩ := Fin.ext k0_dev1_eq
@[sl_canon] theorem dev2_eq : (⟨k0_dev2, k0_dev2_lt⟩ : Dev nD) = ⟨1, by decide⟩ := Fin.ext k0_dev2_eq
@[sl_canon] theorem dev3_eq : (⟨k0_dev3, k0_dev3_lt⟩ : Dev nD) = ⟨2, by decide⟩ := Fin.ext k0_dev3_eq
@[sl_canon] theorem dev4_eq : (⟨k0_dev4, k0_dev4_lt⟩ : Dev nD) = ⟨3, by decide⟩ := Fin.ext k0_dev4_eq
@[sl_canon] theorem dev5_eq : (⟨k0_dev5, k0_dev5_lt⟩ : Dev nD) = ⟨4, by decide⟩ := Fin.ext k0_dev5_eq
@[sl_canon] theorem dev6_eq : (⟨k0_dev6, k0_dev6_lt⟩ : Dev nD) = ⟨5, by decide⟩ := Fin.ext k0_dev6_eq
@[sl_canon] theorem dev7_eq : (⟨k0_dev7, k0_dev7_lt⟩ : Dev nD) = ⟨6, by decide⟩ := Fin.ext k0_dev7_eq
@[sl_canon] theorem dev8_eq : (⟨k0_dev8, k0_dev8_lt⟩ : Dev nD) = ⟨7, by decide⟩ := Fin.ext k0_dev8_eq
@[sl_canon] theorem dev9_eq : (⟨k0_dev9, k0_dev9_lt⟩ : Dev nD) = ⟨8, by decide⟩ := Fin.ext k0_dev9_eq
@[sl_canon] theorem dev10_eq : (⟨k0_dev10, k0_dev10_lt⟩ : Dev nD) = ⟨9, by decide⟩ := Fin.ext k0_dev10_eq
@[sl_canon] theorem dev11_eq : (⟨k0_dev11, k0_dev11_lt⟩ : Dev nD) = ⟨10, by decide⟩ := Fin.ext k0_dev11_eq
@[sl_canon] theorem dev12_eq : (⟨k0_dev12, k0_dev12_lt⟩ : Dev nD) = ⟨11, by decide⟩ := Fin.ext k0_dev12_eq
@[sl_canon] theorem dev13_eq : (⟨k0_dev13, k0_dev13_lt⟩ : Dev nD) = ⟨12, by decide⟩ := Fin.ext k0_dev13_eq
@[sl_canon] theorem dev14_eq : (⟨k0_dev14, k0_dev14_lt⟩ : Dev nD) = ⟨13, by decide⟩ := Fin.ext k0_dev14_eq
@[sl_canon] theorem dev15_eq : (⟨k0_dev15, k0_dev15_lt⟩ : Dev nD) = ⟨14, by decide⟩ := Fin.ext k0_dev15_eq
@[sl_canon] theorem dev16_eq : (⟨k0_dev16, k0_dev16_lt⟩ : Dev nD) = ⟨15, by decide⟩ := Fin.ext k0_dev16_eq
@[sl_canon] theorem dev17_eq : (⟨k0_dev17, k0_dev17_lt⟩ : Dev nD) = ⟨16, by decide⟩ := Fin.ext k0_dev17_eq
@[sl_canon] theorem dev18_eq : (⟨k0_dev18, k0_dev18_lt⟩ : Dev nD) = ⟨17, by decide⟩ := Fin.ext k0_dev18_eq
@[sl_canon] theorem dev19_eq : (⟨k0_dev19, k0_dev19_lt⟩ : Dev nD) = ⟨18, by decide⟩ := Fin.ext k0_dev19_eq
@[sl_canon] theorem dev20_eq : (⟨k0_dev20, k0_dev20_lt⟩ : Dev nD) = ⟨19, by decide⟩ := Fin.ext k0_dev20_eq
@[sl_canon] theorem dev21_eq : (⟨k0_dev21, k0_dev21_lt⟩ : Dev nD) = ⟨20, by decide⟩ := Fin.ext k0_dev21_eq
@[sl_canon] theorem dev22_eq : (⟨k0_dev22, k0_dev22_lt⟩ : Dev nD) = ⟨21, by decide⟩ := Fin.ext k0_dev22_eq
@[sl_canon] theorem dev23_eq : (⟨k0_dev23, k0_dev23_lt⟩ : Dev nD) = ⟨22, by decide⟩ := Fin.ext k0_dev23_eq
@[sl_canon] theorem dev24_eq : (⟨k0_dev24, k0_dev24_lt⟩ : Dev nD) = ⟨23, by decide⟩ := Fin.ext k0_dev24_eq
@[sl_canon] theorem dev25_eq : (⟨k0_dev25, k0_dev25_lt⟩ : Dev nD) = ⟨24, by decide⟩ := Fin.ext k0_dev25_eq
@[sl_canon] theorem dev26_eq : (⟨k0_dev26, k0_dev26_lt⟩ : Dev nD) = ⟨25, by decide⟩ := Fin.ext k0_dev26_eq
@[sl_canon] theorem dev27_eq : (⟨k0_dev27, k0_dev27_lt⟩ : Dev nD) = ⟨26, by decide⟩ := Fin.ext k0_dev27_eq
@[sl_canon] theorem dev28_eq : (⟨k0_dev28, k0_dev28_lt⟩ : Dev nD) = ⟨27, by decide⟩ := Fin.ext k0_dev28_eq
@[sl_canon] theorem dev29_eq : (⟨k0_dev29, k0_dev29_lt⟩ : Dev nD) = ⟨28, by decide⟩ := Fin.ext k0_dev29_eq
@[sl_canon] theorem dev30_eq : (⟨k0_dev30, k0_dev30_lt⟩ : Dev nD) = ⟨29, by decide⟩ := Fin.ext k0_dev30_eq
@[sl_canon] theorem dev31_eq : (⟨k0_dev31, k0_dev31_lt⟩ : Dev nD) = ⟨30, by decide⟩ := Fin.ext k0_dev31_eq
@[sl_canon] theorem dev32_eq : (⟨k0_dev32, k0_dev32_lt⟩ : Dev nD) = ⟨31, by decide⟩ := Fin.ext k0_dev32_eq
@[sl_canon] theorem dev33_eq (c : Dev nD) : (⟨k0_dev33 c, k0_dev33_lt c⟩ : Dev nD) = peer c 1 := Fin.ext (k0_dev33_eq c)
@[sl_canon] theorem dev34_eq (c : Dev nD) : (⟨k0_dev34 c, k0_dev34_lt c⟩ : Dev nD) = peer c 2 := Fin.ext (k0_dev34_eq c)
@[sl_canon] theorem dev35_eq (c : Dev nD) : (⟨k0_dev35 c, k0_dev35_lt c⟩ : Dev nD) = peer c 3 := Fin.ext (k0_dev35_eq c)
@[sl_canon] theorem dev36_eq (c : Dev nD) : (⟨k0_dev36 c, k0_dev36_lt c⟩ : Dev nD) = peer c 4 := Fin.ext (k0_dev36_eq c)
@[sl_canon] theorem dev37_eq (c : Dev nD) : (⟨k0_dev37 c, k0_dev37_lt c⟩ : Dev nD) = peer c 5 := Fin.ext (k0_dev37_eq c)
@[sl_canon] theorem dev38_eq (c : Dev nD) : (⟨k0_dev38 c, k0_dev38_lt c⟩ : Dev nD) = peer c 6 := Fin.ext (k0_dev38_eq c)
@[sl_canon] theorem dev39_eq (c : Dev nD) : (⟨k0_dev39 c, k0_dev39_lt c⟩ : Dev nD) = peer c 7 := Fin.ext (k0_dev39_eq c)
@[sl_canon] theorem dev40_eq (c : Dev nD) : (⟨k0_dev40 c, k0_dev40_lt c⟩ : Dev nD) = peer c 8 := Fin.ext (k0_dev40_eq c)
@[sl_canon] theorem dev41_eq (c : Dev nD) : (⟨k0_dev41 c, k0_dev41_lt c⟩ : Dev nD) = peer c 9 := Fin.ext (k0_dev41_eq c)
@[sl_canon] theorem dev42_eq (c : Dev nD) : (⟨k0_dev42 c, k0_dev42_lt c⟩ : Dev nD) = peer c 10 := Fin.ext (k0_dev42_eq c)
@[sl_canon] theorem dev43_eq (c : Dev nD) : (⟨k0_dev43 c, k0_dev43_lt c⟩ : Dev nD) = peer c 11 := Fin.ext (k0_dev43_eq c)
@[sl_canon] theorem dev44_eq (c : Dev nD) : (⟨k0_dev44 c, k0_dev44_lt c⟩ : Dev nD) = peer c 12 := Fin.ext (k0_dev44_eq c)
@[sl_canon] theorem dev45_eq (c : Dev nD) : (⟨k0_dev45 c, k0_dev45_lt c⟩ : Dev nD) = peer c 13 := Fin.ext (k0_dev45_eq c)
@[sl_canon] theorem dev46_eq (c : Dev nD) : (⟨k0_dev46 c, k0_dev46_lt c⟩ : Dev nD) = peer c 14 := Fin.ext (k0_dev46_eq c)
@[sl_canon] theorem dev47_eq (c : Dev nD) : (⟨k0_dev47 c, k0_dev47_lt c⟩ : Dev nD) = peer c 15 := Fin.ext (k0_dev47_eq c)
@[sl_canon] theorem dev48_eq (c : Dev nD) : (⟨k0_dev48 c, k0_dev48_lt c⟩ : Dev nD) = peer c 16 := Fin.ext (k0_dev48_eq c)
@[sl_canon] theorem dev49_eq (c : Dev nD) : (⟨k0_dev49 c, k0_dev49_lt c⟩ : Dev nD) = peer c 17 := Fin.ext (k0_dev49_eq c)
@[sl_canon] theorem dev50_eq (c : Dev nD) : (⟨k0_dev50 c, k0_dev50_lt c⟩ : Dev nD) = peer c 18 := Fin.ext (k0_dev50_eq c)
@[sl_canon] theorem dev51_eq (c : Dev nD) : (⟨k0_dev51 c, k0_dev51_lt c⟩ : Dev nD) = peer c 19 := Fin.ext (k0_dev51_eq c)
@[sl_canon] theorem dev52_eq (c : Dev nD) : (⟨k0_dev52 c, k0_dev52_lt c⟩ : Dev nD) = peer c 20 := Fin.ext (k0_dev52_eq c)
@[sl_canon] theorem dev53_eq (c : Dev nD) : (⟨k0_dev53 c, k0_dev53_lt c⟩ : Dev nD) = peer c 21 := Fin.ext (k0_dev53_eq c)
@[sl_canon] theorem dev54_eq (c : Dev nD) : (⟨k0_dev54 c, k0_dev54_lt c⟩ : Dev nD) = peer c 22 := Fin.ext (k0_dev54_eq c)
@[sl_canon] theorem dev55_eq (c : Dev nD) : (⟨k0_dev55 c, k0_dev55_lt c⟩ : Dev nD) = peer c 23 := Fin.ext (k0_dev55_eq c)
@[sl_canon] theorem dev56_eq (c : Dev nD) : (⟨k0_dev56 c, k0_dev56_lt c⟩ : Dev nD) = peer c 24 := Fin.ext (k0_dev56_eq c)
@[sl_canon] theorem dev57_eq (c : Dev nD) : (⟨k0_dev57 c, k0_dev57_lt c⟩ : Dev nD) = peer c 25 := Fin.ext (k0_dev57_eq c)
@[sl_canon] theorem dev58_eq (c : Dev nD) : (⟨k0_dev58 c, k0_dev58_lt c⟩ : Dev nD) = peer c 26 := Fin.ext (k0_dev58_eq c)
@[sl_canon] theorem dev59_eq (c : Dev nD) : (⟨k0_dev59 c, k0_dev59_lt c⟩ : Dev nD) = peer c 27 := Fin.ext (k0_dev59_eq c)
@[sl_canon] theorem dev60_eq (c : Dev nD) : (⟨k0_dev60 c, k0_dev60_lt c⟩ : Dev nD) = peer c 28 := Fin.ext (k0_dev60_eq c)
@[sl_canon] theorem dev61_eq (c : Dev nD) : (⟨k0_dev61 c, k0_dev61_lt c⟩ : Dev nD) = peer c 29 := Fin.ext (k0_dev61_eq c)
@[sl_canon] theorem dev62_eq (c : Dev nD) : (⟨k0_dev62 c, k0_dev62_lt c⟩ : Dev nD) = peer c 30 := Fin.ext (k0_dev62_eq c)
@[sl_canon] theorem dev63_eq (c : Dev nD) : (⟨k0_dev63 c, k0_dev63_lt c⟩ : Dev nD) = peer c 31 := Fin.ext (k0_dev63_eq c)

end Cert.Kernel.Proto
-- ==== Proof.Bits.Glue.lean ====
import proofs.«900828_g7700000000000829_dist_layernorm_colshard_i_m768_n512_v7x_i32_bf16_1_alg».proof.Proof.Bits.Steps

/-!
# The body's bookkeeping between its cross-device steps

The body starts its 31 copies in order, waits for the 31 landings in the order its four groups of slots need them
(slots 1–7, 24–31, 8–15, 16–23) and for the 31 departures in order. What it holds is therefore always a tail of the
steps still to do and a head of those done; each rule here moves one step from the tail to the head.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

variable (K : GSem nD τ sig → ℕ)

/-- The order in which the body waits for the landings: by groups of slots, as it adds them. -/
def recvOrd : Fin 31 → Fin 32 :=
  ![1, 2, 3, 4, 5, 6, 7, 24, 25, 26, 27, 28, 29, 30, 31, 8, 9, 10, 11, 12, 13, 14, 15, 16, 17, 18, 19, 20, 21, 22, 23]

/-- Before the wait for the landing in slot `j`: its credit and the device's position on the cell. -/
def recvPre (c : Dev nD) (j : Fin 32) : sProp 𝕄 := iprop(cred (tallyAt (recvCell c j) () N) ∗ atPos ER (recvCell c j) 0 ∅ 0)
/-- After it: the cell one round on, and the slot at the buffer's final contents. -/
def recvPost (c : Dev nD) (j : Fin 32) : sProp 𝕄 := iprop(atPos ER (recvCell c j) 1 ∅ 0 ∗ slotPts c j (commC m c))
/-- Before the wait for the departure of copy `k`: the credit the copy returned and the position on the cell. -/
def sendWPre (c : Dev nD) (k : Fin 32) : sProp 𝕄 := iprop(cred (tallyAt (sendCell c k) () N) ∗ atPos ER (sendCell c k) 0 ∅ 0)
/-- After it: the cell one round on, and the lent share of the two rows back. -/
def sendWPost (c : Dev nD) (k : Fin 32) : sProp 𝕄 := iprop(atPos ER (sendCell c k) 1 ∅ 0 ∗ rowsPts m c k)

/-- A run's blocks are the earlier ones' and its last's: what a step adds to the steps done. -/
theorem bigSep_rangeSet_snoc {NB : ℕ} {Φ : Fin NB → sProp 𝕄} {lo hi : ℕ} (h : lo ≤ hi) (hhi : hi < NB) :
    bigSep (rangeSet NB lo (hi + 1)) Φ = iprop(Φ ⟨hi, hhi⟩ ∗ bigSep (rangeSet NB lo hi) Φ) := by
  have e : rangeSet NB lo (hi + 1) = insert ⟨hi, hhi⟩ (rangeSet NB lo hi) := by
    ext b; rw [Finset.mem_insert, Ring.mem_rangeSet, Ring.mem_rangeSet, Fin.ext_iff]; dsimp only; omega
  rw [e, bigSep_insert (by rw [Ring.mem_rangeSet]; dsimp only; omega)]; rfl

/-- No landing the body waits for is slot 0's. -/
theorem recvOrd_ne : ∀ t : Fin 31, recvOrd t ≠ 0 := by decide

theorem recvPre_eq (c : Dev nD) (j : Fin 32) :
    recvPre (F := F) c j = iprop(cred (tallyAt (recvCell c j) () N) ∗ atPos ER (recvCell c j) 0 ∅ 0) := rfl
theorem recvPost_eq (c : Dev nD) (j : Fin 32) :
    recvPost m c j = iprop(atPos ER (recvCell c j) 1 ∅ 0 ∗ slotPts c j (commC m c)) := rfl
theorem sendWPre_eq (c : Dev nD) (k : Fin 32) :
    sendWPre (F := F) c k = iprop(cred (tallyAt (sendCell c k) () N) ∗ atPos ER (sendCell c k) 0 ∅ 0) := rfl
theorem sendWPost_eq (c : Dev nD) (k : Fin 32) :
    sendWPost m c k = iprop(atPos ER (sendCell c k) 1 ∅ 0 ∗ rowsPts m c k) := rfl

/-- The body waits for each of the landings `1 … 31` once. -/
theorem recvOrd_inj : Function.Injective recvOrd := by decide
theorem recvOrd_image : Finset.univ.image recvOrd = Finset.univ.erase (0 : Fin 32) := by decide

/-- Copies `1 … 31` are all but copy 0. -/
theorem rangeSet_one : rangeSet 32 1 32 = Finset.univ.erase (0 : Fin 32) := by
  ext b
  rw [Ring.mem_rangeSet, Finset.mem_erase]
  have hb := b.isLt
  constructor
  · intro h; exact ⟨fun e => by rw [e] at h; exact absurd h.1 (by decide), Finset.mem_univ _⟩
  · intro h; refine ⟨?_, hb⟩; by_contra h0; exact h.1 (Fin.ext (by show b.val = 0; omega))

/-- The copies' resources from what the device holds: its departure and arrival tokens, the 32 read shares of the two
    rows, and the target slots the barrier wait brought in. What is left over belongs to index 0, which no copy uses. -/
theorem send_gather (c : Dev nD) :
    iprop((bigSep Finset.univ fun k : Fin 32 => dutyTok ER (sendCell c k) 0 (0 : Fin 32))
        ∗ (bigSep Finset.univ fun k : Fin 32 => dutyTok ER (recvCell (peer c k) (slotOf k)) 0 (0 : Fin 32))
        ∗ (bigSep Finset.univ fun k : Fin 32 => rowsPts m c k)
        ∗ bigSep (Finset.univ.erase (0 : Fin 32)) (fun k => iprop(∃ f, slotPts (F := F) (peer c k) (slotOf k) f)))
      ⊢ iprop(rowsPts m c 0 ∗ bigSep (rangeSet 32 1 32) (sendRes m c)) := by
  rw [bigSep_univ_at (fun k : Fin 32 => (dutyTok ER (sendCell c k) 0 (0 : Fin 32) : sProp 𝕄)) 0,
    bigSep_univ_at (fun k : Fin 32 => (dutyTok ER (recvCell (peer c k) (slotOf k)) 0 (0 : Fin 32) : sProp 𝕄)) 0,
    bigSep_univ_at (fun k : Fin 32 => rowsPts m c k) 0, rangeSet_one]
  have e : bigSep (Finset.univ.erase (0 : Fin 32)) (sendRes m c)
      = iprop((bigSep (Finset.univ.erase (0 : Fin 32)) fun k : Fin 32 => dutyTok ER (sendCell c k) 0 (0 : Fin 32))
          ∗ (bigSep (Finset.univ.erase (0 : Fin 32)) fun k : Fin 32 => dutyTok ER (recvCell (peer c k) (slotOf k)) 0 (0 : Fin 32))
          ∗ (bigSep (Finset.univ.erase (0 : Fin 32)) fun k : Fin 32 => rowsPts m c k)
          ∗ bigSep (Finset.univ.erase (0 : Fin 32)) (fun k => iprop(∃ f, slotPts (F := F) (peer c k) (slotOf k) f))) := by
    show bigSep (Finset.univ.erase (0 : Fin 32)) (fun k : Fin 32 =>
        iprop(dutyTok ER (sendCell c k) 0 (0 : Fin 32) ∗ dutyTok ER (recvCell (peer c k) (slotOf k)) 0 (0 : Fin 32)
          ∗ rowsPts m c k ∗ ∃ f, slotPts (F := F) (peer c k) (slotOf k) f)) = _
    rw [bigSep_sep', bigSep_sep', bigSep_sep']
  rw [e]
  iintro ⟨⟨-, HA⟩, ⟨-, HB⟩, ⟨H0, HC⟩, HD⟩
  isplitl [H0]; · iexact H0
  isplitl [HA]; · iexact HA
  isplitl [HB]; · iexact HB
  isplitl [HC]; · iexact HC
  iexact HD

/-- Copy `lo` started (`send_step`), its departure's credit put with those of the copies before it. -/
theorem send_go (c : Dev nD) (lo : ℕ) (hlo : lo < 32) (h1 : 1 ≤ lo) (dst : Dev nD) (hdst : dst = peer c ⟨lo, hlo⟩)
    (j : Fin 32) (hj : j = slotOf ⟨lo, hlo⟩) (W : Waits sig Unit)
    {hsc : (slotM j : Memref sig (Dev.tc dst : Thread nD τ).2.kind .vmem S2x768 .bf16).view.ref.isScScratch = false}
    {hsrc : (rowsM : Memref sig .tc .vmem S2x768 .bf16).view.WordExact} {hdw : (slotM j : Memref sig .tc .vmem S2x768 .bf16).view.WordExact}
    {hsem : DmaTarget.Typed .vmem (.dma (recvSem j)) (.remote (Dev.tc dst : Thread nD τ) (slotM j : Memref sig .tc .vmem S2x768 .bf16) (.dma (sendSem ⟨lo, hlo⟩)) hsc)}
    {α : Type} {Q : α → sProp 𝕄} {k : PUnit → Prog (TpuEff nD τ sig (Elt F) Λ₀ .tc) α} :
    iprop(records m K ∗ owes (c : Thread nD τ) (Osend c (32 - lo)) W ∗ bigSep (rangeSet 32 lo 32) (sendRes m c)
        ∗ bigSep (rangeSet 32 1 lo) (fun k' : Fin 32 => cred (tallyAt (sendCell c k') () N)))
      ⊢ iprop(((owes (c : Thread nD τ) (Osend c (31 - lo)) W ∗ bigSep (rangeSet 32 (lo + 1) 32) (sendRes m c)
            ∗ bigSep (rangeSet 32 1 (lo + 1)) (fun k' : Fin 32 => cred (tallyAt (sendCell c k') () N)))
          -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma rowsM (.remote (Dev.tc dst : Thread nD τ) (slotM j) (.dma (sendSem ⟨lo, hlo⟩)) hsc) (.dma (recvSem j)) hsrc hdw hsem) k) Q) := by
  iintro ⟨#HR, HO, Hres, Hcr⟩ Hk
  iapply (send_step m K c lo hlo h1 dst hdst j hj W) $$ [HO Hres]
  · isplitr; · iexact HR
    isplitl [HO]; · iexact HO
    iexact Hres
  iintro ⟨Hc, HO, Hres⟩
  iapply Hk
  isplitl [HO]; · iexact HO
  isplitl [Hres]; · iexact Hres
  rw [bigSep_rangeSet_snoc (Φ := fun k' : Fin 32 => (cred (tallyAt (sendCell c k') () N) : sProp 𝕄)) h1 hlo]
  isplitl [Hc]; · iexact Hc
  iexact Hcr

/-- The landings' credits and the positions on the receive cells, in the order the body waits. -/
theorem recv_init (c : Dev nD) :
    iprop((bigSep (Finset.univ.erase (0 : Fin 32)) fun j => cred (tallyAt (recvCell c j) () N))
        ∗ (bigSep Finset.univ fun j : Fin 32 => atPos ER (recvCell c j) 0 ∅ 0))
      ⊢ iprop(atPos ER (recvCell c 0) 0 ∅ 0 ∗ bigSep (rangeSet 31 0 31) (fun t : Fin 31 => recvPre (F := F) c (recvOrd t))) := by
  rw [bigSep_univ_at (fun j : Fin 32 => (atPos ER (recvCell c j) 0 ∅ 0 : sProp 𝕄)) 0, Ring.rangeSet_univ,
    ← bigSep_image_of_injOn (f := recvOrd) (s := Finset.univ) (fun a _ b _ h => recvOrd_inj h) (fun j : Fin 32 => recvPre (F := F) c j),
    recvOrd_image]
  have e : (bigSep (Finset.univ.erase (0 : Fin 32)) fun j : Fin 32 => recvPre (F := F) c j)
      = iprop((bigSep (Finset.univ.erase (0 : Fin 32)) fun j => cred (tallyAt (recvCell c j) () N))
          ∗ (bigSep (Finset.univ.erase (0 : Fin 32)) fun j => atPos ER (recvCell c j) 0 ∅ 0)) :=
    bigSep_sep' (Finset.univ.erase (0 : Fin 32)) (fun j : Fin 32 => (cred (tallyAt (recvCell c j) () N) : sProp 𝕄))
      (fun j : Fin 32 => (atPos ER (recvCell c j) 0 ∅ 0 : sProp 𝕄))
  rw [e]
  iintro ⟨Hc, Hat0, Hat⟩
  isplitl [Hat0]; · iexact Hat0
  isplitl [Hc]; · iexact Hc
  iexact Hat

/-- The `t`-th wait for a landing, owing nothing (`recv_wait`): from the tail of those still to come to the head of those done. -/
theorem recv_go (c : Dev nD) (t : ℕ) (ht : t < 31) (j : Fin 32) (hj : j = recvOrd ⟨t, ht⟩) (W : Waits sig Unit)
    {hsrc : (rowsM : Memref sig .tc .vmem S2x768 .bf16).view.WordExact} {hdw : (slotM j : Memref sig .tc .vmem S2x768 .bf16).view.WordExact}
    {α : Type} {Q : α → sProp 𝕄} {k : PUnit → Prog (TpuEff nD τ sig (Elt F) Λ₀ .tc) α} :
    iprop(records m K ∗ owes (c : Thread nD τ) 0 W
        ∗ bigSep (rangeSet 31 t 31) (fun i : Fin 31 => recvPre (F := F) c (recvOrd i))
        ∗ bigSep (rangeSet 31 0 t) (fun i : Fin 31 => recvPost m c (recvOrd i)))
      ⊢ iprop(((∃ W' : Waits sig Unit, owes (c : Thread nD τ) 0 W'
            ∗ bigSep (rangeSet 31 (t + 1) 31) (fun i : Fin 31 => recvPre (F := F) c (recvOrd i))
            ∗ bigSep (rangeSet 31 0 (t + 1)) (fun i : Fin 31 => recvPost m c (recvOrd i)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (recvSem j) rowsM (slotM j) hsrc hdw) k) Q) := by
  subst hj
  rw [Ring.bigSep_rangeSet_head (Φ := fun i : Fin 31 => recvPre (F := F) c (recvOrd i)) (by omega : t < 31) ht]
  iintro ⟨#HR, HO, ⟨Hpre, Htail⟩, Hhead⟩ Hk
  ihave Hp := (Entails.of_eq (recvPre_eq (F := F) c (recvOrd ⟨t, ht⟩))) $$ Hpre
  icases Hp with ⟨Hc, Hat⟩
  iapply (recv_wait m K c (recvOrd ⟨t, ht⟩) (recvOrd_ne ⟨t, ht⟩) W) $$ [Hc HO Hat]
  · isplitr; · iexact HR
    isplitl [Hc]; · iexact Hc
    isplitl [HO]; · iexact HO
    iexact Hat
  iintro ⟨HO, Hat, Hslot⟩
  iapply Hk
  iexists (insert (SemLoc.dma (recvSem (recvOrd ⟨t, ht⟩)), ()) W)
  isplitl [HO]; · iexact HO
  isplitl [Htail]; · iexact Htail
  rw [bigSep_rangeSet_snoc (Φ := fun i : Fin 31 => recvPost m c (recvOrd i)) (Nat.zero_le t) ht]
  isplitl [Hat Hslot]
  · iapply (Entails.of_eq (recvPost_eq m c (recvOrd ⟨t, ht⟩)).symm)
    isplitl [Hat]; · iexact Hat
    iexact Hslot
  iexact Hhead

/-- The departures' credits and the positions on the send cells, in order. -/
theorem sendw_init (c : Dev nD) :
    iprop((bigSep (rangeSet 32 1 32) fun k' : Fin 32 => cred (tallyAt (sendCell c k') () N))
        ∗ (bigSep Finset.univ fun k' : Fin 32 => atPos ER (sendCell c k') 0 ∅ 0))
      ⊢ iprop(atPos ER (sendCell c 0) 0 ∅ 0 ∗ bigSep (rangeSet 32 1 32) (sendWPre (F := F) c)) := by
  rw [← Ring.rangeSet_univ (NB := 32),
    Ring.bigSep_rangeSet_head (Φ := fun k' : Fin 32 => (atPos ER (sendCell c k') 0 ∅ 0 : sProp 𝕄)) (by decide : 0 < 32) (by decide : 0 < 32)]
  have e : bigSep (rangeSet 32 1 32) (sendWPre (F := F) c)
      = iprop((bigSep (rangeSet 32 1 32) fun k' : Fin 32 => cred (tallyAt (sendCell c k') () N))
          ∗ (bigSep (rangeSet 32 1 32) fun k' : Fin 32 => atPos ER (sendCell c k') 0 ∅ 0)) :=
    bigSep_sep' (rangeSet 32 1 32) (fun k' : Fin 32 => (cred (tallyAt (sendCell c k') () N) : sProp 𝕄))
      (fun k' : Fin 32 => (atPos ER (sendCell c k') 0 ∅ 0 : sProp 𝕄))
  rw [e]
  iintro ⟨Hc, Hat0, Hat⟩
  isplitl [Hat0]; · iexact Hat0
  isplitl [Hc]; · iexact Hc
  iexact Hat

/-- The wait for the departure of copy `lo`, owing nothing (`send_wait`). -/
theorem sendw_go (c : Dev nD) (lo : ℕ) (hlo : lo < 32) (h1 : 1 ≤ lo) (j : Fin 32) (W : Waits sig Unit)
    {hsrc : (slotM j : Memref sig .tc .vmem S2x768 .bf16).view.WordExact} {hdw : (rowsM : Memref sig .tc .vmem S2x768 .bf16).view.WordExact}
    {α : Type} {Q : α → sProp 𝕄} {k : PUnit → Prog (TpuEff nD τ sig (Elt F) Λ₀ .tc) α} :
    iprop(records m K ∗ owes (c : Thread nD τ) 0 W
        ∗ bigSep (rangeSet 32 lo 32) (sendWPre (F := F) c)
        ∗ bigSep (rangeSet 32 1 lo) (sendWPost m c))
      ⊢ iprop(((∃ W' : Waits sig Unit, owes (c : Thread nD τ) 0 W'
            ∗ bigSep (rangeSet 32 (lo + 1) 32) (sendWPre (F := F) c)
            ∗ bigSep (rangeSet 32 1 (lo + 1)) (sendWPost m c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sendSem ⟨lo, hlo⟩) (slotM j) rowsM hsrc hdw) k) Q) := by
  rw [Ring.bigSep_rangeSet_head (Φ := sendWPre (F := F) c) (by omega : lo < 32) hlo]
  iintro ⟨#HR, HO, ⟨Hpre, Htail⟩, Hhead⟩ Hk
  ihave Hp := (Entails.of_eq (sendWPre_eq (F := F) c ⟨lo, hlo⟩)) $$ Hpre
  icases Hp with ⟨Hc, Hat⟩
  iapply (send_wait m K c ⟨lo, hlo⟩ (copy_ne lo hlo h1) j W) $$ [Hc HO Hat]
  · isplitr; · iexact HR
    isplitl [Hc]; · iexact Hc
    isplitl [HO]; · iexact HO
    iexact Hat
  iintro ⟨HO, Hat, Hrows⟩
  iapply Hk
  iexists (insert (SemLoc.dma (sendSem ⟨lo, hlo⟩), ()) W)
  isplitl [HO]; · iexact HO
  isplitl [Htail]; · iexact Htail
  rw [bigSep_rangeSet_snoc (Φ := sendWPost m c) h1 hlo]
  isplitl [Hat Hrows]
  · iapply (Entails.of_eq (sendWPost_eq m c ⟨lo, hlo⟩).symm)
    isplitl [Hat]; · iexact Hat
    iexact Hrows
  iexact Hhead

end Cert.Kernel.Proto

end
-- ==== Proof.Bits.Contents.lean ====
import proofs.«900828_g7700000000000829_dist_layernorm_colshard_i_m768_n512_v7x_i32_bf16_1_alg».proof.Proof.Bits.Glue

/-!
# The device's own slot, and the groups of slots it adds

Slot 0 of the exchange buffer is rows 0 and 1 of its 64 rows: the loads and stores the body makes of its own two rows
touch only that slot. A group of eight consecutive slots is read once all its slots are in: the rows read are the
senders' rows, in slot order.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

abbrev rA : Rect S32x2x768 := Rect.unit (s := S32x2x768) ![0, 0, 0] S1x1x768.size inb_S32x2x768_S1x1x768_0_0_0
abbrev rB : Rect S32x2x768 := Rect.unit (s := S32x2x768) ![0, 1, 0] S1x1x768.size inb_S32x2x768_S1x1x768_0_1_0
abbrev rR : Rect S32x2x768 := Rect.unit (s := S32x2x768) ![0, 0, 0] S1x2x768.size inb_S32x2x768_S1x2x768_0_0_0

/-- An element of the exchange buffer whose leading coordinate is `j` (and whose other two are in range) lies in slot `j`. -/
theorem mem_slot (j : Fin 32) (i : S32x2x768.Idx)
    (h : ∀ a, (![j.val, 0, 0] : Fin 3 → ℕ) a ≤ i a ∧ (i a : ℕ) < (![j.val, 0, 0] : Fin 3 → ℕ) a + S1x2x768.size a) :
    i ∈ (slotM j : Memref sig .tc .vmem S2x768 .bf16).view.set := by
  have e := slot_set j
  rw [e]
  exact Rect.mem_set_unit.mpr h

/-- The order of the landings names each slot once: as an embedding. -/
def recvEmb : Fin 31 ↪ Fin 32 := ⟨recvOrd, by decide⟩
/-- No landing is into slot 0. -/
theorem recvOrd_ne_zero (i : Fin 31) : recvOrd i ≠ 0 := by revert i; decide

/-- Reading the group of slots `lo … lo + 7` off the buffer's final contents gives the senders' rows in slot order. -/
theorem group_read (c : Dev nD) (lo : ℕ) (h : lo + 8 ≤ 32)
    (hinb : ∀ a, (![lo, 0, 0] : Fin 3 → Nat) a + S8x2x768.size a ≤ S32x2x768.size a) :
    (commM : Memref sig .tc .vmem S32x2x768 .bf16).view.readAt (Elt F) (Rect.unit (s := S32x2x768) ![lo, 0, 0] S8x2x768.size hinb).toLoadRect (commC m c)
      = Cert.Kernel.KVal.group (Cert.Kernel.KVal.rowsAt (xIn m) c) lo h := by
  funext x
  show commC m c ((Rect.unit (s := S32x2x768) ![lo, 0, 0] S8x2x768.size hinb).toLoadRect.idx x) = _
  unfold commC Cert.Kernel.KVal.group
  congr 1
  · exact Fin.ext (by simp)
  · funext d
    match d with
    | ⟨0, _⟩ => exact Fin.ext (by simp)
    | ⟨1, _⟩ => exact Fin.ext (by simp)

/-- The elements a read of row 0 (row 1, both rows) of slot 0 touches, and those a store of both rows writes, lie in slot 0. -/
theorem slot0_sub_a : (commM : Memref sig .tc .vmem S32x2x768 .bf16).view.setOn rA.toLoadRect.set ⊆ (slotM 0 : Memref sig .tc .vmem S2x768 .bf16).view.set := by
  intro i hi
  obtain ⟨x, hx, rfl⟩ := Finset.mem_map.mp hi
  have h := Rect.mem_set_unit.mp hx
  refine mem_slot 0 x fun a => ?_
  have h0 := h 0; have h1 := h 1; have h2 := h 2
  fin_cases a <;> simp at h0 h1 h2 ⊢ <;> omega
theorem slot0_sub_b : (commM : Memref sig .tc .vmem S32x2x768 .bf16).view.setOn rB.toLoadRect.set ⊆ (slotM 0 : Memref sig .tc .vmem S2x768 .bf16).view.set := by
  intro i hi
  obtain ⟨x, hx, rfl⟩ := Finset.mem_map.mp hi
  have h := Rect.mem_set_unit.mp hx
  refine mem_slot 0 x fun a => ?_
  have h0 := h 0; have h1 := h 1; have h2 := h 2
  fin_cases a <;> simp at h0 h1 h2 ⊢ <;> omega
theorem slot0_sub_R : (commM : Memref sig .tc .vmem S32x2x768 .bf16).view.setOn rR.toLoadRect.set ⊆ (slotM 0 : Memref sig .tc .vmem S2x768 .bf16).view.set := by
  intro i hi
  obtain ⟨x, hx, rfl⟩ := Finset.mem_map.mp hi
  exact mem_slot 0 x (Rect.mem_set_unit.mp hx)
theorem slot0_sub_W : ((commM : Memref sig .tc .vmem S32x2x768 .bf16).access rR).setOn Finset.univ ⊆ (slotM 0 : Memref sig .tc .vmem S2x768 .bf16).view.set := by
  have e : ((commM : Memref sig .tc .vmem S32x2x768 .bf16).access rR).setOn Finset.univ = (slotM 0 : Memref sig .tc .vmem S2x768 .bf16).view.set :=
    (View.set_slice_whole cc0_scratch4 rR).trans (slot_set 0).symm
  exact e.le

theorem group_inb (lo : ℕ) (h : lo + 8 ≤ 32) : ∀ a, (![lo, 0, 0] : Fin 3 → Nat) a + S8x2x768.size a ≤ S32x2x768.size a := by
  intro a
  fin_cases a <;> simp <;> omega

/-- The load of the group of slots `lo … lo + 7`, once slot 0 and the first `t` landings (in the order the body waits) cover the
    group: nothing is used up, and what is read is the group of the senders' rows. -/
theorem group_load (c : Dev nD) (lo : ℕ) (h : lo + 8 ≤ 32) (t : ℕ) (ht : t ≤ 31)
    (hcov : ∀ j : Fin 32, lo ≤ j.val → j.val < lo + 8 → j = 0 ∨ ∃ i : Fin 31, i.val < t ∧ recvOrd i = j)
    {hinb : ∀ a, (![lo, 0, 0] : Fin 3 → Nat) a + S8x2x768.size a ≤ S32x2x768.size a}
    {hl : (commM : Memref sig .tc .vmem S32x2x768 .bf16).view.LoadsAt (Rect.unit (s := S32x2x768) ![lo, 0, 0] S8x2x768.size hinb).toLoadRect}
    {α : Type} {Q : α → sProp 𝕄} {k : ((Rect.unit (s := S32x2x768) ![lo, 0, 0] S8x2x768.size hinb).toLoadRect.shape.Idx → Elt F .bf16) → Prog (TpuEff nD τ sig (Elt F) Λ₀ .tc) α} :
    iprop(slotPts c 0 (commC m c) ∗ bigSep (rangeSet 31 0 t) (fun i : Fin 31 => recvPost m c (recvOrd i)))
      ⊢ iprop(((slotPts c 0 (commC m c) ∗ bigSep (rangeSet 31 0 t) (fun i : Fin 31 => recvPost m c (recvOrd i)))
          -∗ wp frame (wpE (defs₀ (F := F)) 𝒱₀ (c : Thread nD τ) none) Set.univ (k (Cert.Kernel.KVal.group (Cert.Kernel.KVal.rowsAt (xIn m) c) lo h)) Q)
        -∗ wp frame (wpE (defs₀ (F := F)) 𝒱₀ (c : Thread nD τ) none) Set.univ (.op (.load commM (Rect.unit (s := S32x2x768) ![lo, 0, 0] S8x2x768.size hinb).toLoadRect hl) k) Q) := by
  -- the slots held: slot 0 and the slots of the first t landings; the group's slots are among them
  have h0 : (0 : Fin 32) ∉ (rangeSet 31 0 t).map recvEmb := by
    intro hm
    obtain ⟨i, -, hi⟩ := Finset.mem_map.mp hm
    exact recvOrd_ne_zero i hi
  have hGH : (Finset.univ.filter fun j : Fin 32 => lo ≤ j.val ∧ j.val < lo + 8) ⊆ insert (0 : Fin 32) ((rangeSet 31 0 t).map recvEmb) := by
    intro j hj
    obtain ⟨h1, h2⟩ := (Finset.mem_filter.mp hj).2
    rcases hcov j h1 h2 with rfl | ⟨i, hi, rfl⟩
    · exact Finset.mem_insert_self _ _
    · exact Finset.mem_insert_of_mem (Finset.mem_map_of_mem recvEmb ((Ring.mem_rangeSet 0 t i).mpr ⟨Nat.zero_le _, hi⟩))
  -- the landed cells' positions apart from their slots
  have eq1 : bigSep (rangeSet 31 0 t) (fun i : Fin 31 => recvPost m c (recvOrd i))
      = iprop(bigSep (rangeSet 31 0 t) (fun i : Fin 31 => (atPos ER (recvCell c (recvOrd i)) 1 ∅ 0 : sProp 𝕄))
          ∗ bigSep (rangeSet 31 0 t) (fun i : Fin 31 => slotPts c (recvOrd i) (commC m c))) := by
    unfold recvPost
    exact bigSep_sep' _ _ _
  -- slot 0 and the landed slots are the group's slots, joined into one region, and the rest
  have eqX : iprop(slotPts c 0 (commC m c) ∗ bigSep (rangeSet 31 0 t) (fun i : Fin 31 => slotPts c (recvOrd i) (commC m c)))
      = iprop((((c : Thread nD τ).loc cc0_scratch4) ↦[(Finset.univ.filter fun j : Fin 32 => lo ≤ j.val ∧ j.val < lo + 8).biUnion (fun j => (slotM j).view.set)]{fullShare} commC m c)
          ∗ bigSep (insert (0 : Fin 32) ((rangeSet 31 0 t).map recvEmb) \ (Finset.univ.filter fun j : Fin 32 => lo ≤ j.val ∧ j.val < lo + 8)) (fun j : Fin 32 => slotPts c j (commC m c))) := by
    have eA : bigSep (insert (0 : Fin 32) ((rangeSet 31 0 t).map recvEmb)) (fun j : Fin 32 => slotPts c j (commC m c))
        = iprop(slotPts c 0 (commC m c) ∗ bigSep (rangeSet 31 0 t) (fun i : Fin 31 => slotPts c (recvOrd i) (commC m c))) := by
      rw [bigSep_insert h0, bigSep_map]; rfl
    have eB : bigSep (insert (0 : Fin 32) ((rangeSet 31 0 t).map recvEmb)) (fun j : Fin 32 => slotPts c j (commC m c))
        = iprop(bigSep (Finset.univ.filter fun j : Fin 32 => lo ≤ j.val ∧ j.val < lo + 8) (fun j : Fin 32 => slotPts c j (commC m c))
            ∗ bigSep (insert (0 : Fin 32) ((rangeSet 31 0 t).map recvEmb) \ (Finset.univ.filter fun j : Fin 32 => lo ≤ j.val ∧ j.val < lo + 8)) (fun j : Fin 32 => slotPts c j (commC m c))) :=
      bigSep_sdiff_split hGH
    exact eA.symm.trans (eB.trans (by rw [comm_group c lo h (commC m c)]))
  have hS : (commM : Memref sig .tc .vmem S32x2x768 .bf16).view.setOn (Rect.unit (s := S32x2x768) ![lo, 0, 0] S8x2x768.size hinb).toLoadRect.set
      ⊆ (Finset.univ.filter fun j : Fin 32 => lo ≤ j.val ∧ j.val < lo + 8).biUnion (fun j => (slotM j : Memref sig .tc .vmem S2x768 .bf16).view.set) := by
    intro i hi
    obtain ⟨x, hx, rfl⟩ := Finset.mem_map.mp hi
    have hx' := Rect.mem_set_unit.mp hx
    have hx0 := hx' 0
    have hlt : (x 0).val < 32 := by have := hx0.2; simp at this; omega
    refine Finset.mem_biUnion.mpr ⟨⟨(x 0).val, hlt⟩, Finset.mem_filter.mpr ⟨Finset.mem_univ _, by simp at hx0; omega⟩, ?_⟩
    refine mem_slot _ x fun a => ?_
    have h1 := hx' 1; have h2 := hx' 2
    fin_cases a <;> simp at hx0 h1 h2 ⊢ <;> omega
  rw [eq1]
  iintro ⟨H0, HA, HB⟩ Hk
  ihave HX := (Entails.of_eq eqX) $$ [H0 HB]
  · isplitl [H0]; · iexact H0
    iexact HB
  icases HX with ⟨Hp, HR⟩
  iapply (wp_load 𝒱₀ (c : Thread nD τ) none Set.univ hS) $$ [Hp]
  · iexact Hp
  iintro Hp
  rw [group_read m c lo h hinb]
  iapply Hk
  ihave HX' := (Entails.of_eq eqX.symm) $$ [Hp HR]
  · isplitl [Hp]; · iexact Hp
    iexact HR
  icases HX' with ⟨H0, HB⟩
  isplitl [H0]; · iexact H0
  isplitl [HA]; · iexact HA
  iexact HB

end Cert.Kernel.Proto

end
-- ==== Proof.Bits.Finish.lean ====
import proofs.«900828_g7700000000000829_dist_layernorm_colshard_i_m768_n512_v7x_i32_bf16_1_alg».proof.Proof.Bits.Glue

/-!
# Handing everything back at the end of the body
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

variable (K : GSem nD τ sig → ℕ)

/-! ## The index sets -/

/-- The copies `1 … 31` are every copy but copy 0. -/
theorem rangeSet_one_32 : rangeSet 32 1 32 = Finset.univ.erase (0 : Fin 32) := by
  ext b
  rw [Ring.mem_rangeSet, Finset.mem_erase]
  constructor
  · intro h
    exact ⟨fun e => by rw [e] at h; exact absurd h.1 (by decide), Finset.mem_univ _⟩
  · intro h
    have h0 : b.val ≠ 0 := fun e => h.1 (Fin.ext e)
    exact ⟨by omega, b.isLt⟩

/-- The order of the waits visits every slot `1 … 31` once. -/
theorem ord_inj' : Function.Injective recvOrd := by decide
theorem ord_image' : Finset.univ.image recvOrd = Finset.univ.erase (0 : Fin 32) := by decide

/-- The departures done: the positions on the send cells, and the lent shares of the two rows. -/
theorem sendWPost_split (c : Dev nD) :
    (bigSep (rangeSet 32 1 32) (sendWPost m c) : sProp 𝕄)
      = iprop(bigSep (Finset.univ.erase (0 : Fin 32)) (fun k => atPos ER (sendCell c k) 1 ∅ 0)
          ∗ bigSep (Finset.univ.erase (0 : Fin 32)) (fun k => rowsPts m c k)) := by
  rw [rangeSet_one_32, ← bigSep_sep']; rfl

/-- The landings done, read by slot: the positions on the receive cells, and the slots. -/
theorem recvPost_split (c : Dev nD) :
    (bigSep (rangeSet 31 0 31) (fun i : Fin 31 => recvPost m c (recvOrd i)) : sProp 𝕄)
      = iprop(bigSep (Finset.univ.erase (0 : Fin 32)) (fun j => atPos ER (recvCell c j) 1 ∅ 0)
          ∗ bigSep (Finset.univ.erase (0 : Fin 32)) (fun j => slotPts c j (commC m c))) := by
  rw [Ring.rangeSet_univ, ← bigSep_sep', ← ord_image', bigSep_image_of_injOn (ord_inj'.injOn)]; rfl

/-! ## The buffers joined back -/

/-- The remainder and the 32 read shares make the two rows whole. -/
theorem rows_join (c : Dev nD) :
    iprop((((c : Thread nD τ).loc cc0_scratch3) ↦{Transfers.shareDrop fullShare 32} rowsC m c) ∗ rowsPts m c 0
        ∗ bigSep (Finset.univ.erase (0 : Fin 32)) (fun k => rowsPts m c k))
      ⊢ ((((c : Thread nD τ).loc cc0_scratch3) ↦{fullShare} rowsC m c) : sProp 𝕄) := by
  refine .trans ?_ (rows_shares m c).2
  rw [bigSep_univ_at (fun k : Fin 32 => rowsPts m c k) 0]

/-- The 32 slots at the final contents make the exchange buffer whole. -/
theorem comm_join (c : Dev nD) :
    iprop(slotPts c 0 (commC m c) ∗ bigSep (Finset.univ.erase (0 : Fin 32)) (fun j => slotPts c j (commC m c)))
      ⊢ ((((c : Thread nD τ).loc cc0_scratch4) ↦{fullShare} commC m c) : sProp 𝕄) := by
  rw [comm_slots c (commC m c), bigSep_univ_at (fun j : Fin 32 => slotPts c j (commC m c)) 0]

/-! ## The 67 own semaphores: three input copies, 32 send, 32 receive -/

theorem sems_in (c : Dev nD) :
    (bigSep (rangeSet 67 0 3) (fun i : Fin 67 => semVal ((c : Thread nD τ), osem i) 0) : sProp 𝕄)
      = iprop(semVal ((c : Thread nD τ), SemLoc.dma (inSem 0)) 0 ∗ semVal ((c : Thread nD τ), SemLoc.dma (inSem 1)) 0
          ∗ semVal ((c : Thread nD τ), SemLoc.dma (inSem 2)) 0 ∗ emp) := by
  rw [Ring.bigSep_rangeSet_head (lo := 0) (hi := 3) (by decide) (by decide),
    Ring.bigSep_rangeSet_head (lo := 0 + 1) (hi := 3) (by decide) (by decide),
    Ring.bigSep_rangeSet_head (lo := 0 + 1 + 1) (hi := 3) (by decide) (by decide),
    Ring.bigSep_rangeSet_empty (lo := 0 + 1 + 1 + 1) (hi := 3) (by decide)]
  rfl

theorem sems_send (c : Dev nD) :
    (bigSep (rangeSet 67 3 35) (fun i : Fin 67 => semVal ((c : Thread nD τ), osem i) 0) : sProp 𝕄)
      = bigSep Finset.univ fun k : Fin 32 => semVal (sendCell c k) 0 := by
  have e1 := Ring.bigSep_rangeSet_eq_range (NB := 67) (Φ := fun i : Fin 67 => (semVal ((c : Thread nD τ), osem i) 0 : sProp 𝕄))
    (lo := 3) (hi := 35) (by decide)
    (fun k => if h : 3 + k < 67 then (semVal ((c : Thread nD τ), osem ⟨3 + k, h⟩) 0 : sProp 𝕄) else BI.emp) (fun k h => dif_pos h)
  have e2 := Ring.bigSep_rangeSet_eq_range (NB := 32) (Φ := fun k : Fin 32 => (semVal (sendCell c k) 0 : sProp 𝕄))
    (lo := 0) (hi := 32) (le_refl _)
    (fun k => if h : 3 + k < 67 then (semVal ((c : Thread nD τ), osem ⟨3 + k, h⟩) 0 : sProp 𝕄) else BI.emp) (fun k h => by
      have h' : 3 + k < 67 := by omega
      rw [dif_pos h']
      exact congrArg (fun s : DmaSem sig => (semVal ((c : Thread nD τ), SemLoc.dma s) 0 : sProp 𝕄))
        (Fin.ext (by show 1 + (3 + k) = 4 + (0 + k); omega)))
  rw [Ring.rangeSet_univ] at e2
  exact e1.trans e2.symm

theorem sems_recv (c : Dev nD) :
    (bigSep (rangeSet 67 35 67) (fun i : Fin 67 => semVal ((c : Thread nD τ), osem i) 0) : sProp 𝕄)
      = bigSep Finset.univ fun j : Fin 32 => semVal (recvCell c j) 0 := by
  have e1 := Ring.bigSep_rangeSet_eq_range (NB := 67) (Φ := fun i : Fin 67 => (semVal ((c : Thread nD τ), osem i) 0 : sProp 𝕄))
    (lo := 35) (hi := 67) (le_refl _)
    (fun k => if h : 35 + k < 67 then (semVal ((c : Thread nD τ), osem ⟨35 + k, h⟩) 0 : sProp 𝕄) else BI.emp) (fun k h => dif_pos h)
  have e2 := Ring.bigSep_rangeSet_eq_range (NB := 32) (Φ := fun j : Fin 32 => (semVal (recvCell c j) 0 : sProp 𝕄))
    (lo := 0) (hi := 32) (le_refl _)
    (fun k => if h : 35 + k < 67 then (semVal ((c : Thread nD τ), osem ⟨35 + k, h⟩) 0 : sProp 𝕄) else BI.emp) (fun k h => by
      have h' : 35 + k < 67 := by omega
      rw [dif_pos h']
      exact congrArg (fun s : DmaSem sig => (semVal ((c : Thread nD τ), SemLoc.dma s) 0 : sProp 𝕄))
        (Fin.ext (by show 1 + (35 + k) = 36 + (0 + k); omega)))
  rw [Ring.rangeSet_univ] at e2
  exact e1.trans e2.symm

/-- The three input-copy counters, the 32 send and the 32 receive counters are the 67 own semaphores. -/
theorem sems_join (c : Dev nD) :
    iprop(semVal ((c : Thread nD τ), SemLoc.dma (inSem 0)) 0 ∗ semVal ((c : Thread nD τ), SemLoc.dma (inSem 1)) 0
        ∗ semVal ((c : Thread nD τ), SemLoc.dma (inSem 2)) 0
        ∗ (bigSep Finset.univ fun k : Fin 32 => semVal (sendCell c k) 0)
        ∗ (bigSep Finset.univ fun j : Fin 32 => semVal (recvCell c j) 0))
      ⊢ (bigSep Finset.univ (fun i : Fin 67 => semVal ((c : Thread nD τ), osem i) 0) : sProp 𝕄) := by
  rw [← Ring.rangeSet_univ (NB := 67),
    Ring.bigSep_rangeSet_split (a := 0) (b := 3) (d := 67) (by decide) (by decide),
    Ring.bigSep_rangeSet_split (a := 3) (b := 35) (d := 67) (by decide) (by decide), sems_in, sems_send, sems_recv]
  iintro ⟨H0, H1, H2, Hs, Hr⟩
  isplitl [H0 H1 H2]
  · isplitl [H0]; · iexact H0
    isplitl [H1]; · iexact H1
    isplitl [H2]; · iexact H2
    iempintro
  · isplitl [Hs]; · iexact Hs
    iexact Hr

/-- At the end of the body: every send and receive cell closed, the two rows' shares and the exchange buffer's slots joined
    back, and with the three input-copy counters every own semaphore at zero in the device's hand. -/
theorem finish (c : Dev nD) :
    iprop(records m K
        ∗ atPos ER (sendCell c 0) 0 ∅ 0 ∗ atPos ER (recvCell c 0) 0 ∅ 0
        ∗ bigSep (rangeSet 32 1 32) (sendWPost m c)
        ∗ bigSep (rangeSet 31 0 31) (fun i : Fin 31 => recvPost m c (recvOrd i))
        ∗ slotPts c 0 (commC m c)
        ∗ (((c : Thread nD τ).loc cc0_scratch3) ↦{Transfers.shareDrop fullShare 32} rowsC m c) ∗ rowsPts m c 0
        ∗ semVal ((c : Thread nD τ), SemLoc.dma (inSem 0)) 0 ∗ semVal ((c : Thread nD τ), SemLoc.dma (inSem 1)) 0 ∗ semVal ((c : Thread nD τ), SemLoc.dma (inSem 2)) 0)
      ⊢ (|={Set.univ}=> iprop((((c : Thread nD τ).loc cc0_scratch3) ↦{fullShare} rowsC m c)
          ∗ (((c : Thread nD τ).loc cc0_scratch4) ↦{fullShare} commC m c)
          ∗ bigSep Finset.univ fun i : Fin 67 => semVal ((c : Thread nD τ), osem i) 0) : sProp 𝕄) := by
  rw [sendWPost_split, recvPost_split]
  iintro ⟨#HR, Hs0, Hr0, ⟨Hs, Hrows⟩, ⟨Hr, Hslots⟩, Hslot0, Hdrop, Hrow0, Hi0, Hi1, Hi2⟩
  imod (close_cells m K c) $$ [Hs0 Hr0 Hs Hr] with ⟨Hss, Hsr⟩
  · isplitr; · iexact HR
    isplitl [Hs0]; · iexact Hs0
    isplitl [Hr0]; · iexact Hr0
    isplitl [Hs]; · iexact Hs
    iexact Hr
  imodintro
  isplitl [Hdrop Hrow0 Hrows]
  · iapply (rows_join m c)
    isplitl [Hdrop]; · iexact Hdrop
    isplitl [Hrow0]; · iexact Hrow0
    iexact Hrows
  isplitl [Hslot0 Hslots]
  · iapply (comm_join m c)
    isplitl [Hslot0]; · iexact Hslot0
    iexact Hslots
  iapply (sems_join c)
  isplitl [Hi0]; · iexact Hi0
  isplitl [Hi1]; · iexact Hi1
  isplitl [Hi2]; · iexact Hi2
  isplitl [Hss]; · iexact Hss
  iexact Hsr

end Cert.Kernel.Proto

end
-- ==== Proof.Bits.Values.lean ====
import proofs.«900828_g7700000000000829_dist_layernorm_colshard_i_m768_n512_v7x_i32_bf16_1_alg».proof.Proof.Bits.Contents

/-!
# What the device's own loads and stores leave

The block of `x` read back from the buffer the input copy filled is the launched block; the two stores into the two-row
buffer, each rewriting both rows with one replaced, leave the two rows the device sends whatever the buffer held; the two
stores into slot 0 of the exchange buffer leave that slot as the buffer's final contents have it.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## A slice update read at an index -/

/-- Inside the updated rectangle the update is read, at the index shifted by the rectangle's offsets. -/
theorem updateSlice_in {α : Type} {s u : Shape} (x : s.Idx → α) (upd : u.Idx → α) (start : Fin s.rank → Nat) (h : s.Slices start u)
    (i : s.Idx) (j : u.Idx)
    (hin : ∀ a : Fin s.rank, start a ≤ (i a).val ∧ (i a).val < start a + u.size (a.cast h.1.symm))
    (hj : ∀ b : Fin u.rank, (j b).val = (i (b.cast h.1)).val - start (b.cast h.1)) :
    updateSlice x upd start h i = upd j := by
  unfold updateSlice
  rw [dif_pos hin]
  congr 1
  funext b
  exact Fin.ext (hj b).symm

/-- Outside it, on some axis, the old contents are read. -/
theorem updateSlice_out {α : Type} {s u : Shape} (x : s.Idx → α) (upd : u.Idx → α) (start : Fin s.rank → Nat) (h : s.Slices start u)
    (i : s.Idx) (a : Fin s.rank) (ha : ¬ (start a ≤ (i a).val ∧ (i a).val < start a + u.size (a.cast h.1.symm))) :
    updateSlice x upd start h i = x i := by
  unfold updateSlice
  rw [dif_neg fun hin => ha (hin a)]

/-- Both rows of a two-row array replaced, row 0 by the quarter row sums and row 1 by the quarter row sums of squares, whatever it held. -/
theorem rows_eq (v : Vec F S768x512 .f32) (X : FVec F S2x768 .bf16) :
    updateSlice (s := S2x768) (u := S1x768) (updateSlice (s := S2x768) (u := S1x768) X (k0_pay3 v) ![0, 0] slices_S2x768_S1x768_0_0)
        (k0_pay4 v) ![1, 0] slices_S2x768_S1x768_1_0
      = Cert.Kernel.KVal.mine v := by
  funext i
  obtain ⟨a, b, rfl⟩ : ∃ (a : Fin 2) (b : Fin 768), i = ValueIdx.ix2 a b := ⟨i 0, i 1, ValueIdx.eq_ix2 i⟩
  have hb := b.isLt
  unfold Cert.Kernel.KVal.mine
  rcases a with ⟨_ | _ | a, ha⟩
  · rw [updateSlice_out (s := S2x768) (u := S1x768) _ (k0_pay4 v) ![1, 0] slices_S2x768_S1x768_1_0 (ValueIdx.ix2 ⟨0, ha⟩ b) (0 : Fin 2) (by simp),
      updateSlice_in (s := S2x768) (u := S1x768) X (k0_pay3 v) ![0, 0] slices_S2x768_S1x768_0_0 (ValueIdx.ix2 ⟨0, ha⟩ b) (ValueIdx.ix2 (0 : Fin 1) b)
        (fun a' => by fin_cases a' <;> simp <;> omega) (fun b' => by fin_cases b' <;> simp)]
    rw [if_pos (by rfl)]
    show shapeCast S1x768 (k0_pay1 v) shapeCasts_S768_S1x768 (ValueIdx.ix2 (0 : Fin 1) b) = k0_pay1 v (ValueIdx.ix1 b)
    exact ValueIdx.shapeCast_a_1a_apply (k0_pay1 v) _ _ _
  · rw [updateSlice_in (s := S2x768) (u := S1x768) _ (k0_pay4 v) ![1, 0] slices_S2x768_S1x768_1_0 (ValueIdx.ix2 ⟨1, ha⟩ b) (ValueIdx.ix2 (0 : Fin 1) b)
        (fun a' => by fin_cases a' <;> simp <;> omega) (fun b' => by fin_cases b' <;> simp)]
    rw [if_neg (by simp)]
    show shapeCast S1x768 (k0_pay2 v) shapeCasts_S768_S1x768 (ValueIdx.ix2 (0 : Fin 1) b) = k0_pay2 v (ValueIdx.ix1 b)
    exact ValueIdx.shapeCast_a_1a_apply (k0_pay2 v) _ _ _
  · omega

/-- Both rows of a slot replaced the same way, read at an index: the row it names of the two rows sent. -/
theorem slot_rows_eq (v : Vec F S768x512 .f32) (X : FVec F S1x2x768 .bf16) (y : S1x2x768.Idx) :
    updateSlice (s := S1x2x768) (u := S1x1x768) (updateSlice (s := S1x2x768) (u := S1x1x768) X (k0_pay5 v) ![0, 0, 0] slices_S1x2x768_S1x1x768_0_0_0)
        (k0_pay6 v) ![0, 1, 0] slices_S1x2x768_S1x1x768_0_1_0 y
      = Cert.Kernel.KVal.mine v (ValueIdx.ix2 (show Fin 2 from y 1) (show Fin 768 from y 2)) := by
  obtain ⟨u, a, b, rfl⟩ : ∃ (u : Fin 1) (a : Fin 2) (b : Fin 768), y = ValueIdx.ix3 u a b := ⟨y 0, y 1, y 2, ValueIdx.eq_ix3 y⟩
  have hb := b.isLt
  have hu : u.val = 0 := by omega
  unfold Cert.Kernel.KVal.mine
  rcases a with ⟨_ | _ | a, ha⟩
  · rw [updateSlice_out (s := S1x2x768) (u := S1x1x768) _ (k0_pay6 v) ![0, 1, 0] slices_S1x2x768_S1x1x768_0_1_0 (ValueIdx.ix3 u ⟨0, ha⟩ b) (1 : Fin 3) (by simp),
      updateSlice_in (s := S1x2x768) (u := S1x1x768) X (k0_pay5 v) ![0, 0, 0] slices_S1x2x768_S1x1x768_0_0_0 (ValueIdx.ix3 u ⟨0, ha⟩ b) (ValueIdx.ix3 (0 : Fin 1) (0 : Fin 1) b)
        (fun a' => by fin_cases a' <;> simp <;> omega) (fun b' => by fin_cases b' <;> simp <;> omega)]
    rw [if_pos (by rfl)]
    show shapeCast S1x1x768 (k0_pay1 v) shapeCasts_S768_S1x1x768 (ValueIdx.ix3 (0 : Fin 1) (0 : Fin 1) b) = k0_pay1 v (ValueIdx.ix1 b)
    exact shapeCast_apply _ _ _ _ (by rw [Shape.rowMajor_val_one, Shape.rowMajor_val_three]; simp)
  · rw [updateSlice_in (s := S1x2x768) (u := S1x1x768) _ (k0_pay6 v) ![0, 1, 0] slices_S1x2x768_S1x1x768_0_1_0 (ValueIdx.ix3 u ⟨1, ha⟩ b) (ValueIdx.ix3 (0 : Fin 1) (0 : Fin 1) b)
        (fun a' => by fin_cases a' <;> simp <;> omega) (fun b' => by fin_cases b' <;> simp <;> omega)]
    rw [if_neg (by simp)]
    show shapeCast S1x1x768 (k0_pay2 v) shapeCasts_S768_S1x1x768 (ValueIdx.ix3 (0 : Fin 1) (0 : Fin 1) b) = k0_pay2 v (ValueIdx.ix1 b)
    exact shapeCast_apply _ _ _ _ (by rw [Shape.rowMajor_val_one, Shape.rowMajor_val_three]; simp)
  · omega

/-- The exchange buffer's final contents at an element of slot 0: the device's own two rows. -/
theorem commC_slot0 (c : Dev nD) (y : rR.shape.Idx) :
    commC m c (((commM : Memref sig .tc .vmem S32x2x768 .bf16).access rR).emb y)
      = Cert.Kernel.KVal.mine (xIn m c) (ValueIdx.ix2 (show Fin 2 from y 1) (show Fin 768 from y 2)) := by
  have hy0 := (y 0).isLt
  have e0 : ((((commM : Memref sig .tc .vmem S32x2x768 .bf16).access rR).emb y) 0).val = 0 := by
    show ((rR.emb y) 0).val = 0
    simp at hy0 ⊢; omega
  have e1 : ((((commM : Memref sig .tc .vmem S32x2x768 .bf16).access rR).emb y) 1).val = (y 1).val := by
    show ((rR.emb y) 1).val = (y 1).val
    simp
  have e2 : ((((commM : Memref sig .tc .vmem S32x2x768 .bf16).access rR).emb y) 2).val = (y 2).val := by
    show ((rR.emb y) 2).val = (y 2).val
    simp
  unfold commC Cert.Kernel.KVal.rowsAt
  have hp : Cert.Kernel.KVal.peer c ⟨((((commM : Memref sig .tc .vmem S32x2x768 .bf16).access rR).emb y) 0).val, ((((commM : Memref sig .tc .vmem S32x2x768 .bf16).access rR).emb y) 0).isLt⟩ = c := by
    have h32 : (⟨((((commM : Memref sig .tc .vmem S32x2x768 .bf16).access rR).emb y) 0).val, ((((commM : Memref sig .tc .vmem S32x2x768 .bf16).access rR).emb y) 0).isLt⟩ : Fin 32) = 0 := Fin.ext e0
    rw [h32]; exact peer_zero c
  rw [hp]
  congr 1
  funext d
  match d with
  | ⟨0, _⟩ => exact Fin.ext e1
  | ⟨1, _⟩ => exact Fin.ext e2

abbrev r22 : Rect S2x768 := Rect.unit (s := S2x768) ![0, 0] S2x768.size inb_S2x768_S2x768_0_0

/-- The input copy's destination read back whole is what the copy carried: the launched array. -/
theorem x_value (c : Dev nD) (fx : Buf (Elt F) ((Memref.whole cc0_scratch0 : Memref sig .tc .vmem S768x512 .f32).view.loc (c : Thread nD τ))) :
    View.readAt (Elt F) (Memref.whole cc0_scratch0 : Memref sig .tc .vmem S768x512 .f32).view
        (Rect.unit (s := S768x512) ![0, 0] S768x512.size inb_S768x512_S768x512_0_0).toLoadRect
        (View.write (Elt F) (Memref.whole cc0_scratch0 : Memref sig .tc .vmem S768x512 .f32).view fx
          (ReadAs.same.apply (View.read (Elt F) (Memref.whole main_arg0 : Memref sig .tc .hbm S768x512 .f32).view (m ((c : Thread nD τ).loc main_arg0)))) Finset.univ)
      = xIn m c :=
  (Memref.readAt_unit_zero (Elt F) cc0_scratch0 hz2 _ _).trans (View.write_whole_univ cc0_scratch0 _ _)

theorem g_value (c : Dev nD) (fg : Buf (Elt F) ((Memref.whole cc0_scratch1 : Memref sig .tc .vmem S512 .f32).view.loc (c : Thread nD τ))) :
    View.readAt (Elt F) (Memref.whole cc0_scratch1 : Memref sig .tc .vmem S512 .f32).view
        (Rect.unit (s := S512) ![0] S512.size inb_S512_S512_0).toLoadRect
        (View.write (Elt F) (Memref.whole cc0_scratch1 : Memref sig .tc .vmem S512 .f32).view fg
          (ReadAs.same.apply (View.read (Elt F) (Memref.whole main_arg1 : Memref sig .tc .hbm S512 .f32).view (m ((c : Thread nD τ).loc main_arg1)))) Finset.univ)
      = gIn m c :=
  (Memref.readAt_unit_zero (Elt F) cc0_scratch1 hz1 _ _).trans (View.write_whole_univ cc0_scratch1 _ _)

theorem b_value (c : Dev nD) (fb : Buf (Elt F) ((Memref.whole cc0_scratch2 : Memref sig .tc .vmem S512 .f32).view.loc (c : Thread nD τ))) :
    View.readAt (Elt F) (Memref.whole cc0_scratch2 : Memref sig .tc .vmem S512 .f32).view
        (Rect.unit (s := S512) ![0] S512.size inb_S512_S512_0).toLoadRect
        (View.write (Elt F) (Memref.whole cc0_scratch2 : Memref sig .tc .vmem S512 .f32).view fb
          (ReadAs.same.apply (View.read (Elt F) (Memref.whole main_arg2 : Memref sig .tc .hbm S512 .f32).view (m ((c : Thread nD τ).loc main_arg2)))) Finset.univ)
      = bIn m c :=
  (Memref.readAt_unit_zero (Elt F) cc0_scratch2 hz1 _ _).trans (View.write_whole_univ cc0_scratch2 _ _)

/-- The two stores into the two-row buffer, the second over the first read back, leave the rows of `v`. -/
theorem rows_value (c : Dev nD) (v : Vec F S768x512 .f32) (fr : Buf (Elt F) ((Memref.whole cc0_scratch3 : Memref sig .tc .vmem S2x768 .bf16).view.loc (c : Thread nD τ))) :
    (Memref.whole cc0_scratch3 : Memref sig .tc .vmem S2x768 .bf16).view.writes (Elt F) fr
        [⟨r22, updateSlice
            ((Memref.whole cc0_scratch3 : Memref sig .tc .vmem S2x768 .bf16).view.readCov
              [⟨r22, updateSlice (View.readAt (Elt F) (Memref.whole cc0_scratch3 : Memref sig .tc .vmem S2x768 .bf16).view r22.toLoadRect fr) (k0_pay3 v) ![0, 0] slices_S2x768_S1x768_0_0⟩]
              r22.toLoadRect)
            (k0_pay4 v) ![1, 0] slices_S2x768_S1x768_1_0⟩,
         ⟨r22, updateSlice (View.readAt (Elt F) (Memref.whole cc0_scratch3 : Memref sig .tc .vmem S2x768 .bf16).view r22.toLoadRect fr) (k0_pay3 v) ![0, 0] slices_S2x768_S1x768_0_0⟩]
      = Cert.Kernel.KVal.mine v := by
  have hW (g : (Memref.whole cc0_scratch3 : Memref sig .tc .vmem S2x768 .bf16).view.ty.Contents (Elt F)) (w : r22.shape.Idx → Elt F .bf16) :
      ((Memref.whole cc0_scratch3 : Memref sig .tc .vmem S2x768 .bf16).view.slice r22).write (Elt F) g w Finset.univ = w :=
    Memref.write_access_unit_zero_univ (Elt F) cc0_scratch3 hz2 _ g w
  rw [View.writes_cons]
  dsimp only
  rw [hW, View.readCov_unit_zero (S := S2x768) (Memref.whole cc0_scratch3 : Memref sig .tc .vmem S2x768 .bf16).view hz2]
  exact rows_eq v _

/-- The two stores into slot 0, the second over the first read back, leave slot 0 as the buffer's final contents have it. -/
theorem slot0_value (c : Dev nD) (fc : Buf (Elt F) ((c : Thread nD τ).loc cc0_scratch4)) :
    ((commM.access rR).loc (c : Thread nD τ) ↦[(slotM 0 : Memref sig .tc .vmem S2x768 .bf16).view.set]{fullShare}
        View.write (Elt F) (commM.access rR)
          (View.write (Elt F) (commM.access rR) fc
            (updateSlice (View.readAt (Elt F) commM.view rR.toLoadRect fc) (k0_pay5 (xIn m c)) ![0, 0, 0] slices_S1x2x768_S1x1x768_0_0_0) Finset.univ)
          (updateSlice
            (View.readAt (Elt F) commM.view rR.toLoadRect
              (View.write (Elt F) (commM.access rR) fc
                (updateSlice (View.readAt (Elt F) commM.view rR.toLoadRect fc) (k0_pay5 (xIn m c)) ![0, 0, 0] slices_S1x2x768_S1x1x768_0_0_0) Finset.univ))
            (k0_pay6 (xIn m c)) ![0, 1, 0] slices_S1x2x768_S1x1x768_0_1_0)
          Finset.univ : sProp 𝕄)
      = slotPts c 0 (commC m c) := by
  have hR (f : ((commM : Memref sig .tc .vmem S32x2x768 .bf16).access rR).ty.Contents (Elt F)) (w : rR.shape.Idx → Elt F .bf16) :
      View.readAt (Elt F) (commM : Memref sig .tc .vmem S32x2x768 .bf16).view rR.toLoadRect (View.write (Elt F) ((commM : Memref sig .tc .vmem S32x2x768 .bf16).access rR) f w Finset.univ) = w :=
    View.read_write_univ (v := (commM : Memref sig .tc .vmem S32x2x768 .bf16).access rR) f w
  have hset : ((commM : Memref sig .tc .vmem S32x2x768 .bf16).access rR).set = (slotM 0 : Memref sig .tc .vmem S2x768 .bf16).view.set :=
    (View.set_slice_whole cc0_scratch4 rR).trans (slot_set 0).symm
  rw [hR]
  refine pointsTo_congr fun i hi => ?_
  obtain ⟨y, rfl⟩ := View.exists_emb_of_mem_set ((commM : Memref sig .tc .vmem S32x2x768 .bf16).access rR) (hset ▸ hi)
  rw [View.write_emb_of_mem _ _ (Finset.mem_univ y), commC_slot0]
  exact slot_rows_eq (xIn m c) _ y

/-- One store of the whole result block leaves exactly that block. -/
theorem out_value (c : Dev nD) (g0 : Buf (Elt F) ((Memref.whole cc0_stg0_0 : Memref sig .tc .vmem S768x512 .bf16).view.loc (c : Thread nD τ))) (v : FVec F S768x512 .bf16) :
    (Memref.whole cc0_stg0_0 : Memref sig .tc .vmem S768x512 .bf16).view.writes (Elt F) g0
        [⟨Rect.unit (s := S768x512) ![0, 0] S768x512.size inb_S768x512_S768x512_0_0, v⟩]
      = v := by
  have hW (g : (Memref.whole cc0_stg0_0 : Memref sig .tc .vmem S768x512 .bf16).view.ty.Contents (Elt F))
      (w : (Rect.unit (s := S768x512) ![0, 0] S768x512.size inb_S768x512_S768x512_0_0).shape.Idx → Elt F .bf16) :
      ((Memref.whole cc0_stg0_0 : Memref sig .tc .vmem S768x512 .bf16).view.slice (Rect.unit (s := S768x512) ![0, 0] S768x512.size inb_S768x512_S768x512_0_0)).write (Elt F) g w Finset.univ = w :=
    Memref.write_access_unit_zero_univ (Elt F) cc0_stg0_0 hz2 _ g w
  rw [View.writes_cons]
  dsimp only
  rw [hW]

end Cert.Kernel.Proto

end
-- ==== Proof.Bits.Body.lean ====
import proofs.«900828_g7700000000000829_dist_layernorm_colshard_i_m768_n512_v7x_i32_bf16_1_alg».proof.Proof.Bits.Steps
import proofs.«900828_g7700000000000829_dist_layernorm_colshard_i_m768_n512_v7x_i32_bf16_1_alg».proof.Proof.Bits.DevEq
import proofs.«900828_g7700000000000829_dist_layernorm_colshard_i_m768_n512_v7x_i32_bf16_1_alg».proof.Proof.Bits.Contents
import proofs.«900828_g7700000000000829_dist_layernorm_colshard_i_m768_n512_v7x_i32_bf16_1_alg».proof.Proof.Bits.Finish
import proofs.«900828_g7700000000000829_dist_layernorm_colshard_i_m768_n512_v7x_i32_bf16_1_alg».proof.Proof.Bits.Values

/-!
# The body of one device, stepped once at a symbolic device

The body runs in this order: it starts its three input copies; signals every device's barrier semaphore, handing each the
slot of its own exchange buffer that device will write; waits for its block of `x`, reduces it to two rows and stores them
in the two-row buffer and in slot 0; waits for all 32 entry signals, which bring in the 31 target slots; starts the 31
copies, each lending a read share of the two rows; waits for its pieces of `gamma` and `beta`; waits for the landings and
adds the slots group by group (0–7, 24–31, 8–15, 16–23); normalises its block and stores the result; waits for the 31
departures. Each cross-device step is one rule of `Steps.lean` / `Glue.lean`; the exchange buffer is held slot by slot
from the entry signals on, so its loads and stores are stepped on the slots they touch.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)
open Idealize.ShloMosaic.Tactic

/-- Memref `M`'s buffer on device `c`, held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A buffer held whole at contents known to be `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body leaves: `Φ₁`, nothing owed, the result window's staging buffer at the device's result block. -/
def bodyPost (c : Dev nD) : sProp 𝕄 :=
  iprop(Φ₁ m c ∗ (dats m ρ 0 c).owesAt () Gen.t0_0.succ ∗ stg c cc0_stg0_0 (outC m c))

omit [FloatOps F] in
/-- The entry signals' resources: the device's token on every barrier cell with what that signal hands over. -/
theorem sig_gather (c : Dev nD) :
    iprop((bigSep Finset.univ fun d : Dev nD => dutyTok ER (barCell d) 0 (c : Fin 32)) ∗ bigSep Finset.univ (fun d : Fin 32 => barPay (F := F) d c))
      ⊢ bigSep (rangeSet 32 0 32) (sigRes (F := F) c) := by
  rw [Ring.rangeSet_univ]; unfold sigRes; rw [bigSep_sep']

omit [FloatOps F] in
theorem pack {ℓ : Loc nD τ sig} (q : PosShare TreeShare) (S : Finset (Idx ℓ)) (f : Buf (Elt F) ℓ) :
    (ℓ ↦[S]{q} f : sProp 𝕄) ⊢ iprop(∃ f' : Buf (Elt F) ℓ, ⌜f' = f⌝ ∗ (ℓ ↦[S]{q} f')) := by
  iintro H; iexists f; isplitr; · (ipureintro; rfl)
  iexact H

omit [FloatOps F] in
/-- Nothing yet on the done side of a tail/head pair. -/
theorem with_nil {NB : ℕ} [NeZero NB] (lo : ℕ) (P : sProp 𝕄) (Φ : Fin NB → sProp 𝕄) : P ⊢ iprop(P ∗ bigSep (rangeSet NB lo lo) Φ) := by
  rw [Ring.bigSep_rangeSet_empty (le_refl lo)]; exact (sep_emp (PROP := sProp 𝕄)).2

omit [FloatOps F] in
/-- A returned value bound to its continuation is the continuation at the value. -/
theorem wp_ret_bind' {E : Type → Type} {α β : Type} (Fr) (wE) (Es : Set ℕ) (a : α) (k : α → Prog E β) (Q : β → sProp 𝕄) :
    wp Fr wE Es ((Prog.ret a).bind k) Q = wp Fr wE Es (k a) Q := rfl

open Lean in
set_option hygiene false in
/-- The entry signal to device `lo`, then on to the next cross-device step. -/
macro "sig_go " lo:num : tactic => `(tactic| (
  iapply (sig_step m K c $lo (by decide) _) $$ [HO Hsig]
  · isplitr; · iexact HR
    isplitl [HO]; · iexact HO
    iexact Hsig
  iintro ⟨HO, Hsig⟩
  first | (rw [wp_ret]; imodintro) | rw [wp_ret_bind'] | skip
  try sl_exec))

open Lean in
/-- All 32 entry signals, to devices 0 … 31 in order. -/
macro "sig_all" : tactic => do
  let mut ts : Array (TSyntax `tactic) := #[]
  for i in [0:32] do
    ts := ts.push (← `(tactic| sig_go $(Syntax.mkNumLit (toString i))))
  `(tactic| ($[$ts]*))

set_option hygiene false in
/-- Copy `lo` to device `c + lo`, into its slot `j = 32 − lo`. -/
macro "send_one " lo:num j:num e:ident : tactic => `(tactic| (
  iapply (send_go m K c $lo (by decide) (by decide) _ ($e c) $j (by decide) _) $$ [HO Hsend Hcs]
  · isplitr; · iexact HR
    isplitl [HO]; · iexact HO
    isplitl [Hsend]; · iexact Hsend
    iexact Hcs
  iintro ⟨HO, Hsend, Hcs⟩
  first | (rw [wp_ret]; imodintro) | rw [wp_ret_bind'] | skip
  try sl_exec))

open Lean in
/-- All 31 copies, `k = 1 … 31` in order. -/
macro "send_all" : tactic => do
  let mut ts : Array (TSyntax `tactic) := #[]
  for k in [1:32] do
    ts := ts.push (← `(tactic| send_one $(Syntax.mkNumLit (toString k)) $(Syntax.mkNumLit (toString (32 - k))) $(mkIdent (Name.mkSimple s!"dev{32 + k}_eq"))))
  `(tactic| ($[$ts]*))

set_option hygiene false in
/-- The `t`-th wait for a landing: slot `j`. -/
macro "recv_one " t:num j:num : tactic => `(tactic| (
  iapply (recv_go m K c $t (by decide) $j (by decide) _) $$ [HO Hrpre Hrpost]
  · isplitr; · iexact HR
    isplitl [HO]; · iexact HO
    isplitl [Hrpre]; · iexact Hrpre
    iexact Hrpost
  iintro ⟨%W', HO, Hrpre, Hrpost⟩
  first | (rw [wp_ret]; imodintro) | rw [wp_ret_bind'] | skip
  try sl_exec))

open Lean in
/-- Waits `t₀ … t₀ + n − 1` of the order the body waits in, for slots `j₀ … j₀ + n − 1`. -/
macro "recv_run " t0:num j0:num n:num : tactic => do
  let mut ts : Array (TSyntax `tactic) := #[]
  for i in [0:n.getNat] do
    ts := ts.push (← `(tactic| recv_one $(Syntax.mkNumLit (toString (t0.getNat + i))) $(Syntax.mkNumLit (toString (j0.getNat + i)))))
  `(tactic| ($[$ts]*))

set_option hygiene false in
/-- The load of the group of slots `lo … lo + 7` after `t` landings. -/
macro "group_one " lo:num t:num : tactic => `(tactic| (
  iapply (group_load m c $lo (by decide) $t (by decide) (by decide)) $$ [Hslot0 Hrpost]
  · isplitl [Hslot0]; · iexact Hslot0
    iexact Hrpost
  iintro ⟨Hslot0, Hrpost⟩
  first | rw [wp_ret_bind'] | skip
  try sl_exec))

set_option hygiene false in
/-- The wait for the departure of copy `lo` (its target slot `j = 32 − lo`). -/
macro "sendw_one " lo:num j:num : tactic => `(tactic| (
  iapply (sendw_go m K c $lo (by decide) (by decide) $j _) $$ [HO Hwpre Hwpost]
  · isplitr; · iexact HR
    isplitl [HO]; · iexact HO
    isplitl [Hwpre]; · iexact Hwpre
    iexact Hwpost
  iintro ⟨%W', HO, Hwpre, Hwpost⟩
  first | (rw [wp_ret]; imodintro) | rw [wp_ret_bind'] | skip
  try sl_exec))

open Lean in
/-- All 31 departures' waits, in order. -/
macro "sendw_all" : tactic => do
  let mut ts : Array (TSyntax `tactic) := #[]
  for k in [1:32] do
    ts := ts.push (← `(tactic| sendw_one $(Syntax.mkNumLit (toString k)) $(Syntax.mkNumLit (toString (32 - k)))))
  `(tactic| ($[$ts]*))

set_option maxHeartbeats 40000000 in
/-- The body, from what the launch hands device `c` to `bodyPost`. -/
theorem sound_body (K : GSem nD τ sig → ℕ) (c : Dev nD) (Kt : PUnit → sProp 𝕄) (W : Waits sig Unit)
    (fx : Bf (F := F) c (Memref.whole cc0_scratch0)) (fg : Bf (F := F) c (Memref.whole cc0_scratch1)) (fb : Bf (F := F) c (Memref.whole cc0_scratch2))
    (fr : Bf (F := F) c (Memref.whole cc0_scratch3)) (fc : Bf (F := F) c (Memref.whole cc0_scratch4)) (g0 : Bf (F := F) c (Memref.whole cc0_stg0_0)) :
    iprop(records m K ∗ positions c ∗ payToks c ∗ credits c ∗ levAts L lv
        ∗ semVal ((c : Thread nD τ), SemLoc.dma (inSem 0)) 0 ∗ semVal ((c : Thread nD τ), SemLoc.dma (inSem 1)) 0 ∗ semVal ((c : Thread nD τ), SemLoc.dma (inSem 2)) 0
        ∗ pt c (Memref.whole main_arg0) (m ((c : Thread nD τ).loc main_arg0)) ∗ pt c (Memref.whole main_arg1) (m ((c : Thread nD τ).loc main_arg1))
        ∗ pt c (Memref.whole main_arg2) (m ((c : Thread nD τ).loc main_arg2))
        ∗ pt c (Memref.whole cc0_scratch0) fx ∗ pt c (Memref.whole cc0_scratch1) fg ∗ pt c (Memref.whole cc0_scratch2) fb
        ∗ pt c (Memref.whole cc0_scratch3) fr ∗ pt c (Memref.whole cc0_scratch4) fc ∗ pt c (Memref.whole cc0_stg0_0) g0
        ∗ owes (c : Thread nD τ) (O₀ c) W
        ∗ (bodyPost m ρ c -∗ Kt ⟨⟩))
      ⊢ wp frame (wpE (defs₀ (F := F)) 𝒱₀ c none) Set.univ (Gen.bodyAt0 (F := F) Gen.t0_0) Kt := by
  unfold positions payToks credits
  iintro ⟨#HR, ⟨HatB, HatS, HatV⟩, ⟨HtB, HtS, HtV⟩, ⟨HcB, HcV⟩, #Hlev, Hs0, Hs1, Hs2, Ha0, Ha1, Ha2, Hx, Hg, Hb, Hrows, Hcomm, Hout, HO, Hk⟩
  have hmwB := fun (q : DmaSem sig) (hq : q.val < 36) (n : ℕ) (hn : n ≤ 32) => mayWait_low (F := F) c q hq n hn
  have hmwS := fun (q : DmaSem sig) (hq : q.val < 36) (n : ℕ) (hn : n ≤ 31) => mayWait_low_send (F := F) c q hq n hn
  -- the exchange buffer dealt: slot 0 stays, every other slot goes with the entry signal to the device that writes it
  ihave Hd := (comm_deal (F := F) m c K fc) $$ [Hcomm]
  · isplitr; · iexact HR
    iexact Hcomm
  icases Hd with ⟨Hslot0, Hpays⟩
  ihave Hsig := (sig_gather (F := F) c) $$ [HtB Hpays]
  · isplitl [HtB] <;> iassumption
  dsimp only [Gen.bodyAt0]
  sl_exec
  sig_all
  -- the device's own two rows into slot 0: each store rewrites the slot's two rows with one of them replaced
  unfold slotPts
  iapply (wp_load 𝒱₀ (c : Thread nD τ) none Set.univ (m := commM) (r := rA.toLoadRect) (S := (slotM 0 : Memref sig .tc .vmem S2x768 .bf16).view.set) slot0_sub_a) $$ Hslot0; iintro Hslot0
  try sl_exec
  iapply (wp_load 𝒱₀ (c : Thread nD τ) none Set.univ (m := commM) (r := rR.toLoadRect) (S := (slotM 0 : Memref sig .tc .vmem S2x768 .bf16).view.set) slot0_sub_R) $$ Hslot0; iintro Hslot0
  iapply (wp_store 𝒱₀ (c : Thread nD τ) none Set.univ (m := commM) (r := rR) (Mk := Finset.univ) (S := (slotM 0 : Memref sig .tc .vmem S2x768 .bf16).view.set) slot0_sub_W) $$ Hslot0; iintro Hslot0
  first | (rw [wp_ret]; imodintro) | rw [wp_ret_bind'] | skip
  try sl_exec
  iapply (wp_load 𝒱₀ (c : Thread nD τ) none Set.univ (m := commM) (r := rB.toLoadRect) (S := (slotM 0 : Memref sig .tc .vmem S2x768 .bf16).view.set) slot0_sub_b) $$ Hslot0; iintro Hslot0
  try sl_exec
  iapply (wp_load 𝒱₀ (c : Thread nD τ) none Set.univ (m := commM) (r := rR.toLoadRect) (S := (slotM 0 : Memref sig .tc .vmem S2x768 .bf16).view.set) slot0_sub_R) $$ Hslot0; iintro Hslot0
  iapply (wp_store 𝒱₀ (c : Thread nD τ) none Set.univ (m := commM) (r := rR) (Mk := Finset.univ) (S := (slotM 0 : Memref sig .tc .vmem S2x768 .bf16).view.set) slot0_sub_W) $$ Hslot0; iintro Hslot0
  first | (rw [wp_ret]; imodintro) | rw [wp_ret_bind'] | skip
  try sl_exec
  -- the wait for all 32 entry signals: every other device's target slot comes with it
  iapply (bar_wait m K c _) $$ [HcB HO HatB]
  · isplitr; · iexact HR
    isplitl [HcB]; · iexact HcB
    isplitl [HO]; · iexact HO
    isplitr; · iexact Hlev
    iexact HatB
  iintro ⟨HO, HatB, Hpays⟩
  first | (rw [wp_ret]; imodintro) | rw [wp_ret_bind'] | skip
  -- what the device's own loads and stores left: the launched block read back, the two rows it sends, slot 0
  have hv : sound_body.sl.v76 m c fx = xIn m c := by
    sl_unfold_run_names
    exact x_value m c fx
  ihave Hp := (pack (F := F) _ _ _) $$ Hrows
  icases Hp with ⟨%fr', %hfr', Hrows⟩
  have hr : fr' = rowsC m c := by
    rw [hfr']
    sl_unfold_run_names
    rw [x_value m c fx]
    exact rows_value c (xIn m c) fr
  subst hr
  ihave Hq := (pack (F := F) _ _ _) $$ Hslot0
  icases Hq with ⟨%fs', %hfs', Hslot0⟩
  rw [hv] at hfs'
  subst hfs'
  ihave Hslot0 := (Entails.of_eq (slot0_value m c fc)) $$ Hslot0
  -- the two rows by read shares, one for each copy; the copies' resources in order
  ihave Hsh := (rows_shares (F := F) m c).1 $$ Hrows
  icases Hsh with ⟨Hrrem, Hrsh⟩
  ihave Hsl := (barPays_slots (F := F) c) $$ Hpays
  ihave Hsg := (send_gather (F := F) m c) $$ [HtS HtV Hrsh Hsl]
  · isplitl [HtS]; · iexact HtS
    isplitl [HtV]; · iexact HtV
    isplitl [Hrsh]; · iexact Hrsh
    iexact Hsl
  icases Hsg with ⟨Hr0, Hsend⟩
  ihave HOc := (with_nil (F := F) (NB := 32) 1 _ (fun k' : Fin 32 => cred (tallyAt (sendCell c k') () N))) $$ HO
  icases HOc with ⟨HO, Hcs⟩
  try sl_exec
  -- the 31 copies
  send_all
  -- (the waits for the local copies of gamma and beta and their loads ran above; now the landings, group by group)
  ihave Hri := (recv_init (F := F) c) $$ [HcV HatV]
  · isplitl [HcV] <;> iassumption
  icases Hri with ⟨HatV0, Hrpre⟩
  ihave HOc := (with_nil (F := F) (NB := 31) 0 _ (fun i : Fin 31 => recvPost m c (recvOrd i))) $$ HO
  icases HOc with ⟨HO, Hrpost⟩
  recv_run 0 1 7
  group_one 0 7
  recv_run 7 24 8
  group_one 24 15
  recv_run 15 8 8
  group_one 8 23
  recv_run 23 16 8
  group_one 16 31
  -- the departures
  ihave Hwi := (sendw_init (F := F) c) $$ [Hcs HatS]
  · isplitl [Hcs] <;> iassumption
  icases Hwi with ⟨HatS0, Hwpre⟩
  ihave HOc := (with_nil (F := F) (NB := 32) 1 _ (sendWPost m c)) $$ HO
  icases HOc with ⟨HO, Hwpost⟩
  sendw_all
  -- the return: cells closed, shares and slots joined, everything handed back
  rw [wp_ret]
  imod (finish (F := F) m K c) $$ [HatS0 HatV0 Hwpost Hrpost Hslot0 Hrrem Hr0 Hs0 Hs1 Hs2] with ⟨Hrows, Hcomm, Hsems⟩
  · isplitr; · iexact HR
    isplitl [HatS0]; · iexact HatS0
    isplitl [HatV0]; · iexact HatV0
    isplitl [Hwpost]; · iexact Hwpost
    isplitl [Hrpost]; · iexact Hrpost
    isplitl [Hslot0]; · iexact Hslot0
    isplitl [Hrrem]; · iexact Hrrem
    isplitl [Hr0]; · iexact Hr0
    isplitl [Hs0]; · iexact Hs0
    isplitl [Hs1]; · iexact Hs1
    iexact Hs2
  imodintro
  -- the result block
  ihave Hpo := (pack (F := F) _ _ _) $$ Hout
  icases Hpo with ⟨%fo', %hfo', Hout⟩
  have ho : fo' = outC m c := by
    rw [hfo']
    sl_unfold_run_names
    rw [x_value m c fx, g_value m c fg, b_value m c fb]
    exact out_value c g0 _
  subst ho
  iapply Hk
  unfold bodyPost Φ₁ args scratch Dat.owesAt Pipeline.owesWithin
  rw [show (dats m ρ 0 c).owed Gen.t0_0.succ = 0 from rfl]
  isplitl [Ha0 Ha1 Ha2 Hx Hg Hb Hrows Hcomm Hsems]
  · isplitl [Ha0 Ha1 Ha2]
    · isplitl [Ha0]; · iexact Ha0
      isplitl [Ha1]; · iexact Ha1
      iexact Ha2
    isplitl [Hx Hg Hb Hrows Hcomm]
    · isplitl [Hx]; · iexists _; iexact Hx
      isplitl [Hg]; · iexists _; iexact Hg
      isplitl [Hb]; · iexists _; iexact Hb
      isplitl [Hrows]; · iexists _; iexact Hrows
      iexists _; iexact Hcomm
    iexact Hsems
  isplitl [HO]
  · iexists W'; isplitr; · ipureintro; exact fun _ _ => Or.inl trivial
    iexact HO
  iexists _; isplitr; · (ipureintro; rfl)
  iexact Hout

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem in3_eq (c : Dev nD) : (inSems (F := F) c) = iprop(semVal ((c : Thread nD τ), SemLoc.dma (inSem 0)) 0 ∗ semVal ((c : Thread nD τ), SemLoc.dma (inSem 1)) 0 ∗ semVal ((c : Thread nD τ), SemLoc.dma (inSem 2)) 0) := by
  unfold inSems
  rw [bigSep_univ_eq_bigSepL [(0 : Fin 3), 1, 2] (by decide) (by decide)]
  rfl

/-- What the library's body obligation hands the body. -/
def bodyPre' (c : Dev nD) : sProp 𝕄 :=
  iprop(Φ₀ m c ∗ (dats m ρ 0 c).owesAt () Gen.t0_0.castSucc ∗ (∃ d, stg c cc0_stg0_0 ((dats m ρ 0 c).before (0 : Fin 1) Gen.t0_0 d)))

set_option maxRecDepth 65536 in
/-- The library's body obligation on device `c`. -/
theorem body_obligation (c : Dev nD) : BodyObligation (dats (F := F) m ρ 0 c) (defs₀ (F := F)) 𝒱₀ () Set.univ := fun t => by
  rw [Gen.fin_N0 t]
  rw [Gen.bigSep_W0, Gen.bigSep_W0]
  simp only [owns_whole_eq]
  show bodyPre' m ρ c ⊢ wp frame (wpE (defs₀ (F := F)) 𝒱₀ c none) Set.univ (Gen.bodyAt0 (F := F) Gen.t0_0) (fun _ => bodyPost m ρ c)
  unfold bodyPre' Φ₀ start ghost args scratch
  iintro ⟨⟨⟨⟨%K, HR, Hpos, Htok⟩, Hcr, Hlev, Hsem, ⟨Ha0, Ha1, Ha2⟩⟩, ⟨⟨%fx, Hx⟩, ⟨%fg, Hg⟩, ⟨%fb, Hb⟩, ⟨%fr, Hrows⟩, ⟨%fc, Hcomm⟩⟩⟩, Ho, ⟨%d0, %g0, %hg0, Hout⟩⟩
  unfold Dat.owesAt Pipeline.owesWithin
  icases Ho with ⟨%W, %hW, HO⟩
  ihave Hin3 := (Entails.of_eq (in3_eq (F := F) c)) $$ Hsem
  icases Hin3 with ⟨Hs0, Hs1, Hs2⟩
  iapply (sound_body m ρ K c (fun _ => bodyPost m ρ c) W fx fg fb fr fc g0)
  isplitl [HR]; · iexact HR
  isplitl [Hpos]; · iexact Hpos
  isplitl [Htok]; · iexact Htok
  isplitl [Hcr]; · iexact Hcr
  isplitl [Hlev]; · iexact Hlev
  isplitl [Hs0]; · iexact Hs0
  isplitl [Hs1]; · iexact Hs1
  isplitl [Hs2]; · iexact Hs2
  isplitl [Ha0]; · iexact Ha0
  isplitl [Ha1]; · iexact Ha1
  isplitl [Ha2]; · iexact Ha2
  isplitl [Hx]; · iexact Hx
  isplitl [Hg]; · iexact Hg
  isplitl [Hb]; · iexact Hb
  isplitl [Hrows]; · iexact Hrows
  isplitl [Hcomm]; · iexact Hcomm
  isplitl [Hout]; · iexact Hout
  isplitl [HO]; · iexact HO
  iintro H; iexact H

end Cert.Kernel.Proto

end
-- ==== Proof.Bits.Launch.lean ====
import proofs.«900828_g7700000000000829_dist_layernorm_colshard_i_m768_n512_v7x_i32_bf16_1_alg».proof.Proof.Bits.Body

/-!
# The launch: every device's body obligation becomes the run of the program
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts -/

theorem ownSemFacts : Pipeline.OwnSemFacts cfg0.spec osem := by decide

theorem share_eq (c : Dev nD) (w : Fin cfg0.W) : (dats m ρ 0 c).share w = fullShare := by unfold Dat.share; split <;> rfl

/-! ## The cells and the tokens to mint -/

/-- A device's cells of the exchange: its barrier cell, its 32 send cells, its 32 receive cells. -/
abbrev CJ : Type := Unit ⊕ Fin 32 ⊕ Fin 32

def dcell (c : Dev nD) : CJ → GSem nD τ sig
  | .inl _ => barCell c
  | .inr (.inl k) => sendCell c k
  | .inr (.inr j) => recvCell c j

def kcell (cx : Dev nD × CJ) : GSem nD τ sig := dcell cx.1 cx.2

theorem lc_send_inj {d d' : Dev nD} {k k' : Fin 32} (h : sendCell d k = sendCell d' k') : d = d' ∧ k = k' := by
  have h1 : d = d' := congrArg (fun g : GSem nD τ sig => g.1.1) h
  have h2 : (SemLoc.dma (sendSem k) : SemLoc sig) = SemLoc.dma (sendSem k') := congrArg Prod.snd h
  have h3 : 4 + k.val = 4 + k'.val := by injection h2 with h2; exact congrArg (fun s : DmaSem sig => s.val) h2
  exact ⟨h1, Fin.ext (by omega)⟩
theorem lc_recv_inj {d d' : Dev nD} {k k' : Fin 32} (h : recvCell d k = recvCell d' k') : d = d' ∧ k = k' := by
  have h1 : d = d' := congrArg (fun g : GSem nD τ sig => g.1.1) h
  have h2 : (SemLoc.dma (recvSem k) : SemLoc sig) = SemLoc.dma (recvSem k') := congrArg Prod.snd h
  have h3 : 36 + k.val = 36 + k'.val := by injection h2 with h2; exact congrArg (fun s : DmaSem sig => s.val) h2
  exact ⟨h1, Fin.ext (by omega)⟩
theorem lc_bar_inj {d d' : Dev nD} (h : barCell d = barCell d') : d = d' := congrArg (fun g : GSem nD τ sig => g.1.1) h
theorem lc_bar_ne_send {d d' : Dev nD} {k : Fin 32} : barCell d ≠ sendCell d' k := fun h => by
  have h2 : (SemLoc.reg barS : SemLoc sig) = SemLoc.dma (sendSem k) := congrArg Prod.snd h
  cases h2
theorem lc_bar_ne_recv {d d' : Dev nD} {k : Fin 32} : barCell d ≠ recvCell d' k := fun h => by
  have h2 : (SemLoc.reg barS : SemLoc sig) = SemLoc.dma (recvSem k) := congrArg Prod.snd h
  cases h2
theorem lc_send_ne_recv {d d' : Dev nD} {k j : Fin 32} : sendCell d k ≠ recvCell d' j := fun h => by
  have h2 : (SemLoc.dma (sendSem k) : SemLoc sig) = SemLoc.dma (recvSem j) := congrArg Prod.snd h
  have h3 : 4 + k.val = 36 + j.val := by injection h2 with h2; exact congrArg (fun s : DmaSem sig => s.val) h2
  have := k.isLt; omega

theorem kcell_injective : Function.Injective kcell := by
  rintro ⟨d, (_ | k | k)⟩ ⟨d', (_ | k' | k')⟩ h
  · have := lc_bar_inj h; subst this; rfl
  · exact absurd h lc_bar_ne_send
  · exact absurd h lc_bar_ne_recv
  · exact absurd h.symm lc_bar_ne_send
  · obtain ⟨rfl, rfl⟩ := lc_send_inj h; rfl
  · exact absurd h lc_send_ne_recv
  · exact absurd h.symm lc_bar_ne_recv
  · exact absurd h.symm lc_send_ne_recv
  · obtain ⟨rfl, rfl⟩ := lc_recv_inj h; rfl

def ringCells : Finset (GSem nD τ sig) := Finset.univ.map ⟨kcell, kcell_injective⟩

/-- The duty tokens minted on a device's own cells: on its barrier cell one per payer; one per send cell; one per receive cell. -/
abbrev TJ : Type := Dev nD ⊕ Fin 32 ⊕ Fin 32

def dtok (c : Dev nD) : TJ → GSem nD τ sig × ℕ × Fin 32
  | .inl p => (barCell c, 0, (p : Fin 32))
  | .inr (.inl k) => (sendCell c k, 0, 0)
  | .inr (.inr j) => (recvCell c j, 0, 0)

def tokOf (cx : Dev nD × TJ) : GSem nD τ sig × ℕ × Fin 32 := dtok cx.1 cx.2

theorem tokOf_injective : Function.Injective tokOf := by
  rintro ⟨d, (c | k | k)⟩ ⟨d', (c' | k' | k')⟩ h
  · have h1 : d = d' := lc_bar_inj (congrArg Prod.fst h)
    have h2 : c = c' := congrArg (fun x : GSem nD τ sig × ℕ × Fin 32 => x.2.2) h
    subst h1; subst h2; rfl
  · exact absurd (congrArg Prod.fst h) lc_bar_ne_send
  · exact absurd (congrArg Prod.fst h) lc_bar_ne_recv
  · exact absurd (congrArg Prod.fst h).symm lc_bar_ne_send
  · obtain ⟨rfl, rfl⟩ := lc_send_inj (congrArg Prod.fst h); rfl
  · exact absurd (congrArg Prod.fst h) lc_send_ne_recv
  · exact absurd (congrArg Prod.fst h).symm lc_bar_ne_recv
  · exact absurd (congrArg Prod.fst h).symm lc_send_ne_recv
  · obtain ⟨rfl, rfl⟩ := lc_recv_inj (congrArg Prod.fst h); rfl

def ringToks : Finset (GSem nD τ sig × ℕ × Fin 32) := Finset.univ.map ⟨tokOf, tokOf_injective⟩

def u₀ : UU :=
  (initOf (Pipeline.cells cfgs cellOf_inj) (Pipeline.launchToks cfgs cellOf_inj), (initOf ringCells ringToks, 1))

omit [FloatOps F] in
theorem bigSep_ringCells (Φ : GSem nD τ sig → sProp 𝕄) :
    bigSep ringCells Φ = bigSep Finset.univ fun c : Dev nD => bigSep Finset.univ fun x : CJ => Φ (dcell c x) := by
  unfold ringCells; rw [bigSep_map, bigSep_univ_prod]; rfl

omit [FloatOps F] in
/-- A family over one device's cells, cell kind by cell kind. -/
theorem bigSep_CJ (Φ : CJ → sProp 𝕄) :
    bigSep Finset.univ Φ = iprop(Φ (.inl ()) ∗ (bigSep Finset.univ fun k : Fin 32 => Φ (.inr (.inl k))) ∗ (bigSep Finset.univ fun j : Fin 32 => Φ (.inr (.inr j)))) := by
  rw [bigSep_univ_sum, bigSep_univ_sum, bigSep_univ_of_subsingleton ()]
  rfl

omit [FloatOps F] in
theorem bigSep_dcell (c : Dev nD) (Φ : GSem nD τ sig → sProp 𝕄) :
    (bigSep Finset.univ fun x : CJ => Φ (dcell c x))
      = iprop(Φ (barCell c) ∗ (bigSep Finset.univ fun k : Fin 32 => Φ (sendCell c k)) ∗ (bigSep Finset.univ fun j : Fin 32 => Φ (recvCell c j))) := by
  rw [bigSep_CJ]; rfl

omit [FloatOps F] in
theorem bigSep_TJ (Φ : TJ → sProp 𝕄) :
    bigSep Finset.univ Φ = iprop((bigSep Finset.univ fun p : Dev nD => Φ (.inl p)) ∗ (bigSep Finset.univ fun k : Fin 32 => Φ (.inr (.inl k))) ∗ (bigSep Finset.univ fun j : Fin 32 => Φ (.inr (.inr j)))) := by
  rw [bigSep_univ_sum, bigSep_univ_sum]; rfl

/-- The tokens minted on device `c`'s own cells. -/
def toks (c : Dev nD) : sProp 𝕄 := bigSep Finset.univ fun x : TJ => dutyTok ER (dtok c x).1 (dtok c x).2.1 (dtok c x).2.2

omit [FloatOps F] in
theorem toks_eq (c : Dev nD) : (toks c : sProp 𝕄)
    = iprop((bigSep Finset.univ fun p : Dev nD => dutyTok ER (barCell c) 0 (p : Fin 32))
      ∗ (bigSep Finset.univ fun k : Fin 32 => dutyTok ER (sendCell c k) 0 (0 : Fin 32))
      ∗ (bigSep Finset.univ fun j : Fin 32 => dutyTok ER (recvCell c j) 0 (0 : Fin 32))) := by
  unfold toks; rw [bigSep_TJ]; rfl

omit [FloatOps F] in
theorem bigSep_prod' (Φ : Dev nD → Fin 32 → sProp 𝕄) :
    (bigSep Finset.univ fun c => bigSep Finset.univ fun k => Φ c k) = bigSep Finset.univ fun ck : Dev nD × Fin 32 => Φ ck.1 ck.2 :=
  (bigSep_univ_prod (fun ck : Dev nD × Fin 32 => Φ ck.1 ck.2)).symm

omit [FloatOps F] in
theorem bigSep_ringToks : bigSep ringToks (fun x => (dutyTok ER x.1 x.2.1 x.2.2 : sProp 𝕄)) = bigSep Finset.univ fun c : Dev nD => toks c := by
  unfold ringToks toks; rw [bigSep_map, bigSep_univ_prod]; rfl

/-- What the launch element deals device `c` (the theorem's `G`). -/
def G (c : Dev nD) : sProp 𝕄 :=
  iprop((bigSep Finset.univ fun x : CJ => roundState ER (rd m) (dcell c x) 0)
    ∗ (bigSep Finset.univ fun x : CJ => atPos ER (dcell c x) 0 ∅ 0)
    ∗ (bigSep Finset.univ fun x : CJ => reached ER (dcell c x) 0) ∗ toks c)

theorem fund_ring : BI.own (ER (initOf ringCells ringToks)) ⊢ (|==> bigSep Finset.univ (G m) : sProp 𝕄) := by
  iintro HX
  imod (Rounds.fund ER (rd m) ringCells ringToks) $$ HX with ⟨Hst, Hr, Hat, Htok⟩
  imodintro
  ihave Hst' := (Entails.of_eq (bigSep_ringCells fun g => roundState ER (rd m) g 0)) $$ Hst
  ihave Hat' := (Entails.of_eq (bigSep_ringCells fun g => atPos ER g 0 ∅ 0)) $$ Hat
  ihave Hr' := (Entails.of_eq (bigSep_ringCells fun g => reached ER g 0)) $$ Hr
  ihave Htok' := (Entails.of_eq (bigSep_ringToks (F := F))) $$ Htok
  unfold G; simp only [bigSep_sep']
  isplitl [Hst']; · iexact Hst'
  isplitl [Hat']; · iexact Hat'
  isplitl [Hr']; · iexact Hr'
  iexact Htok'

/-! ## The counters at launch -/

/-- The kernel's 67 own semaphores, kind by kind: three of the input copies, 32 send, 32 receive. -/
def esem : Fin 3 ⊕ Fin 32 ⊕ Fin 32 ≃ Fin 67 :=
  (Equiv.sumCongr (Equiv.refl (Fin 3)) (finSumFinEquiv (m := 32) (n := 32))).trans (finSumFinEquiv (m := 3) (n := 64))

theorem osem_in (i : Fin 3) : osem (esem (.inl i)) = SemLoc.dma (inSem i) := congrArg SemLoc.dma (Fin.ext rfl)
theorem osem_send (k : Fin 32) : osem (esem (.inr (.inl k))) = SemLoc.dma (sendSem k) :=
  congrArg SemLoc.dma (Fin.ext (by show 1 + (3 + k.val) = 4 + k.val; omega))
theorem osem_recv (j : Fin 32) : osem (esem (.inr (.inr j))) = SemLoc.dma (recvSem j) :=
  congrArg SemLoc.dma (Fin.ext (by show 1 + (3 + (32 + j.val)) = 36 + j.val; omega))

omit [FloatOps F] in
theorem ownSems0_eq (c : Dev nD) : (Pipeline.ownSems0 (Ix := Unit) (Name := ℕ) (U := UU) (Lvl := ℕ) (Val := Elt F) (τ := τ) osem c : sProp 𝕄)
    = iprop(inSems c ∗ (bigSep Finset.univ fun k : Fin 32 => semVal (sendCell c k) 0) ∗ (bigSep Finset.univ fun j : Fin 32 => semVal (recvCell c j) 0)) := by
  unfold Pipeline.ownSems0 inSems
  rw [bigSep_univ_equiv esem, bigSep_univ_sum, bigSep_univ_sum]
  refine congrArg₂ (fun a b : sProp 𝕄 => iprop(a ∗ b)) (bigSep_congr fun i _ => ?_)
    (congrArg₂ (fun a b : sProp 𝕄 => iprop(a ∗ b)) (bigSep_congr fun k _ => ?_) (bigSep_congr fun j _ => ?_))
  · exact congrArg (fun s : SemLoc sig => (semVal ((c : Thread nD τ), s) 0 : sProp 𝕄)) (osem_in i)
  · exact congrArg (fun s : SemLoc sig => (semVal ((c : Thread nD τ), s) 0 : sProp 𝕄)) (osem_send k)
  · exact congrArg (fun s : SemLoc sig => (semVal ((c : Thread nD τ), s) 0 : sProp 𝕄)) (osem_recv j)

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop(inSems c ∗ bigSep Finset.univ fun x : CJ => semVal (dcell c x) 0 : sProp 𝕄) := by
  rw [ownSems0_eq, unscopedSems0_eq, bigSep_dcell c (fun g => semVal g 0)]
  iintro ⟨⟨Hi, HS, HV⟩, HB⟩
  isplitl [Hi]; · iexact Hi
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CJ => iprop(∃ κ : ℕ, cellInv ER (rd m) κ (dcell c x)))
          ∗ (bigSep Finset.univ fun x : CJ => atPos ER (dcell c x) 0 ∅ 0)
          ∗ (bigSep Finset.univ fun x : CJ => reached ER (dcell c x) 0) ∗ toks c ∗ inSems c) := by
  unfold G
  iintro ⟨Hos, Hus, Hst, Hat, Hr, Htok⟩
  ihave Hv := (sems0_eq (F := F) c) $$ [Hos Hus]
  · isplitl [Hos] <;> iassumption
  icases Hv with ⟨Hin, Hv⟩
  imod (show iprop((bigSep Finset.univ fun x : CJ => semVal (dcell c x) 0) ∗ bigSep Finset.univ fun x : CJ => roundState ER (rd m) (dcell c x) 0)
      ⊢ (|={Set.univ}=> bigSep Finset.univ fun x : CJ => iprop(∃ κ : ℕ, cellInv ER (rd m) κ (dcell c x)) : sProp 𝕄) from by
        rw [← bigSep_sep']
        exact (bigSep_mono fun x _ => (Rounds.body_intro ER (rd m) (dcell c x)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hin

/-- What the global step makes of it (`G'`): the ghost state and the three input-copy counters. -/
def G' (c : Dev nD) : sProp 𝕄 := iprop((∃ K, ghost m K c) ∗ inSems c)

omit [FloatOps F] in
/-- A family over all the cells, cell kind by cell kind. -/
theorem bigSep_cells3 (Φ : GSem nD τ sig → sProp 𝕄) :
    bigSep ringCells Φ = iprop((bigSep Finset.univ fun d : Dev nD => Φ (barCell d))
      ∗ (bigSep Finset.univ fun dk : Dev nD × Fin 32 => Φ (sendCell dk.1 dk.2))
      ∗ (bigSep Finset.univ fun dk : Dev nD × Fin 32 => Φ (recvCell dk.1 dk.2))) := by
  rw [bigSep_ringCells, bigSep_congr (s := Finset.univ) (fun (c : Dev nD) _ => bigSep_dcell c Φ), bigSep_sep', bigSep_sep',
    bigSep_univ_prod (fun dk : Dev nD × Fin 32 => Φ (sendCell dk.1 dk.2)), bigSep_univ_prod (fun dk : Dev nD × Fin 32 => Φ (recvCell dk.1 dk.2))]

theorem records_intro (K : GSem nD τ sig → ℕ) :
    iprop((bigSep ringCells fun g => cellInv ER (rd m) (K g) g) ∗ bigSep ringCells fun g => reached ER g 0) ⊢ records m K := by
  rw [bigSep_cells3, bigSep_cells3]
  unfold records
  iintro ⟨⟨I1, I2, I3⟩, R1, R2, R3⟩
  isplitl [I1]; · iexact I1
  isplitl [I2]; · iexact I2
  isplitl [I3]; · iexact I3
  isplitl [R1]; · iexact R1
  isplitl [R2]; · iexact R2
  iexact R3

/-! ## Dealing the tokens: each device gets the token of every duty it pays -/

theorem slotOf_slotOf (k : Fin 32) : slotOf (slotOf k) = k := by revert k; decide

/-- Copy `k` of device `c` lands in slot `slotOf k` of device `peer c k`; read from that device, it is copy `slotOf k`
    counted backwards: the pairing is its own inverse. -/
def landing : Equiv.Perm (Dev nD × Fin 32) :=
  Function.Involutive.toPerm (fun ck => (peer ck.1 ck.2, slotOf ck.2))
    (fun ck => Prod.ext (peer_slotOf ck.1 ck.2) (slotOf_slotOf ck.2))

omit [FloatOps F] in
theorem toks_around : (bigSep Finset.univ fun c : Dev nD => (toks c : sProp 𝕄)) ⊢ bigSep Finset.univ fun c : Dev nD => payToks c := by
  unfold payToks
  rw [bigSep_congr (s := Finset.univ) (fun (c : Dev nD) _ => toks_eq c),
    bigSep_sep', bigSep_sep', bigSep_sep', bigSep_sep',
    BI.bigSep_univ_comm (fun (c : Dev nD) (p : Dev nD) => (dutyTok ER (barCell c) 0 (p : Fin 32) : sProp 𝕄)),
    bigSep_prod' (fun c j => (dutyTok ER (recvCell c j) 0 (0 : Fin 32) : sProp 𝕄)),
    bigSep_prod' (fun c k => (dutyTok ER (recvCell (peer c k) (slotOf k)) 0 (0 : Fin 32) : sProp 𝕄)),
    bigSep_univ_equiv landing (fun ck : Dev nD × Fin 32 => (dutyTok ER (recvCell ck.1 ck.2) 0 (0 : Fin 32) : sProp 𝕄))]
  exact Entails.of_eq rfl

/-! ## The global step -/

theorem ghost_intro (K : GSem nD τ sig → ℕ) (c : Dev nD) :
    iprop(records m K ∗ ((bigSep Finset.univ fun x : CJ => atPos ER (dcell c x) 0 ∅ 0) ∗ payToks c ∗ inSems c)) ⊢ G' m c := by
  unfold G' ghost positions
  rw [bigSep_dcell c (fun g => atPos ER g 0 ∅ 0)]
  iintro ⟨#HR, ⟨HaB, HaS, HaV⟩, Htok, Hin⟩
  isplitr [Hin]
  · iexists K
    isplitr; · iexact HR
    isplitl [HaB HaS HaV]
    · isplitl [HaB]; · iexact HaB
      isplitl [HaS] <;> iassumption
    iexact Htok
  iexact Hin

theorem regroup :
    (bigSep Finset.univ fun c : Dev nD => iprop((bigSep Finset.univ fun x : CJ => iprop(∃ κ : ℕ, cellInv ER (rd m) κ (dcell c x)))
          ∗ (bigSep Finset.univ fun x : CJ => atPos ER (dcell c x) 0 ∅ 0)
          ∗ (bigSep Finset.univ fun x : CJ => reached ER (dcell c x) 0) ∗ toks c ∗ inSems c) : sProp 𝕄)
      ⊢ bigSep Finset.univ (G' m) := by
  rw [bigSep_sep', bigSep_sep', bigSep_sep', bigSep_sep',
    ← bigSep_ringCells (fun g => iprop(∃ κ : ℕ, cellInv ER (rd m) κ g)), ← bigSep_ringCells (fun g => reached ER g 0)]
  iintro ⟨HI, Hat, #HR, Htok, Hin⟩
  ihave HK := (BI.bigSep_exists_pi ringCells (fun (g : GSem nD τ sig) (κ : ℕ) => (cellInv ER (rd m) κ g : sProp 𝕄))) $$ HI
  icases HK with ⟨%K, #HI⟩
  ihave Htk := (toks_around (F := F)) $$ Htok
  iapply (bigSep_with_persistent (R := records m K) fun c _ => ghost_intro m K c)
  isplitr
  · iapply (records_intro m K); isplitl; · iexact HI
    iexact HR
  · rw [bigSep_sep', bigSep_sep']
    isplitl [Hat]; · iexact Hat
    isplitl [Htk]; · iexact Htk
    iexact Hin

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨Hargs, Hlev, Hcr, -, HG, Hin⟩
  ihave Hc := (launch_credits (F := F) c) $$ Hcr
  imodintro
  unfold start args
  isplitl
  · isplitl [HG]; · iexact HG
    isplitl [Hc]; · iexact Hc
    isplitl [Hlev]; · iexact Hlev
    isplitl [Hin]; · iexact Hin
    iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(args m c ∗ Pipeline.ownSems0 osem c ∗ Pipeline.scopedRest cfg0.spec c) := by
  rw [show (dats m ρ 0 c).Φ (Fin.last cfg0.N) = Φ₁ m c from rfl, scopedRest0_eq]
  unfold Φ₁ scratch Pipeline.ownSems0
  iintro ⟨Ha, Hs, Hz⟩
  isplitl [Ha]; · iexact Ha
  isplitl [Hz]; · iexact Hz
  iexact Hs

theorem waits (c : Dev nD) : (levAts L lv : sProp 𝕄) ⊢ Pipeline.cellsWaits cfgs (dats m ρ) () 0 c :=
  Pipeline.cellsWaits_intro cfgs (dats m ρ) () 0 c fun w s t => by
    rcases t with ⟨_ | t, ht⟩
    · exact mayWait_low c _ (by fin_cases w <;> fin_cases s <;> decide) 32 le_rfl
    · rw [show (dats m ρ 0 c).owed ⟨t + 1, ht⟩ = 0 from rfl, MayWait_zero]
      iintro -; iempintro

/-- The three argument arrays, held whole, are what the memory holds. -/
theorem args_read (c : Dev nD) (s' : Phys nD τ sig (Elt F)) :
    iprop(args m c ∗ emp ∗ SI s') ⊢ (|={Set.univ}=> iprop(⌜s'.mem.mem ((c : Thread nD τ).loc main_arg0) = m ((c : Thread nD τ).loc main_arg0)
        ∧ s'.mem.mem ((c : Thread nD τ).loc main_arg1) = m ((c : Thread nD τ).loc main_arg1)
        ∧ s'.mem.mem ((c : Thread nD τ).loc main_arg2) = m ((c : Thread nD τ).loc main_arg2)⌝ ∗ SI s') : sProp 𝕄) := by
  unfold args
  iintro ⟨⟨H0, H1, H2⟩, -, HSI⟩
  icombine HSI H0 gives %h0
  icombine HSI H1 gives %h1
  icombine HSI H2 gives %h2
  imodintro
  isplitr; · ipureintro; exact ⟨Buf.eq_of_forall_mem_univ h0, Buf.eq_of_forall_mem_univ h1, Buf.eq_of_forall_mem_univ h2⟩
  iexact HSI

/-! ## The result array -/

/-- The result array after the one write-back is what the body left in the staging buffer: the device's result block.
    The window's one block is the whole array, so reading the block reads the array. -/
theorem final_out (c : Dev nD) :
    (dats m ρ 0 c).arrAt (0 : Fin 1) cfg0.N = (Cert.Kernel.KVal.out (xIn m) (gIn m) (bIn m) c : FVec F S768x512 .bf16) := by
  have h1 : ((cfg0.win (0 : Fin 1)).blk (0 : Fin 1)).view.read (Elt F) ((dats m ρ 0 c).arrAt (0 : Fin 1) cfg0.N) = (dats m ρ 0 c).flushed (0 : Fin 1) (0 : Fin 1) := by
    rw [show cfg0.N = ((0 : Fin 1) : Fin cfg0.N).val + 1 from rfl, (dats m ρ 0 c).arrAt_succ (0 : Fin 1) (0 : Fin 1)]
    rw [show (cfg0.win (0 : Fin 1)).flush (0 : Fin 1) = true from flush0_0 _, if_pos rfl]
    exact View.read_write_univ _ _
  have hz : (fun a => (win0_0.index (0 : Fin 1)) a * main_v1.ty.shape.size a) = fun _ => 0 := funext fun a => by fin_cases a <;> decide
  have hr := fun f => Memref.read_access_unit_zero (Elt F) main_v1 hz (fun a => by fin_cases a <;> decide) f
  rw [hr] at h1
  exact h1

/-! ## The run -/

set_option maxRecDepth 20000 in
/-- From any memory with every semaphore at zero, every weakly fair execution of the program on the 32 devices ends,
    nothing faults, every device's result array holds its result block and its three argument arrays are unchanged. -/
theorem run_main : θ_run defs (onTc (τ := τ) (main (F := F))) ⟨m, fun _ => 0, ρ⟩ (fun r => ∀ c : Dev nD,
    r.2.mem ((c.tc : Thread nD τ).loc main_v1) = (Cert.Kernel.KVal.out (xIn m) (gIn m) (bIn m) c : FVec F S768x512 .bf16)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX' := (own_pair_emb _ _ _) $$ HX
      icases HX' with ⟨HR, -⟩
      imod (fund_ring m) $$ HR with HG
      imodintro
      isplitl [HP] <;> iassumption)
    (hglob := glob m)
    (hA := fun _ _ => rfl) (hpf := fun _ k => k.elim0)
    (X := start m) (Y := args m) (Z := fun _ => iprop(emp))
    (hX := start_intro m ρ) (hin := phi0_intro m ρ) (hout := phi1_exit m ρ)
    (QY := fun c s => s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2))
    (hY := args_read m)
    (hQ := fun s h c => ⟨((h c).1 (0 : Fin 1)).trans (final_out m ρ c), (h c).2.2⟩)

/-- info: 'Cert.Kernel.Proto.run_main' depends on axioms: [propext, Classical.choice, Quot.sound] -/
#guard_msgs in #print axioms run_main

end Cert.Kernel.Proto

end
-- ==== Proof.RefSpec.lean ====
import proofs.«900828_g7700000000000829_dist_layernorm_colshard_i_m768_n512_v7x_i32_bf16_1_alg».proof.ReferenceIdeal
import proofs.«900828_g7700000000000829_dist_layernorm_colshard_i_m768_n512_v7x_i32_bf16_1_alg».proof.Proof.Gen.ReferenceIdeal

/-!
# What the reference computes, as a pure term

The reference normalises each of the 768 rows of the whole 768 × 16384 array: the row's mean (its sum over
16384), the row's variance as the mean of the squared deviations from that mean (the divisor 16384 − 0 is positive,
so the guarded quotient is the quotient), and `gamma · (x − mean) / sqrt (variance + ε) + beta`, entry by entry.
The term below is the composition of the reference's host operations in their order.
-/

noncomputable section

namespace Cert.ReferenceIdeal.RefSpec

open Idealize.ShloMosaic Cert.ReferenceIdeal Cert.ReferenceIdeal.Gen

variable {F : FTy → Type} [FloatOps F]

/-- Each row's mean, as a column. -/
def mean (X : FVec F S768x16384 .f32) : FVec F S768x1 .f32 :=
  Host.divf (broadcastInDim S768x1 ![0] bcast_S768_S768x1_0 (Host.reduceAdd X (constant S_ .f32 0x00000000#32) reducesTo_S768x16384_S768_d1 h_S_))
    (broadcastInDim S768x1 ![] bcast_S_S768x1 (constant S_ .f32 0x46800000#32))

/-- The divisor of the variance: 16384 minus zero degrees of freedom. -/
def count : FVec F S_ .f32 := subf (constant S_ .f32 0x46800000#32) (sitofp .f32 (constantI S_ 32 0#32))

/-- Each row's variance, as a column: the mean squared deviation, kept where the divisor is positive. -/
def var (X : FVec F S768x16384 .f32) : FVec F S768x1 .f32 :=
  select (broadcastInDim S768x1 ![] bcast_S_S768x1 (cmpf .ogt (count (F := F)) (constant S_ .f32 0x00000000#32)))
    (Host.divf
      (broadcastInDim S768x1 ![0] bcast_S768_S768x1_0
        (Host.reduceAdd
          (mulf (subf X (broadcastInDim S768x16384 ![0, 1] bcast_S768x1_S768x16384_0_1 (mean X)))
                (subf X (broadcastInDim S768x16384 ![0, 1] bcast_S768x1_S768x16384_0_1 (mean X))))
          (constant S_ .f32 0x00000000#32) reducesTo_S768x16384_S768_d1 h_S_))
      (broadcastInDim S768x1 ![] bcast_S_S768x1 (count (F := F))))
    (broadcastInDim S768x1 ![] bcast_S_S768x1 (id (constant S_ .f32 0x7FC00000#32)))

/-- The reference's result. -/
def out (X : FVec F S768x16384 .f32) (G B : FVec F S16384 .f32) : FVec F S768x16384 .bf16 :=
  truncf .bf16
    (addf
      (Host.divf
        (mulf (broadcastInDim S768x16384 ![0, 1] bcast_S1x16384_S768x16384_0_1 (broadcastInDim S1x16384 ![1] bcast_S16384_S1x16384_1 G))
              (subf X (broadcastInDim S768x16384 ![0, 1] bcast_S768x1_S768x16384_0_1 (mean X))))
        (broadcastInDim S768x16384 ![0, 1] bcast_S768x1_S768x16384_0_1
          (Host.sqrt (addf (var X) (broadcastInDim S768x1 ![] bcast_S_S768x1 (constant S_ .f32 0x3727C5AC#32))))))
      (broadcastInDim S768x16384 ![0, 1] bcast_S1x16384_S768x16384_0_1 (broadcastInDim S1x16384 ![1] bcast_S16384_S1x16384_1 B)))
    bitsLt_bf16_f32

end Cert.ReferenceIdeal.RefSpec

end
-- ==== Proof.RefRun.lean ====
import proofs.«900828_g7700000000000829_dist_layernorm_colshard_i_m768_n512_v7x_i32_bf16_1_alg».proof.Proof.RefSpec
import Idealize.ShloMosaic.Lib.StableHlo.Run
import Idealize.ShloMosaic.PureOps.Ideal
import Idealize.ShloMosaic.Adequacy
import Idealize.ShloMosaic.Init

noncomputable section

namespace Cert.RefRun

open Idealize.ShloMosaic Idealize.SL.Sem Cert.ReferenceIdeal Cert.ReferenceIdeal.Gen

/-- A buffer of the reference's one device. -/
abbrev L0 (b : Ref sig .tc) : Loc nD τ sig := (((0 : Dev nD).tc : Thread nD τ)).loc b

section Line

open Idealize.ShloMosaic.StableHlo

variable {F : FTy → Type} [FloatOps F]

/-- The reference as one straight line of its 45 host operations: the seven of the main function before the
    call, the twenty of the variance function with the three of the guarded choice it calls in turn, each
    over the buffers the call's record names, then the main function's remaining fifteen. -/
abbrev ops : List (HloOp τ sig (Elt F)) :=
  [ nullary main_cst (constant S_ .f32 0x00000000#32),
    binary main_arg0 main_cst main_v0 ((fun x v => Host.reduceAdd x v reducesTo_S768x16384_S768_d1 h_S_) : (⟨S768x16384, .f32⟩ : BufTy).Contents (Elt F) → (⟨S_, .f32⟩ : BufTy).Contents (Elt F) → (⟨S768, .f32⟩ : BufTy).Contents (Elt F)),
    unary main_v0 main_v1 (broadcastInDim S768x1 ![0] bcast_S768_S768x1_0 : (⟨S768, .f32⟩ : BufTy).Contents (Elt F) → (⟨S768x1, .f32⟩ : BufTy).Contents (Elt F)),
    nullary main_cst_0 (constant S_ .f32 0x46800000#32),
    unary main_cst_0 main_v2 (broadcastInDim S768x1 ![] bcast_S_S768x1 : (⟨S_, .f32⟩ : BufTy).Contents (Elt F) → (⟨S768x1, .f32⟩ : BufTy).Contents (Elt F)),
    binary main_v1 main_v2 main_v3 (Host.divf : (⟨S768x1, .f32⟩ : BufTy).Contents (Elt F) → (⟨S768x1, .f32⟩ : BufTy).Contents (Elt F) → (⟨S768x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S768x16384_S768_d1 h_S_),
    TRef.unary main_call0.v0 main_call0.v1 (broadcastInDim S768x1 ![0] bcast_S768_S768x1_0),
    TRef.nullary main_call0.cst_0 (constant S_ .f32 0x46800000#32),
    TRef.unary main_call0.cst_0 main_call0.v2 (broadcastInDim S768x1 ![] bcast_S_S768x1),
    TRef.binary main_call0.v1 main_call0.v2 main_call0.v3 Host.divf,
    TRef.unary main_call0.v3 main_call0.v4 (broadcastInDim S768x16384 ![0, 1] bcast_S768x1_S768x16384_0_1),
    TRef.binary (.of main_arg0) main_call0.v4 main_call0.v5 subf,
    TRef.binary main_call0.v5 main_call0.v5 main_call0.v6 mulf,
    TRef.unary (.of main_c) main_call0.v7 (sitofp (F := F) .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S768x16384_S768_d1 h_S_),
    TRef.unary main_call0.v9 main_call0.v10 (broadcastInDim S768x1 ![0] bcast_S768_S768x1_0),
    TRef.unary main_call0.v8 main_call0.v11 (broadcastInDim S768x1 ![] bcast_S_S768x1),
    TRef.binary main_call0.v10 main_call0.v11 main_call0.v12 Host.divf,
    TRef.nullary main_call0.cst_3 (constant S_ .f32 0x00000000#32),
    TRef.binary main_call0.v8 main_call0.cst_3 main_call0.v13 (cmpf (F := F) .ogt),
    TRef.nullary main_call0.cst_4 (constant S_ .f32 0x7FC00000#32),
    TRef.unary main_call0.cst_4 main_call0.call0.v0 id,
    TRef.unary main_call0.call0.v0 main_call0.call0.v1 (broadcastInDim S768x1 ![] bcast_S_S768x1),
    TRef.ternary main_call0.v13 main_call0.v12 main_call0.call0.v1 main_call0.call0.v2 (fun p a b => select (broadcastInDim S768x1 ![] bcast_S_S768x1 p) a b),
    unary main_v3 main_v5 (broadcastInDim S768x16384 ![0, 1] bcast_S768x1_S768x16384_0_1 : (⟨S768x1, .f32⟩ : BufTy).Contents (Elt F) → (⟨S768x16384, .f32⟩ : BufTy).Contents (Elt F)),
    binary main_arg0 main_v5 main_v6 (subf : (⟨S768x16384, .f32⟩ : BufTy).Contents (Elt F) → (⟨S768x16384, .f32⟩ : BufTy).Contents (Elt F) → (⟨S768x16384, .f32⟩ : BufTy).Contents (Elt F)),
    unary main_arg1 main_v7 (broadcastInDim S1x16384 ![1] bcast_S16384_S1x16384_1 : (⟨S16384, .f32⟩ : BufTy).Contents (Elt F) → (⟨S1x16384, .f32⟩ : BufTy).Contents (Elt F)),
    unary main_v7 main_v8 (broadcastInDim S768x16384 ![0, 1] bcast_S1x16384_S768x16384_0_1 : (⟨S1x16384, .f32⟩ : BufTy).Contents (Elt F) → (⟨S768x16384, .f32⟩ : BufTy).Contents (Elt F)),
    binary main_v8 main_v6 main_v9 (mulf : (⟨S768x16384, .f32⟩ : BufTy).Contents (Elt F) → (⟨S768x16384, .f32⟩ : BufTy).Contents (Elt F) → (⟨S768x16384, .f32⟩ : BufTy).Contents (Elt F)),
    nullary main_cst_1 (constant S_ .f32 0x3727C5AC#32),
    unary main_cst_1 main_v10 (broadcastInDim S768x1 ![] bcast_S_S768x1 : (⟨S_, .f32⟩ : BufTy).Contents (Elt F) → (⟨S768x1, .f32⟩ : BufTy).Contents (Elt F)),
    binary main_v4 main_v10 main_v11 (addf : (⟨S768x1, .f32⟩ : BufTy).Contents (Elt F) → (⟨S768x1, .f32⟩ : BufTy).Contents (Elt F) → (⟨S768x1, .f32⟩ : BufTy).Contents (Elt F)),
    unary main_v11 main_v12 (Host.sqrt : (⟨S768x1, .f32⟩ : BufTy).Contents (Elt F) → (⟨S768x1, .f32⟩ : BufTy).Contents (Elt F)),
    unary main_v12 main_v13 (broadcastInDim S768x16384 ![0, 1] bcast_S768x1_S768x16384_0_1 : (⟨S768x1, .f32⟩ : BufTy).Contents (Elt F) → (⟨S768x16384, .f32⟩ : BufTy).Contents (Elt F)),
    binary main_v9 main_v13 main_v14 (Host.divf : (⟨S768x16384, .f32⟩ : BufTy).Contents (Elt F) → (⟨S768x16384, .f32⟩ : BufTy).Contents (Elt F) → (⟨S768x16384, .f32⟩ : BufTy).Contents (Elt F)),
    unary main_arg2 main_v15 (broadcastInDim S1x16384 ![1] bcast_S16384_S1x16384_1 : (⟨S16384, .f32⟩ : BufTy).Contents (Elt F) → (⟨S1x16384, .f32⟩ : BufTy).Contents (Elt F)),
    unary main_v15 main_v16 (broadcastInDim S768x16384 ![0, 1] bcast_S1x16384_S768x16384_0_1 : (⟨S1x16384, .f32⟩ : BufTy).Contents (Elt F) → (⟨S768x16384, .f32⟩ : BufTy).Contents (Elt F)),
    binary main_v14 main_v16 main_v17 (addf : (⟨S768x16384, .f32⟩ : BufTy).Contents (Elt F) → (⟨S768x16384, .f32⟩ : BufTy).Contents (Elt F) → (⟨S768x16384, .f32⟩ : BufTy).Contents (Elt F)),
    unary main_v17 main_v18 ((truncf .bf16 · bitsLt_bf16_f32) : (⟨S768x16384, .f32⟩ : BufTy).Contents (Elt F) → (⟨S768x16384, .bf16⟩ : BufTy).Contents (Elt F)) ]

set_option maxRecDepth 1024 in
/-- The main function is that line: the two callees unfolded at their calls, both sides are one chain of host
    steps once the sequencing is reassociated. -/
theorem main_eq (c : Dev nD) : main (F := F) c = seq ops := by
  simp only [main, fn_var.body, fn_where.body, seq, bind_assoc, pure_bind]

/-- No buffer of the reference is scoped to a region, and it has no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the one core only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub ..⟩

attribute [local irreducible] Host.reduceAdd in
set_option maxRecDepth 8192 in
/-- What the result buffer holds after the line is the composed term: each operation's result read at its own
    buffer is its function of what its operands hold, and at any other buffer what was there; the 48 buffers
    are pairwise distinct. -/
theorem out_eq (V : Valuation τ sig (Elt F)) :
    after ops V (Proc.devRef .tc main_v18)
      = Cert.ReferenceIdeal.RefSpec.out (F := F) (V (Proc.devRef .tc main_arg0)) (V (Proc.devRef .tc main_arg1)) (V (Proc.devRef .tc main_arg2)) := by
  after_results_simp
  rfl

/-- No operation of the line writes an argument. -/
theorem arg0_eq (V : Valuation τ sig (Elt F)) :
    after ops V (Proc.devRef .tc main_arg0) = V (Proc.devRef .tc main_arg0) := by
  after_results_simp
theorem arg1_eq (V : Valuation τ sig (Elt F)) :
    after ops V (Proc.devRef .tc main_arg1) = V (Proc.devRef .tc main_arg1) := by
  after_results_simp
theorem arg2_eq (V : Valuation τ sig (Elt F)) :
    after ops V (Proc.devRef .tc main_arg2) = V (Proc.devRef .tc main_arg2) := by
  after_results_simp

end Line

/-- Every weakly fair execution of the reference ends, with its result at the composed term of its arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r =>
      r.2.mem (L0 main_v18) = Cert.ReferenceIdeal.RefSpec.out (F := Ideal) (m (L0 main_arg0)) (m (L0 main_arg1)) (m (L0 main_arg2))
      ∧ r.2.mem (L0 main_arg0) = m (L0 main_arg0)
      ∧ r.2.mem (L0 main_arg1) = m (L0 main_arg1)
      ∧ r.2.mem (L0 main_arg2) = m (L0 main_arg2)) :=
  (θ_run defs _ _).mono (fun _ h => ⟨(h 0 main_v18).trans (out_eq _), (h 0 main_arg0).trans (arg0_eq _),
      (h 0 main_arg1).trans (arg1_eq _), (h 0 main_arg2).trans (arg2_eq _)⟩)
    (StableHlo.run_seq scopedRefs_eq scopedSems_eq defs main (fun _ => ops) main_eq (fun _ => ops_sub) m ρ)

end Cert.RefRun

end
-- ==== Proof.Forms.lean ====
import Idealize.ShloMosaic.PureOps.Ideal

/-!
# The two sides as formulas over the extended reals

The kernel's and the reference's results written index by index over plain index types, with the float
literals kept as the words the programs print: `q` is 1/4, `s` is 2⁻¹², `n` is 16384, `eps` the single-precision
number nearest 10⁻⁵.

Kernel: every device `d` contributes a quarter of its block's row sum; the 32 contributions are added and scaled
by 2⁻¹², which is the row's mean over all 16384 columns; the same with squares gives the mean square, and the
deviation is `mean square − mean²`.  Reference: the mean is the row sum over 16384, the variance the mean squared
distance from it.
-/

noncomputable section

namespace Cert.Forms

open Idealize.ShloMosaic

def q : EReal := Ideal.ofBits .f32 0x3E800000#32
def s : EReal := Ideal.ofBits .f32 0x39800000#32
def eps : EReal := Ideal.ofBits .f32 0x3727C5AC#32
def n : EReal := Ideal.ofBits .f32 0x46800000#32

/-- The kernel's row mean: the devices' quartered row sums, added and scaled. -/
def kmean (x : Fin 32 → Fin 768 → Fin 512 → EReal) (r : Fin 768) : EReal := (∑ d, (∑ j, x d r j) * q) * s
/-- The kernel's row mean square. -/
def kmsq (x : Fin 32 → Fin 768 → Fin 512 → EReal) (r : Fin 768) : EReal := (∑ d, (∑ j, x d r j * x d r j) * q) * s
/-- The kernel's result on device `c` at row `r`, column `j` of its block. -/
def kout (x : Fin 32 → Fin 768 → Fin 512 → EReal) (g b : Fin 32 → Fin 512 → EReal) (c : Fin 32) (r : Fin 768) (j : Fin 512) : EReal :=
  ((x c r j - kmean x r) * Ideal.rsqrt (kmsq x r - kmean x r * kmean x r + eps)) * g c j + b c j

/-- The reference's row mean. -/
def rmean (X : Fin 768 → Fin 16384 → EReal) (r : Fin 768) : EReal := Ideal.div (∑ J, X r J) n
/-- The reference's row variance. -/
def rvar (X : Fin 768 → Fin 16384 → EReal) (r : Fin 768) : EReal :=
  Ideal.div (∑ J, (X r J - rmean X r) * (X r J - rmean X r)) n
/-- The reference's result at row `r`, column `J` of the whole array. -/
def rout (X : Fin 768 → Fin 16384 → EReal) (G B : Fin 16384 → EReal) (r : Fin 768) (J : Fin 16384) : EReal :=
  Ideal.div (G J * (X r J - rmean X r)) (Ideal.sqrt (rvar X r + eps)) + B J

/-- Column `j` of block `d` is column `512 d + j` of the whole array. -/
def col (d : Fin 32) (j : Fin 512) : Fin 16384 := ⟨d.val * 512 + j.val, by have := d.isLt; have := j.isLt; omega⟩

end Cert.Forms

end
-- ==== Proof.KForm.lean ====
import proofs.«900828_g7700000000000829_dist_layernorm_colshard_i_m768_n512_v7x_i32_bf16_1_alg».proof.Proof.Spec
import proofs.«900828_g7700000000000829_dist_layernorm_colshard_i_m768_n512_v7x_i32_bf16_1_alg».proof.Proof.Forms
import Idealize.ShloMosaic.Lib.ValueIdx
import Idealize.ShloMosaic.Lib.ValueLayout
import Idealize.ShloMosaic.PureOps.Ideal.Laws

noncomputable section

namespace Cert.KForm

open Idealize.ShloMosaic Idealize.ShloMosaic.ValueIdx Cert.KernelIdeal Cert.KernelIdeal.Gen

/-- A row of a 768 × 512 block summed along its columns: the inserted index is (r, k). -/
theorem rowsum_at (v : FVec Ideal S768x512 .f32) (h : S768x512.Reduces [1] S768) (hφ : FKind.Formats .f32)
    (hacc : (0x00000000#32 : BitVec 32) = 0x00000000#32) (r : Fin 768) :
    multiReduction (F := Ideal) .add [1] S768 v 0x00000000#32 h hφ hacc (ix1 r) = ∑ k : Fin 512, v (ix2 r k) := by
  refine (Ideal.multiReduction_add_single v 0x00000000#32 h hφ hacc (ix1 r)).trans ?_
  refine Finset.sum_congr rfl fun k _ => congrArg v ?_
  funext a
  match a with
  | ⟨0, _⟩ => rfl
  | ⟨1, _⟩ => rfl

theorem pay1_at (x : Vec Ideal S768x512 .f32) (r : Fin 768) :
    k0_pay1 (F := Ideal) x (ix1 r) = (∑ k : Fin 512, x (ix2 r k)) * Cert.Forms.q := by
  unfold k0_pay1
  show (multiReduction (F := Ideal) .add [1] S768 x 0x00000000#32 _ _ _ (ix1 r)) * _ = _
  rw [rowsum_at]
  rfl

theorem pay2_at (x : Vec Ideal S768x512 .f32) (r : Fin 768) :
    k0_pay2 (F := Ideal) x (ix1 r) = (∑ k : Fin 512, x (ix2 r k) * x (ix2 r k)) * Cert.Forms.q := by
  unfold k0_pay2
  show (multiReduction (F := Ideal) .add [1] S768 (mulf x x) 0x00000000#32 _ _ _ (ix1 r)) * _ = _
  rw [rowsum_at]
  rfl

/-- Row 0 of what a device sends: the quartered row sums of its block. -/
theorem mine_row0 (x : Vec Ideal S768x512 .f32) (r : Fin 768) :
    KVal.mine (F := Ideal) x (ix2 (0 : Fin 2) r) = (∑ k : Fin 512, x (ix2 r k)) * Cert.Forms.q :=
  pay1_at x r

/-- Row 1: the quartered row sums of squares. -/
theorem mine_row1 (x : Vec Ideal S768x512 .f32) (r : Fin 768) :
    KVal.mine (F := Ideal) x (ix2 (1 : Fin 2) r) = (∑ k : Fin 512, x (ix2 r k) * x (ix2 r k)) * Cert.Forms.q :=
  pay2_at x r

/-- Eight slots' row `a` (the slice at offset `(0, a, 0)`, flattened to 8 × 768) added up over the slots. -/
theorem slotsum0_at (w : FVec Ideal S8x2x768 .f32) (h1 : S8x2x768.Slices ![0, 0, 0] S8x1x768)
    (h2 : S8x1x768.ShapeCasts S8x768) (h3 : S8x768.Reduces [0] S768) (hφ : FKind.Formats .f32)
    (hacc : (0x00000000#32 : BitVec 32) = 0x00000000#32) (r : Fin 768) :
    multiReduction (F := Ideal) .add [0] S768 (shapeCast S8x768 (extractStridedSlice S8x1x768 ![0, 0, 0] w h1) h2)
        0x00000000#32 h3 hφ hacc (ix1 r) = ∑ s : Fin 8, w (ix3 s (0 : Fin 2) r) := by
  refine (Ideal.multiReduction_add_single _ 0x00000000#32 h3 hφ hacc (ix1 r)).trans ?_
  refine Finset.sum_congr rfl fun s _ => ?_
  have hl : h3.lift (ix1 r) s = ix2 s r := by
    funext a
    match a with
    | ⟨0, _⟩ => rfl
    | ⟨1, _⟩ => rfl
  rw [hl]
  refine (shapeCast_apply _ h2 (ix2 s r) (ix3 s (0 : Fin 1) r) ?_).trans ?_
  · rw [Shape.rowMajor_val_three, Shape.rowMajor_val_two]
    show (s.val * 1 + 0) * 768 + r.val = s.val * 768 + r.val
    omega
  · refine extractStridedSlice_apply _ w h1 (ix3 s (0 : Fin 1) r) (ix3 s (0 : Fin 2) r) fun a => ?_
    match a with
    | ⟨0, _⟩ => exact (Nat.zero_add _).symm
    | ⟨1, _⟩ => rfl
    | ⟨2, _⟩ => exact (Nat.zero_add _).symm

theorem slotsum1_at (w : FVec Ideal S8x2x768 .f32) (h1 : S8x2x768.Slices ![0, 1, 0] S8x1x768)
    (h2 : S8x1x768.ShapeCasts S8x768) (h3 : S8x768.Reduces [0] S768) (hφ : FKind.Formats .f32)
    (hacc : (0x00000000#32 : BitVec 32) = 0x00000000#32) (r : Fin 768) :
    multiReduction (F := Ideal) .add [0] S768 (shapeCast S8x768 (extractStridedSlice S8x1x768 ![0, 1, 0] w h1) h2)
        0x00000000#32 h3 hφ hacc (ix1 r) = ∑ s : Fin 8, w (ix3 s (1 : Fin 2) r) := by
  refine (Ideal.multiReduction_add_single _ 0x00000000#32 h3 hφ hacc (ix1 r)).trans ?_
  refine Finset.sum_congr rfl fun s _ => ?_
  have hl : h3.lift (ix1 r) s = ix2 s r := by
    funext a
    match a with
    | ⟨0, _⟩ => rfl
    | ⟨1, _⟩ => rfl
  rw [hl]
  refine (shapeCast_apply _ h2 (ix2 s r) (ix3 s (0 : Fin 1) r) ?_).trans ?_
  · rw [Shape.rowMajor_val_three, Shape.rowMajor_val_two]
    show (s.val * 1 + 0) * 768 + r.val = s.val * 768 + r.val
    omega
  · refine extractStridedSlice_apply _ w h1 (ix3 s (0 : Fin 1) r) (ix3 s (1 : Fin 2) r) fun a => ?_
    match a with
    | ⟨0, _⟩ => exact (Nat.zero_add _).symm
    | ⟨1, _⟩ => rfl
    | ⟨2, _⟩ => exact (Nat.zero_add _).symm

/-- One accumulation step on the sums: the running total plus the eight slots' row 0. -/
theorem pay13_at (t : FVec Ideal S768 .f32) (v : Vec Ideal S8x2x768 .bf16) (r : Fin 768) :
    k0_pay13 (F := Ideal) t v (ix1 r) = t (ix1 r) + ∑ s : Fin 8, v (ix3 s (0 : Fin 2) r) := by
  unfold k0_pay13 k0_pay12
  show t (ix1 r) + multiReduction (F := Ideal) .add [0] S768 _ 0x00000000#32 _ _ _ (ix1 r) = _
  rw [slotsum0_at]
  rfl

theorem pay16_at (t : FVec Ideal S768 .f32) (v : Vec Ideal S8x2x768 .bf16) (r : Fin 768) :
    k0_pay16 (F := Ideal) t v (ix1 r) = t (ix1 r) + ∑ s : Fin 8, v (ix3 s (0 : Fin 2) r) := by
  unfold k0_pay16 k0_pay15
  show t (ix1 r) + multiReduction (F := Ideal) .add [0] S768 _ 0x00000000#32 _ _ _ (ix1 r) = _
  rw [slotsum0_at]
  rfl

theorem pay19_at (t : FVec Ideal S768 .f32) (v : Vec Ideal S8x2x768 .bf16) (r : Fin 768) :
    k0_pay19 (F := Ideal) t v (ix1 r) = t (ix1 r) + ∑ s : Fin 8, v (ix3 s (0 : Fin 2) r) := by
  unfold k0_pay19 k0_pay18
  show t (ix1 r) + multiReduction (F := Ideal) .add [0] S768 _ 0x00000000#32 _ _ _ (ix1 r) = _
  rw [slotsum0_at]
  rfl

/-- The same step on the sums of squares: the running total plus the eight slots' row 1. -/
theorem pay14_at (t : FVec Ideal S768 .f32) (v : Vec Ideal S8x2x768 .bf16) (r : Fin 768) :
    k0_pay14 (F := Ideal) t v (ix1 r) = t (ix1 r) + ∑ s : Fin 8, v (ix3 s (1 : Fin 2) r) := by
  unfold k0_pay14 k0_pay12
  show t (ix1 r) + multiReduction (F := Ideal) .add [0] S768 _ 0x00000000#32 _ _ _ (ix1 r) = _
  rw [slotsum1_at]
  rfl

theorem pay17_at (t : FVec Ideal S768 .f32) (v : Vec Ideal S8x2x768 .bf16) (r : Fin 768) :
    k0_pay17 (F := Ideal) t v (ix1 r) = t (ix1 r) + ∑ s : Fin 8, v (ix3 s (1 : Fin 2) r) := by
  unfold k0_pay17 k0_pay15
  show t (ix1 r) + multiReduction (F := Ideal) .add [0] S768 _ 0x00000000#32 _ _ _ (ix1 r) = _
  rw [slotsum1_at]
  rfl

theorem pay20_at (t : FVec Ideal S768 .f32) (v : Vec Ideal S8x2x768 .bf16) (r : Fin 768) :
    k0_pay20 (F := Ideal) t v (ix1 r) = t (ix1 r) + ∑ s : Fin 8, v (ix3 s (1 : Fin 2) r) := by
  unfold k0_pay20 k0_pay18
  show t (ix1 r) + multiReduction (F := Ideal) .add [0] S768 _ 0x00000000#32 _ _ _ (ix1 r) = _
  rw [slotsum1_at]
  rfl

/-- The initial totals are zero. -/
theorem pay10_at (r : Fin 768) : (k0_pay10 (F := Ideal)) (ix1 r) = 0 := Ideal.ofBits_zero_f32
theorem pay11_at (r : Fin 768) : (k0_pay11 (F := Ideal)) (ix1 r) = 0 := Ideal.ofBits_zero_f32

/-- The row mean: the last group added to the running total of the sums, scaled by 2⁻¹². -/
theorem pay22_at (t : FVec Ideal S768 .f32) (v : Vec Ideal S8x2x768 .bf16) (r : Fin 768) :
    k0_pay22 (F := Ideal) t v (ix1 r) = (t (ix1 r) + ∑ s : Fin 8, v (ix3 s (0 : Fin 2) r)) * Cert.Forms.s := by
  unfold k0_pay22 k0_pay21
  show (t (ix1 r) + multiReduction (F := Ideal) .add [0] S768 _ 0x00000000#32 _ _ _ (ix1 r)) * _ = _
  rw [slotsum0_at]
  rfl

/-- The inverse deviation: `rsqrt (mean square − mean² + eps)`. -/
theorem pay23_at (t u : FVec Ideal S768 .f32) (v : Vec Ideal S8x2x768 .bf16) (r : Fin 768) :
    k0_pay23 (F := Ideal) t u v (ix1 r)
      = Ideal.rsqrt ((u (ix1 r) + ∑ s : Fin 8, v (ix3 s (1 : Fin 2) r)) * Cert.Forms.s
          - k0_pay22 (F := Ideal) t v (ix1 r) * k0_pay22 (F := Ideal) t v (ix1 r) + Cert.Forms.eps) := by
  unfold k0_pay23 k0_pay21
  show Ideal.rsqrt ((u (ix1 r) + multiReduction (F := Ideal) .add [0] S768 _ 0x00000000#32 _ _ _ (ix1 r)) * _ - _ + _) = _
  rw [slotsum1_at]
  rfl

theorem pay24_at (t : FVec Ideal S768 .f32) (v : Vec Ideal S8x2x768 .bf16) (r : Fin 768) :
    k0_pay24 (F := Ideal) t v (ix1 r) = k0_pay22 (F := Ideal) t v (ix1 r) := rfl

/-- A vector of 768 cast to a 768 × 1 column reads, at `(r, u)`, the vector at `r`. -/
theorem shapeCast_768_768x1_apply {α : Type} (v : S768.Idx → α) (h : S768.ShapeCasts S768x1) (r : Fin 768) (u : Fin 1) :
    shapeCast S768x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A 768 × 1 column broadcast along 512 columns reads, at `(r, j)`, the column at `r`. -/
theorem broadcastTo_768x1_768x512_apply {α : Type} (v : S768x1.Idx → α) (h : S768x1.Broadcasts S768x512) (r : Fin 768) (j : Fin 512) :
    broadcastTo S768x512 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- The normalisation: `((x − mean) · rstd) · gamma + beta`, mean and rstd constant along a row, gamma and beta along a column. -/
theorem pay25_at (X : FVec Ideal S768x512 .bf16) (G B : FVec Ideal S1x512 .bf16) (rs : FVec Ideal S768 .f32) (mu : FVec Ideal S768 .bf16)
    (r : Fin 768) (j : Fin 512) :
    k0_pay25 (F := Ideal) X G B rs mu (ix2 r j)
      = ((X (ix2 r j) - mu (ix1 r)) * rs (ix1 r)) * G (ix2 (0 : Fin 1) j) + B (ix2 (0 : Fin 1) j) := by
  unfold k0_pay25
  show ((X (ix2 r j) - broadcastTo S768x512 (shapeCast S768x1 mu _) _ (ix2 r j))
        * broadcastTo S768x512 (shapeCast S768x1 (truncf (F := Ideal) .bf16 rs _) _) _ (ix2 r j))
        * broadcastTo S768x512 G _ (ix2 r j) + broadcastTo S768x512 B _ (ix2 r j) = _
  rw [broadcastTo_768x1_768x512_apply, broadcastTo_768x1_768x512_apply, shapeCast_768_768x1_apply, shapeCast_768_768x1_apply,
    broadcastTo_1b_ab_apply, broadcastTo_1b_ab_apply]
  rfl

/-- The block itself, and the pieces of gamma and beta as one-row arrays. -/
theorem pay7_at (x : Vec Ideal S768x512 .f32) (r : Fin 768) (j : Fin 512) : k0_pay7 (F := Ideal) x (ix2 r j) = x (ix2 r j) := rfl
theorem pay8_at (g : Vec Ideal S512 .f32) (j : Fin 512) : k0_pay8 (F := Ideal) g (ix2 (0 : Fin 1) j) = g (ix1 j) := by
  unfold k0_pay8
  show shapeCast S1x512 g _ (ix2 (0 : Fin 1) j) = _
  rw [shapeCast_a_1a_apply]
theorem pay9_at (b : Vec Ideal S512 .f32) (j : Fin 512) : k0_pay9 (F := Ideal) b (ix2 (0 : Fin 1) j) = b (ix1 j) := by
  unfold k0_pay9
  show shapeCast S1x512 b _ (ix2 (0 : Fin 1) j) = _
  rw [shapeCast_a_1a_apply]

/-! ## The 32 slots, met in four groups of eight, are all 32 devices -/

/-- The device `j` places after `c` is `c + j` in the integers modulo 32. -/
theorem peer_eq_add (c : Dev nD) (j : Fin 32) : KVal.peer c j = (c + j : Fin 32) := Fin.ext rfl

/-- A sum over the 32 slots is the sum of its four groups of eight. -/
theorem sum_slots {M : Type} [AddCommMonoid M] (g : Fin 32 → M) :
    ∑ j, g j = ∑ i : Fin 4, ∑ s : Fin 8, g ⟨8 * i.val + s.val, by have := i.isLt; have := s.isLt; omega⟩ := by
  rw [← Equiv.sum_comp (finProdFinEquiv (m := 4) (n := 8)) g, Fintype.sum_prod_type]
  refine Finset.sum_congr rfl fun i _ => Finset.sum_congr rfl fun s _ => congrArg g (Fin.ext ?_)
  show s.val + 8 * i.val = 8 * i.val + s.val
  omega

/-- The kernel's order of the groups (slots 0–7, 24–31, 8–15, 16–23, from zero) gives the sum over all devices:
    slot `j` of device `c` holds device `c + j`, and `j ↦ c + j` is a bijection of the ring. -/
theorem total_eq (f : Fin 32 → EReal) (c : Dev nD) :
    (((0 + ∑ s : Fin 8, f (KVal.peer c ⟨0 + s.val, by have := s.isLt; omega⟩))
        + ∑ s : Fin 8, f (KVal.peer c ⟨24 + s.val, by have := s.isLt; omega⟩))
        + ∑ s : Fin 8, f (KVal.peer c ⟨8 + s.val, by have := s.isLt; omega⟩))
        + ∑ s : Fin 8, f (KVal.peer c ⟨16 + s.val, by have := s.isLt; omega⟩)
      = ∑ d : Fin 32, f d := by
  have e : ∑ d : Fin 32, f d = ∑ j : Fin 32, f (KVal.peer c j) := by
    rw [← Equiv.sum_comp (Equiv.addLeft (c : Fin 32)) f]
    exact Finset.sum_congr rfl fun j _ => congrArg f (peer_eq_add c j).symm
  rw [e, sum_slots (fun j => f (KVal.peer c j)), Fin.sum_univ_four, zero_add]
  have h0 : ∑ s : Fin 8, f (KVal.peer c ⟨8 * (0 : Fin 4).val + s.val, by have := s.isLt; omega⟩)
      = ∑ s : Fin 8, f (KVal.peer c ⟨0 + s.val, by have := s.isLt; omega⟩) :=
    Finset.sum_congr rfl fun s _ => congrArg (fun k => f (KVal.peer c k)) (Fin.ext (by show 8 * 0 + s.val = 0 + s.val; omega))
  have h1 : ∑ s : Fin 8, f (KVal.peer c ⟨8 * (1 : Fin 4).val + s.val, by have := s.isLt; omega⟩)
      = ∑ s : Fin 8, f (KVal.peer c ⟨8 + s.val, by have := s.isLt; omega⟩) :=
    Finset.sum_congr rfl fun s _ => congrArg (fun k => f (KVal.peer c k)) (Fin.ext (by show 8 * 1 + s.val = 8 + s.val; omega))
  have h2 : ∑ s : Fin 8, f (KVal.peer c ⟨8 * (2 : Fin 4).val + s.val, by have := s.isLt; omega⟩)
      = ∑ s : Fin 8, f (KVal.peer c ⟨16 + s.val, by have := s.isLt; omega⟩) :=
    Finset.sum_congr rfl fun s _ => congrArg (fun k => f (KVal.peer c k)) (Fin.ext (by show 8 * 2 + s.val = 16 + s.val; omega))
  have h3 : ∑ s : Fin 8, f (KVal.peer c ⟨8 * (3 : Fin 4).val + s.val, by have := s.isLt; omega⟩)
      = ∑ s : Fin 8, f (KVal.peer c ⟨24 + s.val, by have := s.isLt; omega⟩) :=
    Finset.sum_congr rfl fun s _ => congrArg (fun k => f (KVal.peer c k)) (Fin.ext (by show 8 * 3 + s.val = 24 + s.val; omega))
  rw [h0, h1, h2, h3]
  abel

/-! ## The exchange buffer's groups, the running totals, and the result -/

/-- Row 0 of slot `lo + s` of device `c`: device `c + lo + s`'s quartered row sums. -/
theorem group_row0 (x : Dev nD → Vec Ideal S768x512 .f32) (c : Dev nD) (lo : Nat) (h : lo + 8 ≤ 32) (s : Fin 8) (r : Fin 768) :
    KVal.group (KVal.rowsAt (F := Ideal) x c) lo h (ix3 s (0 : Fin 2) r)
      = (∑ k : Fin 512, x (KVal.peer c ⟨lo + s.val, by have := s.isLt; omega⟩) (ix2 r k)) * Cert.Forms.q :=
  mine_row0 _ r

/-- Row 1 of that slot: its quartered row sums of squares. -/
theorem group_row1 (x : Dev nD → Vec Ideal S768x512 .f32) (c : Dev nD) (lo : Nat) (h : lo + 8 ≤ 32) (s : Fin 8) (r : Fin 768) :
    KVal.group (KVal.rowsAt (F := Ideal) x c) lo h (ix3 s (1 : Fin 2) r)
      = (∑ k : Fin 512, x (KVal.peer c ⟨lo + s.val, by have := s.isLt; omega⟩) (ix2 r k) * x (KVal.peer c ⟨lo + s.val, by have := s.isLt; omega⟩) (ix2 r k)) * Cert.Forms.q :=
  mine_row1 _ r

/-- The row mean the kernel forms on device `c` is `Forms.kmean`: the four groups of slots cover every device once. -/
theorem mean_at (x : Dev nD → Vec Ideal S768x512 .f32) (c : Dev nD) (h : 16 + 8 ≤ 32) (r : Fin 768) :
    k0_pay22 (F := Ideal) (KVal.acc1 x c) (KVal.group (KVal.rowsAt x c) 16 h) (ix1 r)
      = Cert.Forms.kmean (fun d r j => x d (ix2 r j)) r := by
  rw [pay22_at]
  unfold KVal.acc1
  rw [pay19_at, pay16_at, pay13_at, pay10_at]
  simp only [group_row0]
  exact congrArg (· * Cert.Forms.s) (total_eq (fun d => (∑ k : Fin 512, x d (ix2 r k)) * Cert.Forms.q) c)

/-- The row mean square likewise is `Forms.kmsq`. -/
theorem msq_at (x : Dev nD → Vec Ideal S768x512 .f32) (c : Dev nD) (h : 16 + 8 ≤ 32) (r : Fin 768) :
    (KVal.acc2 (F := Ideal) x c (ix1 r) + ∑ s : Fin 8, KVal.group (KVal.rowsAt x c) 16 h (ix3 s (1 : Fin 2) r)) * Cert.Forms.s
      = Cert.Forms.kmsq (fun d r j => x d (ix2 r j)) r := by
  unfold KVal.acc2
  rw [pay20_at, pay17_at, pay14_at, pay11_at]
  simp only [group_row1]
  exact congrArg (· * Cert.Forms.s) (total_eq (fun d => (∑ k : Fin 512, x d (ix2 r k) * x d (ix2 r k)) * Cert.Forms.q) c)

/-- The kernel's result term read at an index of the block: the formula `Forms.kout`. -/
theorem out_at (x : Dev nD → Vec Ideal S768x512 .f32) (g b : Dev nD → Vec Ideal S512 .f32) (c : Dev nD) (r : Fin 768) (j : Fin 512) :
    Cert.KernelIdeal.KVal.out (F := Ideal) x g b c (ix2 r j)
      = Cert.Forms.kout (fun d r j => x d (ix2 r j)) (fun d j => g d (ix1 j)) (fun d j => b d (ix1 j)) c r j := by
  unfold KVal.out
  rw [pay25_at, pay7_at, pay8_at, pay9_at, pay24_at, pay23_at, mean_at, msq_at]
  rfl

end Cert.KForm

end
-- ==== Proof.RForm.lean ====
import proofs.«900828_g7700000000000829_dist_layernorm_colshard_i_m768_n512_v7x_i32_bf16_1_alg».proof.Proof.RefSpec
import proofs.«900828_g7700000000000829_dist_layernorm_colshard_i_m768_n512_v7x_i32_bf16_1_alg».proof.Proof.Forms
import Idealize.ShloMosaic.Lib.ValueIdx
import Idealize.ShloMosaic.PureOps.Ideal.Laws

/-!
# The reference's result, index by index

Each host operation of the reference's term is read at an index: a quotient is the quotient of the entries, a
square root the square root of the entry, a spread array reads the entry its index projects to, and the sum
over the column axis from the initial word zero is the plain sum over the 16384 columns.  The divisor of the
variance is 16384 − 0 = 16384, which is above zero, so the guarded quotient is the quotient.  Composing the
stages gives the row mean, the row variance and then the result as the closed formulas of `Cert.Forms`.
-/

noncomputable section

namespace Cert.RForm

open Idealize.ShloMosaic Idealize.ShloMosaic.ValueIdx Cert.ReferenceIdeal Cert.ReferenceIdeal.Gen

/-- The word `0x46800000` denotes the real 16384. -/
theorem n_eq : Cert.Forms.n = ((16384 : ℝ) : EReal) := by
  unfold Cert.Forms.n
  simp [Ideal.ofBits, Ideal.ieee, -EReal.coe_mul]; norm_num

/-- A column of 768 entries laid out as a 768 × 1 array reads the entry of its row. -/
theorem bcast_col_at {α : Type} (y : S768.Idx → α) (r : Fin 768) (c : Fin 1) :
    broadcastInDim S768x1 ![0] bcast_S768_S768x1_0 y (ix2 r c) = y (ix1 r) := by
  unfold broadcastInDim
  refine congrArg y (funext fun a => ?_)
  match a with
  | ⟨0, _⟩ => rfl

/-- A scalar spread over the 768 × 1 array reads the scalar. -/
theorem bcast_scalar_at {α : Type} (y : S_.Idx → α) (i : S768x1.Idx) :
    broadcastInDim S768x1 ![] bcast_S_S768x1 y i = y ix0 := by
  unfold broadcastInDim; exact congrArg y (funext fun a => a.elim0)

/-- A 768 × 1 array spread along the 16384 columns reads its row's one entry. -/
theorem bcast_rows_at {α : Type} (y : S768x1.Idx → α) (r : Fin 768) (J : Fin 16384) :
    broadcastInDim S768x16384 ![0, 1] bcast_S768x1_S768x16384_0_1 y (ix2 r J) = y (ix2 r (0 : Fin 1)) := by
  unfold broadcastInDim
  refine congrArg y (funext fun a => ?_)
  match a with
  | ⟨0, _⟩ => rfl
  | ⟨1, _⟩ => rfl

/-- A vector of 16384 entries laid as one row and spread down the 768 rows reads its column's entry. -/
theorem bcast_vec_at {α : Type} (y : S16384.Idx → α) (r : Fin 768) (J : Fin 16384) :
    broadcastInDim S768x16384 ![0, 1] bcast_S1x16384_S768x16384_0_1
      (broadcastInDim S1x16384 ![1] bcast_S16384_S1x16384_1 y) (ix2 r J) = y (ix1 J) := by
  unfold broadcastInDim
  refine congrArg y (funext fun a => ?_)
  match a with
  | ⟨0, _⟩ => rfl

/-- The host's quotient read at an index is the quotient of the entries. -/
theorem hdiv_at {s : Shape} (a b : FVec Ideal s .f32) (i : s.Idx) : Host.divf a b i = Ideal.div (a i) (b i) := rfl

/-- The host's square root read at an index is the square root of the entry. -/
theorem hsqrt_at {s : Shape} (a : FVec Ideal s .f32) (i : s.Idx) : Host.sqrt a i = Ideal.sqrt (a i) := rfl

/-- The row sum from the initial zero, read at row `r`: the plain sum over the 16384 columns. -/
theorem rowsum_at (Y : FVec Ideal S768x16384 .f32) (r : Fin 768) :
    Host.reduceAdd Y (constant S_ .f32 0x00000000#32) reducesTo_S768x16384_S768_d1 h_S_ (ix1 r)
      = ∑ J : Fin 16384, Y (ix2 r J) := by
  have h : S768x16384.Reduces [1] S768 := by decide
  show Ideal.hostReduceAdd reducesTo_S768x16384_S768_d1 Y (Ideal.ofBits .f32 0x00000000#32) (ix1 r) = _
  rw [Ideal.hostReduceAdd_single reducesTo_S768x16384_S768_d1 h Y _ (ix1 r), Ideal.ofBits_zero_f32, zero_add]
  refine Finset.sum_congr rfl fun k _ => congrArg Y (funext fun a => ?_)
  match a with
  | ⟨0, _⟩ => exact Fin.ext rfl
  | ⟨1, _⟩ => exact Fin.ext rfl

/-- Each row's mean, read at its one column: the row sum over 16384. -/
theorem mean_at (X : FVec Ideal S768x16384 .f32) (r : Fin 768) (c : Fin 1) :
    Cert.ReferenceIdeal.RefSpec.mean (F := Ideal) X (ix2 r c)
      = Cert.Forms.rmean (fun r J => X (ix2 r J)) r := by
  unfold Cert.ReferenceIdeal.RefSpec.mean Cert.Forms.rmean
  rw [hdiv_at, bcast_col_at, bcast_scalar_at, rowsum_at]
  rfl

/-- The divisor of the variance is 16384. -/
theorem count_at (i : S_.Idx) : Cert.ReferenceIdeal.RefSpec.count (F := Ideal) i = Cert.Forms.n := by
  show Ideal.ofBits .f32 0x46800000#32 - (((0#32 : BitVec 32).toInt : ℝ) : EReal) = Cert.Forms.n
  simp [Cert.Forms.n]

/-- 16384 is above zero, so the comparison's bit is set. -/
theorem count_pos_bit (i : S_.Idx) :
    cmpf .ogt (Cert.ReferenceIdeal.RefSpec.count (F := Ideal)) (constant S_ .f32 0x00000000#32) i = 1#1 := by
  rw [cmpf_apply, count_at]
  show Ideal.cmp .ogt Cert.Forms.n (Ideal.ofBits .f32 0x00000000#32) = 1#1
  rw [Ideal.ofBits_zero_f32, n_eq]
  unfold Ideal.cmp
  have : (0 : EReal) < ((16384 : ℝ) : EReal) := by exact_mod_cast (by norm_num : (0 : ℝ) < 16384)
  simp [this]

/-- Each row's variance, read at its one column: the mean squared distance from the row's mean. -/
theorem var_at (X : FVec Ideal S768x16384 .f32) (r : Fin 768) (c : Fin 1) :
    Cert.ReferenceIdeal.RefSpec.var (F := Ideal) X (ix2 r c)
      = Cert.Forms.rvar (fun r J => X (ix2 r J)) r := by
  unfold Cert.ReferenceIdeal.RefSpec.var Cert.Forms.rvar
  rw [select_apply, bcast_scalar_at, count_pos_bit, select_one, hdiv_at, bcast_col_at, bcast_scalar_at,
    rowsum_at, count_at]
  refine congrArg (fun t => Ideal.div t Cert.Forms.n) ?_
  refine Finset.sum_congr rfl fun J _ => ?_
  rw [mulf_apply, subf_apply, bcast_rows_at, mean_at]

/-- The reference's result term read at an index of the whole array: the formula `Forms.rout`. -/
theorem out_at (X : FVec Ideal S768x16384 .f32) (G B : FVec Ideal S16384 .f32) (r : Fin 768) (J : Fin 16384) :
    Cert.ReferenceIdeal.RefSpec.out (F := Ideal) X G B (ix2 r J)
      = Cert.Forms.rout (fun r J => X (ix2 r J)) (fun J => G (ix1 J)) (fun J => B (ix1 J)) r J := by
  unfold Cert.ReferenceIdeal.RefSpec.out Cert.Forms.rout
  rw [truncf_apply, addf_apply, hdiv_at, mulf_apply, subf_apply, bcast_vec_at, bcast_vec_at, bcast_rows_at,
    bcast_rows_at, mean_at, hsqrt_at, addf_apply, var_at, bcast_scalar_at]
  rfl

end Cert.RForm

end
-- ==== Proof.Algebra.lean ====
import proofs.«900828_g7700000000000829_dist_layernorm_colshard_i_m768_n512_v7x_i32_bf16_1_alg».proof.Proof.Forms
import Mathlib.Data.EReal.Basic
import Mathlib.Data.EReal.Operations
import Mathlib.Algebra.BigOperators.Group.Finset.Basic
import Mathlib.Algebra.BigOperators.Ring.Finset
import Mathlib.Data.Fintype.BigOperators
import Mathlib.Algebra.Order.BigOperators.Ring.Finset
import Mathlib.Analysis.SpecialFunctions.Pow.Real
import Mathlib.Tactic.Ring
import Mathlib.Tactic.FieldSimp
import Mathlib.Tactic.Positivity
import Mathlib.Tactic.NormNum

noncomputable section

namespace Cert.Algebra

open Idealize.ShloMosaic Cert.Forms

/-! ### The four float words as real numbers -/

theorem q_eq : q = ((1/4 : ℝ) : EReal) := by
  simp [q, Ideal.ofBits, Ideal.ieee, -EReal.coe_mul]; norm_num

theorem s_eq : s = ((1/4096 : ℝ) : EReal) := by
  simp [s, Ideal.ofBits, Ideal.ieee, -EReal.coe_mul]; norm_num

theorem n_eq : n = ((16384 : ℝ) : EReal) := by
  simp [n, Ideal.ofBits, Ideal.ieee, -EReal.coe_mul]; norm_num

theorem eps_eq : ∃ e : ℝ, 0 < e ∧ eps = (e : EReal) := by
  refine ⟨(10995116 : ℝ) * (2 : ℝ) ^ (-40 : Int), by positivity, ?_⟩
  simp [eps, Ideal.ofBits, Ideal.ieee, -EReal.coe_mul]

/-! ### Sums of real numbers inside the extended reals, and the blocks' columns -/

/-- A finite sum of real numbers, read in the extended reals, is the real sum. -/
theorem coe_sum {ι : Type} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- The 32 blocks of 512 columns are the 16384 columns, each once. -/
def colEquiv : Fin 32 × Fin 512 ≃ Fin 16384 where
  toFun p := col p.1 p.2
  invFun J := (⟨J.val / 512, by have := J.isLt; omega⟩, ⟨J.val % 512, by omega⟩)
  left_inv := by
    rintro ⟨d, j⟩
    have hd := d.isLt
    have hj := j.isLt
    apply Prod.ext <;> apply Fin.ext <;> simp only [col] <;> omega
  right_inv := by
    intro J
    apply Fin.ext
    simp only [col]
    omega

/-- Summing over the blocks and within each block is summing over all the columns. -/
theorem sum_blocks (f : Fin 16384 → ℝ) : (∑ d : Fin 32, ∑ j : Fin 512, f (col d j)) = ∑ J, f J := by
  rw [← Fintype.sum_prod_type (f := fun p : Fin 32 × Fin 512 => f (col p.1 p.2))]
  exact Fintype.sum_equiv colEquiv _ _ (fun _ => rfl)

/-! ### The four statistics as real numbers -/

theorem kmean_coe (X : Fin 768 → Fin 16384 → ℝ) (r : Fin 768) :
    kmean (fun d r j => ((X r (col d j) : ℝ) : EReal)) r = (((∑ J, X r J) / 16384 : ℝ) : EReal) := by
  unfold kmean
  rw [q_eq, s_eq]
  simp only [coe_sum, ← EReal.coe_mul]
  rw [← Finset.sum_mul, sum_blocks (fun J => X r J)]
  refine congrArg _ ?_
  ring

theorem kmsq_coe (X : Fin 768 → Fin 16384 → ℝ) (r : Fin 768) :
    kmsq (fun d r j => ((X r (col d j) : ℝ) : EReal)) r = (((∑ J, X r J * X r J) / 16384 : ℝ) : EReal) := by
  unfold kmsq
  rw [q_eq, s_eq]
  simp only [coe_sum, ← EReal.coe_mul]
  rw [← Finset.sum_mul, sum_blocks (fun J => X r J * X r J)]
  refine congrArg _ ?_
  ring

theorem rmean_coe (X : Fin 768 → Fin 16384 → ℝ) (r : Fin 768) :
    rmean (fun r J => ((X r J : ℝ) : EReal)) r = (((∑ J, X r J) / 16384 : ℝ) : EReal) := by
  unfold rmean
  rw [n_eq, Ideal.div_coe (by norm_num : (16384 : ℝ) ≠ 0), coe_sum, ← EReal.coe_mul]
  refine congrArg _ ?_
  ring

theorem rvar_coe (X : Fin 768 → Fin 16384 → ℝ) (r : Fin 768) :
    rvar (fun r J => ((X r J : ℝ) : EReal)) r
      = (((∑ J, (X r J - (∑ J, X r J) / 16384) * (X r J - (∑ J, X r J) / 16384)) / 16384 : ℝ) : EReal) := by
  unfold rvar
  rw [rmean_coe, n_eq, Ideal.div_coe (by norm_num : (16384 : ℝ) ≠ 0)]
  simp only [← EReal.coe_sub, ← EReal.coe_mul, coe_sum]
  refine congrArg _ ?_
  ring

/-- The mean square less the squared mean is the mean squared distance from the mean. -/
theorem var_identity (x : Fin 16384 → ℝ) :
    (∑ J, x J * x J) / 16384 - (∑ J, x J) / 16384 * ((∑ J, x J) / 16384)
      = (∑ J, (x J - (∑ J, x J) / 16384) * (x J - (∑ J, x J) / 16384)) / 16384 := by
  set m : ℝ := (∑ J, x J) / 16384 with hm
  have h1 : (∑ J, (x J - m) * (x J - m)) = (∑ J, x J * x J) - 2 * m * (∑ J, x J) + 16384 * (m * m) := by
    have : ∀ J, (x J - m) * (x J - m) = x J * x J - 2 * m * x J + m * m := fun J => by ring
    simp only [this, Finset.sum_add_distrib, Finset.sum_sub_distrib, ← Finset.mul_sum, Finset.sum_const,
      Finset.card_univ, Fintype.card_fin, nsmul_eq_mul]
    ring
  have h2 : (∑ J, x J) = 16384 * m := by rw [hm]; ring
  rw [h1, h2]
  ring

/-- On real inputs the two formulas agree: the kernel's on device `c` at column `j` is the reference's at column `512 c + j`. -/
theorem kout_eq_rout (X : Fin 768 → Fin 16384 → ℝ) (G B : Fin 16384 → ℝ) (c : Fin 32) (r : Fin 768) (j : Fin 512) :
    kout (fun d r j => ((X r (col d j) : ℝ) : EReal)) (fun d j => ((G (col d j) : ℝ) : EReal)) (fun d j => ((B (col d j) : ℝ) : EReal)) c r j
      = rout (fun r J => ((X r J : ℝ) : EReal)) (fun J => ((G J : ℝ) : EReal)) (fun J => ((B J : ℝ) : EReal)) r (col c j) := by
  obtain ⟨e, he, hee⟩ := eps_eq
  unfold kout rout
  rw [kmean_coe, kmsq_coe, rmean_coe, rvar_coe, hee]
  simp only [← EReal.coe_sub, ← EReal.coe_mul, ← EReal.coe_add]
  rw [var_identity (fun J => X r J)]
  set m : ℝ := (∑ J, X r J) / 16384 with hm
  set v : ℝ := (∑ J, (X r J - m) * (X r J - m)) / 16384 + e with hv
  have hvpos : 0 < v := by
    have : 0 ≤ (∑ J, (X r J - m) * (X r J - m)) := Finset.sum_nonneg (fun J _ => mul_self_nonneg _)
    have : 0 ≤ (∑ J, (X r J - m) * (X r J - m)) / 16384 := div_nonneg this (by norm_num)
    linarith
  have hsq : 0 < Real.sqrt v := Real.sqrt_pos.mpr hvpos
  rw [Ideal.rsqrt_coe, Ideal.sqrt_coe, if_neg (not_lt.mpr hvpos.le), if_neg (ne_of_gt hvpos), if_neg (not_lt.mpr hvpos.le),
    Ideal.div_coe (ne_of_gt hsq)]
  simp only [← EReal.coe_mul, ← EReal.coe_add]
  refine congrArg _ ?_
  rw [one_div]
  ring

end Cert.Algebra

end
-- ==== Proof.Bridge.lean ====
import proofs.«900828_g7700000000000829_dist_layernorm_colshard_i_m768_n512_v7x_i32_bf16_1_alg».proof.Proof.KForm
import proofs.«900828_g7700000000000829_dist_layernorm_colshard_i_m768_n512_v7x_i32_bf16_1_alg».proof.Proof.RForm
import proofs.«900828_g7700000000000829_dist_layernorm_colshard_i_m768_n512_v7x_i32_bf16_1_alg».proof.Proof.Algebra
import Idealize.ShloMosaic.Lib.Layout

noncomputable section

namespace Cert.Bridge

open Idealize.ShloMosaic Idealize.ShloMosaic.ValueIdx

/-- Entry (r, j) of block c of an array cut along its columns is entry (r, 512 c + j) of the whole array. -/
theorem idx2 (h : Layout.Tiles ⟨2, ![768, 512]⟩ ⟨2, ![768, 16384]⟩ 1 32) (c : Fin 32) (r : Fin 768) (j : Fin 512) :
    h.idx c (ix2 r j) = ix2 r (Cert.Forms.col c j) := by
  funext b
  match b with
  | ⟨0, _⟩ => exact Fin.ext rfl
  | ⟨1, _⟩ => exact Fin.ext rfl

/-- Entry j of block c of a vector is entry 512 c + j of the whole vector. -/
theorem idx1 (h : Layout.Tiles ⟨1, ![512]⟩ ⟨1, ![16384]⟩ 0 32) (c : Fin 32) (j : Fin 512) :
    h.idx c (ix1 j) = ix1 (Cert.Forms.col c j) := by
  funext b
  match b with
  | ⟨0, _⟩ => exact Fin.ext rfl

/-- Every column of the whole array lies in exactly one block: J = 512 (J / 512) + J % 512. -/
theorem col_divmod (J : Fin 16384) :
    Cert.Forms.col ⟨J.val / 512, by have := J.isLt; omega⟩ ⟨J.val % 512, Nat.mod_lt _ (by decide)⟩ = J := by
  apply Fin.ext
  show J.val / 512 * 512 + J.val % 512 = J.val
  omega

/-- Where every entry of every device's blocks is a real number, device `c`'s result term over the blocks is block `c` of the
    reference's result term over the whole arrays. -/
theorem out_eq (X : FVec Ideal Cert.ReferenceIdeal.S768x16384 .f32) (G B : FVec Ideal Cert.ReferenceIdeal.S16384 .f32)
    (hX : ∀ (c : Fin 32) i, ∃ a : ℝ, (Layout.block ⟨2, ![768, 512]⟩ ⟨2, ![768, 16384]⟩ 1 32 c X) i = (a : EReal))
    (hG : ∀ (c : Fin 32) i, ∃ a : ℝ, (Layout.block ⟨1, ![512]⟩ ⟨1, ![16384]⟩ 0 32 c G) i = (a : EReal))
    (hB : ∀ (c : Fin 32) i, ∃ a : ℝ, (Layout.block ⟨1, ![512]⟩ ⟨1, ![16384]⟩ 0 32 c B) i = (a : EReal))
    (c : Fin 32) :
    Cert.KernelIdeal.KVal.out (F := Ideal)
        (fun d => Layout.block ⟨2, ![768, 512]⟩ ⟨2, ![768, 16384]⟩ 1 32 d X)
        (fun d => Layout.block ⟨1, ![512]⟩ ⟨1, ![16384]⟩ 0 32 d G)
        (fun d => Layout.block ⟨1, ![512]⟩ ⟨1, ![16384]⟩ 0 32 d B) c
      = Layout.block ⟨2, ![768, 512]⟩ ⟨2, ![768, 16384]⟩ 1 32 c (Cert.ReferenceIdeal.RefSpec.out (F := Ideal) X G B) := by
  -- every entry of the whole arrays lies in some block, so it is real
  have hXw : ∀ (r : Fin 768) (J : Fin 16384), ∃ a : ℝ, X (ix2 r J) = (a : EReal) := by
    intro r J
    obtain ⟨a, ha⟩ := hX ⟨J.val / 512, by have := J.isLt; omega⟩ (ix2 r ⟨J.val % 512, Nat.mod_lt _ (by decide)⟩)
    rw [Layout.block_apply, idx2, col_divmod] at ha
    exact ⟨a, ha⟩
  have hGw : ∀ (J : Fin 16384), ∃ a : ℝ, G (ix1 J) = (a : EReal) := by
    intro J
    obtain ⟨a, ha⟩ := hG ⟨J.val / 512, by have := J.isLt; omega⟩ (ix1 ⟨J.val % 512, Nat.mod_lt _ (by decide)⟩)
    rw [Layout.block_apply, idx1, col_divmod] at ha
    exact ⟨a, ha⟩
  have hBw : ∀ (J : Fin 16384), ∃ a : ℝ, B (ix1 J) = (a : EReal) := by
    intro J
    obtain ⟨a, ha⟩ := hB ⟨J.val / 512, by have := J.isLt; omega⟩ (ix1 ⟨J.val % 512, Nat.mod_lt _ (by decide)⟩)
    rw [Layout.block_apply, idx1, col_divmod] at ha
    exact ⟨a, ha⟩
  choose Xr hXr using hXw
  choose Gr hGr using hGw
  choose Br hBr using hBw
  funext i
  obtain ⟨r, j, rfl⟩ : ∃ (r : Fin 768) (j : Fin 512), i = ix2 r j := ⟨_, _, eq_ix2 i⟩
  rw [Cert.KForm.out_at, Layout.block_apply, idx2, Cert.RForm.out_at]
  -- a block's entry is the whole array's entry at the shifted column; with the real arrays chosen above both
  -- formulas' arguments are coercions of real arrays, which is where the two formulas are known to agree
  have e1 : (fun (d : Fin 32) (r : Fin 768) (j : Fin 512) => (Layout.block ⟨2, ![768, 512]⟩ ⟨2, ![768, 16384]⟩ 1 32 d X) (ix2 r j))
      = fun d r j => ((Xr r (Cert.Forms.col d j) : ℝ) : EReal) := by
    funext d r j; rw [Layout.block_apply, idx2, hXr]
  have e2 : (fun (d : Fin 32) (j : Fin 512) => (Layout.block ⟨1, ![512]⟩ ⟨1, ![16384]⟩ 0 32 d G) (ix1 j))
      = fun d j => ((Gr (Cert.Forms.col d j) : ℝ) : EReal) := by
    funext d j; rw [Layout.block_apply, idx1, hGr]
  have e3 : (fun (d : Fin 32) (j : Fin 512) => (Layout.block ⟨1, ![512]⟩ ⟨1, ![16384]⟩ 0 32 d B) (ix1 j))
      = fun d j => ((Br (Cert.Forms.col d j) : ℝ) : EReal) := by
    funext d j; rw [Layout.block_apply, idx1, hBr]
  have e4 : (fun (r : Fin 768) (J : Fin 16384) => X (ix2 r J)) = fun r J => ((Xr r J : ℝ) : EReal) := by
    funext r J; exact hXr r J
  have e5 : (fun (J : Fin 16384) => G (ix1 J)) = fun J => ((Gr J : ℝ) : EReal) := by
    funext J; exact hGr J
  have e6 : (fun (J : Fin 16384) => B (ix1 J)) = fun J => ((Br J : ℝ) : EReal) := by
    funext J; exact hBr J
  rw [e1, e2, e3, e4, e5, e6]
  exact Cert.Algebra.kout_eq_rout Xr Gr Br c r j

end Cert.Bridge

end
-- ==== Proof.PreFin.lean ====
import proofs.«900828_g7700000000000829_dist_layernorm_colshard_i_m768_n512_v7x_i32_bf16_1_alg».proof.Defs
import proofs.«900828_g7700000000000829_dist_layernorm_colshard_i_m768_n512_v7x_i32_bf16_1_alg».proof.Proof.Gen.KernelIdeal
import proofs.«900828_g7700000000000829_dist_layernorm_colshard_i_m768_n512_v7x_i32_bf16_1_alg».proof.Proof.Gen.Pre_finite_inputs_Kernel
import Idealize.ShloMosaic.Lib.ReduceAll

noncomputable section

namespace Cert.PreFin

open Idealize.ShloMosaic Idealize.SL.Sem Cert.KernelIdeal

/-- The scalar shape has exactly one index. -/
instance : Subsingleton Cert.Pre_finite_inputs_Kernel.S_.Idx := ⟨fun a b => funext fun d => d.elim0⟩

/-- The single-precision word with every exponent bit set and no fraction bit denotes +∞. -/
theorem inf_eq : Ideal.ofBits .f32 0x7F800000#32 = (⊤ : EReal) := by
  simp [Ideal.ofBits, Ideal.ieee]

/-- An extended real whose absolute value, max x (−x), lies strictly below +∞ is neither +∞ nor −∞: it is a real number. -/
theorem real_of_abs_lt (x : EReal) (h : Ideal.cmp .olt (max x (-x)) (Ideal.ofBits .f32 0x7F800000#32) = 1#1) :
    ∃ a : ℝ, x = (a : EReal) := by
  rw [inf_eq] at h
  induction x using EReal.rec with
  | bot => simp [Ideal.cmp] at h
  | coe a => exact ⟨a, rfl⟩
  | top => simp [Ideal.cmp] at h

/-- Under the precondition every entry of every device's three argument buffers is a real number. -/
theorem finite (m : (ℓ : Loc nD τ sig) → Buf (Elt Ideal) ℓ) (h : Cert.Pre_KernelIdeal m) (c : Dev nD) :
    (∀ i, ∃ a : ℝ, m ((c.tc : Thread nD τ).loc main_arg0) i = (a : EReal))
    ∧ (∀ i, ∃ a : ℝ, m ((c.tc : Thread nD τ).loc main_arg1) i = (a : EReal))
    ∧ (∀ i, ∃ a : ℝ, m ((c.tc : Thread nD τ).loc main_arg2) i = (a : EReal)) := by
  -- the predicate's one result word is 1; it is the conjunction of three "all entries have |x| < +∞"
  have h0 := congrFun (h c) (fun a => a.elim0)
  dsimp only [Cert.Pre_finite_inputs_Kernel.fn] at h0
  obtain ⟨h01, h2⟩ := IntOp.andi_eq_one.1 h0
  obtain ⟨h0', h1⟩ := IntOp.andi_eq_one.1 h01
  -- a conjunction over all entries that is 1 is 1 at each entry
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.PreFin

end
-- ==== Proof.lean ====
/-
  Layer normalisation of a 768 × 16384 array whose columns are cut into 32 blocks of 512, one per device, against the
  one-device reference over the whole array.

  Each device reduces its block to two rows of 768 numbers — a quarter of every row's sum and of every row's sum of
  squares —, the 32 devices exchange their two rows all-to-all (an entry handshake on the barrier semaphore, then 31
  addressed copies per device, each on its own pair of semaphores), every device adds the 32 contributions and scales
  by 2⁻¹²: that is every row's mean and mean square over all 16384 columns, since 1/4 · 2⁻¹² = 1/16384. With them it
  normalises its own block: (x − mean) · rsqrt (mean square − mean² + ε) · gamma + beta.

  The reference computes the row's mean, its variance as the mean squared distance from the mean, and
  gamma · (x − mean) / sqrt (variance + ε) + beta. Over the reals mean square − mean² IS that variance, it is ≥ 0, so
  variance + ε > 0 and rsqrt is the reciprocal of the square root: the two results agree entry by entry, device c's block
  being block c of the reference's array. The algebra (a product over a sum, the variance identity) needs every entry to
  be a real number: that is the precondition.

  The three frames are the runs with the values dropped; the idealization rewrote nothing, so `preserves` is trivial.
-/
import proofs.«900828_g7700000000000829_dist_layernorm_colshard_i_m768_n512_v7x_i32_bf16_1_alg».proof.Defs
import proofs.«900828_g7700000000000829_dist_layernorm_colshard_i_m768_n512_v7x_i32_bf16_1_alg».proof.Proof.Gen.Kernel
import proofs.«900828_g7700000000000829_dist_layernorm_colshard_i_m768_n512_v7x_i32_bf16_1_alg».proof.Proof.Gen.Kernel.Skeleton
import proofs.«900828_g7700000000000829_dist_layernorm_colshard_i_m768_n512_v7x_i32_bf16_1_alg».proof.Proof.Gen.Kernel.Launch
import proofs.«900828_g7700000000000829_dist_layernorm_colshard_i_m768_n512_v7x_i32_bf16_1_alg».proof.Proof.Gen.Kernel.Points
import proofs.«900828_g7700000000000829_dist_layernorm_colshard_i_m768_n512_v7x_i32_bf16_1_alg».proof.Proof.Gen.Kernel.Frame
import proofs.«900828_g7700000000000829_dist_layernorm_colshard_i_m768_n512_v7x_i32_bf16_1_alg».proof.Proof.Gen.KernelIdeal
import proofs.«900828_g7700000000000829_dist_layernorm_colshard_i_m768_n512_v7x_i32_bf16_1_alg».proof.Proof.Gen.KernelIdeal.Skeleton
import proofs.«900828_g7700000000000829_dist_layernorm_colshard_i_m768_n512_v7x_i32_bf16_1_alg».proof.Proof.Gen.KernelIdeal.Launch
import proofs.«900828_g7700000000000829_dist_layernorm_colshard_i_m768_n512_v7x_i32_bf16_1_alg».proof.Proof.Gen.KernelIdeal.Points
import proofs.«900828_g7700000000000829_dist_layernorm_colshard_i_m768_n512_v7x_i32_bf16_1_alg».proof.Proof.Gen.KernelIdeal.Frame
import proofs.«900828_g7700000000000829_dist_layernorm_colshard_i_m768_n512_v7x_i32_bf16_1_alg».proof.Proof.Gen.ReferenceIdeal
import proofs.«900828_g7700000000000829_dist_layernorm_colshard_i_m768_n512_v7x_i32_bf16_1_alg».proof.Proof.Gen.Pre_finite_inputs_Kernel
import proofs.«900828_g7700000000000829_dist_layernorm_colshard_i_m768_n512_v7x_i32_bf16_1_alg».proof.Proof.Gen.Pre_finite_inputs_ReferenceIdeal
import proofs.«900828_g7700000000000829_dist_layernorm_colshard_i_m768_n512_v7x_i32_bf16_1_alg».proof.Proof.Launch
import proofs.«900828_g7700000000000829_dist_layernorm_colshard_i_m768_n512_v7x_i32_bf16_1_alg».proof.Proof.Bits.Launch
import proofs.«900828_g7700000000000829_dist_layernorm_colshard_i_m768_n512_v7x_i32_bf16_1_alg».proof.Proof.RefRun
import proofs.«900828_g7700000000000829_dist_layernorm_colshard_i_m768_n512_v7x_i32_bf16_1_alg».proof.Proof.Bridge
import proofs.«900828_g7700000000000829_dist_layernorm_colshard_i_m768_n512_v7x_i32_bf16_1_alg».proof.Proof.PreFin
import Idealize.ShloMosaic.Adequacy
import Idealize.ShloMosaic.Init

noncomputable section

namespace Cert.Proof

open Idealize.ShloMosaic Idealize.SL.Sem Cert.Kernel

/-- The word-level kernel runs and leaves its three argument arrays as they were: the run's post without its result line. -/
theorem frame_k : Cert.frame_Kernel := fun m ρ _ =>
  (θ_run Cert.Kernel.defs _ _).mono (fun _ h c => (h c).2) (Cert.Kernel.Proto.run_main (F := Bits) m ρ)

/-- The same of the kernel read over the extended reals. -/
theorem frame_ki : Cert.frame_KernelIdeal := fun m ρ _ =>
  (θ_run Cert.KernelIdeal.defs _ _).mono (fun _ h c => (h c).2) (Cert.KernelIdeal.Proto.run_main (F := Ideal) m ρ)

/-- The reference's mesh has one device: every device is device 0. -/
theorem ref_dev_eq_zero (c : Dev Cert.ReferenceIdeal.nD) : c = 0 := by
  have h : c.val < 1 := c.isLt
  apply Fin.ext
  show c.val = 0
  omega

/-- The reference runs and leaves its three argument arrays as they were. -/
theorem frame_ri : Cert.frame_ReferenceIdeal := fun m ρ _ =>
  (θ_run Cert.ReferenceIdeal.defs _ _).mono
    (fun _ h c => by
      have hc := ref_dev_eq_zero c
      subst hc
      exact h.2)
    (Cert.RefRun.run m ρ)

/-- The ideal pass rewrote nothing: there is nothing to preserve. -/
theorem preserves : Cert.preserves_Kernel_KernelIdeal := trivial

/-- From memories where device `c` holds block `c` of each of the reference's argument arrays, both programs run, the arguments of
    both end unchanged, and device `c`'s result ends as block `c` of the reference's result: the kernel's result term over the
    blocks is that block wherever the blocks' entries are real numbers, which the precondition says they are. -/
theorem algebraic : Cert.algebraic_KernelIdeal_ReferenceIdeal := by
  intro m ρ m' ρ' hpre hagree
  refine ⟨Cert.ReferenceIdeal.RefSpec.out (F := Ideal) (m' (Cert.RefRun.L0 Cert.ReferenceIdeal.main_arg0))
    (m' (Cert.RefRun.L0 Cert.ReferenceIdeal.main_arg1)) (m' (Cert.RefRun.L0 Cert.ReferenceIdeal.main_arg2)), ?_, Cert.RefRun.run m' ρ'⟩
  -- each device's three buffers, as functions of the device, are the blocks of the reference's arrays
  have hx : Cert.KernelIdeal.Proto.xIn m = fun d => Layout.block ⟨2, ![768, 512]⟩ ⟨2, ![768, 16384]⟩ 1 32 d
      (m' (Cert.RefRun.L0 Cert.ReferenceIdeal.main_arg0)) := funext fun d => (hagree d).1
  have hg : Cert.KernelIdeal.Proto.gIn m = fun d => Layout.block ⟨1, ![512]⟩ ⟨1, ![16384]⟩ 0 32 d
      (m' (Cert.RefRun.L0 Cert.ReferenceIdeal.main_arg1)) := funext fun d => (hagree d).2.1
  have hb : Cert.KernelIdeal.Proto.bIn m = fun d => Layout.block ⟨1, ![512]⟩ ⟨1, ![16384]⟩ 0 32 d
      (m' (Cert.RefRun.L0 Cert.ReferenceIdeal.main_arg2)) := funext fun d => (hagree d).2.2
  -- and every entry of every block is a real number
  have hX : ∀ (d : Fin 32) i, ∃ a : ℝ, (Layout.block ⟨2, ![768, 512]⟩ ⟨2, ![768, 16384]⟩ 1 32 d
      (m' (Cert.RefRun.L0 Cert.ReferenceIdeal.main_arg0))) i = (a : EReal) := fun d i => by
    have h := (Cert.PreFin.finite m hpre d).1 i
    rwa [(hagree d).1] at h
  have hG : ∀ (d : Fin 32) i, ∃ a : ℝ, (Layout.block ⟨1, ![512]⟩ ⟨1, ![16384]⟩ 0 32 d
      (m' (Cert.RefRun.L0 Cert.ReferenceIdeal.main_arg1))) i = (a : EReal) := fun d i => by
    have h := (Cert.PreFin.finite m hpre d).2.1 i
    rwa [(hagree d).2.1] at h
  have hB : ∀ (d : Fin 32) i, ∃ a : ℝ, (Layout.block ⟨1, ![512]⟩ ⟨1, ![16384]⟩ 0 32 d
      (m' (Cert.RefRun.L0 Cert.ReferenceIdeal.main_arg2))) i = (a : EReal) := fun d i => by
    have h := (Cert.PreFin.finite m hpre d).2.2 i
    rwa [(hagree d).2.2] at h
  refine (θ_run Cert.KernelIdeal.defs _ _).mono (fun _ h c => ⟨(h c).1.trans ?_, (h c).2⟩)
    (Cert.KernelIdeal.Proto.run_main (F := Ideal) m ρ)
  rw [hx, hg, hb]
  exact Cert.Bridge.out_eq _ _ _ hX hG hB c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
